-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v359) = v0 c
          ∧ r.2.mem ((c.tc : Thread Cert.ReferenceIdeal.nD Cert.ReferenceIdeal.τ).loc Cert.ReferenceIdeal.main_v360) = v1 c
          ∧ r.2.mem ((c.tc : Thread Cert.ReferenceIdeal.nD Cert.ReferenceIdeal.τ).loc Cert.ReferenceIdeal.main_v361) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S65536x8 : Shape := ⟨2, ![65536, 8]⟩
abbrev S64x256 : Shape := ⟨2, ![64, 256]⟩
abbrev S256 : Shape := ⟨1, ![256]⟩
abbrev S256x256 : Shape := ⟨2, ![256, 256]⟩
abbrev S8x263x256 : Shape := ⟨3, ![8, 263, 256]⟩
abbrev S8x256 : Shape := ⟨2, ![8, 256]⟩
abbrev S8x256x256 : Shape := ⟨3, ![8, 256, 256]⟩
abbrev S8x256x2 : Shape := ⟨3, ![8, 256, 2]⟩
abbrev S8x2 : Shape := ⟨2, ![8, 2]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S65536x8 : S_.BroadcastsInDim S65536x8 (![] : Fin 0 → Fin S65536x8.rank)
  reducesTo_S65536x8_S_d0_1 : S65536x8.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S8x263x256 : S_.BroadcastsInDim S8x263x256 (![] : Fin 0 → Fin S8x263x256.rank)
  reducesTo_S8x263x256_S_d0_1_2 : S8x263x256.ReducesTo [0, 1, 2] S_
  bcast_S_S8x256 : S_.BroadcastsInDim S8x256 (![] : Fin 0 → Fin S8x256.rank)
  reducesTo_S8x256_S_d0_1 : S8x256.ReducesTo [0, 1] S_
  bcast_S_S8x256x256 : S_.BroadcastsInDim S8x256x256 (![] : Fin 0 → Fin S8x256x256.rank)
  reducesTo_S8x256x256_S_d0_1_2 : S8x256x256.ReducesTo [0, 1, 2] S_
  bcast_S_S8x256x2 : S_.BroadcastsInDim S8x256x2 (![] : Fin 0 → Fin S8x256x2.rank)
  reducesTo_S8x256x2_S_d0_1_2 : S8x256x2.ReducesTo [0, 1, 2] S_
  bcast_S_S8x2 : S_.BroadcastsInDim S8x2 (![] : Fin 0 → Fin S8x2.rank)
  reducesTo_S8x2_S_d0_1 : S8x2.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S8x256 .f32) (main_arg12 : FVec F S8x256x2 .f32) (main_arg13 : FVec F S8x2 .f32) (main_v48 : IVec S_ 1) (main_v49 : FVec F S8x256x256 .f32) (main_v50 : FVec F S8x256x256 .f32) : IVec S_ 1 :=
  let main_v51 : IVec S8x256x256 1 := cmpf .olt main_v49 main_v50
  let main_c_19 : IVec S_ 1 := constantI S_ 1 1#1
  let main_v52 : IVec S_ 1 := (fun x v => Host.reduce IntOp.andi x v reducesTo_S8x256x256_S_d0_1_2 h_S_) main_v51 main_c_19
  let main_v53 : IVec S_ 1 := andi main_v48 main_v52
  let main_v54 : FVec F S8x256 .f32 := Host.absf main_arg11
  let main_cst_20 : FVec F S_ .f32 := constant S_ .f32 0x7F800000#32
  let main_v55 : FVec F S8x256 .f32 := broadcastInDim S8x256 ![] bcast_S_S8x256 main_cst_20
  let main_v56 : IVec S8x256 1 := cmpf .olt main_v54 main_v55
  let main_c_21 : IVec S_ 1 := constantI S_ 1 1#1
  let main_v57 : IVec S_ 1 := (fun x v => Host.reduce IntOp.andi x v reducesTo_S8x256_S_d0_1 h_S_) main_v56 main_c_21
  let main_v58 : IVec S_ 1 := andi main_v53 main_v57
  let main_v59 : FVec F S8x256x2 .f32 := Host.absf main_arg12
  let main_cst_22 : FVec F S_ .f32 := constant S_ .f32 0x7F800000#32
  let main_v60 : FVec F S8x256x2 .f32 := broadcastInDim S8x256x2 ![] bcast_S_S8x256x2 main_cst_22
  let main_v61 : IVec S8x256x2 1 := cmpf .olt main_v59 main_v60
  let main_c_23 : IVec S_ 1 := constantI S_ 1 1#1
  let main_v62 : IVec S_ 1 := (fun x v => Host.reduce IntOp.andi x v reducesTo_S8x256x2_S_d0_1_2 h_S_) main_v61 main_c_23
  let main_v63 : IVec S_ 1 := andi main_v58 main_v62
  let main_v64 : FVec F S8x2 .f32 := Host.absf main_arg13
  let main_cst_24 : FVec F S_ .f32 := constant S_ .f32 0x7F800000#32
  let main_v65 : FVec F S8x2 .f32 := broadcastInDim S8x2 ![] bcast_S_S8x2 main_cst_24
  let main_v66 : IVec S8x2 1 := cmpf .olt main_v64 main_v65
  let main_c_25 : IVec S_ 1 := constantI S_ 1 1#1
  let main_v67 : IVec S_ 1 := (fun x v => Host.reduce IntOp.andi x v reducesTo_S8x2_S_d0_1 h_S_) main_v66 main_c_25
  fn_part4 (F := F) main_v63 main_v67

def fn_part2 {F : FTy → Type} [FloatOps F] (main_arg7 : FVec F S256 .f32) (main_arg8 : FVec F S8x263x256 .f32) (main_arg9 : FVec F S8x256 .f32) (main_arg10 : FVec F S8x256x256 .f32) (main_arg11 : FVec F S8x256 .f32) (main_arg12 : FVec F S8x256x2 .f32) (main_arg13 : FVec F S8x2 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S8x263x256 .f32 := Host.absf main_arg8
  let main_cst_14 : FVec F S_ .f32 := constant S_ .f32 0x7F800000#32
  let main_v40 : FVec F S8x263x256 .f32 := broadcastInDim S8x263x256 ![] bcast_S_S8x263x256 main_cst_14
  let main_v41 : IVec S8x263x256 1 := cmpf .olt main_v39 main_v40
  let main_c_15 : IVec S_ 1 := constantI S_ 1 1#1
  let main_v42 : IVec S_ 1 := (fun x v => Host.reduce IntOp.andi x v reducesTo_S8x263x256_S_d0_1_2 h_S_) main_v41 main_c_15
  let main_v43 : IVec S_ 1 := andi main_v38 main_v42
  let main_v44 : FVec F S8x256 .f32 := Host.absf main_arg9
  let main_cst_16 : FVec F S_ .f32 := constant S_ .f32 0x7F800000#32
  let main_v45 : FVec F S8x256 .f32 := broadcastInDim S8x256 ![] bcast_S_S8x256 main_cst_16
  let main_v46 : IVec S8x256 1 := cmpf .olt main_v44 main_v45
  let main_c_17 : IVec S_ 1 := constantI S_ 1 1#1
  let main_v47 : IVec S_ 1 := (fun x v => Host.reduce IntOp.andi x v reducesTo_S8x256_S_d0_1 h_S_) main_v46 main_c_17
  let main_v48 : IVec S_ 1 := andi main_v43 main_v47
  let main_v49 : FVec F S8x256x256 .f32 := Host.absf main_arg10
  let main_cst_18 : FVec F S_ .f32 := constant S_ .f32 0x7F800000#32
  let main_v50 : FVec F S8x256x256 .f32 := broadcastInDim S8x256x256 ![] bcast_S_S8x256x256 main_cst_18
  fn_part3 (F := F) main_arg11 main_arg12 main_arg13 main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S8x263x256 .f32) (main_arg9 : FVec F S8x256 .f32) (main_arg10 : FVec F S8x256x256 .f32) (main_arg11 : FVec F S8x256 .f32) (main_arg12 : FVec F S8x256x2 .f32) (main_arg13 : FVec F S8x2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S65536x64 .f32) (main_arg1 : FVec F S65536x8 .f32) (main_arg2 : FVec F S64x256 .f32) (main_arg3 : FVec F S256 .f32) (main_arg4 : FVec F S256x256 .f32) (main_arg5 : FVec F S256 .f32) (main_arg6 : FVec F S256x256 .f32) (main_arg7 : FVec F S256 .f32) (main_arg8 : FVec F S8x263x256 .f32) (main_arg9 : FVec F S8x256 .f32) (main_arg10 : FVec F S8x256x256 .f32) (main_arg11 : FVec F S8x256 .f32) (main_arg12 : FVec F S8x256x2 .f32) (main_arg13 : FVec F S8x2 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S65536x8 .f32 := Host.absf main_arg1
  let main_cst_0 : FVec F S_ .f32 := constant S_ .f32 0x7F800000#32
  let main_v5 : FVec F S65536x8 .f32 := broadcastInDim S65536x8 ![] bcast_S_S65536x8 main_cst_0
  let main_v6 : IVec S65536x8 1 := cmpf .olt main_v4 main_v5
  let main_c_1 : IVec S_ 1 := constantI S_ 1 1#1
  let main_v7 : IVec S_ 1 := (fun x v => Host.reduce IntOp.andi x v reducesTo_S65536x8_S_d0_1 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_v13 main_v16
-- ==== Kernel.lean ====
abbrev S65536x64 : Shape := ⟨2, ![65536, 64]⟩
abbrev S65536x8 : Shape := ⟨2, ![65536, 8]⟩
abbrev S64x256 : Shape := ⟨2, ![64, 256]⟩
abbrev S256 : Shape := ⟨1, ![256]⟩
abbrev S256x256 : Shape := ⟨2, ![256, 256]⟩
abbrev S8x263x256 : Shape := ⟨3, ![8, 263, 256]⟩
abbrev S8x256 : Shape := ⟨2, ![8, 256]⟩
abbrev S8x256x256 : Shape := ⟨3, ![8, 256, 256]⟩
abbrev S8x256x2 : Shape := ⟨3, ![8, 256, 2]⟩
abbrev S8x2 : Shape := ⟨2, ![8, 2]⟩
abbrev S8x7x256 : Shape := ⟨3, ![8, 7, 256]⟩
abbrev S8x256x1 : Shape := ⟨3, ![8, 256, 1]⟩
abbrev S8x1 : Shape := ⟨2, ![8, 1]⟩
abbrev S8 : Shape := ⟨1, ![8]⟩
abbrev S1024x64 : Shape := ⟨2, ![1024, 64]⟩
abbrev S1024x8 : Shape := ⟨2, ![1024, 8]⟩
abbrev S1024x256 : Shape := ⟨2, ![1024, 256]⟩
abbrev S1x256 : Shape := ⟨2, ![1, 256]⟩
abbrev S1x256x256 : Shape := ⟨3, ![1, 256, 256]⟩
abbrev S1024 : Shape := ⟨1, ![1024]⟩
abbrev S1024x1 : Shape := ⟨2, ![1024, 1]⟩
abbrev S1 : Shape := ⟨1, ![1]⟩
abbrev S1x7x256 : Shape := ⟨3, ![1, 7, 256]⟩
abbrev S7x256 : Shape := ⟨2, ![7, 256]⟩

abbrev nBuf : Space → Nat
  | .hbm => 32
  | .vmem => 25
  | .smem => 0
  | _ => 0

abbrev bufTy : (tb : Table) → Fin (tcTables nBuf tb) → BufTy
  | .hbm, ⟨0, _⟩ => ⟨S65536x64, .f32⟩
  | .hbm, ⟨1, _⟩ => ⟨S65536x8, .f32⟩
  | .hbm, ⟨2, _⟩ => ⟨S64x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S8x263x256, .f32⟩
  | .hbm, ⟨9, _⟩ => ⟨S8x256, .f32⟩
  | .hbm, ⟨10, _⟩ => ⟨S8x256x256, .f32⟩
  | .hbm, ⟨11, _⟩ => ⟨S8x256, .f32⟩
  | .hbm, ⟨12, _⟩ => ⟨S8x256x2, .f32⟩
  | .hbm, ⟨13, _⟩ => ⟨S8x2, .f32⟩
  | .hbm, ⟨14, _⟩ => ⟨S64x256, .bf16⟩
  | .hbm, ⟨15, _⟩ => ⟨S256x256, .bf16⟩
  | .hbm, ⟨16, _⟩ => ⟨S256x256, .bf16⟩
  | .hbm, ⟨17, _⟩ => ⟨S8x256x256, .f32⟩
  | .hbm, ⟨18, _⟩ => ⟨S8x256x256, .bf16⟩
  | .hbm, ⟨19, _⟩ => ⟨S8x7x256, .f32⟩
  | .hbm, ⟨20, _⟩ => ⟨S8x256x256, .bf16⟩
  | .hbm, ⟨21, _⟩ => ⟨S8x256x1, .f32⟩
  | .hbm, ⟨22, _⟩ => ⟨S8x256, .f32⟩
  | .hbm, ⟨23, _⟩ => ⟨S8x256x1, .f32⟩
  | .hbm, ⟨24, _⟩ => ⟨S8x256, .f32⟩
  | .hbm, ⟨25, _⟩ => ⟨S8x1, .f32⟩
  | .hbm, ⟨26, _⟩ => ⟨S8, .f32⟩
  | .hbm, ⟨27, _⟩ => ⟨S8x1, .f32⟩
  | .hbm, ⟨28, _⟩ => ⟨S8, .f32⟩
  | .hbm, ⟨29, _⟩ => ⟨S65536x8, .f32⟩
  | .hbm, ⟨30, _⟩ => ⟨S65536x8, .f32⟩
  | .hbm, ⟨31, _⟩ => ⟨S65536x8, .f32⟩
  | .local _ .vmem, ⟨0, _⟩ => ⟨S1024x64, .f32⟩
  | .local _ .vmem, ⟨1, _⟩ => ⟨S1024x64, .f32⟩
  | .local _ .vmem, ⟨2, _⟩ => ⟨S1024x8, .f32⟩
  | .local _ .vmem, ⟨3, _⟩ => ⟨S1024x8, .f32⟩
  | .local _ .vmem, ⟨4, _⟩ => ⟨S64x256, .bf16⟩
  | .local _ .vmem, ⟨5, _⟩ => ⟨S256, .f32⟩
  | .local _ .vmem, ⟨6, _⟩ => ⟨S256x256, .bf16⟩
  | .local _ .vmem, ⟨7, _⟩ => ⟨S256, .f32⟩
  | .local _ .vmem, ⟨8, _⟩ => ⟨S256x256, .bf16⟩
  | .local _ .vmem, ⟨9, _⟩ => ⟨S256, .f32⟩
  | .local _ .vmem, ⟨10, _⟩ => ⟨S8x256x256, .bf16⟩
  | .local _ .vmem, ⟨11, _⟩ => ⟨S8x7x256, .f32⟩
  | .local _ .vmem, ⟨12, _⟩ => ⟨S8x256, .f32⟩
  | .local _ .vmem, ⟨13, _⟩ => ⟨S8x256x256, .bf16⟩
  | .local _ .vmem, ⟨14, _⟩ => ⟨S8x256, .f32⟩
  | .local _ .vmem, ⟨15, _⟩ => ⟨S8x256, .f32⟩
  | .local _ .vmem, ⟨16, _⟩ => ⟨S8x256, .f32⟩
  | .local _ .vmem, ⟨17, _⟩ => ⟨S8, .f32⟩
  | .local _ .vmem, ⟨18, _⟩ => ⟨S8, .f32⟩
  | .local _ .vmem, ⟨19, _⟩ => ⟨S1024x8, .f32⟩
  | .local _ .vmem, ⟨20, _⟩ => ⟨S1024x8, .f32⟩
  | .local _ .vmem, ⟨21, _⟩ => ⟨S1024x8, .f32⟩
  | .local _ .vmem, ⟨22, _⟩ => ⟨S1024x8, .f32⟩
  | .local _ .vmem, ⟨23, _⟩ => ⟨S1024x8, .f32⟩
  | .local _ .vmem, ⟨24, _⟩ => ⟨S1024x8, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_v15_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20
abbrev cc0_sem18_0 : DmaSem sig := 21
abbrev cc0_sem18_1 : DmaSem sig := 22
abbrev cc0_sem19_0 : DmaSem sig := 23
abbrev cc0_sem19_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x7x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1024x8 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x8 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x8 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  bitsLt_bf16_f32 : FTy.bits .bf16 < FTy.bits .f32
  slices_S8x263x256_S8x256x256_0_0_0 : S8x263x256.Slices ![0, 0, 0] S8x256x256
  slices_S8x263x256_S8x7x256_0_256_0 : S8x263x256.Slices ![0, 256, 0] S8x7x256
  slices_S8x256x2_S8x256x1_0_0_0 : S8x256x2.Slices ![0, 0, 0] S8x256x1
  shapeCasts_S8x256x1_S8x256 : S8x256x1.ShapeCasts S8x256
  slices_S8x256x2_S8x256x1_0_0_1 : S8x256x2.Slices ![0, 0, 1] S8x256x1
  slices_S8x2_S8x1_0_0 : S8x2.Slices ![0, 0] S8x1
  shapeCasts_S8x1_S8 : S8x1.ShapeCasts S8
  slices_S8x2_S8x1_0_1 : S8x2.Slices ![0, 1] S8x1
  inb_S1024x64_S1024x64_0_0 : ∀ a, (![0, 0] : Fin 2 → Nat) a + S1024x64.size a ≤ S1024x64.size a
  h_S1024x64 : 0 < S1024x64.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S8x256x256_S1x256x256_0_0_0 : ∀ a, (![0, 0, 0] : Fin 3 → Nat) a + S1x256x256.size a ≤ S8x256x256.size a
  h_S1x256x256 : 0 < S1x256x256.numel
  shapeCasts_S1x256x256_S256x256 : S1x256x256.ShapeCasts S256x256
  inb_S8x256_S1x256_0_0 : ∀ a, (![0, 0] : Fin 2 → Nat) a + S1x256.size a ≤ S8x256.size a
  h_S1x256 : 0 < S1x256.numel
  shapeCasts_S1x256_S256 : S1x256.ShapeCasts S256
  reduces_S1024x256_S1024 : S1024x256.Reduces [1] S1024
  shapeCasts_S1024_S1024x1 : S1024.ShapeCasts S1024x1
  inb_S8_S1_0 : ∀ a, (![0] : Fin 1 → Nat) a + S1.size a ≤ S8.size a
  h_S1 : 0 < S1.numel
  inpos_S1_p0 : ∀ a, (![0] : Fin 1 → Nat) a < S1.size a
  inb_S8x256x256_S1x256x256_1_0_0 : ∀ a, (![1, 0, 0] : Fin 3 → Nat) a + S1x256x256.size a ≤ S8x256x256.size a
  inb_S8x7x256_S1x7x256_1_0_0 : ∀ a, (![1, 0, 0] : Fin 3 → Nat) a + S1x7x256.size a ≤ S8x7x256.size a
  h_S1x7x256 : 0 < S1x7x256.numel
  shapeCasts_S1x7x256_S7x256 : S1x7x256.ShapeCasts S7x256
  slices_S7x256_o0_0_S1x256 : S7x256.Slices ![0, 0] S1x256
  broadcasts_S1024x1_S1024x256 : S1024x1.Broadcasts S1024x256
  inb_S8x256_S1x256_1_0 : ∀ a, (![1, 0] : Fin 2 → Nat) a + S1x256.size a ≤ S8x256.size a
  inb_S8_S1_1 : ∀ a, (![1] : Fin 1 → Nat) a + S1.size a ≤ S8.size a
  inb_S8x256x256_S1x256x256_2_0_0 : ∀ a, (![2, 0, 0] : Fin 3 → Nat) a + S1x256x256.size a ≤ S8x256x256.size a
  inb_S8x7x256_S1x7x256_2_0_0 : ∀ a, (![2, 0, 0] : Fin 3 → Nat) a + S1x7x256.size a ≤ S8x7x256.size a
  slices_S7x256_o1_0_S1x256 : S7x256.Slices ![1, 0] S1x256
  inb_S8x256_S1x256_2_0 : ∀ a, (![2, 0] : Fin 2 → Nat) a + S1x256.size a ≤ S8x256.size a
  inb_S8_S1_2 : ∀ a, (![2] : Fin 1 → Nat) a + S1.size a ≤ S8.size a
  inb_S8x256x256_S1x256x256_3_0_0 : ∀ a, (![3, 0, 0] : Fin 3 → Nat) a + S1x256x256.size a ≤ S8x256x256.size a
  inb_S8x7x256_S1x7x256_3_0_0 : ∀ a, (![3, 0, 0] : Fin 3 → Nat) a + S1x7x256.size a ≤ S8x7x256.size a
  slices_S7x256_o2_0_S1x256 : S7x256.Slices ![2, 0] S1x256
  inb_S8x256_S1x256_3_0 : ∀ a, (![3, 0] : Fin 2 → Nat) a + S1x256.size a ≤ S8x256.size a
  inb_S8_S1_3 : ∀ a, (![3] : Fin 1 → Nat) a + S1.size a ≤ S8.size a
  inb_S8x256x256_S1x256x256_4_0_0 : ∀ a, (![4, 0, 0] : Fin 3 → Nat) a + S1x256x256.size a ≤ S8x256x256.size a
  inb_S8x7x256_S1x7x256_4_0_0 : ∀ a, (![4, 0, 0] : Fin 3 → Nat) a + S1x7x256.size a ≤ S8x7x256.size a
  slices_S7x256_o3_0_S1x256 : S7x256.Slices ![3, 0] S1x256
  inb_S8x256_S1x256_4_0 : ∀ a, (![4, 0] : Fin 2 → Nat) a + S1x256.size a ≤ S8x256.size a
  inb_S8_S1_4 : ∀ a, (![4] : Fin 1 → Nat) a + S1.size a ≤ S8.size a
  inb_S8x256x256_S1x256x256_5_0_0 : ∀ a, (![5, 0, 0] : Fin 3 → Nat) a + S1x256x256.size a ≤ S8x256x256.size a
  inb_S8x7x256_S1x7x256_5_0_0 : ∀ a, (![5, 0, 0] : Fin 3 → Nat) a + S1x7x256.size a ≤ S8x7x256.size a
  slices_S7x256_o4_0_S1x256 : S7x256.Slices ![4, 0] S1x256
  inb_S8x256_S1x256_5_0 : ∀ a, (![5, 0] : Fin 2 → Nat) a + S1x256.size a ≤ S8x256.size a
  inb_S8_S1_5 : ∀ a, (![5] : Fin 1 → Nat) a + S1.size a ≤ S8.size a
  inb_S8x256x256_S1x256x256_6_0_0 : ∀ a, (![6, 0, 0] : Fin 3 → Nat) a + S1x256x256.size a ≤ S8x256x256.size a
  inb_S8x7x256_S1x7x256_6_0_0 : ∀ a, (![6, 0, 0] : Fin 3 → Nat) a + S1x7x256.size a ≤ S8x7x256.size a
  slices_S7x256_o5_0_S1x256 : S7x256.Slices ![5, 0] S1x256
  inb_S8x256_S1x256_6_0 : ∀ a, (![6, 0] : Fin 2 → Nat) a + S1x256.size a ≤ S8x256.size a
  inb_S8_S1_6 : ∀ a, (![6] : Fin 1 → Nat) a + S1.size a ≤ S8.size a
  inb_S8x256x256_S1x256x256_7_0_0 : ∀ a, (![7, 0, 0] : Fin 3 → Nat) a + S1x256x256.size a ≤ S8x256x256.size a
  inb_S8x7x256_S1x7x256_7_0_0 : ∀ a, (![7, 0, 0] : Fin 3 → Nat) a + S1x7x256.size a ≤ S8x7x256.size a
  slices_S7x256_o6_0_S1x256 : S7x256.Slices ![6, 0] S1x256
  inb_S8x256_S1x256_7_0 : ∀ a, (![7, 0] : Fin 2 → Nat) a + S1x256.size a ≤ S8x256.size a
  inb_S8_S1_7 : ∀ a, (![7] : Fin 1 → Nat) a + S1.size a ≤ S8.size a
  concatenates_S1024x1_S1024x1_S1024x1_S1024x1_S1024x1_S1024x1_S1024x1_S1024x1_S1024x8_d1 : Shape.Concatenates [S1024x1, S1024x1, S1024x1, S1024x1, S1024x1, S1024x1, S1024x1, S1024x1] S1024x8 1
  inb_S1024x8_S1024x8_0_0 : ∀ a, (![0, 0] : Fin 2 → Nat) a + S1024x8.size a ≤ S1024x8.size a
  h_S1024x8 : 0 < S1024x8.numel
  dot_S1024x64_S64x256_S1024x256_1_0_0_1_n_n_wf : DotDims.WF S1024x64 S64x256 S1024x256 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S65536x64.size a
  hwx0_0 : ∀ i : grid0.Coords, EltTy.bits .f32 = 32 ∨ (Rect.block (s := S65536x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x8.size a ≤ S65536x8.size a
  hwx0_1 : ∀ i : grid0.Coords, EltTy.bits .f32 = 32 ∨ (Rect.block (s := S65536x8) S1024x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .bf16 = 32 ∨ (Rect.block (s := S64x256) S64x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x256x256.size a ≤ S8x256x256.size a
  hwx0_8 : ∀ i : grid0.Coords, EltTy.bits .bf16 = 32 ∨ (Rect.block (s := S8x256x256) S8x256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8x7x256.size a ≤ S8x7x256.size a
  hwx0_9 : ∀ i : grid0.Coords, EltTy.bits .f32 = 32 ∨ (Rect.block (s := S8x7x256) S8x7x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S8x256.size a ≤ S8x256.size a
  hwx0_10 : ∀ i : grid0.Coords, EltTy.bits .f32 = 32 ∨ (Rect.block (s := S8x256) S8x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S8x256x256.size a ≤ S8x256x256.size a
  hwx0_11 : ∀ i : grid0.Coords, EltTy.bits .bf16 = 32 ∨ (Rect.block (s := S8x256x256) S8x256x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S8x256.size a ≤ S8x256.size a
  hwx0_12 : ∀ i : grid0.Coords, EltTy.bits .f32 = 32 ∨ (Rect.block (s := S8x256) S8x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S8x256.size a ≤ S8x256.size a
  hwx0_13 : ∀ i : grid0.Coords, EltTy.bits .f32 = 32 ∨ (Rect.block (s := S8x256) S8x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S8x256.size a ≤ S8x256.size a
  hwx0_14 : ∀ i : grid0.Coords, EltTy.bits .f32 = 32 ∨ (Rect.block (s := S8x256) S8x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S8.size a ≤ S8.size a
  hwx0_15 : ∀ i : grid0.Coords, EltTy.bits .f32 = 32 ∨ (Rect.block (s := S8) S8.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S8.size a ≤ S8.size a
  hwx0_16 : ∀ i : grid0.Coords, EltTy.bits .f32 = 32 ∨ (Rect.block (s := S8) S8.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1024x8.size a ≤ S65536x8.size a
  hwx0_17 : ∀ i : grid0.Coords, EltTy.bits .f32 = 32 ∨ (Rect.block (s := S65536x8) S1024x8.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1024x8.size a ≤ S65536x8.size a
  hwx0_18 : ∀ i : grid0.Coords, EltTy.bits .f32 = 32 ∨ (Rect.block (s := S65536x8) S1024x8.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1024x8.size a ≤ S65536x8.size a
  hwx0_19 : ∀ i : grid0.Coords, EltTy.bits .f32 = 32 ∨ (Rect.block (s := S65536x8) S1024x8.size (cc0_transform_19 i) (hinb0_19 i)).WholeWords (EltTy.packing .f32)

variable [Facts₀]

def dot_S1024x64_S64x256_S1024x256_1_0_0_1_n_n : DotDims S1024x64 S64x256 S1024x256 where
  lhsContracting := [1]
  rhsContracting := [0]
  lhsNonContracting := [0]
  rhsNonContracting := [1]
  lhsBatch := []
  rhsBatch := []
  wf := dot_S1024x64_S64x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S8x256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S8x7x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S8x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S8x256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S8x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v8) S8x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v10) S8x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v12) S8.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v14) S8.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v15_0) S1024x8.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v15_1) S1024x8.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v15_2) S1024x8.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S65536x64 : Shape := ⟨2, ![65536, 64]⟩
abbrev S65536x8 : Shape := ⟨2, ![65536, 8]⟩
abbrev S64x256 : Shape := ⟨2, ![64, 256]⟩
abbrev S256 : Shape := ⟨1, ![256]⟩
abbrev S256x256 : Shape := ⟨2, ![256, 256]⟩
abbrev S8x263x256 : Shape := ⟨3, ![8, 263, 256]⟩
abbrev S8x256 : Shape := ⟨2, ![8, 256]⟩
abbrev S8x256x256 : Shape := ⟨3, ![8, 256, 256]⟩
abbrev S8x256x2 : Shape := ⟨3, ![8, 256, 2]⟩
abbrev S8x2 : Shape := ⟨2, ![8, 2]⟩
abbrev S65536x256 : Shape := ⟨2, ![65536, 256]⟩
abbrev S1x256 : Shape := ⟨2, ![1, 256]⟩
abbrev S_ : Shape := ⟨0, ![]⟩
abbrev S1x256x256 : Shape := ⟨3, ![1, 256, 256]⟩
abbrev S1x256x2 : Shape := ⟨3, ![1, 256, 2]⟩
abbrev S256x2 : Shape := ⟨2, ![256, 2]⟩
abbrev S65536x2 : Shape := ⟨2, ![65536, 2]⟩
abbrev S1x2 : Shape := ⟨2, ![1, 2]⟩
abbrev S2 : Shape := ⟨1, ![2]⟩
abbrev S65536x1 : Shape := ⟨2, ![65536, 1]⟩
abbrev S65536x257 : Shape := ⟨2, ![65536, 257]⟩
abbrev S1x257x256 : Shape := ⟨3, ![1, 257, 256]⟩
abbrev S257x256 : Shape := ⟨2, ![257, 256]⟩
abbrev S65536x258 : Shape := ⟨2, ![65536, 258]⟩
abbrev S1x258x256 : Shape := ⟨3, ![1, 258, 256]⟩
abbrev S258x256 : Shape := ⟨2, ![258, 256]⟩
abbrev S65536x259 : Shape := ⟨2, ![65536, 259]⟩
abbrev S1x259x256 : Shape := ⟨3, ![1, 259, 256]⟩
abbrev S259x256 : Shape := ⟨2, ![259, 256]⟩
abbrev S65536x260 : Shape := ⟨2, ![65536, 260]⟩
abbrev S1x260x256 : Shape := ⟨3, ![1, 260, 256]⟩
abbrev S260x256 : Shape := ⟨2, ![260, 256]⟩
abbrev S65536x261 : Shape := ⟨2, ![65536, 261]⟩
abbrev S1x261x256 : Shape := ⟨3, ![1, 261, 256]⟩
abbrev S261x256 : Shape := ⟨2, ![261, 256]⟩
abbrev S65536x262 : Shape := ⟨2, ![65536, 262]⟩
abbrev S1x262x256 : Shape := ⟨3, ![1, 262, 256]⟩
abbrev S262x256 : Shape := ⟨2, ![262, 256]⟩
abbrev S65536x263 : Shape := ⟨2, ![65536, 263]⟩
abbrev S1x263x256 : Shape := ⟨3, ![1, 263, 256]⟩
abbrev S263x256 : Shape := ⟨2, ![263, 256]⟩
abbrev S65536x264 : Shape := ⟨2, ![65536, 264]⟩

abbrev nBuf : Space → Nat
  | .hbm => 502
  | .vmem => 0
  | .smem => 0
  | _ => 0

abbrev hbmTy0_0 (i : Nat) : BufTy := match i % 128 with
  | 0 => ⟨S65536x64, .f32⟩
  | 1 => ⟨S65536x8, .f32⟩
  | 2 => ⟨S64x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S8x263x256, .f32⟩
  | 9 => ⟨S8x256, .f32⟩
  | 10 => ⟨S8x256x256, .f32⟩
  | 11 => ⟨S8x256, .f32⟩
  | 12 => ⟨S8x256x2, .f32⟩
  | 13 => ⟨S8x2, .f32⟩
  | 14 => ⟨S65536x256, .f32⟩
  | 15 => ⟨S1x256, .f32⟩
  | 16 => ⟨S65536x256, .f32⟩
  | 17 => ⟨S65536x256, .f32⟩
  | 18 => ⟨S_, .f32⟩
  | 19 => ⟨S65536x256, .f32⟩
  | 20 => ⟨S65536x256, .f32⟩
  | 21 => ⟨S65536x256, .f32⟩
  | 22 => ⟨S1x256, .f32⟩
  | 23 => ⟨S65536x256, .f32⟩
  | 24 => ⟨S65536x256, .f32⟩
  | 25 => ⟨S_, .f32⟩
  | 26 => ⟨S65536x256, .f32⟩
  | 27 => ⟨S65536x256, .f32⟩
  | 28 => ⟨S65536x256, .f32⟩
  | 29 => ⟨S1x256, .f32⟩
  | 30 => ⟨S65536x256, .f32⟩
  | 31 => ⟨S65536x256, .f32⟩
  | 32 => ⟨S_, .f32⟩
  | 33 => ⟨S65536x256, .f32⟩
  | 34 => ⟨S65536x256, .f32⟩
  | 35 => ⟨S1x256x256, .f32⟩
  | 36 => ⟨S256x256, .f32⟩
  | 37 => ⟨S65536x256, .f32⟩
  | 38 => ⟨S1x256, .f32⟩
  | 39 => ⟨S256, .f32⟩
  | 40 => ⟨S1x256, .f32⟩
  | 41 => ⟨S65536x256, .f32⟩
  | 42 => ⟨S65536x256, .f32⟩
  | 43 => ⟨S_, .f32⟩
  | 44 => ⟨S65536x256, .f32⟩
  | 45 => ⟨S65536x256, .f32⟩
  | 46 => ⟨S1x256x256, .f32⟩
  | 47 => ⟨S256x256, .f32⟩
  | 48 => ⟨S65536x256, .f32⟩
  | 49 => ⟨S1x256, .f32⟩
  | 50 => ⟨S256, .f32⟩
  | 51 => ⟨S1x256, .f32⟩
  | 52 => ⟨S65536x256, .f32⟩
  | 53 => ⟨S65536x256, .f32⟩
  | 54 => ⟨S_, .f32⟩
  | 55 => ⟨S65536x256, .f32⟩
  | 56 => ⟨S65536x256, .f32⟩
  | 57 => ⟨S1x256x2, .f32⟩
  | 58 => ⟨S256x2, .f32⟩
  | 59 => ⟨S65536x2, .f32⟩
  | 60 => ⟨S1x2, .f32⟩
  | 61 => ⟨S2, .f32⟩
  | 62 => ⟨S1x2, .f32⟩
  | 63 => ⟨S65536x2, .f32⟩
  | 64 => ⟨S65536x2, .f32⟩
  | 65 => ⟨S_, .f32⟩
  | 66 => ⟨S65536x2, .f32⟩
  | 67 => ⟨S65536x2, .f32⟩
  | 68 => ⟨S65536x1, .f32⟩
  | 69 => ⟨S65536x1, .f32⟩
  | 70 => ⟨S_, .f32⟩
  | 71 => ⟨S_, .f32⟩
  | 72 => ⟨S_, .f32⟩
  | 73 => ⟨S65536x1, .f32⟩
  | 74 => ⟨S65536x1, .f32⟩
  | 75 => ⟨S_, .f32⟩
  | 76 => ⟨S65536x1, .f32⟩
  | 77 => ⟨S65536x1, .f32⟩
  | 78 => ⟨S65536x1, .f32⟩
  | 79 => ⟨S65536x1, .f32⟩
  | 80 => ⟨S65536x1, .f32⟩
  | 81 => ⟨S65536x1, .f32⟩
  | 82 => ⟨S65536x1, .f32⟩
  | 83 => ⟨S65536x1, .f32⟩
  | 84 => ⟨S65536x1, .f32⟩
  | 85 => ⟨S_, .f32⟩
  | 86 => ⟨S65536x1, .f32⟩
  | 87 => ⟨S65536x1, .f32⟩
  | 88 => ⟨S65536x1, .f32⟩
  | 89 => ⟨S_, .f32⟩
  | 90 => ⟨S65536x1, .f32⟩
  | 91 => ⟨S65536x1, .f32⟩
  | 92 => ⟨S65536x257, .f32⟩
  | 93 => ⟨S1x257x256, .f32⟩
  | 94 => ⟨S257x256, .f32⟩
  | 95 => ⟨S65536x256, .f32⟩
  | 96 => ⟨S1x256, .f32⟩
  | 97 => ⟨S256, .f32⟩
  | 98 => ⟨S1x256, .f32⟩
  | 99 => ⟨S65536x256, .f32⟩
  | 100 => ⟨S65536x256, .f32⟩
  | 101 => ⟨S_, .f32⟩
  | 102 => ⟨S65536x256, .f32⟩
  | 103 => ⟨S65536x256, .f32⟩
  | 104 => ⟨S1x256x256, .f32⟩
  | 105 => ⟨S256x256, .f32⟩
  | 106 => ⟨S65536x256, .f32⟩
  | 107 => ⟨S1x256, .f32⟩
  | 108 => ⟨S256, .f32⟩
  | 109 => ⟨S1x256, .f32⟩
  | 110 => ⟨S65536x256, .f32⟩
  | 111 => ⟨S65536x256, .f32⟩
  | 112 => ⟨S_, .f32⟩
  | 113 => ⟨S65536x256, .f32⟩
  | 114 => ⟨S65536x256, .f32⟩
  | 115 => ⟨S1x256x2, .f32⟩
  | 116 => ⟨S256x2, .f32⟩
  | 117 => ⟨S65536x2, .f32⟩
  | 118 => ⟨S1x2, .f32⟩
  | 119 => ⟨S2, .f32⟩
  | 120 => ⟨S1x2, .f32⟩
  | 121 => ⟨S65536x2, .f32⟩
  | 122 => ⟨S65536x2, .f32⟩
  | 123 => ⟨S_, .f32⟩
  | 124 => ⟨S65536x2, .f32⟩
  | 125 => ⟨S65536x2, .f32⟩
  | 126 => ⟨S65536x1, .f32⟩
  | 127 => ⟨S65536x1, .f32⟩
  | _ => ⟨S65536x64, .f32⟩

abbrev hbmTy0_1 (i : Nat) : BufTy := match i % 128 with
  | 0 => ⟨S_, .f32⟩
  | 1 => ⟨S_, .f32⟩
  | 2 => ⟨S_, .f32⟩
  | 3 => ⟨S65536x1, .f32⟩
  | 4 => ⟨S65536x1, .f32⟩
  | 5 => ⟨S_, .f32⟩
  | 6 => ⟨S65536x1, .f32⟩
  | 7 => ⟨S65536x1, .f32⟩
  | 8 => ⟨S65536x1, .f32⟩
  | 9 => ⟨S65536x1, .f32⟩
  | 10 => ⟨S65536x1, .f32⟩
  | 11 => ⟨S65536x1, .f32⟩
  | 12 => ⟨S65536x1, .f32⟩
  | 13 => ⟨S65536x1, .f32⟩
  | 14 => ⟨S65536x1, .f32⟩
  | 15 => ⟨S_, .f32⟩
  | 16 => ⟨S65536x1, .f32⟩
  | 17 => ⟨S65536x1, .f32⟩
  | 18 => ⟨S65536x1, .f32⟩
  | 19 => ⟨S_, .f32⟩
  | 20 => ⟨S65536x1, .f32⟩
  | 21 => ⟨S65536x1, .f32⟩
  | 22 => ⟨S65536x258, .f32⟩
  | 23 => ⟨S1x258x256, .f32⟩
  | 24 => ⟨S258x256, .f32⟩
  | 25 => ⟨S65536x256, .f32⟩
  | 26 => ⟨S1x256, .f32⟩
  | 27 => ⟨S256, .f32⟩
  | 28 => ⟨S1x256, .f32⟩
  | 29 => ⟨S65536x256, .f32⟩
  | 30 => ⟨S65536x256, .f32⟩
  | 31 => ⟨S_, .f32⟩
  | 32 => ⟨S65536x256, .f32⟩
  | 33 => ⟨S65536x256, .f32⟩
  | 34 => ⟨S1x256x256, .f32⟩
  | 35 => ⟨S256x256, .f32⟩
  | 36 => ⟨S65536x256, .f32⟩
  | 37 => ⟨S1x256, .f32⟩
  | 38 => ⟨S256, .f32⟩
  | 39 => ⟨S1x256, .f32⟩
  | 40 => ⟨S65536x256, .f32⟩
  | 41 => ⟨S65536x256, .f32⟩
  | 42 => ⟨S_, .f32⟩
  | 43 => ⟨S65536x256, .f32⟩
  | 44 => ⟨S65536x256, .f32⟩
  | 45 => ⟨S1x256x2, .f32⟩
  | 46 => ⟨S256x2, .f32⟩
  | 47 => ⟨S65536x2, .f32⟩
  | 48 => ⟨S1x2, .f32⟩
  | 49 => ⟨S2, .f32⟩
  | 50 => ⟨S1x2, .f32⟩
  | 51 => ⟨S65536x2, .f32⟩
  | 52 => ⟨S65536x2, .f32⟩
  | 53 => ⟨S_, .f32⟩
  | 54 => ⟨S65536x2, .f32⟩
  | 55 => ⟨S65536x2, .f32⟩
  | 56 => ⟨S65536x1, .f32⟩
  | 57 => ⟨S65536x1, .f32⟩
  | 58 => ⟨S_, .f32⟩
  | 59 => ⟨S_, .f32⟩
  | 60 => ⟨S_, .f32⟩
  | 61 => ⟨S65536x1, .f32⟩
  | 62 => ⟨S65536x1, .f32⟩
  | 63 => ⟨S_, .f32⟩
  | 64 => ⟨S65536x1, .f32⟩
  | 65 => ⟨S65536x1, .f32⟩
  | 66 => ⟨S65536x1, .f32⟩
  | 67 => ⟨S65536x1, .f32⟩
  | 68 => ⟨S65536x1, .f32⟩
  | 69 => ⟨S65536x1, .f32⟩
  | 70 => ⟨S65536x1, .f32⟩
  | 71 => ⟨S65536x1, .f32⟩
  | 72 => ⟨S65536x1, .f32⟩
  | 73 => ⟨S_, .f32⟩
  | 74 => ⟨S65536x1, .f32⟩
  | 75 => ⟨S65536x1, .f32⟩
  | 76 => ⟨S65536x1, .f32⟩
  | 77 => ⟨S_, .f32⟩
  | 78 => ⟨S65536x1, .f32⟩
  | 79 => ⟨S65536x1, .f32⟩
  | 80 => ⟨S65536x259, .f32⟩
  | 81 => ⟨S1x259x256, .f32⟩
  | 82 => ⟨S259x256, .f32⟩
  | 83 => ⟨S65536x256, .f32⟩
  | 84 => ⟨S1x256, .f32⟩
  | 85 => ⟨S256, .f32⟩
  | 86 => ⟨S1x256, .f32⟩
  | 87 => ⟨S65536x256, .f32⟩
  | 88 => ⟨S65536x256, .f32⟩
  | 89 => ⟨S_, .f32⟩
  | 90 => ⟨S65536x256, .f32⟩
  | 91 => ⟨S65536x256, .f32⟩
  | 92 => ⟨S1x256x256, .f32⟩
  | 93 => ⟨S256x256, .f32⟩
  | 94 => ⟨S65536x256, .f32⟩
  | 95 => ⟨S1x256, .f32⟩
  | 96 => ⟨S256, .f32⟩
  | 97 => ⟨S1x256, .f32⟩
  | 98 => ⟨S65536x256, .f32⟩
  | 99 => ⟨S65536x256, .f32⟩
  | 100 => ⟨S_, .f32⟩
  | 101 => ⟨S65536x256, .f32⟩
  | 102 => ⟨S65536x256, .f32⟩
  | 103 => ⟨S1x256x2, .f32⟩
  | 104 => ⟨S256x2, .f32⟩
  | 105 => ⟨S65536x2, .f32⟩
  | 106 => ⟨S1x2, .f32⟩
  | 107 => ⟨S2, .f32⟩
  | 108 => ⟨S1x2, .f32⟩
  | 109 => ⟨S65536x2, .f32⟩
  | 110 => ⟨S65536x2, .f32⟩
  | 111 => ⟨S_, .f32⟩
  | 112 => ⟨S65536x2, .f32⟩
  | 113 => ⟨S65536x2, .f32⟩
  | 114 => ⟨S65536x1, .f32⟩
  | 115 => ⟨S65536x1, .f32⟩
  | 116 => ⟨S_, .f32⟩
  | 117 => ⟨S_, .f32⟩
  | 118 => ⟨S_, .f32⟩
  | 119 => ⟨S65536x1, .f32⟩
  | 120 => ⟨S65536x1, .f32⟩
  | 121 => ⟨S_, .f32⟩
  | 122 => ⟨S65536x1, .f32⟩
  | 123 => ⟨S65536x1, .f32⟩
  | 124 => ⟨S65536x1, .f32⟩
  | 125 => ⟨S65536x1, .f32⟩
  | 126 => ⟨S65536x1, .f32⟩
  | 127 => ⟨S65536x1, .f32⟩
  | _ => ⟨S65536x64, .f32⟩

abbrev hbmTy0_2 (i : Nat) : BufTy := match i % 128 with
  | 0 => ⟨S65536x1, .f32⟩
  | 1 => ⟨S65536x1, .f32⟩
  | 2 => ⟨S65536x1, .f32⟩
  | 3 => ⟨S_, .f32⟩
  | 4 => ⟨S65536x1, .f32⟩
  | 5 => ⟨S65536x1, .f32⟩
  | 6 => ⟨S65536x1, .f32⟩
  | 7 => ⟨S_, .f32⟩
  | 8 => ⟨S65536x1, .f32⟩
  | 9 => ⟨S65536x1, .f32⟩
  | 10 => ⟨S65536x260, .f32⟩
  | 11 => ⟨S1x260x256, .f32⟩
  | 12 => ⟨S260x256, .f32⟩
  | 13 => ⟨S65536x256, .f32⟩
  | 14 => ⟨S1x256, .f32⟩
  | 15 => ⟨S256, .f32⟩
  | 16 => ⟨S1x256, .f32⟩
  | 17 => ⟨S65536x256, .f32⟩
  | 18 => ⟨S65536x256, .f32⟩
  | 19 => ⟨S_, .f32⟩
  | 20 => ⟨S65536x256, .f32⟩
  | 21 => ⟨S65536x256, .f32⟩
  | 22 => ⟨S1x256x256, .f32⟩
  | 23 => ⟨S256x256, .f32⟩
  | 24 => ⟨S65536x256, .f32⟩
  | 25 => ⟨S1x256, .f32⟩
  | 26 => ⟨S256, .f32⟩
  | 27 => ⟨S1x256, .f32⟩
  | 28 => ⟨S65536x256, .f32⟩
  | 29 => ⟨S65536x256, .f32⟩
  | 30 => ⟨S_, .f32⟩
  | 31 => ⟨S65536x256, .f32⟩
  | 32 => ⟨S65536x256, .f32⟩
  | 33 => ⟨S1x256x2, .f32⟩
  | 34 => ⟨S256x2, .f32⟩
  | 35 => ⟨S65536x2, .f32⟩
  | 36 => ⟨S1x2, .f32⟩
  | 37 => ⟨S2, .f32⟩
  | 38 => ⟨S1x2, .f32⟩
  | 39 => ⟨S65536x2, .f32⟩
  | 40 => ⟨S65536x2, .f32⟩
  | 41 => ⟨S_, .f32⟩
  | 42 => ⟨S65536x2, .f32⟩
  | 43 => ⟨S65536x2, .f32⟩
  | 44 => ⟨S65536x1, .f32⟩
  | 45 => ⟨S65536x1, .f32⟩
  | 46 => ⟨S_, .f32⟩
  | 47 => ⟨S_, .f32⟩
  | 48 => ⟨S_, .f32⟩
  | 49 => ⟨S65536x1, .f32⟩
  | 50 => ⟨S65536x1, .f32⟩
  | 51 => ⟨S_, .f32⟩
  | 52 => ⟨S65536x1, .f32⟩
  | 53 => ⟨S65536x1, .f32⟩
  | 54 => ⟨S65536x1, .f32⟩
  | 55 => ⟨S65536x1, .f32⟩
  | 56 => ⟨S65536x1, .f32⟩
  | 57 => ⟨S65536x1, .f32⟩
  | 58 => ⟨S65536x1, .f32⟩
  | 59 => ⟨S65536x1, .f32⟩
  | 60 => ⟨S65536x1, .f32⟩
  | 61 => ⟨S_, .f32⟩
  | 62 => ⟨S65536x1, .f32⟩
  | 63 => ⟨S65536x1, .f32⟩
  | 64 => ⟨S65536x1, .f32⟩
  | 65 => ⟨S_, .f32⟩
  | 66 => ⟨S65536x1, .f32⟩
  | 67 => ⟨S65536x1, .f32⟩
  | 68 => ⟨S65536x261, .f32⟩
  | 69 => ⟨S1x261x256, .f32⟩
  | 70 => ⟨S261x256, .f32⟩
  | 71 => ⟨S65536x256, .f32⟩
  | 72 => ⟨S1x256, .f32⟩
  | 73 => ⟨S256, .f32⟩
  | 74 => ⟨S1x256, .f32⟩
  | 75 => ⟨S65536x256, .f32⟩
  | 76 => ⟨S65536x256, .f32⟩
  | 77 => ⟨S_, .f32⟩
  | 78 => ⟨S65536x256, .f32⟩
  | 79 => ⟨S65536x256, .f32⟩
  | 80 => ⟨S1x256x256, .f32⟩
  | 81 => ⟨S256x256, .f32⟩
  | 82 => ⟨S65536x256, .f32⟩
  | 83 => ⟨S1x256, .f32⟩
  | 84 => ⟨S256, .f32⟩
  | 85 => ⟨S1x256, .f32⟩
  | 86 => ⟨S65536x256, .f32⟩
  | 87 => ⟨S65536x256, .f32⟩
  | 88 => ⟨S_, .f32⟩
  | 89 => ⟨S65536x256, .f32⟩
  | 90 => ⟨S65536x256, .f32⟩
  | 91 => ⟨S1x256x2, .f32⟩
  | 92 => ⟨S256x2, .f32⟩
  | 93 => ⟨S65536x2, .f32⟩
  | 94 => ⟨S1x2, .f32⟩
  | 95 => ⟨S2, .f32⟩
  | 96 => ⟨S1x2, .f32⟩
  | 97 => ⟨S65536x2, .f32⟩
  | 98 => ⟨S65536x2, .f32⟩
  | 99 => ⟨S_, .f32⟩
  | 100 => ⟨S65536x2, .f32⟩
  | 101 => ⟨S65536x2, .f32⟩
  | 102 => ⟨S65536x1, .f32⟩
  | 103 => ⟨S65536x1, .f32⟩
  | 104 => ⟨S_, .f32⟩
  | 105 => ⟨S_, .f32⟩
  | 106 => ⟨S_, .f32⟩
  | 107 => ⟨S65536x1, .f32⟩
  | 108 => ⟨S65536x1, .f32⟩
  | 109 => ⟨S_, .f32⟩
  | 110 => ⟨S65536x1, .f32⟩
  | 111 => ⟨S65536x1, .f32⟩
  | 112 => ⟨S65536x1, .f32⟩
  | 113 => ⟨S65536x1, .f32⟩
  | 114 => ⟨S65536x1, .f32⟩
  | 115 => ⟨S65536x1, .f32⟩
  | 116 => ⟨S65536x1, .f32⟩
  | 117 => ⟨S65536x1, .f32⟩
  | 118 => ⟨S65536x1, .f32⟩
  | 119 => ⟨S_, .f32⟩
  | 120 => ⟨S65536x1, .f32⟩
  | 121 => ⟨S65536x1, .f32⟩
  | 122 => ⟨S65536x1, .f32⟩
  | 123 => ⟨S_, .f32⟩
  | 124 => ⟨S65536x1, .f32⟩
  | 125 => ⟨S65536x1, .f32⟩
  | 126 => ⟨S65536x262, .f32⟩
  | 127 => ⟨S1x262x256, .f32⟩
  | _ => ⟨S65536x64, .f32⟩

abbrev hbmTy0_3 (i : Nat) : BufTy := match i % 128 with
  | 0 => ⟨S262x256, .f32⟩
  | 1 => ⟨S65536x256, .f32⟩
  | 2 => ⟨S1x256, .f32⟩
  | 3 => ⟨S256, .f32⟩
  | 4 => ⟨S1x256, .f32⟩
  | 5 => ⟨S65536x256, .f32⟩
  | 6 => ⟨S65536x256, .f32⟩
  | 7 => ⟨S_, .f32⟩
  | 8 => ⟨S65536x256, .f32⟩
  | 9 => ⟨S65536x256, .f32⟩
  | 10 => ⟨S1x256x256, .f32⟩
  | 11 => ⟨S256x256, .f32⟩
  | 12 => ⟨S65536x256, .f32⟩
  | 13 => ⟨S1x256, .f32⟩
  | 14 => ⟨S256, .f32⟩
  | 15 => ⟨S1x256, .f32⟩
  | 16 => ⟨S65536x256, .f32⟩
  | 17 => ⟨S65536x256, .f32⟩
  | 18 => ⟨S_, .f32⟩
  | 19 => ⟨S65536x256, .f32⟩
  | 20 => ⟨S65536x256, .f32⟩
  | 21 => ⟨S1x256x2, .f32⟩
  | 22 => ⟨S256x2, .f32⟩
  | 23 => ⟨S65536x2, .f32⟩
  | 24 => ⟨S1x2, .f32⟩
  | 25 => ⟨S2, .f32⟩
  | 26 => ⟨S1x2, .f32⟩
  | 27 => ⟨S65536x2, .f32⟩
  | 28 => ⟨S65536x2, .f32⟩
  | 29 => ⟨S_, .f32⟩
  | 30 => ⟨S65536x2, .f32⟩
  | 31 => ⟨S65536x2, .f32⟩
  | 32 => ⟨S65536x1, .f32⟩
  | 33 => ⟨S65536x1, .f32⟩
  | 34 => ⟨S_, .f32⟩
  | 35 => ⟨S_, .f32⟩
  | 36 => ⟨S_, .f32⟩
  | 37 => ⟨S65536x1, .f32⟩
  | 38 => ⟨S65536x1, .f32⟩
  | 39 => ⟨S_, .f32⟩
  | 40 => ⟨S65536x1, .f32⟩
  | 41 => ⟨S65536x1, .f32⟩
  | 42 => ⟨S65536x1, .f32⟩
  | 43 => ⟨S65536x1, .f32⟩
  | 44 => ⟨S65536x1, .f32⟩
  | 45 => ⟨S65536x1, .f32⟩
  | 46 => ⟨S65536x1, .f32⟩
  | 47 => ⟨S65536x1, .f32⟩
  | 48 => ⟨S65536x1, .f32⟩
  | 49 => ⟨S_, .f32⟩
  | 50 => ⟨S65536x1, .f32⟩
  | 51 => ⟨S65536x1, .f32⟩
  | 52 => ⟨S65536x1, .f32⟩
  | 53 => ⟨S_, .f32⟩
  | 54 => ⟨S65536x1, .f32⟩
  | 55 => ⟨S65536x1, .f32⟩
  | 56 => ⟨S65536x263, .f32⟩
  | 57 => ⟨S1x263x256, .f32⟩
  | 58 => ⟨S263x256, .f32⟩
  | 59 => ⟨S65536x256, .f32⟩
  | 60 => ⟨S1x256, .f32⟩
  | 61 => ⟨S256, .f32⟩
  | 62 => ⟨S1x256, .f32⟩
  | 63 => ⟨S65536x256, .f32⟩
  | 64 => ⟨S65536x256, .f32⟩
  | 65 => ⟨S_, .f32⟩
  | 66 => ⟨S65536x256, .f32⟩
  | 67 => ⟨S65536x256, .f32⟩
  | 68 => ⟨S1x256x256, .f32⟩
  | 69 => ⟨S256x256, .f32⟩
  | 70 => ⟨S65536x256, .f32⟩
  | 71 => ⟨S1x256, .f32⟩
  | 72 => ⟨S256, .f32⟩
  | 73 => ⟨S1x256, .f32⟩
  | 74 => ⟨S65536x256, .f32⟩
  | 75 => ⟨S65536x256, .f32⟩
  | 76 => ⟨S_, .f32⟩
  | 77 => ⟨S65536x256, .f32⟩
  | 78 => ⟨S65536x256, .f32⟩
  | 79 => ⟨S1x256x2, .f32⟩
  | 80 => ⟨S256x2, .f32⟩
  | 81 => ⟨S65536x2, .f32⟩
  | 82 => ⟨S1x2, .f32⟩
  | 83 => ⟨S2, .f32⟩
  | 84 => ⟨S1x2, .f32⟩
  | 85 => ⟨S65536x2, .f32⟩
  | 86 => ⟨S65536x2, .f32⟩
  | 87 => ⟨S_, .f32⟩
  | 88 => ⟨S65536x2, .f32⟩
  | 89 => ⟨S65536x2, .f32⟩
  | 90 => ⟨S65536x1, .f32⟩
  | 91 => ⟨S65536x1, .f32⟩
  | 92 => ⟨S_, .f32⟩
  | 93 => ⟨S_, .f32⟩
  | 94 => ⟨S_, .f32⟩
  | 95 => ⟨S65536x1, .f32⟩
  | 96 => ⟨S65536x1, .f32⟩
  | 97 => ⟨S_, .f32⟩
  | 98 => ⟨S65536x1, .f32⟩
  | 99 => ⟨S65536x1, .f32⟩
  | 100 => ⟨S65536x1, .f32⟩
  | 101 => ⟨S65536x1, .f32⟩
  | 102 => ⟨S65536x1, .f32⟩
  | 103 => ⟨S65536x1, .f32⟩
  | 104 => ⟨S65536x1, .f32⟩
  | 105 => ⟨S65536x1, .f32⟩
  | 106 => ⟨S65536x1, .f32⟩
  | 107 => ⟨S_, .f32⟩
  | 108 => ⟨S65536x1, .f32⟩
  | 109 => ⟨S65536x1, .f32⟩
  | 110 => ⟨S65536x1, .f32⟩
  | 111 => ⟨S_, .f32⟩
  | 112 => ⟨S65536x1, .f32⟩
  | 113 => ⟨S65536x1, .f32⟩
  | 114 => ⟨S65536x264, .f32⟩
  | 115 => ⟨S65536x8, .f32⟩
  | 116 => ⟨S65536x8, .f32⟩
  | 117 => ⟨S65536x8, .f32⟩
  | _ => ⟨S65536x64, .f32⟩

abbrev hbmTy (i : Nat) : BufTy := match i / 128 with
  | 0 => hbmTy0_0 i
  | 1 => hbmTy0_1 i
  | 2 => hbmTy0_2 i
  | 3 => hbmTy0_3 i
  | _ => ⟨S65536x64, .f32⟩

abbrev bufTy : (tb : Table) → Fin (tcTables nBuf tb) → BufTy
  | .hbm, ⟨i, _⟩ => hbmTy i
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_cst : Ref sig .tc := ⟨.hbm, 25, rfl⟩
abbrev main_call1_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call2_cst : Ref sig .tc := ⟨.hbm, 32, rfl⟩
abbrev main_call2_v0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call3_cst : Ref sig .tc := ⟨.hbm, 43, rfl⟩
abbrev main_call3_v0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call4_cst : Ref sig .tc := ⟨.hbm, 54, rfl⟩
abbrev main_call4_v0 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call5_cst : Ref sig .tc := ⟨.hbm, 65, rfl⟩
abbrev main_call5_v0 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst : Ref sig .tc := ⟨.hbm, 70, rfl⟩
abbrev main_cst_0 : Ref sig .tc := ⟨.hbm, 71, rfl⟩
abbrev main_call6_v0 : Ref sig .tc := ⟨.hbm, 72, rfl⟩
abbrev main_call6_v1 : Ref sig .tc := ⟨.hbm, 73, rfl⟩
abbrev main_call6_v2 : Ref sig .tc := ⟨.hbm, 74, rfl⟩
abbrev main_call6_v3 : Ref sig .tc := ⟨.hbm, 75, rfl⟩
abbrev main_call6_v4 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_1 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_2 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_call7_cst : Ref sig .tc := ⟨.hbm, 101, rfl⟩
abbrev main_call7_v0 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_call8_cst : Ref sig .tc := ⟨.hbm, 112, rfl⟩
abbrev main_call8_v0 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_call9_cst : Ref sig .tc := ⟨.hbm, 123, rfl⟩
abbrev main_call9_v0 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_3 : Ref sig .tc := ⟨.hbm, 128, rfl⟩
abbrev main_cst_4 : Ref sig .tc := ⟨.hbm, 129, rfl⟩
abbrev main_call10_v0 : Ref sig .tc := ⟨.hbm, 130, rfl⟩
abbrev main_call10_v1 : Ref sig .tc := ⟨.hbm, 131, rfl⟩
abbrev main_call10_v2 : Ref sig .tc := ⟨.hbm, 132, rfl⟩
abbrev main_call10_v3 : Ref sig .tc := ⟨.hbm, 133, rfl⟩
abbrev main_call10_v4 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_cst_5 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_cst_6 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_call11_cst : Ref sig .tc := ⟨.hbm, 159, rfl⟩
abbrev main_call11_v0 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_call12_cst : Ref sig .tc := ⟨.hbm, 170, rfl⟩
abbrev main_call12_v0 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_call13_cst : Ref sig .tc := ⟨.hbm, 181, rfl⟩
abbrev main_call13_v0 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_cst_7 : Ref sig .tc := ⟨.hbm, 186, rfl⟩
abbrev main_cst_8 : Ref sig .tc := ⟨.hbm, 187, rfl⟩
abbrev main_call14_v0 : Ref sig .tc := ⟨.hbm, 188, rfl⟩
abbrev main_call14_v1 : Ref sig .tc := ⟨.hbm, 189, rfl⟩
abbrev main_call14_v2 : Ref sig .tc := ⟨.hbm, 190, rfl⟩
abbrev main_call14_v3 : Ref sig .tc := ⟨.hbm, 191, rfl⟩
abbrev main_call14_v4 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_cst_9 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_cst_10 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_call15_cst : Ref sig .tc := ⟨.hbm, 217, rfl⟩
abbrev main_call15_v0 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_call16_cst : Ref sig .tc := ⟨.hbm, 228, rfl⟩
abbrev main_call16_v0 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_call17_cst : Ref sig .tc := ⟨.hbm, 239, rfl⟩
abbrev main_call17_v0 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_cst_11 : Ref sig .tc := ⟨.hbm, 244, rfl⟩
abbrev main_cst_12 : Ref sig .tc := ⟨.hbm, 245, rfl⟩
abbrev main_call18_v0 : Ref sig .tc := ⟨.hbm, 246, rfl⟩
abbrev main_call18_v1 : Ref sig .tc := ⟨.hbm, 247, rfl⟩
abbrev main_call18_v2 : Ref sig .tc := ⟨.hbm, 248, rfl⟩
abbrev main_call18_v3 : Ref sig .tc := ⟨.hbm, 249, rfl⟩
abbrev main_call18_v4 : Ref sig .tc := ⟨.hbm, 250, rfl⟩
abbrev main_v173 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩
abbrev main_v179 : Ref sig .tc := ⟨.hbm, 257, rfl⟩
abbrev main_v180 : Ref sig .tc := ⟨.hbm, 258, rfl⟩
abbrev main_cst_13 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_cst_14 : Ref sig .tc := ⟨.hbm, 263, rfl⟩
abbrev main_v184 : Ref sig .tc := ⟨.hbm, 264, rfl⟩
abbrev main_v185 : Ref sig .tc := ⟨.hbm, 265, rfl⟩
abbrev main_v186 : Ref sig .tc := ⟨.hbm, 266, rfl⟩
abbrev main_v187 : Ref sig .tc := ⟨.hbm, 267, rfl⟩
abbrev main_v188 : Ref sig .tc := ⟨.hbm, 268, rfl⟩
abbrev main_v189 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_call19_cst : Ref sig .tc := ⟨.hbm, 275, rfl⟩
abbrev main_call19_v0 : Ref sig .tc := ⟨.hbm, 276, rfl⟩
abbrev main_v195 : Ref sig .tc := ⟨.hbm, 277, rfl⟩
abbrev main_v196 : Ref sig .tc := ⟨.hbm, 278, rfl⟩
abbrev main_v197 : Ref sig .tc := ⟨.hbm, 279, rfl⟩
abbrev main_v198 : Ref sig .tc := ⟨.hbm, 280, rfl⟩
abbrev main_v199 : Ref sig .tc := ⟨.hbm, 281, rfl⟩
abbrev main_v200 : Ref sig .tc := ⟨.hbm, 282, rfl⟩
abbrev main_v201 : Ref sig .tc := ⟨.hbm, 283, rfl⟩
abbrev main_v202 : Ref sig .tc := ⟨.hbm, 284, rfl⟩
abbrev main_v203 : Ref sig .tc := ⟨.hbm, 285, rfl⟩
abbrev main_call20_cst : Ref sig .tc := ⟨.hbm, 286, rfl⟩
abbrev main_call20_v0 : Ref sig .tc := ⟨.hbm, 287, rfl⟩
abbrev main_v204 : Ref sig .tc := ⟨.hbm, 288, rfl⟩
abbrev main_v205 : Ref sig .tc := ⟨.hbm, 289, rfl⟩
abbrev main_v206 : Ref sig .tc := ⟨.hbm, 290, rfl⟩
abbrev main_v207 : Ref sig .tc := ⟨.hbm, 291, rfl⟩
abbrev main_v208 : Ref sig .tc := ⟨.hbm, 292, rfl⟩
abbrev main_v209 : Ref sig .tc := ⟨.hbm, 293, rfl⟩
abbrev main_v210 : Ref sig .tc := ⟨.hbm, 294, rfl⟩
abbrev main_v211 : Ref sig .tc := ⟨.hbm, 295, rfl⟩
abbrev main_v212 : Ref sig .tc := ⟨.hbm, 296, rfl⟩
abbrev main_call21_cst : Ref sig .tc := ⟨.hbm, 297, rfl⟩
abbrev main_call21_v0 : Ref sig .tc := ⟨.hbm, 298, rfl⟩
abbrev main_v213 : Ref sig .tc := ⟨.hbm, 299, rfl⟩
abbrev main_v214 : Ref sig .tc := ⟨.hbm, 300, rfl⟩
abbrev main_v215 : Ref sig .tc := ⟨.hbm, 301, rfl⟩
abbrev main_cst_15 : Ref sig .tc := ⟨.hbm, 302, rfl⟩
abbrev main_cst_16 : Ref sig .tc := ⟨.hbm, 303, rfl⟩
abbrev main_call22_v0 : Ref sig .tc := ⟨.hbm, 304, rfl⟩
abbrev main_call22_v1 : Ref sig .tc := ⟨.hbm, 305, rfl⟩
abbrev main_call22_v2 : Ref sig .tc := ⟨.hbm, 306, rfl⟩
abbrev main_call22_v3 : Ref sig .tc := ⟨.hbm, 307, rfl⟩
abbrev main_call22_v4 : Ref sig .tc := ⟨.hbm, 308, rfl⟩
abbrev main_v216 : Ref sig .tc := ⟨.hbm, 309, rfl⟩
abbrev main_v217 : Ref sig .tc := ⟨.hbm, 310, rfl⟩
abbrev main_v218 : Ref sig .tc := ⟨.hbm, 311, rfl⟩
abbrev main_v219 : Ref sig .tc := ⟨.hbm, 312, rfl⟩
abbrev main_v220 : Ref sig .tc := ⟨.hbm, 313, rfl⟩
abbrev main_v221 : Ref sig .tc := ⟨.hbm, 314, rfl⟩
abbrev main_v222 : Ref sig .tc := ⟨.hbm, 315, rfl⟩
abbrev main_v223 : Ref sig .tc := ⟨.hbm, 316, rfl⟩
abbrev main_cst_17 : Ref sig .tc := ⟨.hbm, 317, rfl⟩
abbrev main_v224 : Ref sig .tc := ⟨.hbm, 318, rfl⟩
abbrev main_v225 : Ref sig .tc := ⟨.hbm, 319, rfl⟩
abbrev main_v226 : Ref sig .tc := ⟨.hbm, 320, rfl⟩
abbrev main_cst_18 : Ref sig .tc := ⟨.hbm, 321, rfl⟩
abbrev main_v227 : Ref sig .tc := ⟨.hbm, 322, rfl⟩
abbrev main_v228 : Ref sig .tc := ⟨.hbm, 323, rfl⟩
abbrev main_v229 : Ref sig .tc := ⟨.hbm, 324, rfl⟩
abbrev main_v230 : Ref sig .tc := ⟨.hbm, 325, rfl⟩
abbrev main_v231 : Ref sig .tc := ⟨.hbm, 326, rfl⟩
abbrev main_v232 : Ref sig .tc := ⟨.hbm, 327, rfl⟩
abbrev main_v233 : Ref sig .tc := ⟨.hbm, 328, rfl⟩
abbrev main_v234 : Ref sig .tc := ⟨.hbm, 329, rfl⟩
abbrev main_v235 : Ref sig .tc := ⟨.hbm, 330, rfl⟩
abbrev main_v236 : Ref sig .tc := ⟨.hbm, 331, rfl⟩
abbrev main_v237 : Ref sig .tc := ⟨.hbm, 332, rfl⟩
abbrev main_call23_cst : Ref sig .tc := ⟨.hbm, 333, rfl⟩
abbrev main_call23_v0 : Ref sig .tc := ⟨.hbm, 334, rfl⟩
abbrev main_v238 : Ref sig .tc := ⟨.hbm, 335, rfl⟩
abbrev main_v239 : Ref sig .tc := ⟨.hbm, 336, rfl⟩
abbrev main_v240 : Ref sig .tc := ⟨.hbm, 337, rfl⟩
abbrev main_v241 : Ref sig .tc := ⟨.hbm, 338, rfl⟩
abbrev main_v242 : Ref sig .tc := ⟨.hbm, 339, rfl⟩
abbrev main_v243 : Ref sig .tc := ⟨.hbm, 340, rfl⟩
abbrev main_v244 : Ref sig .tc := ⟨.hbm, 341, rfl⟩
abbrev main_v245 : Ref sig .tc := ⟨.hbm, 342, rfl⟩
abbrev main_v246 : Ref sig .tc := ⟨.hbm, 343, rfl⟩
abbrev main_call24_cst : Ref sig .tc := ⟨.hbm, 344, rfl⟩
abbrev main_call24_v0 : Ref sig .tc := ⟨.hbm, 345, rfl⟩
abbrev main_v247 : Ref sig .tc := ⟨.hbm, 346, rfl⟩
abbrev main_v248 : Ref sig .tc := ⟨.hbm, 347, rfl⟩
abbrev main_v249 : Ref sig .tc := ⟨.hbm, 348, rfl⟩
abbrev main_v250 : Ref sig .tc := ⟨.hbm, 349, rfl⟩
abbrev main_v251 : Ref sig .tc := ⟨.hbm, 350, rfl⟩
abbrev main_v252 : Ref sig .tc := ⟨.hbm, 351, rfl⟩
abbrev main_v253 : Ref sig .tc := ⟨.hbm, 352, rfl⟩
abbrev main_v254 : Ref sig .tc := ⟨.hbm, 353, rfl⟩
abbrev main_v255 : Ref sig .tc := ⟨.hbm, 354, rfl⟩
abbrev main_call25_cst : Ref sig .tc := ⟨.hbm, 355, rfl⟩
abbrev main_call25_v0 : Ref sig .tc := ⟨.hbm, 356, rfl⟩
abbrev main_v256 : Ref sig .tc := ⟨.hbm, 357, rfl⟩
abbrev main_v257 : Ref sig .tc := ⟨.hbm, 358, rfl⟩
abbrev main_v258 : Ref sig .tc := ⟨.hbm, 359, rfl⟩
abbrev main_cst_19 : Ref sig .tc := ⟨.hbm, 360, rfl⟩
abbrev main_cst_20 : Ref sig .tc := ⟨.hbm, 361, rfl⟩
abbrev main_call26_v0 : Ref sig .tc := ⟨.hbm, 362, rfl⟩
abbrev main_call26_v1 : Ref sig .tc := ⟨.hbm, 363, rfl⟩
abbrev main_call26_v2 : Ref sig .tc := ⟨.hbm, 364, rfl⟩
abbrev main_call26_v3 : Ref sig .tc := ⟨.hbm, 365, rfl⟩
abbrev main_call26_v4 : Ref sig .tc := ⟨.hbm, 366, rfl⟩
abbrev main_v259 : Ref sig .tc := ⟨.hbm, 367, rfl⟩
abbrev main_v260 : Ref sig .tc := ⟨.hbm, 368, rfl⟩
abbrev main_v261 : Ref sig .tc := ⟨.hbm, 369, rfl⟩
abbrev main_v262 : Ref sig .tc := ⟨.hbm, 370, rfl⟩
abbrev main_v263 : Ref sig .tc := ⟨.hbm, 371, rfl⟩
abbrev main_v264 : Ref sig .tc := ⟨.hbm, 372, rfl⟩
abbrev main_v265 : Ref sig .tc := ⟨.hbm, 373, rfl⟩
abbrev main_v266 : Ref sig .tc := ⟨.hbm, 374, rfl⟩
abbrev main_cst_21 : Ref sig .tc := ⟨.hbm, 375, rfl⟩
abbrev main_v267 : Ref sig .tc := ⟨.hbm, 376, rfl⟩
abbrev main_v268 : Ref sig .tc := ⟨.hbm, 377, rfl⟩
abbrev main_v269 : Ref sig .tc := ⟨.hbm, 378, rfl⟩
abbrev main_cst_22 : Ref sig .tc := ⟨.hbm, 379, rfl⟩
abbrev main_v270 : Ref sig .tc := ⟨.hbm, 380, rfl⟩
abbrev main_v271 : Ref sig .tc := ⟨.hbm, 381, rfl⟩
abbrev main_v272 : Ref sig .tc := ⟨.hbm, 382, rfl⟩
abbrev main_v273 : Ref sig .tc := ⟨.hbm, 383, rfl⟩
abbrev main_v274 : Ref sig .tc := ⟨.hbm, 384, rfl⟩
abbrev main_v275 : Ref sig .tc := ⟨.hbm, 385, rfl⟩
abbrev main_v276 : Ref sig .tc := ⟨.hbm, 386, rfl⟩
abbrev main_v277 : Ref sig .tc := ⟨.hbm, 387, rfl⟩
abbrev main_v278 : Ref sig .tc := ⟨.hbm, 388, rfl⟩
abbrev main_v279 : Ref sig .tc := ⟨.hbm, 389, rfl⟩
abbrev main_v280 : Ref sig .tc := ⟨.hbm, 390, rfl⟩
abbrev main_call27_cst : Ref sig .tc := ⟨.hbm, 391, rfl⟩
abbrev main_call27_v0 : Ref sig .tc := ⟨.hbm, 392, rfl⟩
abbrev main_v281 : Ref sig .tc := ⟨.hbm, 393, rfl⟩
abbrev main_v282 : Ref sig .tc := ⟨.hbm, 394, rfl⟩
abbrev main_v283 : Ref sig .tc := ⟨.hbm, 395, rfl⟩
abbrev main_v284 : Ref sig .tc := ⟨.hbm, 396, rfl⟩
abbrev main_v285 : Ref sig .tc := ⟨.hbm, 397, rfl⟩
abbrev main_v286 : Ref sig .tc := ⟨.hbm, 398, rfl⟩
abbrev main_v287 : Ref sig .tc := ⟨.hbm, 399, rfl⟩
abbrev main_v288 : Ref sig .tc := ⟨.hbm, 400, rfl⟩
abbrev main_v289 : Ref sig .tc := ⟨.hbm, 401, rfl⟩
abbrev main_call28_cst : Ref sig .tc := ⟨.hbm, 402, rfl⟩
abbrev main_call28_v0 : Ref sig .tc := ⟨.hbm, 403, rfl⟩
abbrev main_v290 : Ref sig .tc := ⟨.hbm, 404, rfl⟩
abbrev main_v291 : Ref sig .tc := ⟨.hbm, 405, rfl⟩
abbrev main_v292 : Ref sig .tc := ⟨.hbm, 406, rfl⟩
abbrev main_v293 : Ref sig .tc := ⟨.hbm, 407, rfl⟩
abbrev main_v294 : Ref sig .tc := ⟨.hbm, 408, rfl⟩
abbrev main_v295 : Ref sig .tc := ⟨.hbm, 409, rfl⟩
abbrev main_v296 : Ref sig .tc := ⟨.hbm, 410, rfl⟩
abbrev main_v297 : Ref sig .tc := ⟨.hbm, 411, rfl⟩
abbrev main_v298 : Ref sig .tc := ⟨.hbm, 412, rfl⟩
abbrev main_call29_cst : Ref sig .tc := ⟨.hbm, 413, rfl⟩
abbrev main_call29_v0 : Ref sig .tc := ⟨.hbm, 414, rfl⟩
abbrev main_v299 : Ref sig .tc := ⟨.hbm, 415, rfl⟩
abbrev main_v300 : Ref sig .tc := ⟨.hbm, 416, rfl⟩
abbrev main_v301 : Ref sig .tc := ⟨.hbm, 417, rfl⟩
abbrev main_cst_23 : Ref sig .tc := ⟨.hbm, 418, rfl⟩
abbrev main_cst_24 : Ref sig .tc := ⟨.hbm, 419, rfl⟩
abbrev main_call30_v0 : Ref sig .tc := ⟨.hbm, 420, rfl⟩
abbrev main_call30_v1 : Ref sig .tc := ⟨.hbm, 421, rfl⟩
abbrev main_call30_v2 : Ref sig .tc := ⟨.hbm, 422, rfl⟩
abbrev main_call30_v3 : Ref sig .tc := ⟨.hbm, 423, rfl⟩
abbrev main_call30_v4 : Ref sig .tc := ⟨.hbm, 424, rfl⟩
abbrev main_v302 : Ref sig .tc := ⟨.hbm, 425, rfl⟩
abbrev main_v303 : Ref sig .tc := ⟨.hbm, 426, rfl⟩
abbrev main_v304 : Ref sig .tc := ⟨.hbm, 427, rfl⟩
abbrev main_v305 : Ref sig .tc := ⟨.hbm, 428, rfl⟩
abbrev main_v306 : Ref sig .tc := ⟨.hbm, 429, rfl⟩
abbrev main_v307 : Ref sig .tc := ⟨.hbm, 430, rfl⟩
abbrev main_v308 : Ref sig .tc := ⟨.hbm, 431, rfl⟩
abbrev main_v309 : Ref sig .tc := ⟨.hbm, 432, rfl⟩
abbrev main_cst_25 : Ref sig .tc := ⟨.hbm, 433, rfl⟩
abbrev main_v310 : Ref sig .tc := ⟨.hbm, 434, rfl⟩
abbrev main_v311 : Ref sig .tc := ⟨.hbm, 435, rfl⟩
abbrev main_v312 : Ref sig .tc := ⟨.hbm, 436, rfl⟩
abbrev main_cst_26 : Ref sig .tc := ⟨.hbm, 437, rfl⟩
abbrev main_v313 : Ref sig .tc := ⟨.hbm, 438, rfl⟩
abbrev main_v314 : Ref sig .tc := ⟨.hbm, 439, rfl⟩
abbrev main_v315 : Ref sig .tc := ⟨.hbm, 440, rfl⟩
abbrev main_v316 : Ref sig .tc := ⟨.hbm, 441, rfl⟩
abbrev main_v317 : Ref sig .tc := ⟨.hbm, 442, rfl⟩
abbrev main_v318 : Ref sig .tc := ⟨.hbm, 443, rfl⟩
abbrev main_v319 : Ref sig .tc := ⟨.hbm, 444, rfl⟩
abbrev main_v320 : Ref sig .tc := ⟨.hbm, 445, rfl⟩
abbrev main_v321 : Ref sig .tc := ⟨.hbm, 446, rfl⟩
abbrev main_v322 : Ref sig .tc := ⟨.hbm, 447, rfl⟩
abbrev main_v323 : Ref sig .tc := ⟨.hbm, 448, rfl⟩
abbrev main_call31_cst : Ref sig .tc := ⟨.hbm, 449, rfl⟩
abbrev main_call31_v0 : Ref sig .tc := ⟨.hbm, 450, rfl⟩
abbrev main_v324 : Ref sig .tc := ⟨.hbm, 451, rfl⟩
abbrev main_v325 : Ref sig .tc := ⟨.hbm, 452, rfl⟩
abbrev main_v326 : Ref sig .tc := ⟨.hbm, 453, rfl⟩
abbrev main_v327 : Ref sig .tc := ⟨.hbm, 454, rfl⟩
abbrev main_v328 : Ref sig .tc := ⟨.hbm, 455, rfl⟩
abbrev main_v329 : Ref sig .tc := ⟨.hbm, 456, rfl⟩
abbrev main_v330 : Ref sig .tc := ⟨.hbm, 457, rfl⟩
abbrev main_v331 : Ref sig .tc := ⟨.hbm, 458, rfl⟩
abbrev main_v332 : Ref sig .tc := ⟨.hbm, 459, rfl⟩
abbrev main_call32_cst : Ref sig .tc := ⟨.hbm, 460, rfl⟩
abbrev main_call32_v0 : Ref sig .tc := ⟨.hbm, 461, rfl⟩
abbrev main_v333 : Ref sig .tc := ⟨.hbm, 462, rfl⟩
abbrev main_v334 : Ref sig .tc := ⟨.hbm, 463, rfl⟩
abbrev main_v335 : Ref sig .tc := ⟨.hbm, 464, rfl⟩
abbrev main_v336 : Ref sig .tc := ⟨.hbm, 465, rfl⟩
abbrev main_v337 : Ref sig .tc := ⟨.hbm, 466, rfl⟩
abbrev main_v338 : Ref sig .tc := ⟨.hbm, 467, rfl⟩
abbrev main_v339 : Ref sig .tc := ⟨.hbm, 468, rfl⟩
abbrev main_v340 : Ref sig .tc := ⟨.hbm, 469, rfl⟩
abbrev main_v341 : Ref sig .tc := ⟨.hbm, 470, rfl⟩
abbrev main_call33_cst : Ref sig .tc := ⟨.hbm, 471, rfl⟩
abbrev main_call33_v0 : Ref sig .tc := ⟨.hbm, 472, rfl⟩
abbrev main_v342 : Ref sig .tc := ⟨.hbm, 473, rfl⟩
abbrev main_v343 : Ref sig .tc := ⟨.hbm, 474, rfl⟩
abbrev main_v344 : Ref sig .tc := ⟨.hbm, 475, rfl⟩
abbrev main_cst_27 : Ref sig .tc := ⟨.hbm, 476, rfl⟩
abbrev main_cst_28 : Ref sig .tc := ⟨.hbm, 477, rfl⟩
abbrev main_call34_v0 : Ref sig .tc := ⟨.hbm, 478, rfl⟩
abbrev main_call34_v1 : Ref sig .tc := ⟨.hbm, 479, rfl⟩
abbrev main_call34_v2 : Ref sig .tc := ⟨.hbm, 480, rfl⟩
abbrev main_call34_v3 : Ref sig .tc := ⟨.hbm, 481, rfl⟩
abbrev main_call34_v4 : Ref sig .tc := ⟨.hbm, 482, rfl⟩
abbrev main_v345 : Ref sig .tc := ⟨.hbm, 483, rfl⟩
abbrev main_v346 : Ref sig .tc := ⟨.hbm, 484, rfl⟩
abbrev main_v347 : Ref sig .tc := ⟨.hbm, 485, rfl⟩
abbrev main_v348 : Ref sig .tc := ⟨.hbm, 486, rfl⟩
abbrev main_v349 : Ref sig .tc := ⟨.hbm, 487, rfl⟩
abbrev main_v350 : Ref sig .tc := ⟨.hbm, 488, rfl⟩
abbrev main_v351 : Ref sig .tc := ⟨.hbm, 489, rfl⟩
abbrev main_v352 : Ref sig .tc := ⟨.hbm, 490, rfl⟩
abbrev main_cst_29 : Ref sig .tc := ⟨.hbm, 491, rfl⟩
abbrev main_v353 : Ref sig .tc := ⟨.hbm, 492, rfl⟩
abbrev main_v354 : Ref sig .tc := ⟨.hbm, 493, rfl⟩
abbrev main_v355 : Ref sig .tc := ⟨.hbm, 494, rfl⟩
abbrev main_cst_30 : Ref sig .tc := ⟨.hbm, 495, rfl⟩
abbrev main_v356 : Ref sig .tc := ⟨.hbm, 496, rfl⟩
abbrev main_v357 : Ref sig .tc := ⟨.hbm, 497, rfl⟩
abbrev main_v358 : Ref sig .tc := ⟨.hbm, 498, rfl⟩
abbrev main_v359 : Ref sig .tc := ⟨.hbm, 499, rfl⟩
abbrev main_v360 : Ref sig .tc := ⟨.hbm, 500, rfl⟩
abbrev main_v361 : Ref sig .tc := ⟨.hbm, 501, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  slices_S8x263x256_S1x256x256_0_0_0 : S8x263x256.Slices ![0, 0, 0] S1x256x256
  shapeCasts_S1x256x256_S256x256 : S1x256x256.ShapeCasts S256x256
  slices_S8x256_S1x256_0_0 : S8x256.Slices ![0, 0] S1x256
  shapeCasts_S1x256_S256 : S1x256.ShapeCasts S256
  slices_S8x256x256_S1x256x256_0_0_0 : S8x256x256.Slices ![0, 0, 0] S1x256x256
  slices_S8x256x2_S1x256x2_0_0_0 : S8x256x2.Slices ![0, 0, 0] S1x256x2
  shapeCasts_S1x256x2_S256x2 : S1x256x2.ShapeCasts S256x2
  slices_S8x2_S1x2_0_0 : S8x2.Slices ![0, 0] S1x2
  shapeCasts_S1x2_S2 : S1x2.ShapeCasts S2
  bcast_S2_S1x2_1 : S2.BroadcastsInDim S1x2 (![1] : Fin 1 → Fin S1x2.rank)
  bcast_S1x2_S65536x2_0_1 : S1x2.BroadcastsInDim S65536x2 (![0, 1] : Fin 2 → Fin S65536x2.rank)
  bcast_S_S65536x2 : S_.BroadcastsInDim S65536x2 (![] : Fin 0 → Fin S65536x2.rank)
  slices_S65536x2_S65536x1_0_0 : S65536x2.Slices ![0, 0] S65536x1
  slices_S65536x2_S65536x1_0_1 : S65536x2.Slices ![0, 1] S65536x1
  bcast_S_S65536x1 : S_.BroadcastsInDim S65536x1 (![] : Fin 0 → Fin S65536x1.rank)
  slices_S65536x8_S65536x1_0_0 : S65536x8.Slices ![0, 0] S65536x1
  concatenates_S65536x256_S65536x1_S65536x257_d1 : Shape.Concatenates [S65536x256, S65536x1] S65536x257 1
  slices_S8x263x256_S1x257x256_1_0_0 : S8x263x256.Slices ![1, 0, 0] S1x257x256
  shapeCasts_S1x257x256_S257x256 : S1x257x256.ShapeCasts S257x256
  slices_S8x256_S1x256_1_0 : S8x256.Slices ![1, 0] S1x256
  slices_S8x256x256_S1x256x256_1_0_0 : S8x256x256.Slices ![1, 0, 0] S1x256x256
  slices_S8x256x2_S1x256x2_1_0_0 : S8x256x2.Slices ![1, 0, 0] S1x256x2
  slices_S8x2_S1x2_1_0 : S8x2.Slices ![1, 0] S1x2
  slices_S65536x8_S65536x1_0_1 : S65536x8.Slices ![0, 1] S65536x1
  concatenates_S65536x257_S65536x1_S65536x258_d1 : Shape.Concatenates [S65536x257, S65536x1] S65536x258 1
  slices_S8x263x256_S1x258x256_2_0_0 : S8x263x256.Slices ![2, 0, 0] S1x258x256
  shapeCasts_S1x258x256_S258x256 : S1x258x256.ShapeCasts S258x256
  slices_S8x256_S1x256_2_0 : S8x256.Slices ![2, 0] S1x256
  slices_S8x256x256_S1x256x256_2_0_0 : S8x256x256.Slices ![2, 0, 0] S1x256x256
  slices_S8x256x2_S1x256x2_2_0_0 : S8x256x2.Slices ![2, 0, 0] S1x256x2
  slices_S8x2_S1x2_2_0 : S8x2.Slices ![2, 0] S1x2
  slices_S65536x8_S65536x1_0_2 : S65536x8.Slices ![0, 2] S65536x1
  concatenates_S65536x258_S65536x1_S65536x259_d1 : Shape.Concatenates [S65536x258, S65536x1] S65536x259 1
  slices_S8x263x256_S1x259x256_3_0_0 : S8x263x256.Slices ![3, 0, 0] S1x259x256
  shapeCasts_S1x259x256_S259x256 : S1x259x256.ShapeCasts S259x256
  slices_S8x256_S1x256_3_0 : S8x256.Slices ![3, 0] S1x256
  slices_S8x256x256_S1x256x256_3_0_0 : S8x256x256.Slices ![3, 0, 0] S1x256x256
  slices_S8x256x2_S1x256x2_3_0_0 : S8x256x2.Slices ![3, 0, 0] S1x256x2
  slices_S8x2_S1x2_3_0 : S8x2.Slices ![3, 0] S1x2
  slices_S65536x8_S65536x1_0_3 : S65536x8.Slices ![0, 3] S65536x1
  concatenates_S65536x259_S65536x1_S65536x260_d1 : Shape.Concatenates [S65536x259, S65536x1] S65536x260 1
  slices_S8x263x256_S1x260x256_4_0_0 : S8x263x256.Slices ![4, 0, 0] S1x260x256
  shapeCasts_S1x260x256_S260x256 : S1x260x256.ShapeCasts S260x256
  slices_S8x256_S1x256_4_0 : S8x256.Slices ![4, 0] S1x256
  slices_S8x256x256_S1x256x256_4_0_0 : S8x256x256.Slices ![4, 0, 0] S1x256x256
  slices_S8x256x2_S1x256x2_4_0_0 : S8x256x2.Slices ![4, 0, 0] S1x256x2
  slices_S8x2_S1x2_4_0 : S8x2.Slices ![4, 0] S1x2
  slices_S65536x8_S65536x1_0_4 : S65536x8.Slices ![0, 4] S65536x1
  concatenates_S65536x260_S65536x1_S65536x261_d1 : Shape.Concatenates [S65536x260, S65536x1] S65536x261 1
  slices_S8x263x256_S1x261x256_5_0_0 : S8x263x256.Slices ![5, 0, 0] S1x261x256
  shapeCasts_S1x261x256_S261x256 : S1x261x256.ShapeCasts S261x256
  slices_S8x256_S1x256_5_0 : S8x256.Slices ![5, 0] S1x256
  slices_S8x256x256_S1x256x256_5_0_0 : S8x256x256.Slices ![5, 0, 0] S1x256x256
  slices_S8x256x2_S1x256x2_5_0_0 : S8x256x2.Slices ![5, 0, 0] S1x256x2
  slices_S8x2_S1x2_5_0 : S8x2.Slices ![5, 0] S1x2
  slices_S65536x8_S65536x1_0_5 : S65536x8.Slices ![0, 5] S65536x1
  concatenates_S65536x261_S65536x1_S65536x262_d1 : Shape.Concatenates [S65536x261, S65536x1] S65536x262 1
  slices_S8x263x256_S1x262x256_6_0_0 : S8x263x256.Slices ![6, 0, 0] S1x262x256
  shapeCasts_S1x262x256_S262x256 : S1x262x256.ShapeCasts S262x256
  slices_S8x256_S1x256_6_0 : S8x256.Slices ![6, 0] S1x256
  slices_S8x256x256_S1x256x256_6_0_0 : S8x256x256.Slices ![6, 0, 0] S1x256x256
  slices_S8x256x2_S1x256x2_6_0_0 : S8x256x2.Slices ![6, 0, 0] S1x256x2
  slices_S8x2_S1x2_6_0 : S8x2.Slices ![6, 0] S1x2
  slices_S65536x8_S65536x1_0_6 : S65536x8.Slices ![0, 6] S65536x1
  concatenates_S65536x262_S65536x1_S65536x263_d1 : Shape.Concatenates [S65536x262, S65536x1] S65536x263 1
  slices_S8x263x256_S1x263x256_7_0_0 : S8x263x256.Slices ![7, 0, 0] S1x263x256
  shapeCasts_S1x263x256_S263x256 : S1x263x256.ShapeCasts S263x256
  slices_S8x256_S1x256_7_0 : S8x256.Slices ![7, 0] S1x256
  slices_S8x256x256_S1x256x256_7_0_0 : S8x256x256.Slices ![7, 0, 0] S1x256x256
  slices_S8x256x2_S1x256x2_7_0_0 : S8x256x2.Slices ![7, 0, 0] S1x256x2
  slices_S8x2_S1x2_7_0 : S8x2.Slices ![7, 0] S1x2
  slices_S65536x8_S65536x1_0_7 : S65536x8.Slices ![0, 7] S65536x1
  concatenates_S65536x263_S65536x1_S65536x264_d1 : Shape.Concatenates [S65536x263, S65536x1] S65536x264 1
  concatenates_S65536x1_S65536x1_S65536x1_S65536x1_S65536x1_S65536x1_S65536x1_S65536x1_S65536x8_d1 : Shape.Concatenates [S65536x1, S65536x1, S65536x1, S65536x1, S65536x1, S65536x1, S65536x1, S65536x1] S65536x8 1
  dot_S65536x64_S64x256_S65536x256_1_0_0_1_n_n_wf : DotDims.WF S65536x64 S64x256 S65536x256 [1] [0] [0] [1] [] []
  dot_S65536x256_S256x256_S65536x256_1_0_0_1_n_n_wf : DotDims.WF S65536x256 S256x256 S65536x256 [1] [0] [0] [1] [] []
  dot_S65536x256_S256x2_S65536x2_1_0_0_1_n_n_wf : DotDims.WF S65536x256 S256x2 S65536x2 [1] [0] [0] [1] [] []
  dot_S65536x257_S257x256_S65536x256_1_0_0_1_n_n_wf : DotDims.WF S65536x257 S257x256 S65536x256 [1] [0] [0] [1] [] []
  dot_S65536x258_S258x256_S65536x256_1_0_0_1_n_n_wf : DotDims.WF S65536x258 S258x256 S65536x256 [1] [0] [0] [1] [] []
  dot_S65536x259_S259x256_S65536x256_1_0_0_1_n_n_wf : DotDims.WF S65536x259 S259x256 S65536x256 [1] [0] [0] [1] [] []
  dot_S65536x260_S260x256_S65536x256_1_0_0_1_n_n_wf : DotDims.WF S65536x260 S260x256 S65536x256 [1] [0] [0] [1] [] []
  dot_S65536x261_S261x256_S65536x256_1_0_0_1_n_n_wf : DotDims.WF S65536x261 S261x256 S65536x256 [1] [0] [0] [1] [] []
  dot_S65536x262_S262x256_S65536x256_1_0_0_1_n_n_wf : DotDims.WF S65536x262 S262x256 S65536x256 [1] [0] [0] [1] [] []
  dot_S65536x263_S263x256_S65536x256_1_0_0_1_n_n_wf : DotDims.WF S65536x263 S263x256 S65536x256 [1] [0] [0] [1] [] []

variable [Facts₀]

def dot_S65536x64_S64x256_S65536x256_1_0_0_1_n_n : DotDims S65536x64 S64x256 S65536x256 where
  lhsContracting := [1]
  rhsContracting := [0]
  lhsNonContracting := [0]
  rhsNonContracting := [1]
  lhsBatch := []
  rhsBatch := []
  wf := dot_S65536x64_S64x256_S65536x256_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x2_S65536x2_1_0_0_1_n_n : DotDims S65536x256 S256x2 S65536x2 where
  lhsContracting := [1]
  rhsContracting := [0]
  lhsNonContracting := [0]
  rhsNonContracting := [1]
  lhsBatch := []
  rhsBatch := []
  wf := dot_S65536x256_S256x2_S65536x2_1_0_0_1_n_n_wf
def dot_S65536x257_S257x256_S65536x256_1_0_0_1_n_n : DotDims S65536x257 S257x256 S65536x256 where
  lhsContracting := [1]
  rhsContracting := [0]
  lhsNonContracting := [0]
  rhsNonContracting := [1]
  lhsBatch := []
  rhsBatch := []
  wf := dot_S65536x257_S257x256_S65536x256_1_0_0_1_n_n_wf
def dot_S65536x258_S258x256_S65536x256_1_0_0_1_n_n : DotDims S65536x258 S258x256 S65536x256 where
  lhsContracting := [1]
  rhsContracting := [0]
  lhsNonContracting := [0]
  rhsNonContracting := [1]
  lhsBatch := []
  rhsBatch := []
  wf := dot_S65536x258_S258x256_S65536x256_1_0_0_1_n_n_wf
def dot_S65536x259_S259x256_S65536x256_1_0_0_1_n_n : DotDims S65536x259 S259x256 S65536x256 where
  lhsContracting := [1]
  rhsContracting := [0]
  lhsNonContracting := [0]
  rhsNonContracting := [1]
  lhsBatch := []
  rhsBatch := []
  wf := dot_S65536x259_S259x256_S65536x256_1_0_0_1_n_n_wf
def dot_S65536x260_S260x256_S65536x256_1_0_0_1_n_n : DotDims S65536x260 S260x256 S65536x256 where
  lhsContracting := [1]
  rhsContracting := [0]
  lhsNonContracting := [0]
  rhsNonContracting := [1]
  lhsBatch := []
  rhsBatch := []
  wf := dot_S65536x260_S260x256_S65536x256_1_0_0_1_n_n_wf
def dot_S65536x261_S261x256_S65536x256_1_0_0_1_n_n : DotDims S65536x261 S261x256 S65536x256 where
  lhsContracting := [1]
  rhsContracting := [0]
  lhsNonContracting := [0]
  rhsNonContracting := [1]
  lhsBatch := []
  rhsBatch := []
  wf := dot_S65536x261_S261x256_S65536x256_1_0_0_1_n_n_wf
def dot_S65536x262_S262x256_S65536x256_1_0_0_1_n_n : DotDims S65536x262 S262x256 S65536x256 where
  lhsContracting := [1]
  rhsContracting := [0]
  lhsNonContracting := [0]
  rhsNonContracting := [1]
  lhsBatch := []
  rhsBatch := []
  wf := dot_S65536x262_S262x256_S65536x256_1_0_0_1_n_n_wf
def dot_S65536x263_S263x256_S65536x256_1_0_0_1_n_n : DotDims S65536x263 S263x256 S65536x256 where
  lhsContracting := [1]
  rhsContracting := [0]
  lhsNonContracting := [0]
  rhsNonContracting := [1]
  lhsBatch := []
  rhsBatch := []
  wf := dot_S65536x263_S263x256_S65536x256_1_0_0_1_n_n_wf

class Facts : Prop extends Facts₀ where

variable [Facts]
-- ==== Proof.Spec.lean ====
/-
  The network both programs compute, for ONE row of the batch, over the extended reals.

  A row x (64 numbers) goes through a trunk of three dense layers with a rectifier after each (the result: 256
  numbers, "h"). Then eight heads, one per output column i. Head i has a first dense layer whose input is h followed
  by the means of the heads before it (fan-in 256 + i), a second dense layer (256 to 256), and an output layer to two
  numbers, every layer followed by the rectifier. The first of the two numbers is column i of the mean; the second,
  clipped to [-20, 2], is the logarithm of a standard deviation s; the sample is mean + s * eps, and the third result is
  the logarithm of the normal density at the sample: -(1/2) ((sample - mean) / s)^2 - log s - (1/2) log (2 pi).

  The first layer of head i is written the way a sum of 256 + i products is accumulated when the last i products are
  added one at a time: the sum over the trunk's 256 coordinates, then one product per earlier mean, left to right.
  Addition of extended reals is commutative and associative, so this is the sum over all 256 + i coordinates.
-/
import Idealize.ShloMosaic.PureOps.Ideal
import Mathlib.Algebra.BigOperators.Fin

noncomputable section

namespace Cert.Spec

open Idealize.ShloMosaic

/-- The rectifier: the larger of a number and zero (zero written as the programs write it, by its word). -/
def relu (a : EReal) : EReal := max a (Ideal.ofBits .f32 0x00000000#32)

/-- A dense layer on one row, rectified: coordinate n is relu (sum over k of x k * W k n, plus b n). -/
def dense {K N : ℕ} (x : Fin K → EReal) (W : Fin K → Fin N → EReal) (b : Fin N → EReal) : Fin N → EReal :=
  fun n => relu ((∑ k, x k * W k n) + b n)

/-- The weights, as functions of their coordinates. Row k < 256 of win i meets coordinate k of the trunk's result,
    row 256 + j meets the mean of head j. Column 0 of wout i gives the mean, column 1 the log standard deviation. -/
structure Weights where
  w0 : Fin 64 → Fin 256 → EReal
  b0 : Fin 256 → EReal
  w1 : Fin 256 → Fin 256 → EReal
  b1 : Fin 256 → EReal
  w2 : Fin 256 → Fin 256 → EReal
  b2 : Fin 256 → EReal
  win : Fin 8 → Fin 263 → Fin 256 → EReal
  bin : Fin 8 → Fin 256 → EReal
  wh : Fin 8 → Fin 256 → Fin 256 → EReal
  bh : Fin 8 → Fin 256 → EReal
  wout : Fin 8 → Fin 256 → Fin 2 → EReal
  bout : Fin 8 → Fin 2 → EReal

/-- The trunk: three rectified dense layers. -/
def hid (w : Weights) (x : Fin 64 → EReal) : Fin 256 → EReal :=
  dense (dense (dense x w.w0 w.b0) w.w1 w.b1) w.w2 w.b2

/-- D, then the products a * c j added one at a time, j counting up from j0 along the list:
    acc D [a0, a1, a2] 0 c = ((D + a0 * c 0) + a1 * c 1) + a2 * c 2. -/
def acc : EReal → List EReal → ℕ → (ℕ → EReal) → EReal
  | D, [], _, _ => D
  | D, a :: as, j, c => acc (D + a * c j) as (j + 1) c

/-- Row 256 + j of head i's first-layer weights at column n (zero past the last row, which no head reads). -/
def corr (w : Weights) (i : Fin 8) (n : Fin 256) (j : ℕ) : EReal :=
  if hj : 256 + j < 263 then w.win i ⟨256 + j, hj⟩ n else 0

/-- Head i's first layer from the trunk's result h and the list ms of the earlier heads' means. -/
def first (w : Weights) (h : Fin 256 → EReal) (ms : List EReal) (i : Fin 8) : Fin 256 → EReal :=
  fun n => relu (acc (∑ k : Fin 256, h k * w.win i (Fin.castLE (by decide) k) n) ms 0 (corr w i n) + w.bin i n)

/-- Head i's second layer. -/
def second (w : Weights) (h : Fin 256 → EReal) (ms : List EReal) (i : Fin 8) : Fin 256 → EReal :=
  dense (first w h ms i) (w.wh i) (w.bh i)

/-- Head i's two outputs, rectified: column 0 the mean, column 1 the log standard deviation before clipping. -/
def outc (w : Weights) (h : Fin 256 → EReal) (ms : List EReal) (i : Fin 8) (c : Fin 2) : EReal :=
  relu ((∑ k, second w h ms i k * w.wout i k c) + w.bout i c)

/-! The eight means, each from the ones before it. -/
def m0 (w : Weights) (h : Fin 256 → EReal) : EReal := outc w h [] 0 0
def m1 (w : Weights) (h : Fin 256 → EReal) : EReal := outc w h [m0 w h] 1 0
def m2 (w : Weights) (h : Fin 256 → EReal) : EReal := outc w h [m0 w h, m1 w h] 2 0
def m3 (w : Weights) (h : Fin 256 → EReal) : EReal := outc w h [m0 w h, m1 w h, m2 w h] 3 0
def m4 (w : Weights) (h : Fin 256 → EReal) : EReal := outc w h [m0 w h, m1 w h, m2 w h, m3 w h] 4 0
def m5 (w : Weights) (h : Fin 256 → EReal) : EReal := outc w h [m0 w h, m1 w h, m2 w h, m3 w h, m4 w h] 5 0
def m6 (w : Weights) (h : Fin 256 → EReal) : EReal :=
  outc w h [m0 w h, m1 w h, m2 w h, m3 w h, m4 w h, m5 w h] 6 0

/-- The means of the heads before head i, in order. -/
def before (w : Weights) (h : Fin 256 → EReal) : Fin 8 → List EReal
  | ⟨0, _⟩ => []
  | ⟨1, _⟩ => [m0 w h]
  | ⟨2, _⟩ => [m0 w h, m1 w h]
  | ⟨3, _⟩ => [m0 w h, m1 w h, m2 w h]
  | ⟨4, _⟩ => [m0 w h, m1 w h, m2 w h, m3 w h]
  | ⟨5, _⟩ => [m0 w h, m1 w h, m2 w h, m3 w h, m4 w h]
  | ⟨6, _⟩ => [m0 w h, m1 w h, m2 w h, m3 w h, m4 w h, m5 w h]
  | ⟨_ + 7, _⟩ => [m0 w h, m1 w h, m2 w h, m3 w h, m4 w h, m5 w h, m6 w h]

/-- Column i of the mean, and of the log standard deviation before clipping. -/
def mean (w : Weights) (h : Fin 256 → EReal) (i : Fin 8) : EReal := outc w h (before w h i) i 0
def lstd (w : Weights) (h : Fin 256 → EReal) (i : Fin 8) : EReal := outc w h (before w h i) i 1

theorem m0_eq (w : Weights) (h : Fin 256 → EReal) : m0 w h = mean w h 0 := rfl
theorem m1_eq (w : Weights) (h : Fin 256 → EReal) : m1 w h = mean w h 1 := rfl
theorem m2_eq (w : Weights) (h : Fin 256 → EReal) : m2 w h = mean w h 2 := rfl
theorem m3_eq (w : Weights) (h : Fin 256 → EReal) : m3 w h = mean w h 3 := rfl
theorem m4_eq (w : Weights) (h : Fin 256 → EReal) : m4 w h = mean w h 4 := rfl
theorem m5_eq (w : Weights) (h : Fin 256 → EReal) : m5 w h = mean w h 5 := rfl
theorem m6_eq (w : Weights) (h : Fin 256 → EReal) : m6 w h = mean w h 6 := rfl

/-! The shared tail, a function of one mean, one log standard deviation and one eps. -/

/-- Clipping to [-20, 2], the bounds written by their words. -/
def clip (a : EReal) : EReal := min (Ideal.ofBits .f32 0x40000000#32) (max (Ideal.ofBits .f32 0xC1A00000#32) a)

/-- mean + exp (clip l) * eps. -/
def sample (mu l e : EReal) : EReal := mu + Ideal.exp (clip l) * e

/-- -(1/2) ((sample - mean) / s)^2 - log s - (1/2) log (2 pi), with s = exp (clip l); the constants by their words. -/
def logp (mu l e : EReal) : EReal :=
  (Ideal.ofBits .f32 0xBF000000#32
      * (Ideal.div (sample mu l e - mu) (Ideal.exp (clip l)) * Ideal.div (sample mu l e - mu) (Ideal.exp (clip l)))
    - clip l) - Ideal.ofBits .f32 0x3F6B3F8E#32

/-! The three results for one row x with noise row e, at column i. -/
def outMean (w : Weights) (x : Fin 64 → EReal) (i : Fin 8) : EReal := mean w (hid w x) i
def outSample (w : Weights) (x : Fin 64 → EReal) (e : Fin 8 → EReal) (i : Fin 8) : EReal :=
  sample (mean w (hid w x) i) (lstd w (hid w x) i) (e i)
def outLogp (w : Weights) (x : Fin 64 → EReal) (e : Fin 8 → EReal) (i : Fin 8) : EReal :=
  logp (mean w (hid w x) i) (lstd w (hid w x) i) (e i)

end Cert.Spec

end
-- ==== Proof.LibRowOps.lean ====
/-
  Layout operations and a lane sum read at an index given by coordinates: the column forms that sit beside the
  row forms of the library's layout lemmas.

  * a column [a, 1] broadcast along its unit axis to [a, b] reads, at (p, c), the column's entry p;
  * a vector [a] cast to a column [a, 1] reads, at (i, 0), the vector's entry i;
  * a sum over the second axis of an [a, b] array, read at p, is the sum over n of the entries (p, n);
  * a block of extents [1, m, n] loaded from an [k, m, n] array at offset (i, 0, 0) reads, at (0, r, c), the array's
    entry (i, r, c); likewise a [1, n] row of a [k, n] array and one entry of a vector.
-/
import Idealize.ShloMosaic.Lib.ValueLayout
import Idealize.ShloMosaic.Lib.Pipeline.FrameBody
import Idealize.ShloMosaic.PureOps.Ideal.Laws

noncomputable section

namespace Cert.RowOps

open Idealize.ShloMosaic Idealize.ShloMosaic.ValueIdx

variable {α : Type}

/-- A column broadcast along its unit axis: entry (p, c) of the result is entry p of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector cast to a column: entry (i, 0) of the column is entry i of the vector. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the second axis of an [a, b] array of extended reals, read at p: the sum over n of entry (p, n). -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ n : Fin b, src (ix2 p n) := by
  refine (Ideal.multiReduction_add_single src 0x00000000#32 h hφ hacc (ix1 p)).trans ?_
  refine Finset.sum_congr rfl fun n _ => congrArg src (funext fun c => Fin.ext ?_)
  show h.liftVal (ix1 p) n.val c = _
  match c with
  | ⟨0, _⟩ => simp [Shape.Reduces.liftVal]
  | ⟨1, _⟩ => simp [Shape.Reduces.liftVal]

/-- A load through a unit-stride rectangle reads, at j, the array at the index k whose coordinates are the
    rectangle's offsets plus j's. -/
theorem ld_unit_apply {S : Shape} {Val : EltTy → Type} {e : EltTy} (X : S.Idx → Val e)
    (off size : Fin S.rank → Nat) (inb : ∀ a, off a + size a ≤ S.size a)
    (j : (Rect.unit off size inb).shape.Idx) (k : S.Idx) (hk : ∀ a, (k a).val = off a + (j a).val) :
    View.ld X (Rect.unit off size inb) j = X k := by
  show X ((Rect.unit off size inb).idx j) = X k
  refine congrArg X (funext fun a => Fin.ext ?_)
  rw [hk a]
  show off a + 1 * (j a).val = off a + (j a).val
  rw [Nat.one_mul]

end Cert.RowOps

end
-- ==== Proof.KDag.lean ====
/-
  The kernel body's values, one name each, over the blocks of its seventeen input windows.

  The body computes the trunk's result once (kv31), then for head i = 0..7 a first layer, a second layer, and two
  lane sums giving a mean column and a log-standard-deviation column; the eight mean columns are laid side by side
  (kout17), the eight log-standard-deviation columns are laid side by side and clipped (kv623), and the sample and the
  log density are computed on those [1024, 8] slabs (kout18, kout19). Each name below is one payload of the body applied
  to the names before it and to blocks loaded from the windows, in the order the body computes them; a value used by
  several later payloads is named once here, where the frame's own description of what the body stores repeats it at
  every use. The three theorems at the end say that those descriptions are these names.
-/
import proofs.«418646_j6511170421537_4_alg».proof.Proof.FrameKernelIdeal
import proofs.«418646_j6511170421537_4_alg».proof.Proof.Spec
import Idealize.ShloMosaic.Lib.ValueIdx

noncomputable section

namespace Cert.KernelIdeal.KDag

open Idealize.ShloMosaic Idealize.ShloMosaic.ValueIdx Cert.KernelIdeal Cert.KernelIdeal.Gen Cert.KernelIdeal.GenP

/-- The blocks of the seventeen input windows at one grid point, at the ideal instance: x0 the rows of the inputs,
    x1 the rows of eps, x2..x7 the trunk's weights and biases, x8 / x9 the first-layer weights of the heads (the 256 rows
    that meet the trunk's result / the 7 rows that meet earlier means), x10 their biases, x11 / x12 the second-layer
    weights and biases, x13 / x14 the two columns of the output weights, x15 / x16 the two output biases. -/
structure Blocks where
  x0 : Vec Ideal S1024x64 .f32
  x1 : Vec Ideal S1024x8 .f32
  x2 : Vec Ideal S64x256 .bf16
  x3 : Vec Ideal S256 .f32
  x4 : Vec Ideal S256x256 .bf16
  x5 : Vec Ideal S256 .f32
  x6 : Vec Ideal S256x256 .bf16
  x7 : Vec Ideal S256 .f32
  x8 : Vec Ideal S8x256x256 .bf16
  x9 : Vec Ideal S8x7x256 .f32
  x10 : Vec Ideal S8x256 .f32
  x11 : Vec Ideal S8x256x256 .bf16
  x12 : Vec Ideal S8x256 .f32
  x13 : Vec Ideal S8x256 .f32
  x14 : Vec Ideal S8x256 .f32
  x15 : Vec Ideal S8 .f32
  x16 : Vec Ideal S8 .f32

variable (b : Blocks)

/-! ### The trunk, and head 0 -/
def kv31 : FVec Ideal S1024x256 .bf16 := k0_pay5 (View.ld b.x0 r0_0) (View.ld b.x2 r0_1) (View.ld b.x3 r0_2) (View.ld b.x4 r0_3) (View.ld b.x5 r0_2) (View.ld b.x6 r0_3) (View.ld b.x7 r0_2)
def kv34 : FVec Ideal S1024x256 .f32 := k0_pay6 (View.ld b.x0 r0_0) (View.ld b.x2 r0_1) (View.ld b.x3 r0_2) (View.ld b.x4 r0_3) (View.ld b.x5 r0_2) (View.ld b.x6 r0_3) (View.ld b.x7 r0_2) (View.ld b.x8 r0_4)
def kv67 : FVec Ideal S1024x1 .f32 := k0_pay8 (kv34 b) (View.ld b.x10 r0_5) (View.ld b.x11 r0_4) (View.ld b.x12 r0_5) (View.ld b.x13 r0_5) (View.ld b.x15 r0_6)
def kv76 : FVec Ideal S1024x1 .f32 := k0_pay9 (kv34 b) (View.ld b.x10 r0_5) (View.ld b.x11 r0_4) (View.ld b.x12 r0_5) (View.ld b.x14 r0_5) (View.ld b.x16 r0_6)
def kv78 : FVec Ideal S1024x1 .f32 := k0_pay11 (kv76 b) (k0_pay10 (F := Ideal))
/-! ### Head 1 -/
def kv108 : FVec Ideal S1024x256 .f32 := k0_pay12 (kv31 b) (kv67 b) (View.ld b.x8 r0_7) (View.ld b.x9 r0_8) (View.ld b.x10 r0_9) (View.ld b.x11 r0_7) (View.ld b.x12 r0_9)
def kv112 : FVec Ideal S256 .f32 := k0_pay13 (View.ld b.x14 r0_9)
def kv115 : FVec Ideal S1024x256 .f32 := k0_pay14 (kv31 b) (kv67 b) (View.ld b.x8 r0_7) (View.ld b.x9 r0_8) (View.ld b.x10 r0_9) (View.ld b.x11 r0_7) (View.ld b.x12 r0_9) (View.ld b.x13 r0_9)
def kv123 : FVec Ideal S1024x1 .f32 := k0_pay15 (kv115 b) (View.ld b.x15 r0_10)
def kv134 : FVec Ideal S1024x1 .f32 := k0_pay16 (kv108 b) (kv112 b) (View.ld b.x16 r0_10)
/-! ### Head 2 -/
def kv160 : FVec Ideal S1024x256 .f32 := k0_pay17 (kv31 b) (kv67 b) (kv115 b) (View.ld b.x15 r0_10) (View.ld b.x8 r0_11) (View.ld b.x9 r0_12) (View.ld b.x10 r0_13)
def kv186 : FVec Ideal S1024x1 .f32 := k0_pay19 (kv160 b) (View.ld b.x11 r0_11) (View.ld b.x12 r0_13) (View.ld b.x13 r0_13) (View.ld b.x15 r0_14)
def kv197 : FVec Ideal S1024x1 .f32 := k0_pay20 (kv160 b) (View.ld b.x11 r0_11) (View.ld b.x12 r0_13) (View.ld b.x14 r0_13) (View.ld b.x16 r0_14)
/-! ### Head 3 -/
def kv199 : FVec Ideal S256x256 .bf16 := k0_pay21 (View.ld b.x8 r0_15)
def kv241 : FVec Ideal S1024x256 .f32 := k0_pay22 (kv31 b) (kv67 b) (kv123 b) (kv186 b) (kv199 b) (constant S1024x256 .f32 0x00000000#32) (View.ld b.x9 r0_16) (View.ld b.x10 r0_17) (View.ld b.x11 r0_15) (View.ld b.x12 r0_17)
def kv243 : FVec Ideal S256 .f32 := k0_pay23 (View.ld b.x13 r0_17)
def kv256 : FVec Ideal S1024x1 .f32 := k0_pay24 (kv241 b) (kv243 b) (View.ld b.x15 r0_18)
def kv267 : FVec Ideal S1024x1 .f32 := k0_pay25 (kv241 b) (View.ld b.x14 r0_17) (View.ld b.x16 r0_18)
/-! ### Head 4 -/
def kv272 : FVec Ideal S7x256 .f32 := k0_pay26 (View.ld b.x9 r0_20)
def kv286 : FVec Ideal S1024x256 .f32 := k0_pay27 (kv31 b) (kv67 b) (kv123 b) (View.ld b.x8 r0_19) (View.ld b.x9 r0_20)
def kv289 : FVec Ideal S1x256 .f32 := k0_pay28 (View.ld b.x9 r0_20)
def kv318 : FVec Ideal S1024x256 .f32 := k0_pay29 (kv186 b) (kv256 b) (kv272 b) (kv286 b) (kv289 b) (View.ld b.x10 r0_21) (View.ld b.x11 r0_19) (View.ld b.x12 r0_21)
def kv322 : FVec Ideal S256 .f32 := k0_pay30 (View.ld b.x14 r0_21)
def kv331 : FVec Ideal S1024x1 .f32 := k0_pay31 (kv186 b) (kv256 b) (kv272 b) (kv286 b) (kv289 b) (View.ld b.x10 r0_21) (View.ld b.x11 r0_19) (View.ld b.x12 r0_21) (View.ld b.x13 r0_21) (View.ld b.x15 r0_22)
def kv333 : FVec Ideal S1024x1 .f32 := k0_pay33 (kv331 b) (k0_pay32 (F := Ideal))
def kv344 : FVec Ideal S1024x1 .f32 := k0_pay34 (kv318 b) (kv322 b) (View.ld b.x16 r0_22)
/-! ### Head 5 -/
def kv377 : FVec Ideal S1024x256 .f32 := k0_pay36 (kv31 b) (kv67 b) (kv123 b) (kv186 b) (kv256 b) (View.ld b.x8 r0_23) (View.ld b.x9 r0_24)
def kv381 : FVec Ideal S1024x256 .f32 := k0_pay37 (kv331 b) (k0_pay32 (F := Ideal))
def kv382 : FVec Ideal S1024x256 .f32 := k0_pay38 (View.ld b.x9 r0_24)
def kv417 : FVec Ideal S1024x1 .f32 := k0_pay40 (kv377 b) (kv381 b) (kv382 b) (View.ld b.x10 r0_25) (View.ld b.x11 r0_23) (View.ld b.x12 r0_25) (View.ld b.x13 r0_25) (View.ld b.x15 r0_26)
def kv422 : FVec Ideal S1024x1 .f32 := k0_pay41 (kv377 b) (kv381 b) (kv382 b) (View.ld b.x10 r0_25) (View.ld b.x11 r0_23) (View.ld b.x12 r0_25) (View.ld b.x14 r0_25)
def kv428 : FVec Ideal S1024x1 .f32 := k0_pay42 (kv422 b) (View.ld b.x16 r0_26)
/-! ### Head 6 -/
def kv475 : FVec Ideal S1024x256 .f32 := k0_pay43 (kv31 b) (kv67 b) (kv123 b) (kv186 b) (kv256 b) (kv333 b) (kv417 b) (View.ld b.x8 r0_27) (View.ld b.x9 r0_28)
def kv508 : FVec Ideal S1024x1 .f32 := k0_pay45 (kv475 b) (View.ld b.x10 r0_29) (View.ld b.x11 r0_27) (View.ld b.x12 r0_29) (View.ld b.x13 r0_29) (View.ld b.x15 r0_30)
def kv513 : FVec Ideal S1024x1 .f32 := k0_pay46 (kv475 b) (View.ld b.x10 r0_29) (View.ld b.x11 r0_27) (View.ld b.x12 r0_29) (View.ld b.x14 r0_29)
def kv516 : FVec Ideal S1024x1 .f32 := k0_pay47 (View.ld b.x16 r0_30)
def kv519 : FVec Ideal S1024x1 .f32 := k0_pay48 (kv513 b) (kv516 b)
/-! ### Head 7 -/
def kv566 : FVec Ideal S1024x256 .f32 := k0_pay50 (kv31 b) (kv67 b) (kv123 b) (kv186 b) (kv256 b) (kv333 b) (kv417 b) (View.ld b.x8 r0_31) (View.ld b.x9 r0_32)
def kv568 : FVec Ideal S256 .f32 := k0_pay51 (View.ld b.x9 r0_32)
def kv606 : FVec Ideal S1024x1 .f32 := k0_pay53 (kv508 b) (kv566 b) (kv568 b) (View.ld b.x10 r0_33) (View.ld b.x11 r0_31) (View.ld b.x12 r0_33) (View.ld b.x13 r0_33) (View.ld b.x15 r0_34)
def kv610 : FVec Ideal S1024 .f32 := k0_pay54 (kv508 b) (kv566 b) (kv568 b) (View.ld b.x10 r0_33) (View.ld b.x11 r0_31) (View.ld b.x12 r0_33) (View.ld b.x14 r0_33)
/-! ### The three stored slabs -/
def kout17 : FVec Ideal S1024x8 .f32 := k0_pay1 (kv67 b) (kv123 b) (kv186 b) (kv256 b) (kv333 b) (kv417 b) (kv508 b) (kv606 b)
def kv623 : FVec Ideal S1024x8 .f32 :=
  k0_pay2 (kv78 b) (kv134 b) (kv197 b) (kv267 b) (kv344 b) (kv428 b) (kv519 b) (kv610 b) (View.ld b.x16 r0_34)
def kv624 : FVec Ideal S1024x8 .f32 := exp (kv623 b)
def kout18 : FVec Ideal S1024x8 .f32 := k0_pay3 (kv67 b) (kv123 b) (kv186 b) (kv256 b) (kv333 b) (kv417 b) (kv508 b) (kv606 b) (kv624 b) (View.ld b.x1 r0_35)
def kout19 : FVec Ideal S1024x8 .f32 := k0_pay4 (kv67 b) (kv123 b) (kv186 b) (kv256 b) (kv333 b) (kv417 b) (kv508 b) (kv606 b) (kv623 b) (kv624 b) (kout18 b)

/-! ### What the frame says each output window's buffer holds after the body is the slab named above -/

theorem out17_eq : out0_17 b.x0 b.x1 b.x2 b.x3 b.x4 b.x5 b.x6 b.x7 b.x8 b.x9 b.x10 b.x11 b.x12 b.x13 b.x14 b.x15 b.x16 = View.canon [⟨r0_35, kout17 b⟩] := rfl
theorem out18_eq : out0_18 b.x0 b.x1 b.x2 b.x3 b.x4 b.x5 b.x6 b.x7 b.x8 b.x9 b.x10 b.x11 b.x12 b.x13 b.x14 b.x15 b.x16 = View.canon [⟨r0_35, kout18 b⟩] := rfl
theorem out19_eq : out0_19 b.x0 b.x1 b.x2 b.x3 b.x4 b.x5 b.x6 b.x7 b.x8 b.x9 b.x10 b.x11 b.x12 b.x13 b.x14 b.x15 b.x16 = View.canon [⟨r0_35, kout19 b⟩] := rfl

end Cert.KernelIdeal.KDag

end
-- ==== Proof.KW.lean ====
/-
  The network's weights as the kernel body finds them in the blocks of its windows, a row of its input block and of
  its noise block, and the first layer of a head written over those blocks.

  The body receives head i's first-layer weights in two windows: the 256 rows that meet the trunk's result (x8) and
  the 7 rows that meet the earlier heads' means (x9). As one [263, 256] matrix, row k < 256 is row k of the first
  and row 256 + j is row j of the second. The output layer's two columns arrive as two windows (x13, x14), and its
  two biases as two (x15, x16).
-/
import proofs.«418646_j6511170421537_4_alg».proof.Proof.KDag

noncomputable section

namespace Cert.KernelIdeal.KW

open Idealize.ShloMosaic Idealize.ShloMosaic.ValueIdx Cert.KernelIdeal Cert.KernelIdeal.KDag

/-- The weights, read off the window blocks. -/
def WK (b : Blocks) : Cert.Spec.Weights where
  w0 := fun k n => b.x2 (ix2 k n)
  b0 := fun n => b.x3 (ix1 n)
  w1 := fun k n => b.x4 (ix2 k n)
  b1 := fun n => b.x5 (ix1 n)
  w2 := fun k n => b.x6 (ix2 k n)
  b2 := fun n => b.x7 (ix1 n)
  win := fun i k n =>
    if hk : k.val < 256 then b.x8 (ix3 i ⟨k.val, hk⟩ n)
    else if hj : k.val - 256 < 7 then b.x9 (ix3 i ⟨k.val - 256, hj⟩ n) else 0
  bin := fun i n => b.x10 (ix2 i n)
  wh := fun i k n => b.x11 (ix3 i k n)
  bh := fun i n => b.x12 (ix2 i n)
  wout := fun i k c => if c.val = 0 then b.x13 (ix2 i k) else b.x14 (ix2 i k)
  bout := fun i c => if c.val = 0 then b.x15 (ix1 i) else b.x16 (ix1 i)

/-- Row p of the input block, and of the noise block. -/
def rowK (b : Blocks) (p : Fin 1024) : Fin 64 → EReal := fun k => b.x0 (ix2 p k)
def epsK (b : Blocks) (p : Fin 1024) : Fin 8 → EReal := fun j => b.x1 (ix2 p j)

/-- Row k < 256 of head i's first-layer weights is row k of the window x8. -/
theorem WK_win_main (b : Blocks) (i : Fin 8) (k : Fin 256) (n : Fin 256) :
    (WK b).win i (Fin.castLE (by decide) k) n = b.x8 (ix3 i k n) := by
  show (if hk : (Fin.castLE (by decide) k : Fin 263).val < 256 then b.x8 (ix3 i ⟨_, hk⟩ n) else _) = _
  rw [dif_pos (by exact k.isLt)]
  rfl

/-- Head i's first layer over the blocks: the sum over the trunk's coordinates reads the window x8, the bias the
    window x10. -/
theorem first_WK (b : Blocks) (h : Fin 256 → EReal) (ms : List EReal) (i : Fin 8) (n : Fin 256) :
    Cert.Spec.first (WK b) h ms i n
      = Cert.Spec.relu (Cert.Spec.acc (∑ k : Fin 256, h k * b.x8 (ix3 i k n)) ms 0 (Cert.Spec.corr (WK b) i n)
          + b.x10 (ix2 i n)) := by
  unfold Cert.Spec.first
  simp only [WK_win_main]
  rfl

end Cert.KernelIdeal.KW

end
-- ==== Proof.RW.lean ====
/-
  The reference's fourteen argument arrays as one record, the network's weights read off them, and a row of the input
  array and of the noise array.

  The reference holds head i's first-layer weights as ONE [263, 256] matrix per head (rows 0..255 meet the trunk's
  result, row 256 + j the mean of head j), the output layer as one [256, 2] matrix per head and its bias as a pair.
-/
import proofs.«418646_j6511170421537_4_alg».proof.ReferenceIdeal
import proofs.«418646_j6511170421537_4_alg».proof.Proof.Spec
import Idealize.ShloMosaic.Lib.ValueIdx

noncomputable section

namespace Cert.ReferenceIdeal.RW

open Idealize.ShloMosaic Idealize.ShloMosaic.ValueIdx Cert.ReferenceIdeal

/-- The argument arrays at the ideal instance: a0 the inputs [65536, 64], a1 the noise [65536, 8], a2..a7 the trunk's
    weights and biases, a8 / a9 the heads' first-layer weights [8, 263, 256] and biases, a10 / a11 the second-layer weights
    and biases, a12 / a13 the output weights [8, 256, 2] and biases [8, 2]. -/
structure Args where
  a0 : (⟨S65536x64, .f32⟩ : BufTy).Contents (Elt Ideal)
  a1 : (⟨S65536x8, .f32⟩ : BufTy).Contents (Elt Ideal)
  a2 : (⟨S64x256, .f32⟩ : BufTy).Contents (Elt Ideal)
  a3 : (⟨S256, .f32⟩ : BufTy).Contents (Elt Ideal)
  a4 : (⟨S256x256, .f32⟩ : BufTy).Contents (Elt Ideal)
  a5 : (⟨S256, .f32⟩ : BufTy).Contents (Elt Ideal)
  a6 : (⟨S256x256, .f32⟩ : BufTy).Contents (Elt Ideal)
  a7 : (⟨S256, .f32⟩ : BufTy).Contents (Elt Ideal)
  a8 : (⟨S8x263x256, .f32⟩ : BufTy).Contents (Elt Ideal)
  a9 : (⟨S8x256, .f32⟩ : BufTy).Contents (Elt Ideal)
  a10 : (⟨S8x256x256, .f32⟩ : BufTy).Contents (Elt Ideal)
  a11 : (⟨S8x256, .f32⟩ : BufTy).Contents (Elt Ideal)
  a12 : (⟨S8x256x2, .f32⟩ : BufTy).Contents (Elt Ideal)
  a13 : (⟨S8x2, .f32⟩ : BufTy).Contents (Elt Ideal)

/-- The weights, read off the argument arrays. -/
def WR (a : Args) : Cert.Spec.Weights where
  w0 := fun k n => a.a2 (ix2 k n)
  b0 := fun n => a.a3 (ix1 n)
  w1 := fun k n => a.a4 (ix2 k n)
  b1 := fun n => a.a5 (ix1 n)
  w2 := fun k n => a.a6 (ix2 k n)
  b2 := fun n => a.a7 (ix1 n)
  win := fun i k n => a.a8 (ix3 i k n)
  bin := fun i n => a.a9 (ix2 i n)
  wh := fun i k n => a.a10 (ix3 i k n)
  bh := fun i n => a.a11 (ix2 i n)
  wout := fun i k c => a.a12 (ix3 i k c)
  bout := fun i c => a.a13 (ix2 i c)

/-- Row r of the input array, and of the noise array. -/
def rowR (a : Args) (r : Fin 65536) : Fin 64 → EReal := fun k => a.a0 (ix2 r k)
def epsR (a : Args) (r : Fin 65536) : Fin 8 → EReal := fun j => a.a1 (ix2 r j)

end Cert.ReferenceIdeal.RW

end
-- ==== Proof.GDefs.lean ====
/-
  The three results as whole arrays: entry (r, q) of each [65536, 8] result is the network's output for row r of the
  inputs (and of the noise), column q.
-/
import proofs.«418646_j6511170421537_4_alg».proof.Proof.RW

noncomputable section

namespace Cert.ReferenceIdeal.RW

open Idealize.ShloMosaic Idealize.ShloMosaic.ValueIdx Cert.ReferenceIdeal

/-- The row and the column of an index of a [65536, 8] array, as numbers of the literal ranges. -/
def rowOf (j : S65536x8.Idx) : Fin 65536 := ⟨(j 0).val, (j 0).isLt⟩
def colOf (j : S65536x8.Idx) : Fin 8 := ⟨(j 1).val, (j 1).isLt⟩

/-- The means, the samples and the log densities, as functions of the argument arrays. -/
def GMean (a : Args) : S65536x8.Idx → EReal := fun j => Cert.Spec.outMean (WR a) (rowR a (rowOf j)) (colOf j)
def GSample (a : Args) : S65536x8.Idx → EReal :=
  fun j => Cert.Spec.outSample (WR a) (rowR a (rowOf j)) (epsR a (rowOf j)) (colOf j)
def GLogp (a : Args) : S65536x8.Idx → EReal :=
  fun j => Cert.Spec.outLogp (WR a) (rowR a (rowOf j)) (epsR a (rowOf j)) (colOf j)

theorem rowOf_ix2 (r : Fin 65536) (q : Fin 8) : rowOf (ix2 r q) = r := rfl
theorem colOf_ix2 (r : Fin 65536) (q : Fin 8) : colOf (ix2 r q) = q := rfl

end Cert.ReferenceIdeal.RW

end
-- ==== Proof.KValue.lean ====
/-
  From blocks to whole arrays.

  The kernel runs over a grid of 64 points. At point t it reads rows 1024 t .. 1024 t + 1023 of the inputs and of the
  noise, and the whole of every weight array, and writes rows 1024 t .. 1024 t + 1023 of each of the three results.
  The weight arrays it reads are made before the grid starts from the fourteen arguments: changes of float format
  (the identity over the extended reals), the rows 0..255 and 256..262 of the heads' first-layer weights, and the two
  columns of the output weights and biases. This module says that the weights the body finds in its blocks are the
  weights of the arguments, that row p of the input block at point t is row 1024 t + p of the input array, and hence
  that, if the body's three slabs are the network's outputs row by row, the three result arrays after the run are the
  network's outputs for every row of the inputs.
-/
import proofs.«418646_j6511170421537_4_alg».proof.Proof.Spec
import proofs.«418646_j6511170421537_4_alg».proof.Proof.LibRowOps
import proofs.«418646_j6511170421537_4_alg».proof.Proof.KDag
import proofs.«418646_j6511170421537_4_alg».proof.Proof.KW
import proofs.«418646_j6511170421537_4_alg».proof.Proof.RW
import proofs.«418646_j6511170421537_4_alg».proof.Proof.GDefs
import proofs.«418646_j6511170421537_4_alg».proof.Proof.FrameKernelIdeal
import Idealize.ShloMosaic.Lib.Pipeline.Value
import Idealize.ShloMosaic.Lib.StableHlo.Run
import Idealize.ShloMosaic.Lib.ValueIdx

set_option maxRecDepth 16384

noncomputable section

namespace Cert.KernelIdeal.KValue

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The blocks of the seventeen input windows at grid point t. -/
def blocksAt (c : Dev nD) (t : Fin cfg0.N) : KDag.Blocks :=
  ⟨iblk m c 0 t, iblk m c 1 t, iblk m c 2 t, iblk m c 3 t, iblk m c 4 t, iblk m c 5 t, iblk m c 6 t, iblk m c 7 t,
    iblk m c 8 t, iblk m c 9 t, iblk m c 10 t, iblk m c 11 t, iblk m c 12 t, iblk m c 13 t, iblk m c 14 t,
    iblk m c 15 t, iblk m c 16 t⟩

/-- The fourteen argument arrays as launched. -/
def argsK (c : Dev nD) : Cert.ReferenceIdeal.RW.Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    m ((c : Thread nD τ).loc main_arg6), m ((c : Thread nD τ).loc main_arg7), m ((c : Thread nD τ).loc main_arg8),
    m ((c : Thread nD τ).loc main_arg9), m ((c : Thread nD τ).loc main_arg10), m ((c : Thread nD τ).loc main_arg11),
    m ((c : Thread nD τ).loc main_arg12), m ((c : Thread nD τ).loc main_arg13)⟩

/-! ## What each point writes back, and the arrays after the run, named -/

/-- A rectangle's offsets written as a literal pair of zeros are the zero offsets. -/
theorem zeros2 : (![0, 0] : Fin 2 → Nat) = fun _ => 0 := funext fun a => by fin_cases a <;> rfl

/-- What the body leaves in each result window's buffer is its one store: the slab the body computes. -/
theorem slab17 (b : KDag.Blocks) :
    out0_17 b.x0 b.x1 b.x2 b.x3 b.x4 b.x5 b.x6 b.x7 b.x8 b.x9 b.x10 b.x11 b.x12 b.x13 b.x14 b.x15 b.x16 = KDag.kout17 b :=
  (KDag.out17_eq b).trans (View.canon_unit_zero zeros2 _ _)
theorem slab18 (b : KDag.Blocks) :
    out0_18 b.x0 b.x1 b.x2 b.x3 b.x4 b.x5 b.x6 b.x7 b.x8 b.x9 b.x10 b.x11 b.x12 b.x13 b.x14 b.x15 b.x16 = KDag.kout18 b :=
  (KDag.out18_eq b).trans (View.canon_unit_zero zeros2 _ _)
theorem slab19 (b : KDag.Blocks) :
    out0_19 b.x0 b.x1 b.x2 b.x3 b.x4 b.x5 b.x6 b.x7 b.x8 b.x9 b.x10 b.x11 b.x12 b.x13 b.x14 b.x15 b.x16 = KDag.kout19 b :=
  (KDag.out19_eq b).trans (View.canon_unit_zero zeros2 _ _)

/-- Point t writes back to the means array the body's first slab over the blocks at t. -/
theorem wrote17 (c : Dev nD) (t : Fin cfg0.N) :
    (dats m 0 c).flushed 17 t = (cfg0.win 17).cut (grid0.coords t) (KDag.kout17 (blocksAt m c t)) := by
  show (cfg0.win 17).cut (grid0.coords t) ((dats m 0 c).after 17 t) = _
  rw [after0_17, ← slab17 (blocksAt m c t)]
  simp only [blocksAt]

/-- Point t writes back to the samples array the body's second slab over the blocks at t. -/
theorem wrote18 (c : Dev nD) (t : Fin cfg0.N) :
    (dats m 0 c).flushed 18 t = (cfg0.win 18).cut (grid0.coords t) (KDag.kout18 (blocksAt m c t)) := by
  show (cfg0.win 18).cut (grid0.coords t) ((dats m 0 c).after 18 t) = _
  rw [after0_18, ← slab18 (blocksAt m c t)]
  simp only [blocksAt]

/-- Point t writes back to the log-density array the body's third slab over the blocks at t. -/
theorem wrote19 (c : Dev nD) (t : Fin cfg0.N) :
    (dats m 0 c).flushed 19 t = (cfg0.win 19).cut (grid0.coords t) (KDag.kout19 (blocksAt m c t)) := by
  show (cfg0.win 19).cut (grid0.coords t) ((dats m 0 c).after 19 t) = _
  rw [after0_19, ← slab19 (blocksAt m c t)]
  simp only [blocksAt]

/-- After the run the means array is the array the write-backs of all 64 points leave. -/
theorem means_after (r : PUnit × MemSt nD τ sig (Elt Ideal)) (h : Pipeline.FramePost cfgs (dats m) 0 (V m) r) (c : Dev nD) :
    r.2.mem ((c : Thread nD τ).loc main_v15_0) = (dats m 0 c).arrAt 17 cfg0.N :=
  (h c).1 17

/-- After the run the samples array is the array the write-backs of all 64 points leave. -/
theorem samples_after (r : PUnit × MemSt nD τ sig (Elt Ideal)) (h : Pipeline.FramePost cfgs (dats m) 0 (V m) r) (c : Dev nD) :
    r.2.mem ((c : Thread nD τ).loc main_v15_1) = (dats m 0 c).arrAt 18 cfg0.N :=
  (h c).1 18

/-- After the run the log-density array is the array the write-backs of all 64 points leave. -/
theorem logps_after (r : PUnit × MemSt nD τ sig (Elt Ideal)) (h : Pipeline.FramePost cfgs (dats m) 0 (V m) r) (c : Dev nD) :
    r.2.mem ((c : Thread nD τ).loc main_v15_2) = (dats m 0 c).arrAt 19 cfg0.N :=
  (h c).1 19

/-! The fourteen arguments are unchanged by the run: an argument a window reads is staged and never written back; an
    argument no window reads is left as the grid found it; and nothing before the grid writes an argument. -/

theorem arg0_kept (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem arg1_kept (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem arg2_kept (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem arg3_kept (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem arg4_kept (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem arg5_kept (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

theorem arg6_kept (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem arg7_kept (r : PUnit × MemSt nD τ sig (Elt Ideal)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

theorem arg8_kept (r : PUnit × MemSt nD τ sig (Elt Ideal)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem arg9_kept (r : PUnit × MemSt nD τ sig (Elt Ideal)) (h : Pipeline.FramePost cfgs (dats m) 0 (V m) r) (c : Dev nD) :
    r.2.mem ((c : Thread nD τ).loc main_arg9) = m ((c : Thread nD τ).loc main_arg9) :=
  ((h c).1 10).trans (((dats m 0 c).arrAt_in 10 rfl _).trans ((A_eq m c 10).trans (V_main_arg9 m c)))

theorem arg10_kept (r : PUnit × MemSt nD τ sig (Elt Ideal)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

theorem arg11_kept (r : PUnit × MemSt nD τ sig (Elt Ideal)) (h : Pipeline.FramePost cfgs (dats m) 0 (V m) r) (c : Dev nD) :
    r.2.mem ((c : Thread nD τ).loc main_arg11) = m ((c : Thread nD τ).loc main_arg11) :=
  ((h c).1 12).trans (((dats m 0 c).arrAt_in 12 rfl _).trans ((A_eq m c 12).trans (V_main_arg11 m c)))

theorem arg12_kept (r : PUnit × MemSt nD τ sig (Elt Ideal)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

theorem arg13_kept (r : PUnit × MemSt nD τ sig (Elt Ideal)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- Every fair execution ends with the three result arrays at what the 64 write-backs leave and the arguments unchanged. -/
theorem run_blocks : θ_run defs (onTc (τ := τ) (main (F := Ideal))) ⟨m, fun _ => 0, ρ⟩ fun r => ∀ c : Dev nD,
      r.2.mem ((c : Thread nD τ).loc main_v15_0) = (dats m 0 c).arrAt 17 cfg0.N
      ∧ r.2.mem ((c : Thread nD τ).loc main_v15_1) = (dats m 0 c).arrAt 18 cfg0.N
      ∧ r.2.mem ((c : Thread nD τ).loc main_v15_2) = (dats m 0 c).arrAt 19 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨means_after m r h c, samples_after m r h c, logps_after m r h c,
      arg0_kept m r h c, arg1_kept m r h c, arg2_kept m r h c, arg3_kept m r h c, arg4_kept m r h c,
      arg5_kept m r h c, arg6_kept m r h c, arg7_kept m r h c, arg8_kept m r h c, arg9_kept m r h c,
      arg10_kept m r h c, arg11_kept m r h c, arg12_kept m r h c, arg13_kept m r h c⟩)
    (run_main m ρ)

/-! ## The index maps, decided over the 64 points -/

/-- The input window, the noise window and the three result windows move with the point along the rows. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_17.index t (0 : Fin 2) = t.val ∧ win0_17.index t (1 : Fin 2) = 0
    ∧ win0_18.index t (0 : Fin 2) = t.val ∧ win0_18.index t (1 : Fin 2) = 0
    ∧ win0_19.index t (0 : Fin 2) = t.val ∧ win0_19.index t (1 : Fin 2) = 0 :=
  (by decide +kernel : ∀ t : Fin grid0.N, _)

/-! Every weight window stays at block 0 on every axis: its block is its whole array. -/
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 1) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 1) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 1) = 0 :=
  (by decide +kernel : ∀ t : Fin grid0.N, _)
theorem idx8 : ∀ t : Fin cfg0.N, win0_8.index t (0 : Fin 3) = 0 ∧ win0_8.index t (1 : Fin 3) = 0
    ∧ win0_8.index t (2 : Fin 3) = 0 :=
  (by decide +kernel : ∀ t : Fin grid0.N, _)
theorem idx9 : ∀ t : Fin cfg0.N, win0_9.index t (0 : Fin 3) = 0 ∧ win0_9.index t (1 : Fin 3) = 0
    ∧ win0_9.index t (2 : Fin 3) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 3) = 0 ∧ win0_11.index t (1 : Fin 3) = 0
    ∧ win0_11.index t (2 : Fin 3) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 1) = 0 :=
  (by decide +kernel : ∀ t : Fin grid0.N, _)
theorem idx16 : ∀ t : Fin cfg0.N, win0_16.index t (0 : Fin 1) = 0 :=
  (by decide +kernel : ∀ t : Fin grid0.N, _)

/-- Row p of the block at point t is a row of the [65536, .] arrays. -/
theorem row_lt (t : Fin cfg0.N) (p : Fin 1024) : t.val * 1024 + p.val < 65536 := by
  have ht : t.val < 64 := Nat.lt_of_lt_of_eq t.isLt N_0
  have hp := p.isLt
  omega

/-! ## The blocks read off the arrays the grid finds

The input and noise blocks at point t are rows 1024 t .. 1024 t + 1023 of the argument arrays; a weight window's
block is its whole array. -/

theorem blk0 (c : Dev nD) (t : Fin cfg0.N) (p : Fin 1024) (k : Fin 64) :
    iblk m c 0 t (ix2 p k) = m ((c : Thread nD τ).loc main_arg0) (ix2 ⟨t.val * 1024 + p.val, row_lt t p⟩ k) := by
  obtain ⟨e0, e1, -⟩ := idx_rows t
  rw [← V_main_arg0 m c]
  show V m c main_arg0 (((cfg0.win 0).blk t).view.emb (ix2 p k)) = _
  congr 1
  funext a; apply Fin.ext
  match a with
  | ⟨0, _⟩ => show win0_0.index t (0 : Fin 2) * 1024 + 1 * p.val = t.val * 1024 + p.val; omega
  | ⟨1, _⟩ => show win0_0.index t (1 : Fin 2) * 64 + 1 * k.val = k.val; omega

theorem blk1 (c : Dev nD) (t : Fin cfg0.N) (p : Fin 1024) (q : Fin 8) :
    iblk m c 1 t (ix2 p q) = m ((c : Thread nD τ).loc main_arg1) (ix2 ⟨t.val * 1024 + p.val, row_lt t p⟩ q) := by
  obtain ⟨-, -, e0, e1, -⟩ := idx_rows t
  rw [← V_main_arg1 m c]
  show V m c main_arg1 (((cfg0.win 1).blk t).view.emb (ix2 p q)) = _
  congr 1
  funext a; apply Fin.ext
  match a with
  | ⟨0, _⟩ => show win0_1.index t (0 : Fin 2) * 1024 + 1 * p.val = t.val * 1024 + p.val; omega
  | ⟨1, _⟩ => show win0_1.index t (1 : Fin 2) * 8 + 1 * q.val = q.val; omega

theorem blk2 (c : Dev nD) (t : Fin cfg0.N) (k : Fin 64) (n : Fin 256) :
    iblk m c 2 t (ix2 k n) = V m c main_v0 (ix2 k n) := by
  obtain ⟨e0, e1⟩ := idx2 t
  show V m c main_v0 (((cfg0.win 2).blk t).view.emb (ix2 k n)) = _
  congr 1
  funext a; apply Fin.ext
  match a with
  | ⟨0, _⟩ => show win0_2.index t (0 : Fin 2) * 64 + 1 * k.val = k.val; omega
  | ⟨1, _⟩ => show win0_2.index t (1 : Fin 2) * 256 + 1 * n.val = n.val; omega

theorem blk3 (c : Dev nD) (t : Fin cfg0.N) (n : Fin 256) :
    iblk m c 3 t (ix1 n) = m ((c : Thread nD τ).loc main_arg3) (ix1 n) := by
  have e0 := idx3 t
  rw [← V_main_arg3 m c]
  show V m c main_arg3 (((cfg0.win 3).blk t).view.emb (ix1 n)) = _
  congr 1
  funext a; apply Fin.ext
  match a with
  | ⟨0, _⟩ => show win0_3.index t (0 : Fin 1) * 256 + 1 * n.val = n.val; omega

theorem blk4 (c : Dev nD) (t : Fin cfg0.N) (k : Fin 256) (n : Fin 256) :
    iblk m c 4 t (ix2 k n) = V m c main_v1 (ix2 k n) := by
  obtain ⟨e0, e1⟩ := idx4 t
  show V m c main_v1 (((cfg0.win 4).blk t).view.emb (ix2 k n)) = _
  congr 1
  funext a; apply Fin.ext
  match a with
  | ⟨0, _⟩ => show win0_4.index t (0 : Fin 2) * 256 + 1 * k.val = k.val; omega
  | ⟨1, _⟩ => show win0_4.index t (1 : Fin 2) * 256 + 1 * n.val = n.val; omega

theorem blk5 (c : Dev nD) (t : Fin cfg0.N) (n : Fin 256) :
    iblk m c 5 t (ix1 n) = m ((c : Thread nD τ).loc main_arg5) (ix1 n) := by
  have e0 := idx5 t
  rw [← V_main_arg5 m c]
  show V m c main_arg5 (((cfg0.win 5).blk t).view.emb (ix1 n)) = _
  congr 1
  funext a; apply Fin.ext
  match a with
  | ⟨0, _⟩ => show win0_5.index t (0 : Fin 1) * 256 + 1 * n.val = n.val; omega

theorem blk6 (c : Dev nD) (t : Fin cfg0.N) (k : Fin 256) (n : Fin 256) :
    iblk m c 6 t (ix2 k n) = V m c main_v2 (ix2 k n) := by
  obtain ⟨e0, e1⟩ := idx6 t
  show V m c main_v2 (((cfg0.win 6).blk t).view.emb (ix2 k n)) = _
  congr 1
  funext a; apply Fin.ext
  match a with
  | ⟨0, _⟩ => show win0_6.index t (0 : Fin 2) * 256 + 1 * k.val = k.val; omega
  | ⟨1, _⟩ => show win0_6.index t (1 : Fin 2) * 256 + 1 * n.val = n.val; omega

theorem blk7 (c : Dev nD) (t : Fin cfg0.N) (n : Fin 256) :
    iblk m c 7 t (ix1 n) = m ((c : Thread nD τ).loc main_arg7) (ix1 n) := by
  have e0 := idx7 t
  rw [← V_main_arg7 m c]
  show V m c main_arg7 (((cfg0.win 7).blk t).view.emb (ix1 n)) = _
  congr 1
  funext a; apply Fin.ext
  match a with
  | ⟨0, _⟩ => show win0_7.index t (0 : Fin 1) * 256 + 1 * n.val = n.val; omega

theorem blk8 (c : Dev nD) (t : Fin cfg0.N) (i : Fin 8) (k : Fin 256) (n : Fin 256) :
    iblk m c 8 t (ix3 i k n) = V m c main_v4 (ix3 i k n) := by
  obtain ⟨e0, e1, e2⟩ := idx8 t
  show V m c main_v4 (((cfg0.win 8).blk t).view.emb (ix3 i k n)) = _
  congr 1
  funext a; apply Fin.ext
  match a with
  | ⟨0, _⟩ => show win0_8.index t (0 : Fin 3) * 8 + 1 * i.val = i.val; omega
  | ⟨1, _⟩ => show win0_8.index t (1 : Fin 3) * 256 + 1 * k.val = k.val; omega
  | ⟨2, _⟩ => show win0_8.index t (2 : Fin 3) * 256 + 1 * n.val = n.val; omega

theorem blk9 (c : Dev nD) (t : Fin cfg0.N) (i : Fin 8) (j : Fin 7) (n : Fin 256) :
    iblk m c 9 t (ix3 i j n) = V m c main_v5 (ix3 i j n) := by
  obtain ⟨e0, e1, e2⟩ := idx9 t
  show V m c main_v5 (((cfg0.win 9).blk t).view.emb (ix3 i j n)) = _
  congr 1
  funext a; apply Fin.ext
  match a with
  | ⟨0, _⟩ => show win0_9.index t (0 : Fin 3) * 8 + 1 * i.val = i.val; omega
  | ⟨1, _⟩ => show win0_9.index t (1 : Fin 3) * 7 + 1 * j.val = j.val; omega
  | ⟨2, _⟩ => show win0_9.index t (2 : Fin 3) * 256 + 1 * n.val = n.val; omega

theorem blk10 (c : Dev nD) (t : Fin cfg0.N) (i : Fin 8) (n : Fin 256) :
    iblk m c 10 t (ix2 i n) = m ((c : Thread nD τ).loc main_arg9) (ix2 i n) := by
  obtain ⟨e0, e1⟩ := idx10 t
  rw [← V_main_arg9 m c]
  show V m c main_arg9 (((cfg0.win 10).blk t).view.emb (ix2 i n)) = _
  congr 1
  funext a; apply Fin.ext
  match a with
  | ⟨0, _⟩ => show win0_10.index t (0 : Fin 2) * 8 + 1 * i.val = i.val; omega
  | ⟨1, _⟩ => show win0_10.index t (1 : Fin 2) * 256 + 1 * n.val = n.val; omega

theorem blk11 (c : Dev nD) (t : Fin cfg0.N) (i : Fin 8) (k : Fin 256) (n : Fin 256) :
    iblk m c 11 t (ix3 i k n) = V m c main_v6 (ix3 i k n) := by
  obtain ⟨e0, e1, e2⟩ := idx11 t
  show V m c main_v6 (((cfg0.win 11).blk t).view.emb (ix3 i k n)) = _
  congr 1
  funext a; apply Fin.ext
  match a with
  | ⟨0, _⟩ => show win0_11.index t (0 : Fin 3) * 8 + 1 * i.val = i.val; omega
  | ⟨1, _⟩ => show win0_11.index t (1 : Fin 3) * 256 + 1 * k.val = k.val; omega
  | ⟨2, _⟩ => show win0_11.index t (2 : Fin 3) * 256 + 1 * n.val = n.val; omega

theorem blk12 (c : Dev nD) (t : Fin cfg0.N) (i : Fin 8) (n : Fin 256) :
    iblk m c 12 t (ix2 i n) = m ((c : Thread nD τ).loc main_arg11) (ix2 i n) := by
  obtain ⟨e0, e1⟩ := idx12 t
  rw [← V_main_arg11 m c]
  show V m c main_arg11 (((cfg0.win 12).blk t).view.emb (ix2 i n)) = _
  congr 1
  funext a; apply Fin.ext
  match a with
  | ⟨0, _⟩ => show win0_12.index t (0 : Fin 2) * 8 + 1 * i.val = i.val; omega
  | ⟨1, _⟩ => show win0_12.index t (1 : Fin 2) * 256 + 1 * n.val = n.val; omega

theorem blk13 (c : Dev nD) (t : Fin cfg0.N) (i : Fin 8) (k : Fin 256) :
    iblk m c 13 t (ix2 i k) = V m c main_v8 (ix2 i k) := by
  obtain ⟨e0, e1⟩ := idx13 t
  show V m c main_v8 (((cfg0.win 13).blk t).view.emb (ix2 i k)) = _
  congr 1
  funext a; apply Fin.ext
  match a with
  | ⟨0, _⟩ => show win0_13.index t (0 : Fin 2) * 8 + 1 * i.val = i.val; omega
  | ⟨1, _⟩ => show win0_13.index t (1 : Fin 2) * 256 + 1 * k.val = k.val; omega

theorem blk14 (c : Dev nD) (t : Fin cfg0.N) (i : Fin 8) (k : Fin 256) :
    iblk m c 14 t (ix2 i k) = V m c main_v10 (ix2 i k) := by
  obtain ⟨e0, e1⟩ := idx14 t
  show V m c main_v10 (((cfg0.win 14).blk t).view.emb (ix2 i k)) = _
  congr 1
  funext a; apply Fin.ext
  match a with
  | ⟨0, _⟩ => show win0_14.index t (0 : Fin 2) * 8 + 1 * i.val = i.val; omega
  | ⟨1, _⟩ => show win0_14.index t (1 : Fin 2) * 256 + 1 * k.val = k.val; omega

theorem blk15 (c : Dev nD) (t : Fin cfg0.N) (i : Fin 8) :
    iblk m c 15 t (ix1 i) = V m c main_v12 (ix1 i) := by
  have e0 := idx15 t
  show V m c main_v12 (((cfg0.win 15).blk t).view.emb (ix1 i)) = _
  congr 1
  funext a; apply Fin.ext
  match a with
  | ⟨0, _⟩ => show win0_15.index t (0 : Fin 1) * 8 + 1 * i.val = i.val; omega

theorem blk16 (c : Dev nD) (t : Fin cfg0.N) (i : Fin 8) :
    iblk m c 16 t (ix1 i) = V m c main_v14 (ix1 i) := by
  have e0 := idx16 t
  show V m c main_v14 (((cfg0.win 16).blk t).view.emb (ix1 i)) = _
  congr 1
  funext a; apply Fin.ext
  match a with
  | ⟨0, _⟩ => show win0_16.index t (0 : Fin 1) * 8 + 1 * i.val = i.val; omega

/-! ## The arrays made before the grid starts, read at an index

A change of float format is the identity over the extended reals; a slice reads the operand at the index shifted by
its offsets; a reshape reads the operand at the index of the same row-major position. -/

theorem v0_at (c : Dev nD) (k : Fin 64) (n : Fin 256) :
    V m c main_v0 (ix2 k n) = m ((c : Thread nD τ).loc main_arg2) (ix2 k n) := by
  have e : V m c main_v0
      = truncf (F := Ideal) (s := S64x256) (φ := .f32) .bf16 (m ((c : Thread nD τ).loc main_arg2)) bitsLt_bf16_f32 := by
    dsimp only [V, hostOps0]; after_results
  rw [e]; rfl

theorem v1_at (c : Dev nD) (k : Fin 256) (n : Fin 256) :
    V m c main_v1 (ix2 k n) = m ((c : Thread nD τ).loc main_arg4) (ix2 k n) := by
  have e : V m c main_v1
      = truncf (F := Ideal) (s := S256x256) (φ := .f32) .bf16 (m ((c : Thread nD τ).loc main_arg4)) bitsLt_bf16_f32 := by
    dsimp only [V, hostOps0]; after_results
  rw [e]; rfl

theorem v2_at (c : Dev nD) (k : Fin 256) (n : Fin 256) :
    V m c main_v2 (ix2 k n) = m ((c : Thread nD τ).loc main_arg6) (ix2 k n) := by
  have e : V m c main_v2
      = truncf (F := Ideal) (s := S256x256) (φ := .f32) .bf16 (m ((c : Thread nD τ).loc main_arg6)) bitsLt_bf16_f32 := by
    dsimp only [V, hostOps0]; after_results
  rw [e]; rfl

/-- Rows 0..255 of each head's first-layer weights. -/
theorem v4_at (c : Dev nD) (i : Fin 8) (k : Fin 263) (hk : k.val < 256) (n : Fin 256) :
    V m c main_v4 (ix3 i ⟨k.val, hk⟩ n) = m ((c : Thread nD τ).loc main_arg8) (ix3 i k n) := by
  have e : V m c main_v4
      = truncf (F := Ideal) (s := S8x256x256) (φ := .f32) .bf16
          (extractStridedSlice (s := S8x263x256) (α := Ideal .f32) S8x256x256 ![0, 0, 0] (m ((c : Thread nD τ).loc main_arg8))
            slices_S8x263x256_S8x256x256_0_0_0) bitsLt_bf16_f32 := by
    dsimp only [V, hostOps0]; after_results
  rw [e]
  show extractStridedSlice (s := S8x263x256) (α := Ideal .f32) S8x256x256 ![0, 0, 0] (m ((c : Thread nD τ).loc main_arg8))
      slices_S8x263x256_S8x256x256_0_0_0 (ix3 i ⟨k.val, hk⟩ n) = _
  refine extractStridedSlice_apply _ _ _ _ (ix3 i k n) fun a => ?_
  match a with
  | ⟨0, _⟩ => show i.val = 0 + i.val; omega
  | ⟨1, _⟩ => show k.val = 0 + k.val; omega
  | ⟨2, _⟩ => show n.val = 0 + n.val; omega

/-- Rows 256..262 of each head's first-layer weights. -/
theorem v5_at (c : Dev nD) (i : Fin 8) (k : Fin 263) (hj : k.val - 256 < 7) (hk : ¬ k.val < 256) (n : Fin 256) :
    V m c main_v5 (ix3 i ⟨k.val - 256, hj⟩ n) = m ((c : Thread nD τ).loc main_arg8) (ix3 i k n) := by
  have e : V m c main_v5
      = extractStridedSlice (s := S8x263x256) (α := Ideal .f32) S8x7x256 ![0, 256, 0] (m ((c : Thread nD τ).loc main_arg8))
            slices_S8x263x256_S8x7x256_0_256_0 := by
    dsimp only [V, hostOps0]; after_results
  rw [e]
  refine extractStridedSlice_apply _ _ _ _ (ix3 i k n) fun a => ?_
  match a with
  | ⟨0, _⟩ => show i.val = 0 + i.val; omega
  | ⟨1, _⟩ => show k.val = 256 + (k.val - 256); omega
  | ⟨2, _⟩ => show n.val = 0 + n.val; omega

theorem v6_at (c : Dev nD) (i : Fin 8) (k : Fin 256) (n : Fin 256) :
    V m c main_v6 (ix3 i k n) = m ((c : Thread nD τ).loc main_arg10) (ix3 i k n) := by
  have e : V m c main_v6
      = truncf (F := Ideal) (s := S8x256x256) (φ := .f32) .bf16 (m ((c : Thread nD τ).loc main_arg10)) bitsLt_bf16_f32 := by
    dsimp only [V, hostOps0]; after_results
  rw [e]; rfl

/-- Column 0 of each head's output weights. -/
theorem v8_at (c : Dev nD) (i : Fin 8) (k : Fin 256) :
    V m c main_v8 (ix2 i k) = m ((c : Thread nD τ).loc main_arg12) (ix3 i k (0 : Fin 2)) := by
  have e : V m c main_v8
      = shapeCast (s := S8x256x1) (α := Ideal .f32) S8x256
          (extractStridedSlice (s := S8x256x2) (α := Ideal .f32) S8x256x1 ![0, 0, 0] (m ((c : Thread nD τ).loc main_arg12))
            slices_S8x256x2_S8x256x1_0_0_0) shapeCasts_S8x256x1_S8x256 := by
    dsimp only [V, hostOps0]; after_results; rfl
  rw [e]
  refine (shapeCast_apply _ _ (ix2 i k) (ix3 i k (0 : Fin 1)) ?_).trans ?_
  · rw [Shape.rowMajor_val_two, Shape.rowMajor_val_three]
    show (i.val * 256 + k.val) * 1 + 0 = i.val * 256 + k.val
    omega
  · refine extractStridedSlice_apply _ _ _ _ (ix3 i k (0 : Fin 2)) fun a => ?_
    match a with
    | ⟨0, _⟩ => show i.val = 0 + i.val; omega
    | ⟨1, _⟩ => show k.val = 0 + k.val; omega
    | ⟨2, _⟩ => show 0 = 0 + 0; omega

/-- Column 1 of each head's output weights. -/
theorem v10_at (c : Dev nD) (i : Fin 8) (k : Fin 256) :
    V m c main_v10 (ix2 i k) = m ((c : Thread nD τ).loc main_arg12) (ix3 i k (1 : Fin 2)) := by
  have e : V m c main_v10
      = shapeCast (s := S8x256x1) (α := Ideal .f32) S8x256
          (extractStridedSlice (s := S8x256x2) (α := Ideal .f32) S8x256x1 ![0, 0, 1] (m ((c : Thread nD τ).loc main_arg12))
            slices_S8x256x2_S8x256x1_0_0_1) shapeCasts_S8x256x1_S8x256 := by
    dsimp only [V, hostOps0]; after_results; rfl
  rw [e]
  refine (shapeCast_apply _ _ (ix2 i k) (ix3 i k (0 : Fin 1)) ?_).trans ?_
  · rw [Shape.rowMajor_val_two, Shape.rowMajor_val_three]
    show (i.val * 256 + k.val) * 1 + 0 = i.val * 256 + k.val
    omega
  · refine extractStridedSlice_apply _ _ _ _ (ix3 i k (1 : Fin 2)) fun a => ?_
    match a with
    | ⟨0, _⟩ => show i.val = 0 + i.val; omega
    | ⟨1, _⟩ => show k.val = 0 + k.val; omega
    | ⟨2, _⟩ => show 1 = 1 + 0; omega

/-- Entry 0 of each head's output biases. -/
theorem v12_at (c : Dev nD) (i : Fin 8) :
    V m c main_v12 (ix1 i) = m ((c : Thread nD τ).loc main_arg13) (ix2 i (0 : Fin 2)) := by
  have e : V m c main_v12
      = shapeCast (s := S8x1) (α := Ideal .f32) S8
          (extractStridedSlice (s := S8x2) (α := Ideal .f32) S8x1 ![0, 0] (m ((c : Thread nD τ).loc main_arg13))
            slices_S8x2_S8x1_0_0) shapeCasts_S8x1_S8 := by
    dsimp only [V, hostOps0]; after_results; rfl
  rw [e]
  refine (shapeCast_apply _ _ (ix1 i) (ix2 i (0 : Fin 1)) ?_).trans ?_
  · rw [Shape.rowMajor_val_one, Shape.rowMajor_val_two]
    show i.val * 1 + 0 = i.val
    omega
  · refine extractStridedSlice_apply _ _ _ _ (ix2 i (0 : Fin 2)) fun a => ?_
    match a with
    | ⟨0, _⟩ => show i.val = 0 + i.val; omega
    | ⟨1, _⟩ => show 0 = 0 + 0; omega

/-- Entry 1 of each head's output biases. -/
theorem v14_at (c : Dev nD) (i : Fin 8) :
    V m c main_v14 (ix1 i) = m ((c : Thread nD τ).loc main_arg13) (ix2 i (1 : Fin 2)) := by
  have e : V m c main_v14
      = shapeCast (s := S8x1) (α := Ideal .f32) S8
          (extractStridedSlice (s := S8x2) (α := Ideal .f32) S8x1 ![0, 1] (m ((c : Thread nD τ).loc main_arg13))
            slices_S8x2_S8x1_0_1) shapeCasts_S8x1_S8 := by
    dsimp only [V, hostOps0]; after_results; rfl
  rw [e]
  refine (shapeCast_apply _ _ (ix1 i) (ix2 i (0 : Fin 1)) ?_).trans ?_
  · rw [Shape.rowMajor_val_one, Shape.rowMajor_val_two]
    show i.val * 1 + 0 = i.val
    omega
  · refine extractStridedSlice_apply _ _ _ _ (ix2 i (1 : Fin 2)) fun a => ?_
    match a with
    | ⟨0, _⟩ => show i.val = 0 + i.val; omega
    | ⟨1, _⟩ => show 1 = 1 + 0; omega

/-! ## The weights, the input rows and the noise rows the body finds in its blocks are the arguments' -/

/-- The weights read off the blocks at any point are the weights read off the argument arrays. -/
theorem WK_blocks (c : Dev nD) (t : Fin cfg0.N) :
    KW.WK (blocksAt m c t) = Cert.ReferenceIdeal.RW.WR (argsK m c) := by
  unfold KW.WK Cert.ReferenceIdeal.RW.WR blocksAt argsK
  dsimp only
  rw [Cert.Spec.Weights.mk.injEq]
  refine ⟨?_, ?_, ?_, ?_, ?_, ?_, ?_, ?_, ?_, ?_, ?_, ?_⟩
  · funext k n; rw [blk2, v0_at]
  · funext n; rw [blk3]
  · funext k n; rw [blk4, v1_at]
  · funext n; rw [blk5]
  · funext k n; rw [blk6, v2_at]
  · funext n; rw [blk7]
  · funext i k n
    by_cases hk : k.val < 256
    · rw [dif_pos hk, blk8, v4_at]
    · have hj : k.val - 256 < 7 := by have := k.isLt; omega
      rw [dif_neg hk, dif_pos hj, blk9, v5_at m c i k hj hk n]
  · funext i n; rw [blk10]
  · funext i k n; rw [blk11, v6_at]
  · funext i n; rw [blk12]
  · funext i k cc
    by_cases h0 : cc.val = 0
    · have ec : cc = (0 : Fin 2) := Fin.ext h0
      rw [if_pos h0, blk13, v8_at, ec]
    · have ec : cc = (1 : Fin 2) := Fin.ext (by have := cc.isLt; show cc.val = 1; omega)
      rw [if_neg h0, blk14, v10_at, ec]
  · funext i cc
    by_cases h0 : cc.val = 0
    · have ec : cc = (0 : Fin 2) := Fin.ext h0
      rw [if_pos h0, blk15, v12_at, ec]
    · have ec : cc = (1 : Fin 2) := Fin.ext (by have := cc.isLt; show cc.val = 1; omega)
      rw [if_neg h0, blk16, v14_at, ec]

/-- Row p of the input block at point t is row 1024 t + p of the input array. -/
theorem rowK_blocks (c : Dev nD) (t : Fin cfg0.N) (p : Fin 1024) :
    KW.rowK (blocksAt m c t) p
      = Cert.ReferenceIdeal.RW.rowR (argsK m c) ⟨t.val * 1024 + p.val, row_lt t p⟩ := by
  unfold KW.rowK Cert.ReferenceIdeal.RW.rowR blocksAt argsK
  dsimp only
  funext k
  rw [blk0]

/-- Row p of the noise block at point t is row 1024 t + p of the noise array. -/
theorem epsK_blocks (c : Dev nD) (t : Fin cfg0.N) (p : Fin 1024) :
    KW.epsK (blocksAt m c t) p
      = Cert.ReferenceIdeal.RW.epsR (argsK m c) ⟨t.val * 1024 + p.val, row_lt t p⟩ := by
  unfold KW.epsK Cert.ReferenceIdeal.RW.epsR blocksAt argsK
  dsimp only
  funext q
  rw [blk1]

/-! ## The result arrays after the run

Point t writes rows 1024 t .. 1024 t + 1023 of each result array, and every row of the [65536, 8] arrays is some
point's: row r is point r / 1024's. -/

/-- Entry (p, q) of the block point t writes sits at entry (1024 t + p, q) of a result array. -/
theorem emb17 (t : Fin cfg0.N) (p : Fin 1024) (q : Fin 8) :
    ((cfg0.win 17).blk t).view.emb (ix2 p q)
      = (ix2 (⟨t.val * 1024 + p.val, row_lt t p⟩ : Fin 65536) q : S65536x8.Idx) := by
  obtain ⟨-, -, -, -, e0, e1, -⟩ := idx_rows t
  funext a; apply Fin.ext
  match a with
  | ⟨0, _⟩ => show win0_17.index t (0 : Fin 2) * 1024 + 1 * p.val = t.val * 1024 + p.val; omega
  | ⟨1, _⟩ => show win0_17.index t (1 : Fin 2) * 8 + 1 * q.val = q.val; omega

theorem emb18 (t : Fin cfg0.N) (p : Fin 1024) (q : Fin 8) :
    ((cfg0.win 18).blk t).view.emb (ix2 p q)
      = (ix2 (⟨t.val * 1024 + p.val, row_lt t p⟩ : Fin 65536) q : S65536x8.Idx) := by
  obtain ⟨-, -, -, -, -, -, e0, e1, -⟩ := idx_rows t
  funext a; apply Fin.ext
  match a with
  | ⟨0, _⟩ => show win0_18.index t (0 : Fin 2) * 1024 + 1 * p.val = t.val * 1024 + p.val; omega
  | ⟨1, _⟩ => show win0_18.index t (1 : Fin 2) * 8 + 1 * q.val = q.val; omega

theorem emb19 (t : Fin cfg0.N) (p : Fin 1024) (q : Fin 8) :
    ((cfg0.win 19).blk t).view.emb (ix2 p q)
      = (ix2 (⟨t.val * 1024 + p.val, row_lt t p⟩ : Fin 65536) q : S65536x8.Idx) := by
  obtain ⟨-, -, -, -, -, -, -, -, e0, e1⟩ := idx_rows t
  funext a; apply Fin.ext
  match a with
  | ⟨0, _⟩ => show win0_19.index t (0 : Fin 2) * 1024 + 1 * p.val = t.val * 1024 + p.val; omega
  | ⟨1, _⟩ => show win0_19.index t (1 : Fin 2) * 8 + 1 * q.val = q.val; omega

/-- An index of a result array is in point t's block iff each coordinate is in the block's range on its axis. -/
theorem mem_blk17 (t : Fin cfg0.N) (i : S65536x8.Idx) :
    i ∈ ((cfg0.win 17).blk t).view.set ↔ ∀ a : Fin 2, win0_17.index t a * S1024x8.size a ≤ (i a).val
      ∧ (i a).val < win0_17.index t a * S1024x8.size a + S1024x8.size a := by
  show i ∈ ((View.whole main_v15_0).slice (win0_17.rect t)).set ↔ _
  rw [View.set_slice_whole, Rect.mem_set_unit]
  exact Iff.rfl

theorem mem_blk18 (t : Fin cfg0.N) (i : S65536x8.Idx) :
    i ∈ ((cfg0.win 18).blk t).view.set ↔ ∀ a : Fin 2, win0_18.index t a * S1024x8.size a ≤ (i a).val
      ∧ (i a).val < win0_18.index t a * S1024x8.size a + S1024x8.size a := by
  show i ∈ ((View.whole main_v15_1).slice (win0_18.rect t)).set ↔ _
  rw [View.set_slice_whole, Rect.mem_set_unit]
  exact Iff.rfl

theorem mem_blk19 (t : Fin cfg0.N) (i : S65536x8.Idx) :
    i ∈ ((cfg0.win 19).blk t).view.set ↔ ∀ a : Fin 2, win0_19.index t a * S1024x8.size a ≤ (i a).val
      ∧ (i a).val < win0_19.index t a * S1024x8.size a + S1024x8.size a := by
  show i ∈ ((View.whole main_v15_2).slice (win0_19.rect t)).set ↔ _
  rw [View.set_slice_whole, Rect.mem_set_unit]
  exact Iff.rfl

/-- Every row is some point's: the point of row r is r / 1024. -/
theorem point_of_row (r : Nat) (hr : r < 65536) : ∃ t : Fin cfg0.N, t.val = r / 1024 :=
  ⟨⟨r / 1024, by rw [show cfg0.N = 64 from N_0]; omega⟩, rfl⟩

theorem covered17 (i : S65536x8.Idx) :
    ∃ t : Fin cfg0.N, (cfg0.win 17).flush t = true ∧ i ∈ ((cfg0.win 17).blk t).view.set := by
  have hi0 : (i 0).val < 65536 := (i 0).isLt
  have hi1 : (i 1).val < 8 := (i 1).isLt
  obtain ⟨t, ht⟩ := point_of_row (i 0).val hi0
  obtain ⟨-, -, -, -, e0, e1, -⟩ := idx_rows t
  refine ⟨t, flush0_17 t, ?_⟩
  rw [mem_blk17]
  intro a
  match a with
  | ⟨0, _⟩ =>
    show win0_17.index t (0 : Fin 2) * 1024 ≤ (i 0).val ∧ (i 0).val < win0_17.index t (0 : Fin 2) * 1024 + 1024
    omega
  | ⟨1, _⟩ =>
    show win0_17.index t (1 : Fin 2) * 8 ≤ (i 1).val ∧ (i 1).val < win0_17.index t (1 : Fin 2) * 8 + 8
    omega

theorem covered18 (i : S65536x8.Idx) :
    ∃ t : Fin cfg0.N, (cfg0.win 18).flush t = true ∧ i ∈ ((cfg0.win 18).blk t).view.set := by
  have hi0 : (i 0).val < 65536 := (i 0).isLt
  have hi1 : (i 1).val < 8 := (i 1).isLt
  obtain ⟨t, ht⟩ := point_of_row (i 0).val hi0
  obtain ⟨-, -, -, -, -, -, e0, e1, -⟩ := idx_rows t
  refine ⟨t, flush0_18 t, ?_⟩
  rw [mem_blk18]
  intro a
  match a with
  | ⟨0, _⟩ =>
    show win0_18.index t (0 : Fin 2) * 1024 ≤ (i 0).val ∧ (i 0).val < win0_18.index t (0 : Fin 2) * 1024 + 1024
    omega
  | ⟨1, _⟩ =>
    show win0_18.index t (1 : Fin 2) * 8 ≤ (i 1).val ∧ (i 1).val < win0_18.index t (1 : Fin 2) * 8 + 8
    omega

theorem covered19 (i : S65536x8.Idx) :
    ∃ t : Fin cfg0.N, (cfg0.win 19).flush t = true ∧ i ∈ ((cfg0.win 19).blk t).view.set := by
  have hi0 : (i 0).val < 65536 := (i 0).isLt
  have hi1 : (i 1).val < 8 := (i 1).isLt
  obtain ⟨t, ht⟩ := point_of_row (i 0).val hi0
  obtain ⟨-, -, -, -, -, -, -, -, e0, e1⟩ := idx_rows t
  refine ⟨t, flush0_19 t, ?_⟩
  rw [mem_blk19]
  intro a
  match a with
  | ⟨0, _⟩ =>
    show win0_19.index t (0 : Fin 2) * 1024 ≤ (i 0).val ∧ (i 0).val < win0_19.index t (0 : Fin 2) * 1024 + 1024
    omega
  | ⟨1, _⟩ =>
    show win0_19.index t (1 : Fin 2) * 8 ≤ (i 1).val ∧ (i 1).val < win0_19.index t (1 : Fin 2) * 8 + 8
    omega

/-- If the body's first slab is the network's mean row by row, the means array after the run is the network's mean
    for every row of the inputs. -/
theorem final17 (hk : ∀ (b : KDag.Blocks) (p : Fin 1024) (q : Fin 8),
      KDag.kout17 b (ix2 p q) = Cert.Spec.outMean (KW.WK b) (KW.rowK b p) q) (c : Dev nD) :
    (dats m 0 c).arrAt 17 cfg0.N = Cert.ReferenceIdeal.RW.GMean (argsK m c) := by
  refine (dats m 0 c).arrAt_eq_of_cover 17 (Cert.ReferenceIdeal.RW.GMean (argsK m c)) (fun t _ => ?_) (fun i => covered17 i)
  rw [wrote17]
  funext j
  obtain ⟨p, q, rfl⟩ : ∃ (p : Fin 1024) (q : Fin 8), j = ix2 p q := ⟨j 0, j 1, eq_ix2 j⟩
  show KDag.kout17 (blocksAt m c t) (ix2 p q)
    = Cert.ReferenceIdeal.RW.GMean (argsK m c) (((cfg0.win 17).blk t).view.emb (ix2 p q))
  rw [hk, WK_blocks, rowK_blocks, emb17]
  rfl

/-- Likewise the samples array, -/
theorem final18 (hk : ∀ (b : KDag.Blocks) (p : Fin 1024) (q : Fin 8),
      KDag.kout18 b (ix2 p q) = Cert.Spec.outSample (KW.WK b) (KW.rowK b p) (KW.epsK b p) q) (c : Dev nD) :
    (dats m 0 c).arrAt 18 cfg0.N = Cert.ReferenceIdeal.RW.GSample (argsK m c) := by
  refine (dats m 0 c).arrAt_eq_of_cover 18 (Cert.ReferenceIdeal.RW.GSample (argsK m c)) (fun t _ => ?_) (fun i => covered18 i)
  rw [wrote18]
  funext j
  obtain ⟨p, q, rfl⟩ : ∃ (p : Fin 1024) (q : Fin 8), j = ix2 p q := ⟨j 0, j 1, eq_ix2 j⟩
  show KDag.kout18 (blocksAt m c t) (ix2 p q)
    = Cert.ReferenceIdeal.RW.GSample (argsK m c) (((cfg0.win 18).blk t).view.emb (ix2 p q))
  rw [hk, WK_blocks, rowK_blocks, epsK_blocks, emb18]
  rfl

/-- and the log-density array. -/
theorem final19 (hk : ∀ (b : KDag.Blocks) (p : Fin 1024) (q : Fin 8),
      KDag.kout19 b (ix2 p q) = Cert.Spec.outLogp (KW.WK b) (KW.rowK b p) (KW.epsK b p) q) (c : Dev nD) :
    (dats m 0 c).arrAt 19 cfg0.N = Cert.ReferenceIdeal.RW.GLogp (argsK m c) := by
  refine (dats m 0 c).arrAt_eq_of_cover 19 (Cert.ReferenceIdeal.RW.GLogp (argsK m c)) (fun t _ => ?_) (fun i => covered19 i)
  rw [wrote19]
  funext j
  obtain ⟨p, q, rfl⟩ : ∃ (p : Fin 1024) (q : Fin 8), j = ix2 p q := ⟨j 0, j 1, eq_ix2 j⟩
  show KDag.kout19 (blocksAt m c t) (ix2 p q)
    = Cert.ReferenceIdeal.RW.GLogp (argsK m c) (((cfg0.win 19).blk t).view.emb (ix2 p q))
  rw [hk, WK_blocks, rowK_blocks, epsK_blocks, emb19]
  rfl

/-! ## The run, read -/

/-- Every fair execution of the kernel's program ends with the three result arrays at the network's mean, sample and
    log density for every row of the inputs, and the fourteen arguments unchanged. -/
theorem run
    (hk17 : ∀ (b : KDag.Blocks) (p : Fin 1024) (q : Fin 8),
      KDag.kout17 b (ix2 p q) = Cert.Spec.outMean (KW.WK b) (KW.rowK b p) q)
    (hk18 : ∀ (b : KDag.Blocks) (p : Fin 1024) (q : Fin 8),
      KDag.kout18 b (ix2 p q) = Cert.Spec.outSample (KW.WK b) (KW.rowK b p) (KW.epsK b p) q)
    (hk19 : ∀ (b : KDag.Blocks) (p : Fin 1024) (q : Fin 8),
      KDag.kout19 b (ix2 p q) = Cert.Spec.outLogp (KW.WK b) (KW.rowK b p) (KW.epsK b p) q) :
    θ_run defs (onTc (τ := τ) (main (F := Ideal))) ⟨m, fun _ => 0, ρ⟩ fun r => ∀ c : Dev nD,
      r.2.mem ((c : Thread nD τ).loc main_v15_0) = Cert.ReferenceIdeal.RW.GMean (argsK m c)
      ∧ r.2.mem ((c : Thread nD τ).loc main_v15_1) = Cert.ReferenceIdeal.RW.GSample (argsK m c)
      ∧ r.2.mem ((c : Thread nD τ).loc main_v15_2) = Cert.ReferenceIdeal.RW.GLogp (argsK m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(means_after m r h c).trans (final17 m hk17 c),
      (samples_after m r h c).trans (final18 m hk18 c), (logps_after m r h c).trans (final19 m hk19 c),
      arg0_kept m r h c, arg1_kept m r h c, arg2_kept m r h c, arg3_kept m r h c, arg4_kept m r h c,
      arg5_kept m r h c, arg6_kept m r h c, arg7_kept m r h c, arg8_kept m r h c, arg9_kept m r h c,
      arg10_kept m r h c, arg11_kept m r h c, arg12_kept m r h c, arg13_kept m r h c⟩)
    (run_main m ρ)

end Cert.KernelIdeal.KValue

end
-- ==== Proof.KOps.lean ====
/-
  The kernel body's operations read at an index, for the shapes this kernel uses.

  * the two matrix products (a [1024, 64] block by a [64, 256] matrix; a [1024, 256] block by a [256, 256] matrix), each
    into a zero accumulator: entry (p, n) is the sum over k of the products of entries (p, k) and (k, n);
  * one entry of a one-element vector; one row of a [7, 256] block; a block loaded from a window at an offset along
    the leading axis; eight columns laid side by side.
-/
import proofs.«418646_j6511170421537_4_alg».proof.KernelIdeal
import proofs.«418646_j6511170421537_4_alg».proof.Proof.Gen.KernelIdeal
import proofs.«418646_j6511170421537_4_alg».proof.Proof.LibRowOps

noncomputable section

namespace Cert.KernelIdeal.KOps

open Idealize.ShloMosaic Idealize.ShloMosaic.ValueIdx Cert.KernelIdeal Cert.KernelIdeal.Gen

variable {α : Type}

/-! ### The [1024, 64] by [64, 256] product -/

theorem lhsA_0 (i : S1024x256.Idx) (q : dot_S1024x64_S64x256_S1024x256_1_0_0_1_n_n.contr.Idx) :
    (dot_S1024x64_S64x256_S1024x256_1_0_0_1_n_n.lhsIdx i q 0).val = (i 0).val := by
  unfold DotDims.lhsIdx
  rw [dif_neg (show ¬(0 : Fin S1024x64.rank) ∈ dot_S1024x64_S64x256_S1024x256_1_0_0_1_n_n.lhsBatch by decide),
    dif_pos (show (0 : Fin S1024x64.rank) ∈ dot_S1024x64_S64x256_S1024x256_1_0_0_1_n_n.lhsNonContracting by decide)]
  rfl
theorem lhsA_1 (i : S1024x256.Idx) (q : dot_S1024x64_S64x256_S1024x256_1_0_0_1_n_n.contr.Idx) :
    (dot_S1024x64_S64x256_S1024x256_1_0_0_1_n_n.lhsIdx i q 1).val = (q ⟨0, by decide⟩).val :=
  dot_S1024x64_S64x256_S1024x256_1_0_0_1_n_n.lhsIdx_val_of_single rfl i q
theorem rhsA_0 (i : S1024x256.Idx) (q : dot_S1024x64_S64x256_S1024x256_1_0_0_1_n_n.contr.Idx) :
    (dot_S1024x64_S64x256_S1024x256_1_0_0_1_n_n.rhsIdx i q 0).val = (q ⟨0, by decide⟩).val :=
  dot_S1024x64_S64x256_S1024x256_1_0_0_1_n_n.rhsIdx_val_of_single rfl i q
theorem rhsA_1 (i : S1024x256.Idx) (q : dot_S1024x64_S64x256_S1024x256_1_0_0_1_n_n.contr.Idx) :
    (dot_S1024x64_S64x256_S1024x256_1_0_0_1_n_n.rhsIdx i q 1).val = (i 1).val := by
  unfold DotDims.rhsIdx
  rw [dif_neg (show ¬(1 : Fin S64x256.rank) ∈ dot_S1024x64_S64x256_S1024x256_1_0_0_1_n_n.rhsBatch by decide),
    dif_pos (show (1 : Fin S64x256.rank) ∈ dot_S1024x64_S64x256_S1024x256_1_0_0_1_n_n.rhsNonContracting by decide)]
  rfl

/-- The product of a [1024, 64] block and a [64, 256] matrix into a zero accumulator, at (p, n): the sum over k of
    entry (p, k) times entry (k, n). -/
theorem matmulA_apply {φ₁ φ₂ : FTy} (l : FVec Ideal S1024x64 φ₁) (r : FVec Ideal S64x256 φ₂) (p : Fin 1024) (n : Fin 256) :
    matmul dot_S1024x64_S64x256_S1024x256_1_0_0_1_n_n none l r (constant S1024x256 .f32 0x00000000#32) (ix2 p n)
      = ∑ k : Fin 64, l (ix2 p k) * r (ix2 k n) := by
  simp only [matmul]
  rw [Ideal.matmul_constant_zero_apply,
    ← Equiv.sum_comp (contrEquiv1 dot_S1024x64_S64x256_S1024x256_1_0_0_1_n_n 64 rfl rfl).symm]
  refine Finset.sum_congr rfl fun k _ => ?_
  have hk := contrEquiv1_symm_val dot_S1024x64_S64x256_S1024x256_1_0_0_1_n_n 64 rfl rfl k
  have el : dot_S1024x64_S64x256_S1024x256_1_0_0_1_n_n.lhsIdx (ix2 p n)
      ((contrEquiv1 dot_S1024x64_S64x256_S1024x256_1_0_0_1_n_n 64 rfl rfl).symm k) = ix2 p k :=
    funext fun a => Fin.ext (by
      match a with
      | ⟨0, _⟩ => exact lhsA_0 _ _
      | ⟨1, _⟩ => exact (lhsA_1 _ _).trans hk)
  have er : dot_S1024x64_S64x256_S1024x256_1_0_0_1_n_n.rhsIdx (ix2 p n)
      ((contrEquiv1 dot_S1024x64_S64x256_S1024x256_1_0_0_1_n_n 64 rfl rfl).symm k) = ix2 k n :=
    funext fun a => Fin.ext (by
      match a with
      | ⟨0, _⟩ => exact (rhsA_0 _ _).trans hk
      | ⟨1, _⟩ => exact rhsA_1 _ _)
  rw [el, er]

/-! ### The [1024, 256] by [256, 256] product -/

theorem lhsB_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide),
    dif_pos (show (0 : Fin S1024x256.rank) ∈ dot_S1024x256_S256x256_S1024x256_1_0_0_1_n_n.lhsNonContracting by decide)]
  rfl
theorem lhsB_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhsB_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhsB_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide),
    dif_pos (show (1 : Fin S256x256.rank) ∈ dot_S1024x256_S256x256_S1024x256_1_0_0_1_n_n.rhsNonContracting by decide)]
  rfl

/-- The product of a [1024, 256] block and a [256, 256] matrix into a zero accumulator, at (p, n): the sum over k of
    entry (p, k) times entry (k, n). -/
theorem matmulB_apply {φ₁ φ₂ : FTy} (l : FVec Ideal S1024x256 φ₁) (r : FVec Ideal S256x256 φ₂) (p : Fin 1024) (n : Fin 256) :
    matmul dot_S1024x256_S256x256_S1024x256_1_0_0_1_n_n none l r (constant S1024x256 .f32 0x00000000#32) (ix2 p n)
      = ∑ k : Fin 256, l (ix2 p k) * r (ix2 k n) := by
  simp only [matmul]
  rw [Ideal.matmul_constant_zero_apply,
    ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p n)
      ((contrEquiv1 dot_S1024x256_S256x256_S1024x256_1_0_0_1_n_n 256 rfl rfl).symm k) = ix2 p k :=
    funext fun a => Fin.ext (by
      match a with
      | ⟨0, _⟩ => exact lhsB_0 _ _
      | ⟨1, _⟩ => exact (lhsB_1 _ _).trans hk)
  have er : dot_S1024x256_S256x256_S1024x256_1_0_0_1_n_n.rhsIdx (ix2 p n)
      ((contrEquiv1 dot_S1024x256_S256x256_S1024x256_1_0_0_1_n_n 256 rfl rfl).symm k) = ix2 k n :=
    funext fun a => Fin.ext (by
      match a with
      | ⟨0, _⟩ => exact (rhsB_0 _ _).trans hk
      | ⟨1, _⟩ => exact rhsB_1 _ _)
  rw [el, er]

/-! ### Small reads -/

/-- The one entry of a one-element vector. -/
theorem extractAt_one (v : S1.Idx → α) (h : ∀ a, (![0] : Fin S1.rank → Nat) a < S1.size a) :
    extractAt ![0] v h = v (ix1 (0 : Fin 1)) :=
  congrArg v (funext fun a => Fin.ext (by match a with | ⟨0, _⟩ => rfl))

/-- A block of one leading slice loaded from a rank-3 window at leading offset i: entry (u, r, c) of the block is entry
    (i, r, c) of the window. -/
theorem ld3_apply {Val : EltTy → Type} {e : EltTy} {K M N : ℕ} (X : (⟨3, ![K, M, N]⟩ : Shape).Idx → Val e) (i : ℕ)
    (inb : ∀ a, (![i, 0, 0] : Fin 3 → Nat) a + (![1, M, N] : Fin 3 → Nat) a ≤ (⟨3, ![K, M, N]⟩ : Shape).size a)
    (u : Fin 1) (r : Fin M) (c : Fin N) :
    View.ld X (Rect.unit (s := ⟨3, ![K, M, N]⟩) ![i, 0, 0] ![1, M, N] inb) (ix3 u r c)
      = X (ix3 ⟨i, by have := inb 0; simpa using this⟩ r c) :=
  Cert.RowOps.ld_unit_apply X _ _ inb _ _ fun a => by
    match a with
    | ⟨0, _⟩ => show i = i + u.val; omega
    | ⟨1, _⟩ => show r.val = 0 + r.val; omega
    | ⟨2, _⟩ => show c.val = 0 + c.val; omega

/-- A one-row block loaded from a rank-2 window at row offset i. -/
theorem ld2_apply {Val : EltTy → Type} {e : EltTy} {K N : ℕ} (X : (⟨2, ![K, N]⟩ : Shape).Idx → Val e) (i : ℕ)
    (inb : ∀ a, (![i, 0] : Fin 2 → Nat) a + (![1, N] : Fin 2 → Nat) a ≤ (⟨2, ![K, N]⟩ : Shape).size a)
    (u : Fin 1) (c : Fin N) :
    View.ld X (Rect.unit (s := ⟨2, ![K, N]⟩) ![i, 0] ![1, N] inb) (ix2 u c)
      = X (ix2 ⟨i, by have := inb 0; simpa using this⟩ c) :=
  Cert.RowOps.ld_unit_apply X _ _ inb _ _ fun a => by
    match a with
    | ⟨0, _⟩ => show i = i + u.val; omega
    | ⟨1, _⟩ => show c.val = 0 + c.val; omega

/-- A one-element block loaded from a vector at offset i. -/
theorem ld1_apply {Val : EltTy → Type} {e : EltTy} {K : ℕ} (X : (⟨1, ![K]⟩ : Shape).Idx → Val e) (i : ℕ)
    (inb : ∀ a, (![i] : Fin 1 → Nat) a + (![1] : Fin 1 → Nat) a ≤ (⟨1, ![K]⟩ : Shape).size a) (u : Fin 1) :
    View.ld X (Rect.unit (s := ⟨1, ![K]⟩) ![i] ![1] inb) (ix1 u) = X (ix1 ⟨i, by have := inb 0; simpa using this⟩) :=
  Cert.RowOps.ld_unit_apply X _ _ inb _ _ fun a => by
    match a with
    | ⟨0, _⟩ => show i = i + u.val; omega

end Cert.KernelIdeal.KOps

end
-- ==== Proof.KPartA.lean ====
/-
  The kernel body's values for the trunk, head 0 and head 1, read at an index in the vocabulary of the network.

  With w the weights read off the window blocks and x the row p of the input block, write h = hid w x for the trunk's
  result on that row. This file shows, entry by entry:

  * kv31 at (p, k) is h k;
  * kv34 at (p, n) is the sum over k of h k times row k of head 0's first-layer weights at column n;
  * kv67 and kv78 at (p, 0) are the mean and the log standard deviation (before clipping) of head 0; kv76 is the latter
    before its rectifier;
  * kv108 at (p, n) is coordinate n of head 1's second layer; kv112 at n is entry n of the log-standard-deviation column
    of head 1's output weights; kv115 at (p, n) is the second layer's coordinate n times entry n of the mean column;
  * kv123 and kv134 at (p, 0) are the mean and the log standard deviation (before clipping) of head 1.

  Each proof reads the body's operations at an index (an elementwise operation reads its operands at that index, a
  broadcast row reads its one row, a matrix product is a sum of products, a lane sum is a sum over the second axis, a
  block loaded from a window at a leading offset reads the window at that offset) and ends by unfolding the network's
  definitions.
-/
import proofs.«418646_j6511170421537_4_alg».proof.Proof.KW
import proofs.«418646_j6511170421537_4_alg».proof.Proof.KOps
import Idealize.ShloMosaic.Lib.ValueLayout
import Idealize.ShloMosaic.Lib.Pipeline.Value

noncomputable section

namespace Cert.KernelIdeal.KPartA

open Idealize.ShloMosaic Idealize.ShloMosaic.ValueIdx Cert.KernelIdeal Cert.KernelIdeal.Gen Cert.KernelIdeal.GenP
  Cert.KernelIdeal.KDag Cert.RowOps

/-! ### Blocks loaded from the windows -/

section Loads
variable {Val : EltTy → Type} {e : EltTy}

/-- A whole [1024, 64] window loaded at zero offsets is the window. -/
theorem ld_r0_0 (X : S1024x64.Idx → Val e) : View.ld X r0_0 = X :=
  View.ld_unit_zero (S := S1024x64) (by funext a; match a with | ⟨0, _⟩ => rfl | ⟨1, _⟩ => rfl) _ X

/-- A whole [64, 256] window loaded at zero offsets is the window. -/
theorem ld_r0_1 (X : S64x256.Idx → Val e) : View.ld X r0_1 = X :=
  View.ld_unit_zero (S := S64x256) (by funext a; match a with | ⟨0, _⟩ => rfl | ⟨1, _⟩ => rfl) _ X

/-- A whole [256] window loaded at zero offset is the window. -/
theorem ld_r0_2 (X : S256.Idx → Val e) : View.ld X r0_2 = X :=
  View.ld_unit_zero (S := S256) (by funext a; match a with | ⟨0, _⟩ => rfl) _ X

/-- A whole [256, 256] window loaded at zero offsets is the window. -/
theorem ld_r0_3 (X : S256x256.Idx → Val e) : View.ld X r0_3 = X :=
  View.ld_unit_zero (S := S256x256) (by funext a; match a with | ⟨0, _⟩ => rfl | ⟨1, _⟩ => rfl) _ X

/-- Slice 0 of an [8, 256, 256] window: entry (u, r, c) of the block is entry (0, r, c) of the window. -/
theorem ld_r0_4 (X : S8x256x256.Idx → Val e) (u : Fin 1) (r c : Fin 256) :
    View.ld X r0_4 (ix3 u r c) = X (ix3 (0 : Fin 8) r c) :=
  KOps.ld3_apply X 0 _ u r c

/-- Row 0 of an [8, 256] window. -/
theorem ld_r0_5 (X : S8x256.Idx → Val e) (u : Fin 1) (c : Fin 256) :
    View.ld X r0_5 (ix2 u c) = X (ix2 (0 : Fin 8) c) :=
  KOps.ld2_apply X 0 _ u c

/-- Entry 0 of an [8] window. -/
theorem ld_r0_6 (X : S8.Idx → Val e) (u : Fin 1) : View.ld X r0_6 (ix1 u) = X (ix1 (0 : Fin 8)) :=
  KOps.ld1_apply X 0 _ u

/-- Slice 1 of an [8, 256, 256] window. -/
theorem ld_r0_7 (X : S8x256x256.Idx → Val e) (u : Fin 1) (r c : Fin 256) :
    View.ld X r0_7 (ix3 u r c) = X (ix3 (1 : Fin 8) r c) :=
  KOps.ld3_apply X 1 _ u r c

/-- Slice 1 of an [8, 7, 256] window. -/
theorem ld_r0_8 (X : S8x7x256.Idx → Val e) (u : Fin 1) (r : Fin 7) (c : Fin 256) :
    View.ld X r0_8 (ix3 u r c) = X (ix3 (1 : Fin 8) r c) :=
  KOps.ld3_apply X 1 _ u r c

/-- Row 1 of an [8, 256] window. -/
theorem ld_r0_9 (X : S8x256.Idx → Val e) (u : Fin 1) (c : Fin 256) :
    View.ld X r0_9 (ix2 u c) = X (ix2 (1 : Fin 8) c) :=
  KOps.ld2_apply X 1 _ u c

/-- Entry 1 of an [8] window. -/
theorem ld_r0_10 (X : S8.Idx → Val e) (u : Fin 1) : View.ld X r0_10 (ix1 u) = X (ix1 (1 : Fin 8)) :=
  KOps.ld1_apply X 1 _ u

end Loads

/-! ### Rows broadcast over the batch -/

/-- A vector [256] cast to one row and broadcast over 1024 rows: entry (p, n) is the vector's entry n. -/
theorem biasRow_apply {α : Type} (v : S256.Idx → α) (p : Fin 1024) (n : Fin 256) :
    broadcastTo S1024x256 (shapeCast S1x256 v shapeCasts_S256_S1x256) broadcasts_S1x256_S1024x256 (ix2 p n) = v (ix1 n) := by
  rw [broadcastTo_1b_ab_apply, shapeCast_a_1a_apply]

/-- A one-row block [1, 256] flattened to a vector, cast back to one row and broadcast over 1024 rows: entry (p, n) is
    the block's entry (0, n). -/
theorem rowRow_apply {α : Type} (v : S1x256.Idx → α) (p : Fin 1024) (n : Fin 256) :
    broadcastTo S1024x256 (shapeCast S1x256 (shapeCast S256 v shapeCasts_S1x256_S256) shapeCasts_S256_S1x256)
      broadcasts_S1x256_S1024x256 (ix2 p n) = v (ix2 (0 : Fin 1) n) := by
  rw [broadcastTo_1b_ab_apply, shapeCast_a_1a_apply, shapeCast_1a_a_apply]

/-- The sum over the second axis of a [1024, 256] array, read at p: the sum over n of entry (p, n). -/
theorem laneSum_1024 (src : FVec Ideal S1024x256 .f32) (p : Fin 1024) :
    multiReduction .add [1] S1024 src 0x00000000#32 reduces_S1024x256_S1024 (.inl rfl) rfl (ix1 p)
      = ∑ n : Fin 256, src (ix2 p n) :=
  laneSum_apply (a := 1024) (b := 256) src _ _ _ p

/-! ### The trunk -/

/-- The programs' zero, by its word. -/
abbrev Z : EReal := Ideal.ofBits .f32 0x00000000#32

/-- The trunk's payload at (p, n): three nested rectified sums of products plus biases. -/
theorem pay5_apply (v0 : Vec Ideal S1024x64 .f32) (v2 : Vec Ideal S64x256 .bf16) (v5 : Vec Ideal S256 .f32)
    (v12 : Vec Ideal S256x256 .bf16) (v15 : Vec Ideal S256 .f32) (v22 : Vec Ideal S256x256 .bf16) (v25 : Vec Ideal S256 .f32)
    (p : Fin 1024) (n : Fin 256) :
    k0_pay5 (F := Ideal) v0 v2 v5 v12 v15 v22 v25 (ix2 p n) =
      max ((∑ k2 : Fin 256, max ((∑ k1 : Fin 256, max ((∑ k0 : Fin 64, v0 (ix2 p k0) * v2 (ix2 k0 k1)) + v5 (ix1 k1)) Z
        * v12 (ix2 k1 k2)) + v15 (ix1 k2)) Z * v22 (ix2 k2 n)) + v25 (ix1 n)) Z := by
  unfold k0_pay5
  simp only [truncf_apply, maximumf_apply, addf_apply, broadcast_apply, KOps.matmulA_apply, KOps.matmulB_apply,
    shapeCast_self, biasRow_apply]
  rfl

/-- kv31 at (p, k) is coordinate k of the trunk's result on row p of the input block. -/
theorem kv31_spec (b : Blocks) :
    ∀ (p : Fin 1024) (k : Fin 256), kv31 b (ix2 p k) = Spec.hid (KW.WK b) (KW.rowK b p) k := by
  intro p k
  unfold kv31
  simp only [ld_r0_0, ld_r0_1, ld_r0_2, ld_r0_3]
  rw [pay5_apply]
  rfl

/-! ### Head 0 -/

/-- kv34 at (p, n): the sum over the trunk's coordinates k of h k times entry (0, k, n) of the first-layer weights. -/
theorem kv34_spec (b : Blocks) :
    ∀ (p : Fin 1024) (n : Fin 256),
      kv34 b (ix2 p n) = ∑ k : Fin 256, Spec.hid (KW.WK b) (KW.rowK b p) k * b.x8 (ix3 0 k n) := by
  intro p n
  unfold kv34 k0_pay6
  simp only [KOps.matmulB_apply, shapeCast_1ab_ab_apply, ld_r0_4 b.x8]
  exact Finset.sum_congr rfl fun k _ => congrArg (fun t => t * b.x8 (ix3 0 k n)) (kv31_spec b p k)

/-- The second layer of head 0 at (p, n): head 0 has no earlier means, so its first layer is the rectified sum over the
    trunk's coordinates plus the bias. -/
theorem pay7_spec (b : Blocks) :
    ∀ (p : Fin 1024) (n : Fin 256),
      k0_pay7 (kv34 b) (View.ld b.x10 r0_5) (View.ld b.x11 r0_4) (View.ld b.x12 r0_5) (ix2 p n)
        = Spec.second (KW.WK b) (Spec.hid (KW.WK b) (KW.rowK b p))
            (Spec.before (KW.WK b) (Spec.hid (KW.WK b) (KW.rowK b p)) 0) 0 n := by
  intro p n
  unfold k0_pay7
  simp only [truncf_apply, maximumf_apply, addf_apply, broadcast_apply, KOps.matmulB_apply, rowRow_apply,
    shapeCast_1ab_ab_apply, ld_r0_4 b.x11, ld_r0_5 b.x10, ld_r0_5 b.x12, kv34_spec]
  unfold Spec.second Spec.dense
  simp only [KW.first_WK]
  rfl

/-- kv67 at (p, 0) is the mean of head 0. -/
theorem kv67_spec (b : Blocks) :
    ∀ (p : Fin 1024), kv67 b (ix2 p (0 : Fin 1)) = Spec.mean (KW.WK b) (Spec.hid (KW.WK b) (KW.rowK b p)) 0 := by
  intro p
  unfold kv67 k0_pay8
  simp only [maximumf_apply, addf_apply, broadcast_apply, shapeCast_a_a1_apply, KOps.extractAt_one, ld_r0_6 b.x15]
  rw [laneSum_1024]
  simp only [mulf_apply, rowRow_apply, ld_r0_5 b.x13, pay7_spec]
  rfl

/-- kv76 at (p, 0): head 0's sum for the log standard deviation plus its bias, before the rectifier. -/
theorem kv76_spec (b : Blocks) :
    ∀ (p : Fin 1024), kv76 b (ix2 p (0 : Fin 1))
      = (∑ k : Fin 256, Spec.second (KW.WK b) (Spec.hid (KW.WK b) (KW.rowK b p))
            (Spec.before (KW.WK b) (Spec.hid (KW.WK b) (KW.rowK b p)) 0) 0 k * (KW.WK b).wout 0 k 1)
          + (KW.WK b).bout 0 1 := by
  intro p
  unfold kv76 k0_pay9
  simp only [addf_apply, broadcast_apply, shapeCast_a_a1_apply, KOps.extractAt_one, ld_r0_6 b.x16]
  rw [laneSum_1024]
  simp only [mulf_apply, rowRow_apply, ld_r0_5 b.x14, pay7_spec]
  rfl

/-- kv78 at (p, 0) is the log standard deviation of head 0 before clipping. -/
theorem kv78_spec (b : Blocks) :
    ∀ (p : Fin 1024), kv78 b (ix2 p (0 : Fin 1)) = Spec.lstd (KW.WK b) (Spec.hid (KW.WK b) (KW.rowK b p)) 0 := by
  intro p
  unfold kv78 k0_pay11 k0_pay10
  simp only [maximumf_apply, broadcast_apply, kv76_spec]
  rfl

/-! ### Head 1 -/

/-- kv108 at (p, n) is coordinate n of head 1's second layer: its first layer adds, to the sum over the trunk's
    coordinates, the mean of head 0 times row 256 of the first-layer weights. -/
theorem kv108_spec (b : Blocks) :
    ∀ (p : Fin 1024) (n : Fin 256),
      kv108 b (ix2 p n) = Spec.second (KW.WK b) (Spec.hid (KW.WK b) (KW.rowK b p))
        (Spec.before (KW.WK b) (Spec.hid (KW.WK b) (KW.rowK b p)) 1) 1 n := by
  intro p n
  unfold kv108 k0_pay12
  simp only [truncf_apply, maximumf_apply, addf_apply, mulf_apply, broadcast_apply, KOps.matmulB_apply, rowRow_apply,
    broadcastTo_1b_ab_apply, broadcastTo_a1_ab_apply, shapeCast_a_1a_apply, shapeCast_1a_a_apply,
    shapeCast_1ab_ab_apply, slice2_axis0_eq, ld_r0_7 b.x8, ld_r0_7 b.x11, ld_r0_8 b.x9, ld_r0_9 b.x10, ld_r0_9 b.x12,
    kv31_spec, kv67_spec]
  unfold Spec.second Spec.dense
  simp only [KW.first_WK]
  rfl

/-- kv112 at n is entry n of the log-standard-deviation column of head 1's output weights. -/
theorem kv112_spec (b : Blocks) : ∀ (n : Fin 256), kv112 b (ix1 n) = (KW.WK b).wout 1 n 1 := by
  intro n
  unfold kv112 k0_pay13
  simp only [shapeCast_1a_a_apply, ld_r0_9 b.x14]
  rfl

/-- kv115 at (p, n): coordinate n of head 1's second layer times entry n of the mean column of its output weights. -/
theorem kv115_spec (b : Blocks) :
    ∀ (p : Fin 1024) (n : Fin 256),
      kv115 b (ix2 p n) = Spec.second (KW.WK b) (Spec.hid (KW.WK b) (KW.rowK b p))
        (Spec.before (KW.WK b) (Spec.hid (KW.WK b) (KW.rowK b p)) 1) 1 n * (KW.WK b).wout 1 n 0 := by
  intro p n
  have h := kv108_spec b p n
  unfold kv108 at h
  unfold kv115 k0_pay14
  simp only [mulf_apply, rowRow_apply, ld_r0_9 b.x13]
  rw [h]
  rfl

/-- kv123 at (p, 0) is the mean of head 1. -/
theorem kv123_spec (b : Blocks) :
    ∀ (p : Fin 1024), kv123 b (ix2 p (0 : Fin 1)) = Spec.mean (KW.WK b) (Spec.hid (KW.WK b) (KW.rowK b p)) 1 := by
  intro p
  unfold kv123 k0_pay15
  simp only [maximumf_apply, addf_apply, broadcast_apply, shapeCast_a_a1_apply, KOps.extractAt_one, ld_r0_10 b.x15]
  rw [laneSum_1024]
  simp only [kv115_spec]
  rfl

/-- kv134 at (p, 0) is the log standard deviation of head 1 before clipping. -/
theorem kv134_spec (b : Blocks) :
    ∀ (p : Fin 1024), kv134 b (ix2 p (0 : Fin 1)) = Spec.lstd (KW.WK b) (Spec.hid (KW.WK b) (KW.rowK b p)) 1 := by
  intro p
  unfold kv134 k0_pay16
  simp only [maximumf_apply, addf_apply, broadcast_apply, shapeCast_a_a1_apply, KOps.extractAt_one, ld_r0_10 b.x16]
  rw [laneSum_1024]
  simp only [mulf_apply, broadcastTo_1b_ab_apply, shapeCast_a_1a_apply, kv108_spec, kv112_spec]
  rfl

end Cert.KernelIdeal.KPartA

end
-- ==== Proof.KPartB.lean ====
/-
  Heads 2 and 3 of the kernel body, read at an index in the vocabulary of the network.

  Head 2: its first layer (the trunk's row against the 256 trunk rows of the head's first-layer weights, then the means
  of heads 0 and 1 times rows 256 and 257, the bias, the rectifier), and from it the mean and the log standard
  deviation (second layer, a product with one output column summed over the lanes, the output bias, the rectifier).
  Head 3: its 256 trunk rows of first-layer weights, its second layer (the first layer now carries the three means of
  heads 0, 1, 2), its mean output column, its mean and its log standard deviation.

  Every statement is at one row p of the block; the trunk's result at that row is Spec.hid w (row p of the inputs), with w
  the weights read off the blocks.
-/
import proofs.«418646_j6511170421537_4_alg».proof.Proof.Spec
import proofs.«418646_j6511170421537_4_alg».proof.Proof.LibRowOps
import proofs.«418646_j6511170421537_4_alg».proof.Proof.KDag
import proofs.«418646_j6511170421537_4_alg».proof.Proof.KOps
import proofs.«418646_j6511170421537_4_alg».proof.Proof.KW
import proofs.«418646_j6511170421537_4_alg».proof.Proof.FrameKernelIdeal
import proofs.«418646_j6511170421537_4_alg».proof.Proof.Gen.KernelIdeal.Skeleton
import Idealize.ShloMosaic.Lib.ValueIdx
import Idealize.ShloMosaic.Lib.ValueLayout
import Idealize.ShloMosaic.Lib.Pipeline.Value

noncomputable section

namespace Cert.KernelIdeal.KPartB

open Idealize.ShloMosaic Idealize.ShloMosaic.ValueIdx Cert.KernelIdeal Cert.KernelIdeal.Gen Cert.KernelIdeal.GenP
  Cert.KernelIdeal.KDag Cert

/-! ### Layout patterns of the heads, read at an index -/

/-- A [1, 256] row cast to a vector, cast back to a row and repeated down 1024 rows: entry (p, n) is the row's entry n. -/
theorem rowBc_apply {α : Type} (v : S1x256.Idx → α) (p : Fin 1024) (n : Fin 256) :
    broadcastTo S1024x256 (shapeCast S1x256 (shapeCast S256 v shapeCasts_S1x256_S256) shapeCasts_S256_S1x256)
      broadcasts_S1x256_S1024x256 (ix2 p n) = v (ix2 (0 : Fin 1) n) := by
  rw [broadcastTo_1b_ab_apply, shapeCast_a_1a_apply, shapeCast_1a_a_apply]

/-- A vector cast to a [1, 256] row and repeated down 1024 rows: entry (p, n) is the vector's entry n. -/
theorem vecBc_apply {α : Type} (v : S256.Idx → α) (p : Fin 1024) (n : Fin 256) :
    broadcastTo S1024x256 (shapeCast S1x256 v shapeCasts_S256_S1x256) broadcasts_S1x256_S1024x256 (ix2 p n)
      = v (ix1 n) := by
  rw [broadcastTo_1b_ab_apply, shapeCast_a_1a_apply]

/-- The sum along the rows of a [1024, 256] block, read at p: the sum over n of the entries (p, n). -/
theorem laneSum256 (src : FVec Ideal S1024x256 .f32) (p : Fin 1024) :
    multiReduction .add [1] S1024 src 0x00000000#32 reduces_S1024x256_S1024 (.inl rfl) rfl (ix1 p)
      = ∑ n : Fin 256, src (ix2 p n) :=
  Cert.RowOps.laneSum_apply src _ _ _ p

/-! ### The rectangles loaded for heads 1, 2 and 3: slice i of a window. Index (u, r, c) of the loaded block is index
    (i, r, c) of the window. -/

theorem idx_r0_10 (u : Fin 1) : r0_10.idx (ix1 u) = ix1 (1 : Fin 8) := by
  funext a; refine Fin.ext ?_
  match a with
  | ⟨0, _⟩ => show 1 + 1 * u.val = 1; omega
theorem idx_r0_11 (u : Fin 1) (r c : Fin 256) : r0_11.idx (ix3 u r c) = ix3 (2 : Fin 8) r c := by
  funext a; refine Fin.ext ?_
  match a with
  | ⟨0, _⟩ => show 2 + 1 * u.val = 2; omega
  | ⟨1, _⟩ => show 0 + 1 * r.val = r.val; omega
  | ⟨2, _⟩ => show 0 + 1 * c.val = c.val; omega
theorem idx_r0_12 (u : Fin 1) (r : Fin 7) (c : Fin 256) : r0_12.idx (ix3 u r c) = ix3 (2 : Fin 8) r c := by
  funext a; refine Fin.ext ?_
  match a with
  | ⟨0, _⟩ => show 2 + 1 * u.val = 2; omega
  | ⟨1, _⟩ => show 0 + 1 * r.val = r.val; omega
  | ⟨2, _⟩ => show 0 + 1 * c.val = c.val; omega
theorem idx_r0_13 (u : Fin 1) (c : Fin 256) : r0_13.idx (ix2 u c) = ix2 (2 : Fin 8) c := by
  funext a; refine Fin.ext ?_
  match a with
  | ⟨0, _⟩ => show 2 + 1 * u.val = 2; omega
  | ⟨1, _⟩ => show 0 + 1 * c.val = c.val; omega
theorem idx_r0_14 (u : Fin 1) : r0_14.idx (ix1 u) = ix1 (2 : Fin 8) := by
  funext a; refine Fin.ext ?_
  match a with
  | ⟨0, _⟩ => show 2 + 1 * u.val = 2; omega
theorem idx_r0_15 (u : Fin 1) (r c : Fin 256) : r0_15.idx (ix3 u r c) = ix3 (3 : Fin 8) r c := by
  funext a; refine Fin.ext ?_
  match a with
  | ⟨0, _⟩ => show 3 + 1 * u.val = 3; omega
  | ⟨1, _⟩ => show 0 + 1 * r.val = r.val; omega
  | ⟨2, _⟩ => show 0 + 1 * c.val = c.val; omega
theorem idx_r0_16 (u : Fin 1) (r : Fin 7) (c : Fin 256) : r0_16.idx (ix3 u r c) = ix3 (3 : Fin 8) r c := by
  funext a; refine Fin.ext ?_
  match a with
  | ⟨0, _⟩ => show 3 + 1 * u.val = 3; omega
  | ⟨1, _⟩ => show 0 + 1 * r.val = r.val; omega
  | ⟨2, _⟩ => show 0 + 1 * c.val = c.val; omega
theorem idx_r0_17 (u : Fin 1) (c : Fin 256) : r0_17.idx (ix2 u c) = ix2 (3 : Fin 8) c := by
  funext a; refine Fin.ext ?_
  match a with
  | ⟨0, _⟩ => show 3 + 1 * u.val = 3; omega
  | ⟨1, _⟩ => show 0 + 1 * c.val = c.val; omega
theorem idx_r0_18 (u : Fin 1) : r0_18.idx (ix1 u) = ix1 (3 : Fin 8) := by
  funext a; refine Fin.ext ?_
  match a with
  | ⟨0, _⟩ => show 3 + 1 * u.val = 3; omega

/-! ### Head 2 -/

/-- Head 2's first layer at (p, n): the trunk's row p against the 256 trunk rows of head 2's first-layer weights, plus
    the mean of head 0 times row 256, plus the mean of head 1 (recomputed here from its products: their sum over the
    lanes, the output bias, the rectifier) times row 257, plus the bias, rectified. -/
theorem kv160_spec (b : Blocks)
    (c31 : ∀ (p : Fin 1024) (k : Fin 256), kv31 b (ix2 p k) = Spec.hid (KW.WK b) (KW.rowK b p) k)
    (c67 : ∀ (p : Fin 1024), kv67 b (ix2 p (0 : Fin 1)) = Spec.mean (KW.WK b) (Spec.hid (KW.WK b) (KW.rowK b p)) 0)
    (c115 : ∀ (p : Fin 1024) (n : Fin 256), kv115 b (ix2 p n)
      = Spec.second (KW.WK b) (Spec.hid (KW.WK b) (KW.rowK b p))
          (Spec.before (KW.WK b) (Spec.hid (KW.WK b) (KW.rowK b p)) 1) 1 n * (KW.WK b).wout 1 n 0) :
    ∀ (p : Fin 1024) (n : Fin 256), kv160 b (ix2 p n)
      = Spec.first (KW.WK b) (Spec.hid (KW.WK b) (KW.rowK b p))
          (Spec.before (KW.WK b) (Spec.hid (KW.WK b) (KW.rowK b p)) 2) 2 n := by
  intro p n
  unfold kv160 k0_pay17 k0_pay15
  simp only [maximumf_apply, addf_apply, mulf_apply, broadcast_apply, rowBc_apply, vecBc_apply,
    KOps.matmulB_apply, shapeCast_1ab_ab_apply, shapeCast_1a_a_apply, shapeCast_a_1a_apply, slice2_axis0_eq,
    Cert.RowOps.broadcastTo_a1_ab_apply, Cert.RowOps.shapeCast_a_a1_apply,
    KOps.extractAt_one, View.ld, idx_r0_10, idx_r0_11, idx_r0_12, idx_r0_13, c31, c67]
  rw [laneSum256]
  simp only [c115]
  rw [KW.first_WK]
  rfl

/-- The mean of head 2 at row p: head 2's second layer (its first layer against the head's second-layer weights, the
    bias, the rectifier) times column 0 of the output weights, summed over the lanes, plus the output bias, rectified. -/
theorem kv186_spec (b : Blocks)
    (c31 : ∀ (p : Fin 1024) (k : Fin 256), kv31 b (ix2 p k) = Spec.hid (KW.WK b) (KW.rowK b p) k)
    (c67 : ∀ (p : Fin 1024), kv67 b (ix2 p (0 : Fin 1)) = Spec.mean (KW.WK b) (Spec.hid (KW.WK b) (KW.rowK b p)) 0)
    (c115 : ∀ (p : Fin 1024) (n : Fin 256), kv115 b (ix2 p n)
      = Spec.second (KW.WK b) (Spec.hid (KW.WK b) (KW.rowK b p))
          (Spec.before (KW.WK b) (Spec.hid (KW.WK b) (KW.rowK b p)) 1) 1 n * (KW.WK b).wout 1 n 0) :
    ∀ (p : Fin 1024), kv186 b (ix2 p (0 : Fin 1))
      = Spec.mean (KW.WK b) (Spec.hid (KW.WK b) (KW.rowK b p)) 2 := by
  intro p
  have c160 := kv160_spec b c31 c67 c115
  unfold kv186 k0_pay19
  simp only [maximumf_apply, addf_apply, broadcast_apply, Cert.RowOps.shapeCast_a_a1_apply, KOps.extractAt_one,
    View.ld, idx_r0_14]
  rw [laneSum256]
  unfold k0_pay18
  simp only [maximumf_apply, addf_apply, mulf_apply, truncf_apply, broadcast_apply, rowBc_apply,
    KOps.matmulB_apply, shapeCast_1ab_ab_apply, View.ld, idx_r0_11, idx_r0_13, c160]
  rfl

/-- The log standard deviation of head 2 before clipping, at row p: the same second layer times column 1 of the output
    weights, summed over the lanes, plus the second output bias, rectified. -/
theorem kv197_spec (b : Blocks)
    (c31 : ∀ (p : Fin 1024) (k : Fin 256), kv31 b (ix2 p k) = Spec.hid (KW.WK b) (KW.rowK b p) k)
    (c67 : ∀ (p : Fin 1024), kv67 b (ix2 p (0 : Fin 1)) = Spec.mean (KW.WK b) (Spec.hid (KW.WK b) (KW.rowK b p)) 0)
    (c115 : ∀ (p : Fin 1024) (n : Fin 256), kv115 b (ix2 p n)
      = Spec.second (KW.WK b) (Spec.hid (KW.WK b) (KW.rowK b p))
          (Spec.before (KW.WK b) (Spec.hid (KW.WK b) (KW.rowK b p)) 1) 1 n * (KW.WK b).wout 1 n 0) :
    ∀ (p : Fin 1024), kv197 b (ix2 p (0 : Fin 1))
      = Spec.lstd (KW.WK b) (Spec.hid (KW.WK b) (KW.rowK b p)) 2 := by
  intro p
  have c160 := kv160_spec b c31 c67 c115
  unfold kv197 k0_pay20
  simp only [maximumf_apply, addf_apply, broadcast_apply, Cert.RowOps.shapeCast_a_a1_apply, KOps.extractAt_one,
    View.ld, idx_r0_14]
  rw [laneSum256]
  unfold k0_pay18
  simp only [maximumf_apply, addf_apply, mulf_apply, truncf_apply, broadcast_apply, rowBc_apply,
    KOps.matmulB_apply, shapeCast_1ab_ab_apply, View.ld, idx_r0_11, idx_r0_13, c160]
  rfl

/-! ### Head 3 -/

/-- Head 3's first-layer weights for the trunk: entry (k, n) is entry (3, k, n) of the window of those weights. -/
theorem kv199_spec (b : Blocks) : ∀ (k n : Fin 256), kv199 b (ix2 k n) = b.x8 (ix3 (3 : Fin 8) k n) := by
  intro k n
  unfold kv199 k0_pay21
  simp only [shapeCast_1ab_ab_apply, View.ld, idx_r0_15]

/-- Head 3's second layer at (p, n): its first layer (the trunk's row against the 256 trunk rows of the head's
    first-layer weights, the means of heads 0, 1, 2 times rows 256, 257, 258, the bias, the rectifier) against the head's
    second-layer weights, plus the bias, rectified. -/
theorem kv241_spec (b : Blocks)
    (c31 : ∀ (p : Fin 1024) (k : Fin 256), kv31 b (ix2 p k) = Spec.hid (KW.WK b) (KW.rowK b p) k)
    (c67 : ∀ (p : Fin 1024), kv67 b (ix2 p (0 : Fin 1)) = Spec.mean (KW.WK b) (Spec.hid (KW.WK b) (KW.rowK b p)) 0)
    (c115 : ∀ (p : Fin 1024) (n : Fin 256), kv115 b (ix2 p n)
      = Spec.second (KW.WK b) (Spec.hid (KW.WK b) (KW.rowK b p))
          (Spec.before (KW.WK b) (Spec.hid (KW.WK b) (KW.rowK b p)) 1) 1 n * (KW.WK b).wout 1 n 0)
    (c123 : ∀ (p : Fin 1024), kv123 b (ix2 p (0 : Fin 1)) = Spec.mean (KW.WK b) (Spec.hid (KW.WK b) (KW.rowK b p)) 1) :
    ∀ (p : Fin 1024) (n : Fin 256), kv241 b (ix2 p n)
      = Spec.second (KW.WK b) (Spec.hid (KW.WK b) (KW.rowK b p))
          (Spec.before (KW.WK b) (Spec.hid (KW.WK b) (KW.rowK b p)) 3) 3 n := by
  intro p n
  have c186 := kv186_spec b c31 c67 c115
  have c199 := kv199_spec b
  unfold kv241 k0_pay22
  simp only [maximumf_apply, addf_apply, mulf_apply, truncf_apply, broadcast_apply, rowBc_apply,
    KOps.matmulB_apply, shapeCast_1ab_ab_apply, slice2_axis0_eq, Cert.RowOps.broadcastTo_a1_ab_apply,
    View.ld, idx_r0_15, idx_r0_16, idx_r0_17, c31, c67, c123, c186, c199]
  simp only [Spec.second, Spec.dense, KW.first_WK]
  rfl

/-- Column 0 of head 3's output weights: entry n is entry (3, n) of the window of those columns. -/
theorem kv243_spec (b : Blocks) : ∀ (n : Fin 256), kv243 b (ix1 n) = (KW.WK b).wout 3 n 0 := by
  intro n
  unfold kv243 k0_pay23
  simp only [shapeCast_1a_a_apply, View.ld, idx_r0_17]
  rfl

/-- The mean of head 3 at row p: its second layer times column 0 of the output weights, summed over the lanes, plus the
    output bias, rectified. -/
theorem kv256_spec (b : Blocks)
    (c31 : ∀ (p : Fin 1024) (k : Fin 256), kv31 b (ix2 p k) = Spec.hid (KW.WK b) (KW.rowK b p) k)
    (c67 : ∀ (p : Fin 1024), kv67 b (ix2 p (0 : Fin 1)) = Spec.mean (KW.WK b) (Spec.hid (KW.WK b) (KW.rowK b p)) 0)
    (c115 : ∀ (p : Fin 1024) (n : Fin 256), kv115 b (ix2 p n)
      = Spec.second (KW.WK b) (Spec.hid (KW.WK b) (KW.rowK b p))
          (Spec.before (KW.WK b) (Spec.hid (KW.WK b) (KW.rowK b p)) 1) 1 n * (KW.WK b).wout 1 n 0)
    (c123 : ∀ (p : Fin 1024), kv123 b (ix2 p (0 : Fin 1)) = Spec.mean (KW.WK b) (Spec.hid (KW.WK b) (KW.rowK b p)) 1) :
    ∀ (p : Fin 1024), kv256 b (ix2 p (0 : Fin 1))
      = Spec.mean (KW.WK b) (Spec.hid (KW.WK b) (KW.rowK b p)) 3 := by
  intro p
  have c241 := kv241_spec b c31 c67 c115 c123
  have c243 := kv243_spec b
  unfold kv256 k0_pay24
  simp only [maximumf_apply, addf_apply, broadcast_apply, Cert.RowOps.shapeCast_a_a1_apply, KOps.extractAt_one,
    View.ld, idx_r0_18]
  rw [laneSum256]
  simp only [mulf_apply, vecBc_apply, c241, c243]
  rfl

/-- The log standard deviation of head 3 before clipping, at row p: its second layer times column 1 of the output
    weights, summed over the lanes, plus the second output bias, rectified. -/
theorem kv267_spec (b : Blocks)
    (c31 : ∀ (p : Fin 1024) (k : Fin 256), kv31 b (ix2 p k) = Spec.hid (KW.WK b) (KW.rowK b p) k)
    (c67 : ∀ (p : Fin 1024), kv67 b (ix2 p (0 : Fin 1)) = Spec.mean (KW.WK b) (Spec.hid (KW.WK b) (KW.rowK b p)) 0)
    (c115 : ∀ (p : Fin 1024) (n : Fin 256), kv115 b (ix2 p n)
      = Spec.second (KW.WK b) (Spec.hid (KW.WK b) (KW.rowK b p))
          (Spec.before (KW.WK b) (Spec.hid (KW.WK b) (KW.rowK b p)) 1) 1 n * (KW.WK b).wout 1 n 0)
    (c123 : ∀ (p : Fin 1024), kv123 b (ix2 p (0 : Fin 1)) = Spec.mean (KW.WK b) (Spec.hid (KW.WK b) (KW.rowK b p)) 1) :
    ∀ (p : Fin 1024), kv267 b (ix2 p (0 : Fin 1))
      = Spec.lstd (KW.WK b) (Spec.hid (KW.WK b) (KW.rowK b p)) 3 := by
  intro p
  have c241 := kv241_spec b c31 c67 c115 c123
  unfold kv267 k0_pay25
  simp only [maximumf_apply, addf_apply, broadcast_apply, Cert.RowOps.shapeCast_a_a1_apply, KOps.extractAt_one,
    View.ld, idx_r0_18]
  rw [laneSum256]
  simp only [mulf_apply, rowBc_apply, View.ld, idx_r0_17, c241]
  rfl

end Cert.KernelIdeal.KPartB

end
-- ==== Proof.KPartC.lean ====
/-
  Heads 4 and 5 of the kernel body, read at an index in the vocabulary of the network.

  Head 4: the seven rows of its first-layer weights that meet earlier means (kv272), the sum over the trunk's
  coordinates with the products of means 0 and 1 added (kv286), the row that meets mean 2 (kv289), the second layer
  (kv318), the output column of the log standard deviation (kv322), the mean before the rectifier (kv331), the mean
  (kv333) and the log standard deviation before clipping (kv344).
  Head 5: the sum over the trunk's coordinates with the products of means 0..3 added (kv377), head 4's mean along a
  row (kv381), the row that meets mean 4 along the rows (kv382), the mean (kv417), the lane sum of the log standard
  deviation (kv422) and the log standard deviation before clipping (kv428).
-/
import proofs.«418646_j6511170421537_4_alg».proof.Proof.KW
import proofs.«418646_j6511170421537_4_alg».proof.Proof.KOps
import Idealize.ShloMosaic.Lib.ValueLayout

noncomputable section

namespace Cert.KernelIdeal.KPartC

open Idealize.ShloMosaic Idealize.ShloMosaic.ValueIdx Cert.KernelIdeal Cert.KernelIdeal.Gen Cert.KernelIdeal.GenP
  Cert.KernelIdeal.KDag

/-! ### The blocks of heads 4 and 5 loaded from the windows: a block at leading offset i reads the window at i -/

theorem ldA4 {Val : EltTy → Type} {e : EltTy} (X : S8x256x256.Idx → Val e) (u : Fin 1) (k n : Fin 256) :
    View.ld X r0_19 (ix3 u k n) = X (ix3 4 k n) :=
  KOps.ld3_apply (K := 8) (M := 256) (N := 256) X 4 inb_S8x256x256_S1x256x256_4_0_0 u k n
theorem ldB4 {Val : EltTy → Type} {e : EltTy} (X : S8x7x256.Idx → Val e) (u : Fin 1) (j : Fin 7) (n : Fin 256) :
    View.ld X r0_20 (ix3 u j n) = X (ix3 4 j n) :=
  KOps.ld3_apply (K := 8) (M := 7) (N := 256) X 4 inb_S8x7x256_S1x7x256_4_0_0 u j n
theorem ldC4 {Val : EltTy → Type} {e : EltTy} (X : S8x256.Idx → Val e) (u : Fin 1) (n : Fin 256) :
    View.ld X r0_21 (ix2 u n) = X (ix2 4 n) :=
  KOps.ld2_apply (K := 8) (N := 256) X 4 inb_S8x256_S1x256_4_0 u n
theorem ldD4 {Val : EltTy → Type} {e : EltTy} (X : S8.Idx → Val e) (u : Fin 1) :
    View.ld X r0_22 (ix1 u) = X (ix1 4) :=
  KOps.ld1_apply (K := 8) X 4 inb_S8_S1_4 u
theorem ldA5 {Val : EltTy → Type} {e : EltTy} (X : S8x256x256.Idx → Val e) (u : Fin 1) (k n : Fin 256) :
    View.ld X r0_23 (ix3 u k n) = X (ix3 5 k n) :=
  KOps.ld3_apply (K := 8) (M := 256) (N := 256) X 5 inb_S8x256x256_S1x256x256_5_0_0 u k n
theorem ldB5 {Val : EltTy → Type} {e : EltTy} (X : S8x7x256.Idx → Val e) (u : Fin 1) (j : Fin 7) (n : Fin 256) :
    View.ld X r0_24 (ix3 u j n) = X (ix3 5 j n) :=
  KOps.ld3_apply (K := 8) (M := 7) (N := 256) X 5 inb_S8x7x256_S1x7x256_5_0_0 u j n
theorem ldC5 {Val : EltTy → Type} {e : EltTy} (X : S8x256.Idx → Val e) (u : Fin 1) (n : Fin 256) :
    View.ld X r0_25 (ix2 u n) = X (ix2 5 n) :=
  KOps.ld2_apply (K := 8) (N := 256) X 5 inb_S8x256_S1x256_5_0 u n
theorem ldD5 {Val : EltTy → Type} {e : EltTy} (X : S8.Idx → Val e) (u : Fin 1) :
    View.ld X r0_26 (ix1 u) = X (ix1 5) :=
  KOps.ld1_apply (K := 8) X 5 inb_S8_S1_5 u

/-- The lane sum of a [1024, 256] array of extended reals, read at p: the sum over n of entry (p, n). -/
theorem laneSum1024 (src : FVec Ideal S1024x256 .f32) (hφ : FTy.f32 = FTy.f32 ∨ FTy.f32 = FTy.bf16)
    (hacc : (0x00000000#32 : BitVec 32) = 0x00000000#32) (p : Fin 1024) :
    multiReduction .add [1] S1024 src 0x00000000#32 reduces_S1024x256_S1024 hφ hacc (ix1 p)
      = ∑ n : Fin 256, src (ix2 p n) :=
  Cert.RowOps.laneSum_apply (a := 1024) (b := 256) src reduces_S1024x256_S1024 hφ hacc p

/-! ### Head 4 -/

/-- The seven rows of head 4's first-layer weights that meet the earlier heads' means: entry (j, n) is entry (4, j, n)
    of the window x9. -/
theorem kv272_spec (b : Blocks) : ∀ (j : Fin 7) (n : Fin 256), kv272 b (ix2 j n) = b.x9 (ix3 4 j n) := by
  intro j n
  unfold kv272 k0_pay26
  simp only [shapeCast_1ab_ab_apply, ldB4 b.x9]

/-- Head 4's first layer, as far as the product with mean 1: the sum over the trunk's 256 coordinates, then the products
    of means 0 and 1 with rows 256 and 257 of the first-layer weights, added left to right. -/
theorem kv286_spec (b : Blocks) (c31 : ∀ (p : Fin 1024) (k : Fin 256), kv31 b (ix2 p k) = Spec.hid (KW.WK b) (KW.rowK b p) k)
    (c67 : ∀ (p : Fin 1024), kv67 b (ix2 p (0 : Fin 1)) = Spec.mean (KW.WK b) (Spec.hid (KW.WK b) (KW.rowK b p)) 0)
    (c123 : ∀ (p : Fin 1024), kv123 b (ix2 p (0 : Fin 1)) = Spec.mean (KW.WK b) (Spec.hid (KW.WK b) (KW.rowK b p)) 1) :
    ∀ (p : Fin 1024) (n : Fin 256), kv286 b (ix2 p n)
      = Spec.acc (∑ k : Fin 256, Spec.hid (KW.WK b) (KW.rowK b p) k * b.x8 (ix3 4 k n))
          [Spec.mean (KW.WK b) (Spec.hid (KW.WK b) (KW.rowK b p)) 0, Spec.mean (KW.WK b) (Spec.hid (KW.WK b) (KW.rowK b p)) 1]
          0 (Spec.corr (KW.WK b) 4 n) := by
  intro p n
  unfold kv286 k0_pay27 k0_pay26
  simp only [addf_apply, mulf_apply, KOps.matmulB_apply, shapeCast_1ab_ab_apply, ldA4 b.x8, ldB4 b.x9,
    broadcastTo_1b_ab_apply, shapeCast_a_1a_apply, shapeCast_1a_a_apply, slice2_axis0_eq,
    Cert.RowOps.broadcastTo_a1_ab_apply, c31, c67, c123]
  rfl

/-- Row 258 of head 4's first-layer weights, the row that meets mean 2: entry (4, 2, n) of the window x9. -/
theorem kv289_spec (b : Blocks) : ∀ (u : Fin 1) (n : Fin 256), kv289 b (ix2 u n) = b.x9 (ix3 4 2 n) := by
  intro u n
  unfold kv289 k0_pay28 k0_pay26
  simp only [shapeCast_a_1a_apply, shapeCast_1a_a_apply, slice2_axis0_eq, shapeCast_1ab_ab_apply, ldB4 b.x9]
  rfl

/-- Head 4's second layer: the first layer is completed by the products of means 2 and 3 with rows 258 and 259 and by
    the bias, rectified, and goes through the second dense layer. -/
theorem kv318_spec (b : Blocks) (c31 : ∀ (p : Fin 1024) (k : Fin 256), kv31 b (ix2 p k) = Spec.hid (KW.WK b) (KW.rowK b p) k)
    (c67 : ∀ (p : Fin 1024), kv67 b (ix2 p (0 : Fin 1)) = Spec.mean (KW.WK b) (Spec.hid (KW.WK b) (KW.rowK b p)) 0)
    (c123 : ∀ (p : Fin 1024), kv123 b (ix2 p (0 : Fin 1)) = Spec.mean (KW.WK b) (Spec.hid (KW.WK b) (KW.rowK b p)) 1)
    (c186 : ∀ (p : Fin 1024), kv186 b (ix2 p (0 : Fin 1)) = Spec.mean (KW.WK b) (Spec.hid (KW.WK b) (KW.rowK b p)) 2)
    (c256 : ∀ (p : Fin 1024), kv256 b (ix2 p (0 : Fin 1)) = Spec.mean (KW.WK b) (Spec.hid (KW.WK b) (KW.rowK b p)) 3) :
    ∀ (p : Fin 1024) (n : Fin 256), kv318 b (ix2 p n)
      = Spec.second (KW.WK b) (Spec.hid (KW.WK b) (KW.rowK b p))
          (Spec.before (KW.WK b) (Spec.hid (KW.WK b) (KW.rowK b p)) 4) 4 n := by
  intro p n
  have h272 := kv272_spec b
  have h286 := kv286_spec b c31 c67 c123
  have h289 := kv289_spec b
  unfold kv318 k0_pay29
  simp only [maximumf_apply, addf_apply, mulf_apply, truncf_apply, broadcast_apply, KOps.matmulB_apply,
    shapeCast_1ab_ab_apply, ldA4 b.x11, ldC4 b.x10, ldC4 b.x12,
    broadcastTo_1b_ab_apply, shapeCast_a_1a_apply, shapeCast_1a_a_apply, slice2_axis0_eq,
    Cert.RowOps.broadcastTo_a1_ab_apply, h272, h286, h289, c186, c256]
  unfold Spec.second Spec.dense
  simp only [KW.first_WK]
  rfl

/-- The output column of head 4's log standard deviation: entry n is the weight from coordinate n of the second layer. -/
theorem kv322_spec (b : Blocks) : ∀ (n : Fin 256), kv322 b (ix1 n) = (KW.WK b).wout 4 n 1 := by
  intro n
  unfold kv322 k0_pay30
  simp only [shapeCast_1a_a_apply, ldC4 b.x14]
  rfl

/-- Head 4's mean before the rectifier: the lane sum of the second layer times the mean's output column, plus the bias. -/
theorem kv331_spec (b : Blocks) (c31 : ∀ (p : Fin 1024) (k : Fin 256), kv31 b (ix2 p k) = Spec.hid (KW.WK b) (KW.rowK b p) k)
    (c67 : ∀ (p : Fin 1024), kv67 b (ix2 p (0 : Fin 1)) = Spec.mean (KW.WK b) (Spec.hid (KW.WK b) (KW.rowK b p)) 0)
    (c123 : ∀ (p : Fin 1024), kv123 b (ix2 p (0 : Fin 1)) = Spec.mean (KW.WK b) (Spec.hid (KW.WK b) (KW.rowK b p)) 1)
    (c186 : ∀ (p : Fin 1024), kv186 b (ix2 p (0 : Fin 1)) = Spec.mean (KW.WK b) (Spec.hid (KW.WK b) (KW.rowK b p)) 2)
    (c256 : ∀ (p : Fin 1024), kv256 b (ix2 p (0 : Fin 1)) = Spec.mean (KW.WK b) (Spec.hid (KW.WK b) (KW.rowK b p)) 3) :
    ∀ (p : Fin 1024), kv331 b (ix2 p (0 : Fin 1))
      = (∑ k, Spec.second (KW.WK b) (Spec.hid (KW.WK b) (KW.rowK b p))
            (Spec.before (KW.WK b) (Spec.hid (KW.WK b) (KW.rowK b p)) 4) 4 k * (KW.WK b).wout 4 k 0)
          + (KW.WK b).bout 4 0 := by
  intro p
  have h318 := kv318_spec b c31 c67 c123 c186 c256
  unfold kv318 at h318
  unfold kv331 k0_pay31
  simp only [addf_apply, broadcast_apply, Cert.RowOps.shapeCast_a_a1_apply, KOps.extractAt_one, ldD4 b.x15]
  rw [laneSum1024]
  simp only [mulf_apply, broadcastTo_1b_ab_apply, shapeCast_a_1a_apply, shapeCast_1a_a_apply, ldC4 b.x13, h318]
  rfl

/-- Head 4's mean: the rectifier applied to the lane sum plus the bias. -/
theorem kv333_spec (b : Blocks) (c31 : ∀ (p : Fin 1024) (k : Fin 256), kv31 b (ix2 p k) = Spec.hid (KW.WK b) (KW.rowK b p) k)
    (c67 : ∀ (p : Fin 1024), kv67 b (ix2 p (0 : Fin 1)) = Spec.mean (KW.WK b) (Spec.hid (KW.WK b) (KW.rowK b p)) 0)
    (c123 : ∀ (p : Fin 1024), kv123 b (ix2 p (0 : Fin 1)) = Spec.mean (KW.WK b) (Spec.hid (KW.WK b) (KW.rowK b p)) 1)
    (c186 : ∀ (p : Fin 1024), kv186 b (ix2 p (0 : Fin 1)) = Spec.mean (KW.WK b) (Spec.hid (KW.WK b) (KW.rowK b p)) 2)
    (c256 : ∀ (p : Fin 1024), kv256 b (ix2 p (0 : Fin 1)) = Spec.mean (KW.WK b) (Spec.hid (KW.WK b) (KW.rowK b p)) 3) :
    ∀ (p : Fin 1024), kv333 b (ix2 p (0 : Fin 1)) = Spec.mean (KW.WK b) (Spec.hid (KW.WK b) (KW.rowK b p)) 4 := by
  intro p
  have h331 := kv331_spec b c31 c67 c123 c186 c256
  unfold kv333 k0_pay33 k0_pay32
  simp only [maximumf_apply, broadcast_apply, h331]
  rfl

/-- Head 4's log standard deviation before clipping: the rectifier applied to the lane sum of the second layer times the
    second output column, plus the second bias. -/
theorem kv344_spec (b : Blocks) (c31 : ∀ (p : Fin 1024) (k : Fin 256), kv31 b (ix2 p k) = Spec.hid (KW.WK b) (KW.rowK b p) k)
    (c67 : ∀ (p : Fin 1024), kv67 b (ix2 p (0 : Fin 1)) = Spec.mean (KW.WK b) (Spec.hid (KW.WK b) (KW.rowK b p)) 0)
    (c123 : ∀ (p : Fin 1024), kv123 b (ix2 p (0 : Fin 1)) = Spec.mean (KW.WK b) (Spec.hid (KW.WK b) (KW.rowK b p)) 1)
    (c186 : ∀ (p : Fin 1024), kv186 b (ix2 p (0 : Fin 1)) = Spec.mean (KW.WK b) (Spec.hid (KW.WK b) (KW.rowK b p)) 2)
    (c256 : ∀ (p : Fin 1024), kv256 b (ix2 p (0 : Fin 1)) = Spec.mean (KW.WK b) (Spec.hid (KW.WK b) (KW.rowK b p)) 3) :
    ∀ (p : Fin 1024), kv344 b (ix2 p (0 : Fin 1)) = Spec.lstd (KW.WK b) (Spec.hid (KW.WK b) (KW.rowK b p)) 4 := by
  intro p
  have h318 := kv318_spec b c31 c67 c123 c186 c256
  have h322 := kv322_spec b
  unfold kv344 k0_pay34
  simp only [maximumf_apply, addf_apply, broadcast_apply, Cert.RowOps.shapeCast_a_a1_apply, KOps.extractAt_one,
    ldD4 b.x16]
  rw [laneSum1024]
  simp only [mulf_apply, broadcastTo_1b_ab_apply, shapeCast_a_1a_apply, h318, h322]
  rfl

/-! ### Head 5 -/

/-- Head 5's first layer, as far as the product with mean 3: the sum over the trunk's 256 coordinates, then the products
    of means 0..3 with rows 256..259 of the first-layer weights, added left to right. -/
theorem kv377_spec (b : Blocks) (c31 : ∀ (p : Fin 1024) (k : Fin 256), kv31 b (ix2 p k) = Spec.hid (KW.WK b) (KW.rowK b p) k)
    (c67 : ∀ (p : Fin 1024), kv67 b (ix2 p (0 : Fin 1)) = Spec.mean (KW.WK b) (Spec.hid (KW.WK b) (KW.rowK b p)) 0)
    (c123 : ∀ (p : Fin 1024), kv123 b (ix2 p (0 : Fin 1)) = Spec.mean (KW.WK b) (Spec.hid (KW.WK b) (KW.rowK b p)) 1)
    (c186 : ∀ (p : Fin 1024), kv186 b (ix2 p (0 : Fin 1)) = Spec.mean (KW.WK b) (Spec.hid (KW.WK b) (KW.rowK b p)) 2)
    (c256 : ∀ (p : Fin 1024), kv256 b (ix2 p (0 : Fin 1)) = Spec.mean (KW.WK b) (Spec.hid (KW.WK b) (KW.rowK b p)) 3) :
    ∀ (p : Fin 1024) (n : Fin 256), kv377 b (ix2 p n)
      = Spec.acc (∑ k : Fin 256, Spec.hid (KW.WK b) (KW.rowK b p) k * b.x8 (ix3 5 k n))
          [Spec.mean (KW.WK b) (Spec.hid (KW.WK b) (KW.rowK b p)) 0, Spec.mean (KW.WK b) (Spec.hid (KW.WK b) (KW.rowK b p)) 1,
           Spec.mean (KW.WK b) (Spec.hid (KW.WK b) (KW.rowK b p)) 2, Spec.mean (KW.WK b) (Spec.hid (KW.WK b) (KW.rowK b p)) 3]
          0 (Spec.corr (KW.WK b) 5 n) := by
  intro p n
  unfold kv377 k0_pay36 k0_pay35
  simp only [addf_apply, mulf_apply, KOps.matmulB_apply, shapeCast_1ab_ab_apply, ldA5 b.x8, ldB5 b.x9,
    broadcastTo_1b_ab_apply, shapeCast_a_1a_apply, shapeCast_1a_a_apply, slice2_axis0_eq,
    Cert.RowOps.broadcastTo_a1_ab_apply, c31, c67, c123, c186, c256]
  rfl

/-- Head 4's mean, laid along a row: every entry of row p is the mean of head 4 on row p. -/
theorem kv381_spec (b : Blocks) (c31 : ∀ (p : Fin 1024) (k : Fin 256), kv31 b (ix2 p k) = Spec.hid (KW.WK b) (KW.rowK b p) k)
    (c67 : ∀ (p : Fin 1024), kv67 b (ix2 p (0 : Fin 1)) = Spec.mean (KW.WK b) (Spec.hid (KW.WK b) (KW.rowK b p)) 0)
    (c123 : ∀ (p : Fin 1024), kv123 b (ix2 p (0 : Fin 1)) = Spec.mean (KW.WK b) (Spec.hid (KW.WK b) (KW.rowK b p)) 1)
    (c186 : ∀ (p : Fin 1024), kv186 b (ix2 p (0 : Fin 1)) = Spec.mean (KW.WK b) (Spec.hid (KW.WK b) (KW.rowK b p)) 2)
    (c256 : ∀ (p : Fin 1024), kv256 b (ix2 p (0 : Fin 1)) = Spec.mean (KW.WK b) (Spec.hid (KW.WK b) (KW.rowK b p)) 3) :
    ∀ (p : Fin 1024) (n : Fin 256), kv381 b (ix2 p n) = Spec.mean (KW.WK b) (Spec.hid (KW.WK b) (KW.rowK b p)) 4 := by
  intro p n
  have h331 := kv331_spec b c31 c67 c123 c186 c256
  unfold kv381 k0_pay37 k0_pay33 k0_pay32
  simp only [Cert.RowOps.broadcastTo_a1_ab_apply, maximumf_apply, broadcast_apply, h331]
  rfl

/-- Row 260 of head 5's first-layer weights, the row that meets mean 4, laid along the rows: entry (p, n) is entry
    (5, 4, n) of the window x9. -/
theorem kv382_spec (b : Blocks) : ∀ (p : Fin 1024) (n : Fin 256), kv382 b (ix2 p n) = b.x9 (ix3 5 4 n) := by
  intro p n
  unfold kv382 k0_pay38 k0_pay35
  simp only [broadcastTo_1b_ab_apply, shapeCast_a_1a_apply, shapeCast_1a_a_apply, slice2_axis0_eq,
    shapeCast_1ab_ab_apply, ldB5 b.x9]
  rfl

/-- Head 5's second layer: the first layer is completed by the product of mean 4 with row 260 and by the bias,
    rectified, and goes through the second dense layer. -/
theorem kv402_spec (b : Blocks) (c31 : ∀ (p : Fin 1024) (k : Fin 256), kv31 b (ix2 p k) = Spec.hid (KW.WK b) (KW.rowK b p) k)
    (c67 : ∀ (p : Fin 1024), kv67 b (ix2 p (0 : Fin 1)) = Spec.mean (KW.WK b) (Spec.hid (KW.WK b) (KW.rowK b p)) 0)
    (c123 : ∀ (p : Fin 1024), kv123 b (ix2 p (0 : Fin 1)) = Spec.mean (KW.WK b) (Spec.hid (KW.WK b) (KW.rowK b p)) 1)
    (c186 : ∀ (p : Fin 1024), kv186 b (ix2 p (0 : Fin 1)) = Spec.mean (KW.WK b) (Spec.hid (KW.WK b) (KW.rowK b p)) 2)
    (c256 : ∀ (p : Fin 1024), kv256 b (ix2 p (0 : Fin 1)) = Spec.mean (KW.WK b) (Spec.hid (KW.WK b) (KW.rowK b p)) 3) :
    ∀ (p : Fin 1024) (n : Fin 256),
      k0_pay39 (kv377 b) (kv381 b) (kv382 b) (View.ld b.x10 r0_25) (View.ld b.x11 r0_23) (View.ld b.x12 r0_25) (ix2 p n)
      = Spec.second (KW.WK b) (Spec.hid (KW.WK b) (KW.rowK b p))
          (Spec.before (KW.WK b) (Spec.hid (KW.WK b) (KW.rowK b p)) 5) 5 n := by
  intro p n
  have h377 := kv377_spec b c31 c67 c123 c186 c256
  have h381 := kv381_spec b c31 c67 c123 c186 c256
  have h382 := kv382_spec b
  unfold k0_pay39
  simp only [maximumf_apply, addf_apply, mulf_apply, truncf_apply, broadcast_apply, KOps.matmulB_apply,
    shapeCast_1ab_ab_apply, ldA5 b.x11, ldC5 b.x10, ldC5 b.x12,
    broadcastTo_1b_ab_apply, shapeCast_a_1a_apply, shapeCast_1a_a_apply, h377, h381, h382]
  unfold Spec.second Spec.dense
  simp only [KW.first_WK]
  rfl

/-- Head 5's mean: the rectifier applied to the lane sum of the second layer times the mean's output column, plus the
    bias. -/
theorem kv417_spec (b : Blocks) (c31 : ∀ (p : Fin 1024) (k : Fin 256), kv31 b (ix2 p k) = Spec.hid (KW.WK b) (KW.rowK b p) k)
    (c67 : ∀ (p : Fin 1024), kv67 b (ix2 p (0 : Fin 1)) = Spec.mean (KW.WK b) (Spec.hid (KW.WK b) (KW.rowK b p)) 0)
    (c123 : ∀ (p : Fin 1024), kv123 b (ix2 p (0 : Fin 1)) = Spec.mean (KW.WK b) (Spec.hid (KW.WK b) (KW.rowK b p)) 1)
    (c186 : ∀ (p : Fin 1024), kv186 b (ix2 p (0 : Fin 1)) = Spec.mean (KW.WK b) (Spec.hid (KW.WK b) (KW.rowK b p)) 2)
    (c256 : ∀ (p : Fin 1024), kv256 b (ix2 p (0 : Fin 1)) = Spec.mean (KW.WK b) (Spec.hid (KW.WK b) (KW.rowK b p)) 3) :
    ∀ (p : Fin 1024), kv417 b (ix2 p (0 : Fin 1)) = Spec.mean (KW.WK b) (Spec.hid (KW.WK b) (KW.rowK b p)) 5 := by
  intro p
  have h402 := kv402_spec b c31 c67 c123 c186 c256
  unfold kv417 k0_pay40
  simp only [maximumf_apply, addf_apply, broadcast_apply, Cert.RowOps.shapeCast_a_a1_apply, KOps.extractAt_one,
    ldD5 b.x15]
  rw [laneSum1024]
  simp only [mulf_apply, broadcastTo_1b_ab_apply, shapeCast_a_1a_apply, shapeCast_1a_a_apply, ldC5 b.x13, h402]
  rfl

/-- The lane sum of head 5's log standard deviation: the sum over the second layer's coordinates of the products with
    the second output column. -/
theorem kv422_spec (b : Blocks) (c31 : ∀ (p : Fin 1024) (k : Fin 256), kv31 b (ix2 p k) = Spec.hid (KW.WK b) (KW.rowK b p) k)
    (c67 : ∀ (p : Fin 1024), kv67 b (ix2 p (0 : Fin 1)) = Spec.mean (KW.WK b) (Spec.hid (KW.WK b) (KW.rowK b p)) 0)
    (c123 : ∀ (p : Fin 1024), kv123 b (ix2 p (0 : Fin 1)) = Spec.mean (KW.WK b) (Spec.hid (KW.WK b) (KW.rowK b p)) 1)
    (c186 : ∀ (p : Fin 1024), kv186 b (ix2 p (0 : Fin 1)) = Spec.mean (KW.WK b) (Spec.hid (KW.WK b) (KW.rowK b p)) 2)
    (c256 : ∀ (p : Fin 1024), kv256 b (ix2 p (0 : Fin 1)) = Spec.mean (KW.WK b) (Spec.hid (KW.WK b) (KW.rowK b p)) 3) :
    ∀ (p : Fin 1024), kv422 b (ix2 p (0 : Fin 1))
      = ∑ k, Spec.second (KW.WK b) (Spec.hid (KW.WK b) (KW.rowK b p))
            (Spec.before (KW.WK b) (Spec.hid (KW.WK b) (KW.rowK b p)) 5) 5 k * (KW.WK b).wout 5 k 1 := by
  intro p
  have h402 := kv402_spec b c31 c67 c123 c186 c256
  unfold kv422 k0_pay41
  simp only [Cert.RowOps.shapeCast_a_a1_apply]
  rw [laneSum1024]
  simp only [mulf_apply, broadcastTo_1b_ab_apply, shapeCast_a_1a_apply, shapeCast_1a_a_apply, ldC5 b.x14, h402]
  rfl

/-- Head 5's log standard deviation before clipping: the rectifier applied to the lane sum plus the second bias. -/
theorem kv428_spec (b : Blocks) (c31 : ∀ (p : Fin 1024) (k : Fin 256), kv31 b (ix2 p k) = Spec.hid (KW.WK b) (KW.rowK b p) k)
    (c67 : ∀ (p : Fin 1024), kv67 b (ix2 p (0 : Fin 1)) = Spec.mean (KW.WK b) (Spec.hid (KW.WK b) (KW.rowK b p)) 0)
    (c123 : ∀ (p : Fin 1024), kv123 b (ix2 p (0 : Fin 1)) = Spec.mean (KW.WK b) (Spec.hid (KW.WK b) (KW.rowK b p)) 1)
    (c186 : ∀ (p : Fin 1024), kv186 b (ix2 p (0 : Fin 1)) = Spec.mean (KW.WK b) (Spec.hid (KW.WK b) (KW.rowK b p)) 2)
    (c256 : ∀ (p : Fin 1024), kv256 b (ix2 p (0 : Fin 1)) = Spec.mean (KW.WK b) (Spec.hid (KW.WK b) (KW.rowK b p)) 3) :
    ∀ (p : Fin 1024), kv428 b (ix2 p (0 : Fin 1)) = Spec.lstd (KW.WK b) (Spec.hid (KW.WK b) (KW.rowK b p)) 5 := by
  intro p
  have h422 := kv422_spec b c31 c67 c123 c186 c256
  unfold kv428 k0_pay42
  simp only [maximumf_apply, addf_apply, broadcast_apply, KOps.extractAt_one, ldD5 b.x16, h422]
  rfl

end Cert.KernelIdeal.KPartC

end
-- ==== Proof.KPartD.lean ====
/-
  Heads 6 and 7 of the kernel body, read at an index in the vocabulary of the specification.

  Head 6: the first layer's accumulation over the trunk's result and the means of heads 0..5 (before bias and
  rectifier), the second layer, the mean, and the log standard deviation before clipping. Head 7: the accumulation over
  the trunk's result and the means of heads 0..5, the weight row that meets the mean of head 6, the second layer, the
  mean, and the lane sum that gives the log standard deviation once its bias is added.
-/
import proofs.«418646_j6511170421537_4_alg».proof.Proof.Spec
import proofs.«418646_j6511170421537_4_alg».proof.Proof.LibRowOps
import proofs.«418646_j6511170421537_4_alg».proof.Proof.KDag
import proofs.«418646_j6511170421537_4_alg».proof.Proof.KOps
import proofs.«418646_j6511170421537_4_alg».proof.Proof.KW
import proofs.«418646_j6511170421537_4_alg».proof.Proof.Gen.KernelIdeal.Skeleton
import Idealize.ShloMosaic.Lib.ValueLayout
import Idealize.ShloMosaic.Lib.ValueIdx

noncomputable section

namespace Cert.KernelIdeal.KPartD

open Idealize.ShloMosaic Idealize.ShloMosaic.ValueIdx Cert.KernelIdeal Cert.KernelIdeal.Gen Cert.KernelIdeal.GenP
  Cert.KernelIdeal.KDag Cert

/-! ### The blocks loaded at the leading offsets 6 and 7 of the weight windows

Entry (u, r, c) of the block loaded at leading offset i is entry (i, r, c) of the window; likewise a row of a matrix
window and one entry of a vector window. -/

section Loads

variable (b : Blocks)

theorem ld_x8_6 (u : Fin 1) (r c : Fin 256) : View.ld b.x8 r0_27 (ix3 u r c) = b.x8 (ix3 6 r c) :=
  KOps.ld3_apply b.x8 6 _ u r c
theorem ld_x9_6 (u : Fin 1) (r : Fin 7) (c : Fin 256) : View.ld b.x9 r0_28 (ix3 u r c) = b.x9 (ix3 6 r c) :=
  KOps.ld3_apply b.x9 6 _ u r c
theorem ld_x10_6 (u : Fin 1) (c : Fin 256) : View.ld b.x10 r0_29 (ix2 u c) = b.x10 (ix2 6 c) :=
  KOps.ld2_apply b.x10 6 _ u c
theorem ld_x11_6 (u : Fin 1) (r c : Fin 256) : View.ld b.x11 r0_27 (ix3 u r c) = b.x11 (ix3 6 r c) :=
  KOps.ld3_apply b.x11 6 _ u r c
theorem ld_x12_6 (u : Fin 1) (c : Fin 256) : View.ld b.x12 r0_29 (ix2 u c) = b.x12 (ix2 6 c) :=
  KOps.ld2_apply b.x12 6 _ u c
theorem ld_x13_6 (u : Fin 1) (c : Fin 256) : View.ld b.x13 r0_29 (ix2 u c) = b.x13 (ix2 6 c) :=
  KOps.ld2_apply b.x13 6 _ u c
theorem ld_x14_6 (u : Fin 1) (c : Fin 256) : View.ld b.x14 r0_29 (ix2 u c) = b.x14 (ix2 6 c) :=
  KOps.ld2_apply b.x14 6 _ u c
theorem ld_x15_6 (u : Fin 1) : View.ld b.x15 r0_30 (ix1 u) = b.x15 (ix1 6) := KOps.ld1_apply b.x15 6 _ u
theorem ld_x16_6 (u : Fin 1) : View.ld b.x16 r0_30 (ix1 u) = b.x16 (ix1 6) := KOps.ld1_apply b.x16 6 _ u

theorem ld_x8_7 (u : Fin 1) (r c : Fin 256) : View.ld b.x8 r0_31 (ix3 u r c) = b.x8 (ix3 7 r c) :=
  KOps.ld3_apply b.x8 7 _ u r c
theorem ld_x9_7 (u : Fin 1) (r : Fin 7) (c : Fin 256) : View.ld b.x9 r0_32 (ix3 u r c) = b.x9 (ix3 7 r c) :=
  KOps.ld3_apply b.x9 7 _ u r c
theorem ld_x10_7 (u : Fin 1) (c : Fin 256) : View.ld b.x10 r0_33 (ix2 u c) = b.x10 (ix2 7 c) :=
  KOps.ld2_apply b.x10 7 _ u c
theorem ld_x11_7 (u : Fin 1) (r c : Fin 256) : View.ld b.x11 r0_31 (ix3 u r c) = b.x11 (ix3 7 r c) :=
  KOps.ld3_apply b.x11 7 _ u r c
theorem ld_x12_7 (u : Fin 1) (c : Fin 256) : View.ld b.x12 r0_33 (ix2 u c) = b.x12 (ix2 7 c) :=
  KOps.ld2_apply b.x12 7 _ u c
theorem ld_x13_7 (u : Fin 1) (c : Fin 256) : View.ld b.x13 r0_33 (ix2 u c) = b.x13 (ix2 7 c) :=
  KOps.ld2_apply b.x13 7 _ u c
theorem ld_x14_7 (u : Fin 1) (c : Fin 256) : View.ld b.x14 r0_33 (ix2 u c) = b.x14 (ix2 7 c) :=
  KOps.ld2_apply b.x14 7 _ u c
theorem ld_x15_7 (u : Fin 1) : View.ld b.x15 r0_34 (ix1 u) = b.x15 (ix1 7) := KOps.ld1_apply b.x15 7 _ u

end Loads

/-! ### Values that depend on the weights alone -/

/-- The second output bias of head 6, at every row. -/
theorem kv516_spec (b : Blocks) : ∀ (p : Fin 1024), kv516 b (ix2 p (0 : Fin 1)) = (KW.WK b).bout 6 1 := by
  intro p
  unfold kv516 k0_pay47
  simp only [broadcast_apply, KOps.extractAt_one, ld_x16_6]
  rfl

/-- Row 262 of head 7's first-layer weights: the row that meets the mean of head 6. -/
theorem kv568_spec (b : Blocks) : ∀ (n : Fin 256), kv568 b (ix1 n) = Spec.corr (KW.WK b) 7 n 6 := by
  intro n
  unfold kv568 k0_pay51 k0_pay49
  simp only [shapeCast_1a_a_apply, slice2_axis0_eq, shapeCast_1ab_ab_apply, ld_x9_7]
  rfl

/-! ### Values that depend on the trunk's result and on the means of heads 0..5 -/

section Heads

variable (b : Blocks)
  (c31 : ∀ (p : Fin 1024) (k : Fin 256), kv31 b (ix2 p k) = Spec.hid (KW.WK b) (KW.rowK b p) k)
  (c67 : ∀ (p : Fin 1024), kv67 b (ix2 p (0 : Fin 1)) = Spec.mean (KW.WK b) (Spec.hid (KW.WK b) (KW.rowK b p)) 0)
  (c123 : ∀ (p : Fin 1024), kv123 b (ix2 p (0 : Fin 1)) = Spec.mean (KW.WK b) (Spec.hid (KW.WK b) (KW.rowK b p)) 1)
  (c186 : ∀ (p : Fin 1024), kv186 b (ix2 p (0 : Fin 1)) = Spec.mean (KW.WK b) (Spec.hid (KW.WK b) (KW.rowK b p)) 2)
  (c256 : ∀ (p : Fin 1024), kv256 b (ix2 p (0 : Fin 1)) = Spec.mean (KW.WK b) (Spec.hid (KW.WK b) (KW.rowK b p)) 3)
  (c333 : ∀ (p : Fin 1024), kv333 b (ix2 p (0 : Fin 1)) = Spec.mean (KW.WK b) (Spec.hid (KW.WK b) (KW.rowK b p)) 4)
  (c417 : ∀ (p : Fin 1024), kv417 b (ix2 p (0 : Fin 1)) = Spec.mean (KW.WK b) (Spec.hid (KW.WK b) (KW.rowK b p)) 5)
include c31 c67 c123 c186 c256 c333 c417

/-- Head 6's first layer before bias and rectifier: the sum over the trunk's 256 coordinates, then the products of the
    means of heads 0..5 with rows 256..261 of the head's first-layer weights, added one at a time. -/
theorem kv475_spec : ∀ (p : Fin 1024) (n : Fin 256), kv475 b (ix2 p n)
    = Spec.acc (∑ k : Fin 256, Spec.hid (KW.WK b) (KW.rowK b p) k * b.x8 (ix3 6 k n))
        (Spec.before (KW.WK b) (Spec.hid (KW.WK b) (KW.rowK b p)) 6) 0 (Spec.corr (KW.WK b) 6 n) := by
  intro p n
  unfold kv475 k0_pay43
  simp only [addf_apply, mulf_apply, KOps.matmulB_apply, shapeCast_1ab_ab_apply, ld_x8_6, ld_x9_6,
    RowOps.broadcastTo_a1_ab_apply, broadcastTo_1b_ab_apply, shapeCast_a_1a_apply, shapeCast_1a_a_apply,
    slice2_axis0_eq, c31, c67, c123, c186, c256, c333, c417]
  rfl

/-- Head 6's second layer: the first layer (bias added, rectified) through the head's [256, 256] weights, bias added,
    rectified. -/
theorem kv493_spec : ∀ (p : Fin 1024) (n : Fin 256),
    k0_pay44 (kv475 b) (View.ld b.x10 r0_29) (View.ld b.x11 r0_27) (View.ld b.x12 r0_29) (ix2 p n)
      = Spec.second (KW.WK b) (Spec.hid (KW.WK b) (KW.rowK b p))
          (Spec.before (KW.WK b) (Spec.hid (KW.WK b) (KW.rowK b p)) 6) 6 n := by
  intro p n
  unfold k0_pay44
  simp only [maximumf_apply, addf_apply, broadcast_apply, truncf_apply, KOps.matmulB_apply, shapeCast_1ab_ab_apply,
    ld_x10_6, ld_x11_6, ld_x12_6, broadcastTo_1b_ab_apply, shapeCast_a_1a_apply, shapeCast_1a_a_apply,
    kv475_spec b c31 c67 c123 c186 c256 c333 c417]
  unfold Spec.second Spec.dense
  simp only [KW.first_WK]
  rfl

/-- The mean of head 6: the lane sum of the second layer against the first column of the output weights, bias added,
    rectified. -/
theorem kv508_spec : ∀ (p : Fin 1024), kv508 b (ix2 p (0 : Fin 1))
    = Spec.mean (KW.WK b) (Spec.hid (KW.WK b) (KW.rowK b p)) 6 := by
  intro p
  unfold kv508 k0_pay45
  simp only [maximumf_apply, addf_apply, broadcast_apply, RowOps.shapeCast_a_a1_apply, KOps.extractAt_one, ld_x15_6]
  erw [RowOps.laneSum_apply]
  simp only [mulf_apply, ld_x13_6, broadcastTo_1b_ab_apply, shapeCast_a_1a_apply, shapeCast_1a_a_apply,
    kv493_spec b c31 c67 c123 c186 c256 c333 c417]
  rfl

/-- The lane sum of head 6's second layer against the second column of the output weights. -/
theorem kv513_spec : ∀ (p : Fin 1024), kv513 b (ix2 p (0 : Fin 1))
    = ∑ k : Fin 256, Spec.second (KW.WK b) (Spec.hid (KW.WK b) (KW.rowK b p))
        (Spec.before (KW.WK b) (Spec.hid (KW.WK b) (KW.rowK b p)) 6) 6 k * (KW.WK b).wout 6 k 1 := by
  intro p
  unfold kv513 k0_pay46
  simp only [RowOps.shapeCast_a_a1_apply]
  erw [RowOps.laneSum_apply]
  simp only [mulf_apply, ld_x14_6, broadcastTo_1b_ab_apply, shapeCast_a_1a_apply, shapeCast_1a_a_apply,
    kv493_spec b c31 c67 c123 c186 c256 c333 c417]
  rfl

/-- The log standard deviation of head 6 before clipping: that lane sum, bias added, rectified. -/
theorem kv519_spec : ∀ (p : Fin 1024), kv519 b (ix2 p (0 : Fin 1))
    = Spec.lstd (KW.WK b) (Spec.hid (KW.WK b) (KW.rowK b p)) 6 := by
  intro p
  unfold kv519 k0_pay48
  simp only [maximumf_apply, addf_apply, broadcast_apply, kv513_spec b c31 c67 c123 c186 c256 c333 c417,
    kv516_spec b]
  rfl

/-- Head 7's first layer, the part that does not need the mean of head 6: the sum over the trunk's 256 coordinates,
    then the products of the means of heads 0..5 with rows 256..261 of the head's first-layer weights. -/
theorem kv566_spec : ∀ (p : Fin 1024) (n : Fin 256), kv566 b (ix2 p n)
    = Spec.acc (∑ k : Fin 256, Spec.hid (KW.WK b) (KW.rowK b p) k * b.x8 (ix3 7 k n))
        (Spec.before (KW.WK b) (Spec.hid (KW.WK b) (KW.rowK b p)) 6) 0 (Spec.corr (KW.WK b) 7 n) := by
  intro p n
  unfold kv566 k0_pay50 k0_pay49
  simp only [addf_apply, mulf_apply, KOps.matmulB_apply, shapeCast_1ab_ab_apply, ld_x8_7, ld_x9_7,
    RowOps.broadcastTo_a1_ab_apply, broadcastTo_1b_ab_apply, shapeCast_a_1a_apply, shapeCast_1a_a_apply,
    slice2_axis0_eq, c31, c67, c123, c186, c256, c333, c417]
  rfl

/-- Head 7's second layer: the accumulation completed by the product of the mean of head 6 with row 262, bias added,
    rectified, through the head's [256, 256] weights, bias added, rectified. -/
theorem kv591_spec : ∀ (p : Fin 1024) (n : Fin 256),
    k0_pay52 (kv508 b) (kv566 b) (kv568 b) (View.ld b.x10 r0_33) (View.ld b.x11 r0_31) (View.ld b.x12 r0_33) (ix2 p n)
      = Spec.second (KW.WK b) (Spec.hid (KW.WK b) (KW.rowK b p))
          (Spec.before (KW.WK b) (Spec.hid (KW.WK b) (KW.rowK b p)) 7) 7 n := by
  intro p n
  unfold k0_pay52
  simp only [maximumf_apply, addf_apply, mulf_apply, broadcast_apply, truncf_apply, KOps.matmulB_apply,
    shapeCast_1ab_ab_apply, ld_x10_7, ld_x11_7, ld_x12_7, RowOps.broadcastTo_a1_ab_apply, broadcastTo_1b_ab_apply,
    shapeCast_a_1a_apply, shapeCast_1a_a_apply, kv508_spec b c31 c67 c123 c186 c256 c333 c417,
    kv566_spec b c31 c67 c123 c186 c256 c333 c417, kv568_spec b]
  unfold Spec.second Spec.dense
  simp only [KW.first_WK]
  rfl

/-- The mean of head 7. -/
theorem kv606_spec : ∀ (p : Fin 1024), kv606 b (ix2 p (0 : Fin 1))
    = Spec.mean (KW.WK b) (Spec.hid (KW.WK b) (KW.rowK b p)) 7 := by
  intro p
  unfold kv606 k0_pay53
  simp only [maximumf_apply, addf_apply, broadcast_apply, RowOps.shapeCast_a_a1_apply, KOps.extractAt_one, ld_x15_7]
  erw [RowOps.laneSum_apply]
  simp only [mulf_apply, ld_x13_7, broadcastTo_1b_ab_apply, shapeCast_a_1a_apply, shapeCast_1a_a_apply,
    kv591_spec b c31 c67 c123 c186 c256 c333 c417]
  rfl

/-- The lane sum of head 7's second layer against the second column of the output weights. -/
theorem kv610_spec : ∀ (p : Fin 1024), kv610 b (ix1 p)
    = ∑ k, Spec.second (KW.WK b) (Spec.hid (KW.WK b) (KW.rowK b p))
        (Spec.before (KW.WK b) (Spec.hid (KW.WK b) (KW.rowK b p)) 7) 7 k * (KW.WK b).wout 7 k 1 := by
  intro p
  unfold kv610 k0_pay54
  erw [RowOps.laneSum_apply]
  simp only [mulf_apply, ld_x14_7, broadcastTo_1b_ab_apply, shapeCast_a_1a_apply, shapeCast_1a_a_apply,
    kv591_spec b c31 c67 c123 c186 c256 c333 c417]
  rfl

end Heads

end Cert.KernelIdeal.KPartD

end
-- ==== Proof.KTail.lean ====
/-
  The tail of the kernel body, on the [1024, 8] slabs.

  The eight mean columns laid side by side are the mean slab. The eight log-standard-deviation columns (the last one
  finished here from its lane sum and its bias, then rectified) laid side by side and clipped to [-20, 2] are the
  clipped log-standard-deviation slab l. With s = exp l entrywise, the sample slab is mean + s * eps and the log-density
  slab is -(1/2) ((sample - mean) / s)^2 - l - (1/2) log (2 pi). Each statement reads a slab at entry (p, q) and says
  it is the network's value for row p of the block at column q.
-/
import proofs.«418646_j6511170421537_4_alg».proof.Proof.KW
import proofs.«418646_j6511170421537_4_alg».proof.Proof.KOps
import Idealize.ShloMosaic.Lib.ValueLayout
import Idealize.ShloMosaic.Lib.Pipeline.Value

noncomputable section

namespace Cert.KernelIdeal.KTail

open Idealize.ShloMosaic Idealize.ShloMosaic.ValueIdx Cert.KernelIdeal Cert.KernelIdeal.Gen Cert.KernelIdeal.GenP
  Cert.KernelIdeal.KDag

/-! ### Eight columns laid side by side -/

/-- A slab of eight columns read at (p, q), from the piece the second coordinate q falls in: the pieces before it have
    total width q, so the slab's entry is that piece's entry (p, 0). -/
theorem piece8 {α : Type} (xs : List ((s : Shape) × (s.Idx → α))) (h : Shape.Concatenates (xs.map (·.1)) S1024x8 1)
    (p : Fin 1024) (q : Fin 8) (hk : q.val < xs.length) (x : S1024x1.Idx → α) (hxk : xs[q.val] = ⟨S1024x1, x⟩)
    (hpre : (((xs.take q.val).map (·.1)).map fun s =>
      if h : s.rank = S1024x8.rank then s.size ((1 : Fin S1024x8.rank).cast h.symm) else 0).sum = q.val) :
    concatenate S1024x8 1 xs h (ix2 p q) = x (ix2 p (0 : Fin 1)) :=
  concatenate_apply_piece 1 xs h (ix2 p q) q.val hk S1024x1 x hxk rfl q.val hpre (ix2 p (0 : Fin 1))
    (fun b hb => by
      match b with
      | ⟨0, _⟩ => rfl
      | ⟨1, _⟩ => exact absurd rfl hb)
    (Nat.add_zero _)

/-- Eight columns of 1024 entries laid side by side: entry (p, q) of the slab is entry p of column q. -/
theorem cols8_apply {α : Type} (v0 v1 v2 v3 v4 v5 v6 v7 : S1024x1.Idx → α)
    (h : Shape.Concatenates [S1024x1, S1024x1, S1024x1, S1024x1, S1024x1, S1024x1, S1024x1, S1024x1] S1024x8 1)
    (p : Fin 1024) (q : Fin 8) :
    concatenate S1024x8 1 [⟨S1024x1, v0⟩, ⟨S1024x1, v1⟩, ⟨S1024x1, v2⟩, ⟨S1024x1, v3⟩, ⟨S1024x1, v4⟩, ⟨S1024x1, v5⟩,
        ⟨S1024x1, v6⟩, ⟨S1024x1, v7⟩] h (ix2 p q)
      = (![v0, v1, v2, v3, v4, v5, v6, v7] q) (ix2 p (0 : Fin 1)) := by
  have key := piece8 [⟨S1024x1, v0⟩, ⟨S1024x1, v1⟩, ⟨S1024x1, v2⟩, ⟨S1024x1, v3⟩, ⟨S1024x1, v4⟩, ⟨S1024x1, v5⟩,
    ⟨S1024x1, v6⟩, ⟨S1024x1, v7⟩] h p
  match q with
  | ⟨0, _⟩ => exact key 0 (by show (0 : ℕ) < 8; decide) v0 rfl rfl
  | ⟨1, _⟩ => exact key 1 (by show (1 : ℕ) < 8; decide) v1 rfl rfl
  | ⟨2, _⟩ => exact key 2 (by show (2 : ℕ) < 8; decide) v2 rfl rfl
  | ⟨3, _⟩ => exact key 3 (by show (3 : ℕ) < 8; decide) v3 rfl rfl
  | ⟨4, _⟩ => exact key 4 (by show (4 : ℕ) < 8; decide) v4 rfl rfl
  | ⟨5, _⟩ => exact key 5 (by show (5 : ℕ) < 8; decide) v5 rfl rfl
  | ⟨6, _⟩ => exact key 6 (by show (6 : ℕ) < 8; decide) v6 rfl rfl
  | ⟨7, _⟩ => exact key 7 (by show (7 : ℕ) < 8; decide) v7 rfl rfl

/-! ### The noise block is loaded whole -/

/-- The load of the whole [1024, 8] window at zero offsets is the window's block. -/
theorem ld_eps (b : Blocks) : View.ld b.x1 r0_35 = b.x1 :=
  View.ld_unit_zero (by
    funext a
    match a with
    | ⟨0, _⟩ => rfl
    | ⟨1, _⟩ => rfl) _ _

/-! ### The mean slab -/

/-- Entry (p, q) of the mean slab is the mean of head q on row p. -/
theorem kout17_spec (b : Blocks)
    (cm0 : ∀ (p : Fin 1024), kv67 b (ix2 p (0 : Fin 1)) = Spec.mean (KW.WK b) (Spec.hid (KW.WK b) (KW.rowK b p)) 0)
    (cm1 : ∀ (p : Fin 1024), kv123 b (ix2 p (0 : Fin 1)) = Spec.mean (KW.WK b) (Spec.hid (KW.WK b) (KW.rowK b p)) 1)
    (cm2 : ∀ (p : Fin 1024), kv186 b (ix2 p (0 : Fin 1)) = Spec.mean (KW.WK b) (Spec.hid (KW.WK b) (KW.rowK b p)) 2)
    (cm3 : ∀ (p : Fin 1024), kv256 b (ix2 p (0 : Fin 1)) = Spec.mean (KW.WK b) (Spec.hid (KW.WK b) (KW.rowK b p)) 3)
    (cm4 : ∀ (p : Fin 1024), kv333 b (ix2 p (0 : Fin 1)) = Spec.mean (KW.WK b) (Spec.hid (KW.WK b) (KW.rowK b p)) 4)
    (cm5 : ∀ (p : Fin 1024), kv417 b (ix2 p (0 : Fin 1)) = Spec.mean (KW.WK b) (Spec.hid (KW.WK b) (KW.rowK b p)) 5)
    (cm6 : ∀ (p : Fin 1024), kv508 b (ix2 p (0 : Fin 1)) = Spec.mean (KW.WK b) (Spec.hid (KW.WK b) (KW.rowK b p)) 6)
    (cm7 : ∀ (p : Fin 1024), kv606 b (ix2 p (0 : Fin 1)) = Spec.mean (KW.WK b) (Spec.hid (KW.WK b) (KW.rowK b p)) 7) :
    ∀ (p : Fin 1024) (q : Fin 8), kout17 b (ix2 p q) = Spec.outMean (KW.WK b) (KW.rowK b p) q := by
  intro p q
  refine (cols8_apply (kv67 b) (kv123 b) (kv186 b) (kv256 b) (kv333 b) (kv417 b) (kv508 b) (kv606 b)
    concatenates_S1024x1_S1024x1_S1024x1_S1024x1_S1024x1_S1024x1_S1024x1_S1024x1_S1024x8_d1 p q).trans ?_
  match q with
  | ⟨0, _⟩ => exact cm0 p
  | ⟨1, _⟩ => exact cm1 p
  | ⟨2, _⟩ => exact cm2 p
  | ⟨3, _⟩ => exact cm3 p
  | ⟨4, _⟩ => exact cm4 p
  | ⟨5, _⟩ => exact cm5 p
  | ⟨6, _⟩ => exact cm6 p
  | ⟨7, _⟩ => exact cm7 p

/-! ### The clipped log-standard-deviation slab -/

/-- The one-entry block loaded at offset 7 of the window of the second output biases is the window's entry 7. -/
theorem ld_bias7 (b : Blocks) : View.ld b.x16 r0_34 (ix1 (0 : Fin 1)) = b.x16 (ix1 (7 : Fin 8)) :=
  KOps.ld1_apply b.x16 7 inb_S8_S1_7 0

/-- Head 7's log-standard-deviation column before clipping: its lane sum as a column, plus its bias, rectified. -/
def kv617 (b : Blocks) : FVec Ideal S1024x1 .f32 :=
  maximumf
    (addf (shapeCast S1024x1 (kv610 b) shapeCasts_S1024_S1024x1)
      (broadcast S1024x1 (extractAt ![0] (View.ld b.x16 r0_34) inpos_S1_p0)))
    (broadcast S1024x1 (Scalar.ofBits .f32 0x00000000#32))

/-- Entry p of that column is the log standard deviation of head 7 on row p, before clipping. -/
theorem kv617_spec (b : Blocks)
    (c610 : ∀ (p : Fin 1024), kv610 b (ix1 p) = ∑ k, Spec.second (KW.WK b) (Spec.hid (KW.WK b) (KW.rowK b p))
      (Spec.before (KW.WK b) (Spec.hid (KW.WK b) (KW.rowK b p)) 7) 7 k * (KW.WK b).wout 7 k 1) :
    ∀ (p : Fin 1024), kv617 b (ix2 p (0 : Fin 1)) = Spec.lstd (KW.WK b) (Spec.hid (KW.WK b) (KW.rowK b p)) 7 := by
  intro p
  unfold kv617
  simp only [maximumf_apply, addf_apply, broadcast_apply, Cert.RowOps.shapeCast_a_a1_apply, KOps.extractAt_one,
    ld_bias7, c610]
  rfl

/-- Entry (p, q) of the clipped slab is the clipped log standard deviation of head q on row p. -/
theorem kv623_spec (b : Blocks)
    (cl0 : ∀ (p : Fin 1024), kv78 b (ix2 p (0 : Fin 1)) = Spec.lstd (KW.WK b) (Spec.hid (KW.WK b) (KW.rowK b p)) 0)
    (cl1 : ∀ (p : Fin 1024), kv134 b (ix2 p (0 : Fin 1)) = Spec.lstd (KW.WK b) (Spec.hid (KW.WK b) (KW.rowK b p)) 1)
    (cl2 : ∀ (p : Fin 1024), kv197 b (ix2 p (0 : Fin 1)) = Spec.lstd (KW.WK b) (Spec.hid (KW.WK b) (KW.rowK b p)) 2)
    (cl3 : ∀ (p : Fin 1024), kv267 b (ix2 p (0 : Fin 1)) = Spec.lstd (KW.WK b) (Spec.hid (KW.WK b) (KW.rowK b p)) 3)
    (cl4 : ∀ (p : Fin 1024), kv344 b (ix2 p (0 : Fin 1)) = Spec.lstd (KW.WK b) (Spec.hid (KW.WK b) (KW.rowK b p)) 4)
    (cl5 : ∀ (p : Fin 1024), kv428 b (ix2 p (0 : Fin 1)) = Spec.lstd (KW.WK b) (Spec.hid (KW.WK b) (KW.rowK b p)) 5)
    (cl6 : ∀ (p : Fin 1024), kv519 b (ix2 p (0 : Fin 1)) = Spec.lstd (KW.WK b) (Spec.hid (KW.WK b) (KW.rowK b p)) 6)
    (c610 : ∀ (p : Fin 1024), kv610 b (ix1 p) = ∑ k, Spec.second (KW.WK b) (Spec.hid (KW.WK b) (KW.rowK b p))
      (Spec.before (KW.WK b) (Spec.hid (KW.WK b) (KW.rowK b p)) 7) 7 k * (KW.WK b).wout 7 k 1) :
    ∀ (p : Fin 1024) (q : Fin 8),
      kv623 b (ix2 p q) = Spec.clip (Spec.lstd (KW.WK b) (Spec.hid (KW.WK b) (KW.rowK b p)) q) := by
  intro p q
  refine (congrArg Spec.clip (cols8_apply (kv78 b) (kv134 b) (kv197 b) (kv267 b) (kv344 b) (kv428 b) (kv519 b) (kv617 b)
    concatenates_S1024x1_S1024x1_S1024x1_S1024x1_S1024x1_S1024x1_S1024x1_S1024x1_S1024x8_d1 p q)).trans ?_
  match q with
  | ⟨0, _⟩ => exact congrArg Spec.clip (cl0 p)
  | ⟨1, _⟩ => exact congrArg Spec.clip (cl1 p)
  | ⟨2, _⟩ => exact congrArg Spec.clip (cl2 p)
  | ⟨3, _⟩ => exact congrArg Spec.clip (cl3 p)
  | ⟨4, _⟩ => exact congrArg Spec.clip (cl4 p)
  | ⟨5, _⟩ => exact congrArg Spec.clip (cl5 p)
  | ⟨6, _⟩ => exact congrArg Spec.clip (cl6 p)
  | ⟨7, _⟩ => exact congrArg Spec.clip (kv617_spec b c610 p)

/-! ### The sample slab and the log-density slab -/

/-- Entry (p, q) of the sample slab is the sample of head q on row p: mean + exp (clipped log std) * eps. -/
theorem kout18_spec (b : Blocks)
    (cm0 : ∀ (p : Fin 1024), kv67 b (ix2 p (0 : Fin 1)) = Spec.mean (KW.WK b) (Spec.hid (KW.WK b) (KW.rowK b p)) 0)
    (cm1 : ∀ (p : Fin 1024), kv123 b (ix2 p (0 : Fin 1)) = Spec.mean (KW.WK b) (Spec.hid (KW.WK b) (KW.rowK b p)) 1)
    (cm2 : ∀ (p : Fin 1024), kv186 b (ix2 p (0 : Fin 1)) = Spec.mean (KW.WK b) (Spec.hid (KW.WK b) (KW.rowK b p)) 2)
    (cm3 : ∀ (p : Fin 1024), kv256 b (ix2 p (0 : Fin 1)) = Spec.mean (KW.WK b) (Spec.hid (KW.WK b) (KW.rowK b p)) 3)
    (cm4 : ∀ (p : Fin 1024), kv333 b (ix2 p (0 : Fin 1)) = Spec.mean (KW.WK b) (Spec.hid (KW.WK b) (KW.rowK b p)) 4)
    (cm5 : ∀ (p : Fin 1024), kv417 b (ix2 p (0 : Fin 1)) = Spec.mean (KW.WK b) (Spec.hid (KW.WK b) (KW.rowK b p)) 5)
    (cm6 : ∀ (p : Fin 1024), kv508 b (ix2 p (0 : Fin 1)) = Spec.mean (KW.WK b) (Spec.hid (KW.WK b) (KW.rowK b p)) 6)
    (cm7 : ∀ (p : Fin 1024), kv606 b (ix2 p (0 : Fin 1)) = Spec.mean (KW.WK b) (Spec.hid (KW.WK b) (KW.rowK b p)) 7)
    (cl0 : ∀ (p : Fin 1024), kv78 b (ix2 p (0 : Fin 1)) = Spec.lstd (KW.WK b) (Spec.hid (KW.WK b) (KW.rowK b p)) 0)
    (cl1 : ∀ (p : Fin 1024), kv134 b (ix2 p (0 : Fin 1)) = Spec.lstd (KW.WK b) (Spec.hid (KW.WK b) (KW.rowK b p)) 1)
    (cl2 : ∀ (p : Fin 1024), kv197 b (ix2 p (0 : Fin 1)) = Spec.lstd (KW.WK b) (Spec.hid (KW.WK b) (KW.rowK b p)) 2)
    (cl3 : ∀ (p : Fin 1024), kv267 b (ix2 p (0 : Fin 1)) = Spec.lstd (KW.WK b) (Spec.hid (KW.WK b) (KW.rowK b p)) 3)
    (cl4 : ∀ (p : Fin 1024), kv344 b (ix2 p (0 : Fin 1)) = Spec.lstd (KW.WK b) (Spec.hid (KW.WK b) (KW.rowK b p)) 4)
    (cl5 : ∀ (p : Fin 1024), kv428 b (ix2 p (0 : Fin 1)) = Spec.lstd (KW.WK b) (Spec.hid (KW.WK b) (KW.rowK b p)) 5)
    (cl6 : ∀ (p : Fin 1024), kv519 b (ix2 p (0 : Fin 1)) = Spec.lstd (KW.WK b) (Spec.hid (KW.WK b) (KW.rowK b p)) 6)
    (c610 : ∀ (p : Fin 1024), kv610 b (ix1 p) = ∑ k, Spec.second (KW.WK b) (Spec.hid (KW.WK b) (KW.rowK b p))
      (Spec.before (KW.WK b) (Spec.hid (KW.WK b) (KW.rowK b p)) 7) 7 k * (KW.WK b).wout 7 k 1) :
    ∀ (p : Fin 1024) (q : Fin 8),
      kout18 b (ix2 p q) = Spec.outSample (KW.WK b) (KW.rowK b p) (KW.epsK b p) q := by
  intro p q
  have e : kout18 b (ix2 p q)
      = kout17 b (ix2 p q) + Ideal.exp (kv623 b (ix2 p q)) * View.ld b.x1 r0_35 (ix2 p q) := rfl
  rw [e, ld_eps, kout17_spec b cm0 cm1 cm2 cm3 cm4 cm5 cm6 cm7 p q,
    kv623_spec b cl0 cl1 cl2 cl3 cl4 cl5 cl6 c610 p q]
  rfl

/-- Entry (p, q) of the log-density slab is the logarithm of the normal density at the sample, for head q on row p:
    -(1/2) ((sample - mean) / s)^2 - clipped log std - (1/2) log (2 pi), with s = exp (clipped log std). -/
theorem kout19_spec (b : Blocks)
    (cm0 : ∀ (p : Fin 1024), kv67 b (ix2 p (0 : Fin 1)) = Spec.mean (KW.WK b) (Spec.hid (KW.WK b) (KW.rowK b p)) 0)
    (cm1 : ∀ (p : Fin 1024), kv123 b (ix2 p (0 : Fin 1)) = Spec.mean (KW.WK b) (Spec.hid (KW.WK b) (KW.rowK b p)) 1)
    (cm2 : ∀ (p : Fin 1024), kv186 b (ix2 p (0 : Fin 1)) = Spec.mean (KW.WK b) (Spec.hid (KW.WK b) (KW.rowK b p)) 2)
    (cm3 : ∀ (p : Fin 1024), kv256 b (ix2 p (0 : Fin 1)) = Spec.mean (KW.WK b) (Spec.hid (KW.WK b) (KW.rowK b p)) 3)
    (cm4 : ∀ (p : Fin 1024), kv333 b (ix2 p (0 : Fin 1)) = Spec.mean (KW.WK b) (Spec.hid (KW.WK b) (KW.rowK b p)) 4)
    (cm5 : ∀ (p : Fin 1024), kv417 b (ix2 p (0 : Fin 1)) = Spec.mean (KW.WK b) (Spec.hid (KW.WK b) (KW.rowK b p)) 5)
    (cm6 : ∀ (p : Fin 1024), kv508 b (ix2 p (0 : Fin 1)) = Spec.mean (KW.WK b) (Spec.hid (KW.WK b) (KW.rowK b p)) 6)
    (cm7 : ∀ (p : Fin 1024), kv606 b (ix2 p (0 : Fin 1)) = Spec.mean (KW.WK b) (Spec.hid (KW.WK b) (KW.rowK b p)) 7)
    (cl0 : ∀ (p : Fin 1024), kv78 b (ix2 p (0 : Fin 1)) = Spec.lstd (KW.WK b) (Spec.hid (KW.WK b) (KW.rowK b p)) 0)
    (cl1 : ∀ (p : Fin 1024), kv134 b (ix2 p (0 : Fin 1)) = Spec.lstd (KW.WK b) (Spec.hid (KW.WK b) (KW.rowK b p)) 1)
    (cl2 : ∀ (p : Fin 1024), kv197 b (ix2 p (0 : Fin 1)) = Spec.lstd (KW.WK b) (Spec.hid (KW.WK b) (KW.rowK b p)) 2)
    (cl3 : ∀ (p : Fin 1024), kv267 b (ix2 p (0 : Fin 1)) = Spec.lstd (KW.WK b) (Spec.hid (KW.WK b) (KW.rowK b p)) 3)
    (cl4 : ∀ (p : Fin 1024), kv344 b (ix2 p (0 : Fin 1)) = Spec.lstd (KW.WK b) (Spec.hid (KW.WK b) (KW.rowK b p)) 4)
    (cl5 : ∀ (p : Fin 1024), kv428 b (ix2 p (0 : Fin 1)) = Spec.lstd (KW.WK b) (Spec.hid (KW.WK b) (KW.rowK b p)) 5)
    (cl6 : ∀ (p : Fin 1024), kv519 b (ix2 p (0 : Fin 1)) = Spec.lstd (KW.WK b) (Spec.hid (KW.WK b) (KW.rowK b p)) 6)
    (c610 : ∀ (p : Fin 1024), kv610 b (ix1 p) = ∑ k, Spec.second (KW.WK b) (Spec.hid (KW.WK b) (KW.rowK b p))
      (Spec.before (KW.WK b) (Spec.hid (KW.WK b) (KW.rowK b p)) 7) 7 k * (KW.WK b).wout 7 k 1) :
    ∀ (p : Fin 1024) (q : Fin 8),
      kout19 b (ix2 p q) = Spec.outLogp (KW.WK b) (KW.rowK b p) (KW.epsK b p) q := by
  intro p q
  have e : kout19 b (ix2 p q)
      = (Ideal.ofBits .f32 0xBF000000#32
          * (Ideal.div (kout18 b (ix2 p q) - kout17 b (ix2 p q)) (Ideal.exp (kv623 b (ix2 p q)))
            * Ideal.div (kout18 b (ix2 p q) - kout17 b (ix2 p q)) (Ideal.exp (kv623 b (ix2 p q))))
        - kv623 b (ix2 p q)) - Ideal.ofBits .f32 0x3F6B3F8E#32 := rfl
  rw [e, kout18_spec b cm0 cm1 cm2 cm3 cm4 cm5 cm6 cm7 cl0 cl1 cl2 cl3 cl4 cl5 cl6 c610 p q,
    kout17_spec b cm0 cm1 cm2 cm3 cm4 cm5 cm6 cm7 p q, kv623_spec b cl0 cl1 cl2 cl3 cl4 cl5 cl6 c610 p q]
  rfl

end Cert.KernelIdeal.KTail

end
-- ==== Proof.KAll.lean ====
/-
  The kernel body's three results at an index, with no hypothesis.

  The values of the body are chained in the order the body computes them: the trunk's result; then, for heads 0 to 7,
  the mean (each from the trunk's result and the means of the heads before it) and the log standard deviation before
  clipping; then the three results: the eight means side by side, the sample mean + exp (clipped log standard
  deviation) * eps, and the logarithm of the normal density at the sample.
-/
import proofs.«418646_j6511170421537_4_alg».proof.Proof.KPartA
import proofs.«418646_j6511170421537_4_alg».proof.Proof.KPartB
import proofs.«418646_j6511170421537_4_alg».proof.Proof.KPartC
import proofs.«418646_j6511170421537_4_alg».proof.Proof.KPartD
import proofs.«418646_j6511170421537_4_alg».proof.Proof.KTail

noncomputable section

namespace Cert.KernelIdeal.KAll

open Idealize.ShloMosaic Idealize.ShloMosaic.ValueIdx Cert.KernelIdeal Cert

/-- The first result at (p, q): column q of the mean of row p. -/
theorem kout17_all (b : KDag.Blocks) :
    ∀ (p : Fin 1024) (q : Fin 8), KDag.kout17 b (ix2 p q) = Spec.outMean (KW.WK b) (KW.rowK b p) q := by
  -- the trunk, the mean of head 0, the products and the mean of head 1
  have c31 := KPartA.kv31_spec b
  have c67 := KPartA.kv67_spec b
  have c115 := KPartA.kv115_spec b
  have c123 := KPartA.kv123_spec b
  -- the means of heads 2 and 3
  have c186 := KPartB.kv186_spec b c31 c67 c115
  have c256 := KPartB.kv256_spec b c31 c67 c115 c123
  -- the means of heads 4 and 5
  have c333 := KPartC.kv333_spec b c31 c67 c123 c186 c256
  have c417 := KPartC.kv417_spec b c31 c67 c123 c186 c256
  -- the means of heads 6 and 7
  have c508 := KPartD.kv508_spec b c31 c67 c123 c186 c256 c333 c417
  have c606 := KPartD.kv606_spec b c31 c67 c123 c186 c256 c333 c417
  exact KTail.kout17_spec b c67 c123 c186 c256 c333 c417 c508 c606

/-- The second result at (p, q): the sample of row p at column q, from the mean, the log standard deviation and eps. -/
theorem kout18_all (b : KDag.Blocks) :
    ∀ (p : Fin 1024) (q : Fin 8),
      KDag.kout18 b (ix2 p q) = Spec.outSample (KW.WK b) (KW.rowK b p) (KW.epsK b p) q := by
  -- the trunk, the mean of head 0, the products and the mean of head 1
  have c31 := KPartA.kv31_spec b
  have c67 := KPartA.kv67_spec b
  have c115 := KPartA.kv115_spec b
  have c123 := KPartA.kv123_spec b
  -- the means of heads 2 to 7
  have c186 := KPartB.kv186_spec b c31 c67 c115
  have c256 := KPartB.kv256_spec b c31 c67 c115 c123
  have c333 := KPartC.kv333_spec b c31 c67 c123 c186 c256
  have c417 := KPartC.kv417_spec b c31 c67 c123 c186 c256
  have c508 := KPartD.kv508_spec b c31 c67 c123 c186 c256 c333 c417
  have c606 := KPartD.kv606_spec b c31 c67 c123 c186 c256 c333 c417
  -- the log standard deviations of heads 0 to 6 before clipping, and head 7's sum over the lanes
  have c78 := KPartA.kv78_spec b
  have c134 := KPartA.kv134_spec b
  have c197 := KPartB.kv197_spec b c31 c67 c115
  have c267 := KPartB.kv267_spec b c31 c67 c115 c123
  have c344 := KPartC.kv344_spec b c31 c67 c123 c186 c256
  have c428 := KPartC.kv428_spec b c31 c67 c123 c186 c256
  have c519 := KPartD.kv519_spec b c31 c67 c123 c186 c256 c333 c417
  have c610 := KPartD.kv610_spec b c31 c67 c123 c186 c256 c333 c417
  exact KTail.kout18_spec b c67 c123 c186 c256 c333 c417 c508 c606 c78 c134 c197 c267 c344 c428 c519 c610

/-- The third result at (p, q): the logarithm of the normal density at the sample of row p, column q. -/
theorem kout19_all (b : KDag.Blocks) :
    ∀ (p : Fin 1024) (q : Fin 8),
      KDag.kout19 b (ix2 p q) = Spec.outLogp (KW.WK b) (KW.rowK b p) (KW.epsK b p) q := by
  -- the trunk, the mean of head 0, the products and the mean of head 1
  have c31 := KPartA.kv31_spec b
  have c67 := KPartA.kv67_spec b
  have c115 := KPartA.kv115_spec b
  have c123 := KPartA.kv123_spec b
  -- the means of heads 2 to 7
  have c186 := KPartB.kv186_spec b c31 c67 c115
  have c256 := KPartB.kv256_spec b c31 c67 c115 c123
  have c333 := KPartC.kv333_spec b c31 c67 c123 c186 c256
  have c417 := KPartC.kv417_spec b c31 c67 c123 c186 c256
  have c508 := KPartD.kv508_spec b c31 c67 c123 c186 c256 c333 c417
  have c606 := KPartD.kv606_spec b c31 c67 c123 c186 c256 c333 c417
  -- the log standard deviations of heads 0 to 6 before clipping, and head 7's sum over the lanes
  have c78 := KPartA.kv78_spec b
  have c134 := KPartA.kv134_spec b
  have c197 := KPartB.kv197_spec b c31 c67 c115
  have c267 := KPartB.kv267_spec b c31 c67 c115 c123
  have c344 := KPartC.kv344_spec b c31 c67 c123 c186 c256
  have c428 := KPartC.kv428_spec b c31 c67 c123 c186 c256
  have c519 := KPartD.kv519_spec b c31 c67 c123 c186 c256 c333 c417
  have c610 := KPartD.kv610_spec b c31 c67 c123 c186 c256 c333 c417
  exact KTail.kout19_spec b c67 c123 c186 c256 c333 c417 c508 c606 c78 c134 c197 c267 c344 c428 c519 c610

end Cert.KernelIdeal.KAll

end
-- ==== Proof.SpecCat.lean ====
/-
  The input of head i as ONE row of 256 + i numbers: the trunk's 256 coordinates followed by the means of the heads
  before i. The sum of products over all 256 + i coordinates equals the sum over the trunk's 256 coordinates followed
  by one product per earlier mean, added left to right: addition of extended reals is associative, and the coordinates
  are met in increasing order, so no reordering is needed.
-/
import proofs.«418646_j6511170421537_4_alg».proof.Proof.Spec
import Mathlib.Algebra.BigOperators.Fin

noncomputable section

namespace Cert.Spec

/-- Coordinate k of the row "h followed by ms": h k for k < 256, entry k - 256 of ms after that (zero past the end). -/
def cat (h : Fin 256 → EReal) (ms : List EReal) (k : ℕ) : EReal :=
  if hk : k < 256 then h ⟨k, hk⟩ else ms.getD (k - 256) 0

/-- Adding the products of a list that is l1 followed by l2: first those of l1, then those of l2, the counter
    having advanced by the length of l1. -/
theorem acc_append (D : EReal) (l1 l2 : List EReal) (j : ℕ) (c : ℕ → EReal) :
    acc D (l1 ++ l2) j c = acc (acc D l1 j c) l2 (j + l1.length) c := by
  induction l1 generalizing D j with
  | nil => rfl
  | cons a as ih =>
    have e : j + (a :: as).length = (j + 1) + as.length := by
      simp only [List.length_cons]; omega
    rw [e]
    exact ih (D + a * c j) (j + 1)

/-- One more mean at the end does not change the coordinates before it. -/
theorem cat_snoc_lt (h : Fin 256 → EReal) (ms : List EReal) (a : EReal) (k : ℕ) (hk : k < 256 + ms.length) :
    cat h (ms ++ [a]) k = cat h ms k := by
  unfold cat
  by_cases h256 : k < 256
  · simp only [dif_pos h256]
  · have hlt : k - 256 < ms.length := by omega
    simp only [dif_neg h256, List.getD_eq_getElem?_getD, List.getElem?_append_left hlt]

/-- The last coordinate of the row "h followed by ms and then a" is a. -/
theorem cat_snoc_last (h : Fin 256 → EReal) (ms : List EReal) (a : EReal) :
    cat h (ms ++ [a]) (256 + ms.length) = a := by
  unfold cat
  have h256 : ¬ (256 + ms.length < 256) := by omega
  have e : 256 + ms.length - 256 = ms.length := by omega
  simp only [dif_neg h256, e, List.getD_eq_getElem?_getD, List.getElem?_append_right (le_refl _),
    Nat.sub_self, List.getElem?_cons_zero, Option.getD_some]

/-- The sum of products over the whole row "h followed by ms" is the sum over h's 256 coordinates, then one product
    per entry of ms added left to right. By induction on ms from the right: the last term of the sum over
    256 + (length + 1) coordinates is the last product added. -/
theorem sum_cat (h : Fin 256 → EReal) (ms : List EReal) (W : ℕ → EReal) :
    ∑ k ∈ Finset.range (256 + ms.length), cat h ms k * W k
      = acc (∑ k : Fin 256, h k * W k.val) ms 0 (fun j => W (256 + j)) := by
  induction ms using List.reverseRecOn with
  | nil =>
    show ∑ k ∈ Finset.range 256, cat h [] k * W k = ∑ k : Fin 256, h k * W k.val
    rw [Finset.sum_range]
    refine Finset.sum_congr rfl fun k _ => ?_
    unfold cat
    simp only [dif_pos k.isLt, Fin.eta]
  | append_singleton ms a ih =>
    have e : 256 + (ms ++ [a]).length = (256 + ms.length) + 1 := by
      simp only [List.length_append, List.length_singleton]; omega
    rw [e, Finset.sum_range_succ, acc_append, cat_snoc_last]
    have e2 : ∑ k ∈ Finset.range (256 + ms.length), cat h (ms ++ [a]) k * W k
        = ∑ k ∈ Finset.range (256 + ms.length), cat h ms k * W k :=
      Finset.sum_congr rfl fun k hk => by
        rw [cat_snoc_lt h ms a k (Finset.mem_range.mp hk)]
    rw [e2, ih]
    show _ = acc _ ms 0 _ + a * W (256 + (0 + ms.length))
    rw [Nat.zero_add]

end Cert.Spec

end
-- ==== Proof.RPart0.lean ====
/-
  The reference program, operations 0 to 57, at one row r of the batch: the trunk (three rectified dense layers), then
  head 0 (first layer over the trunk's result alone, second layer, the two rectified outputs, the clipped log standard
  deviation, the sample and the log density), then the row "trunk result followed by the mean of head 0" that head 1 reads.

  Every value is read at an index from its operands at an index; a dense layer is a sum over the contracted coordinate
  plus a bias, and the rectifier is the larger of its argument and zero. Nothing but the definitions is used: each
  statement closes by unfolding once the index functions are identified with plain coordinates.
-/
import proofs.«418646_j6511170421537_4_alg».proof.Proof.Spec
import proofs.«418646_j6511170421537_4_alg».proof.Proof.SpecCat
import proofs.«418646_j6511170421537_4_alg».proof.Proof.ReadRef
import proofs.«418646_j6511170421537_4_alg».proof.Proof.RW

noncomputable section

namespace Cert.ReferenceIdeal.RPart0

open Idealize.ShloMosaic Idealize.ShloMosaic.ValueIdx Cert.ReferenceIdeal Cert.ReferenceIdeal.Gen Cert.ReferenceIdeal.ReadP

/-! ## The trunk -/

/-- Operation 4 at (r, n): the trunk's first rectified dense layer (64 to 256) on row r. -/
theorem layer1 (a : RW.Args) (r : Fin 65536) (n : Fin 256) :
    val_main_v4 (F := Ideal) a.a0 a.a2 a.a3 (ix2 r n)
      = Spec.dense (RW.rowR a r) (RW.WR a).w0 (RW.WR a).b0 n := by
  simp only [val_main_v4_apply, val_main_v3_apply, val_main_v0_apply, val_main_v2_apply, val_main_v1_apply,
    val_main_call0_v0_apply, val_main_call0_cst_apply]
  have e1 : ∀ k : Fin 64, lidx_main_v0 (ix2 r n) k = ix2 r k := fun k => funext fun d => by
    match d with | ⟨0, _⟩ => rfl | ⟨1, _⟩ => rfl
  have e2 : ∀ k : Fin 64, ridx_main_v0 (ix2 r n) k = ix2 k n := fun k => funext fun d => by
    match d with | ⟨0, _⟩ => rfl | ⟨1, _⟩ => rfl
  have e3 : idx_main_v1 (idx_main_v2 (ix2 r n)) = ix1 n := funext fun d => by
    match d with | ⟨0, _⟩ => rfl
  simp only [e1, e2, e3]
  rfl

/-- Operation 9 at (r, n): the trunk's second rectified dense layer (256 to 256) on the first layer's row. -/
theorem layer2 (a : RW.Args) (r : Fin 65536) (n : Fin 256) :
    val_main_v9 (F := Ideal) a.a0 a.a2 a.a3 a.a4 a.a5 (ix2 r n)
      = Spec.dense (Spec.dense (RW.rowR a r) (RW.WR a).w0 (RW.WR a).b0) (RW.WR a).w1 (RW.WR a).b1 n := by
  simp only [val_main_v9_apply, val_main_v8_apply, val_main_v5_apply, val_main_v7_apply, val_main_v6_apply,
    val_main_call1_v0_apply, val_main_call1_cst_apply]
  have e1 : ∀ k : Fin 256, lidx_main_v5 (ix2 r n) k = ix2 r k := fun k => funext fun d => by
    match d with | ⟨0, _⟩ => rfl | ⟨1, _⟩ => rfl
  have e2 : ∀ k : Fin 256, ridx_main_v5 (ix2 r n) k = ix2 k n := fun k => funext fun d => by
    match d with | ⟨0, _⟩ => rfl | ⟨1, _⟩ => rfl
  have e3 : idx_main_v6 (idx_main_v7 (ix2 r n)) = ix1 n := funext fun d => by
    match d with | ⟨0, _⟩ => rfl
  simp only [e1, e2, e3, layer1]
  rfl

/-- Operation 14 at (r, n): the trunk's result, coordinate n of Spec.hid on row r. -/
theorem trunk_spec (a : RW.Args) (r : Fin 65536) (n : Fin 256) :
    val_main_v14 (F := Ideal) a.a0 a.a2 a.a3 a.a4 a.a5 a.a6 a.a7 (ix2 r n)
      = Spec.hid (RW.WR a) (RW.rowR a r) n := by
  simp only [val_main_v14_apply, val_main_v13_apply, val_main_v10_apply, val_main_v12_apply, val_main_v11_apply,
    val_main_call2_v0_apply, val_main_call2_cst_apply]
  have e1 : ∀ k : Fin 256, lidx_main_v10 (ix2 r n) k = ix2 r k := fun k => funext fun d => by
    match d with | ⟨0, _⟩ => rfl | ⟨1, _⟩ => rfl
  have e2 : ∀ k : Fin 256, ridx_main_v10 (ix2 r n) k = ix2 k n := fun k => funext fun d => by
    match d with | ⟨0, _⟩ => rfl | ⟨1, _⟩ => rfl
  have e3 : idx_main_v11 (idx_main_v12 (ix2 r n)) = ix1 n := funext fun d => by
    match d with | ⟨0, _⟩ => rfl
  simp only [e1, e2, e3, layer2]
  rfl

/-! ## Head 0: its input is the trunk's result itself, so there is no earlier mean -/

/-- Operation 23 at (r, n): head 0's first rectified layer, the sum over the trunk's 256 coordinates against rows
    0..255 of head 0's first-layer weights, plus the bias (the list of earlier means is empty). -/
theorem x1_0 (a : RW.Args) (r : Fin 65536) (n : Fin 256) :
    val_main_v23 (F := Ideal) a.a0 a.a2 a.a3 a.a4 a.a5 a.a6 a.a7 a.a8 a.a9 (ix2 r n)
      = Spec.first (RW.WR a) (Spec.hid (RW.WR a) (RW.rowR a r)) [] 0 n := by
  simp only [val_main_v23_apply, val_main_v22_apply, val_main_v17_apply, val_main_v16_apply, val_main_v15_apply,
    val_main_v21_apply, val_main_v20_apply, val_main_v19_apply, val_main_v18_apply,
    val_main_call3_v0_apply, val_main_call3_cst_apply]
  have e1 : ∀ k : Fin 256, lidx_main_v17 (ix2 r n) k = ix2 r k := fun k => funext fun d => by
    match d with | ⟨0, _⟩ => rfl | ⟨1, _⟩ => rfl
  have e2 : ∀ k : Fin 256, idx_main_v15 (idx_main_v16 (ridx_main_v17 (ix2 r n) k))
      = ix3 (0 : Fin 8) (Fin.castLE (by decide : 256 ≤ 263) k) n := fun k => funext fun d => Fin.ext (by
    match d with
    | ⟨0, _⟩ => rfl
    | ⟨1, _⟩ => show (k.val * 256 + n.val) / 256 % 256 = k.val; omega
    | ⟨2, _⟩ => show (k.val * 256 + n.val) % 256 = n.val; omega)
  have e3 : idx_main_v18 (idx_main_v19 (idx_main_v20 (idx_main_v21 (ix2 r n)))) = ix2 (0 : Fin 8) n :=
    funext fun d => Fin.ext (by
      match d with
      | ⟨0, _⟩ => rfl
      | ⟨1, _⟩ => show n.val % 256 = n.val; omega)
  simp only [e1, e2, e3, trunk_spec]
  rfl

/-- Operation 32 at (r, n): head 0's second rectified layer. -/
theorem x2_0 (a : RW.Args) (r : Fin 65536) (n : Fin 256) :
    val_main_v32 (F := Ideal) a.a0 a.a2 a.a3 a.a4 a.a5 a.a6 a.a7 a.a8 a.a9 a.a10 a.a11 (ix2 r n)
      = Spec.second (RW.WR a) (Spec.hid (RW.WR a) (RW.rowR a r)) [] 0 n := by
  simp only [val_main_v32_apply, val_main_v31_apply, val_main_v26_apply, val_main_v25_apply, val_main_v24_apply,
    val_main_v30_apply, val_main_v29_apply, val_main_v28_apply, val_main_v27_apply,
    val_main_call4_v0_apply, val_main_call4_cst_apply]
  have e1 : ∀ k : Fin 256, lidx_main_v26 (ix2 r n) k = ix2 r k := fun k => funext fun d => by
    match d with | ⟨0, _⟩ => rfl | ⟨1, _⟩ => rfl
  have e2 : ∀ k : Fin 256, idx_main_v24 (idx_main_v25 (ridx_main_v26 (ix2 r n) k))
      = ix3 (0 : Fin 8) k n := fun k => funext fun d => Fin.ext (by
    match d with
    | ⟨0, _⟩ => rfl
    | ⟨1, _⟩ => show (k.val * 256 + n.val) / 256 % 256 = k.val; omega
    | ⟨2, _⟩ => show (k.val * 256 + n.val) % 256 = n.val; omega)
  have e3 : idx_main_v27 (idx_main_v28 (idx_main_v29 (idx_main_v30 (ix2 r n)))) = ix2 (0 : Fin 8) n :=
    funext fun d => Fin.ext (by
      match d with
      | ⟨0, _⟩ => rfl
      | ⟨1, _⟩ => show n.val % 256 = n.val; omega)
  simp only [e1, e2, e3, x1_0]
  rfl

/-- Operation 41 at (r, c): head 0's two rectified outputs (c = 0 the mean, c = 1 the log standard deviation
    before clipping). -/
theorem out_0 (a : RW.Args) (r : Fin 65536) (c : Fin 2) :
    val_main_v41 (F := Ideal) a.a0 a.a2 a.a3 a.a4 a.a5 a.a6 a.a7 a.a8 a.a9 a.a10 a.a11 a.a12 a.a13 (ix2 r c)
      = Spec.outc (RW.WR a) (Spec.hid (RW.WR a) (RW.rowR a r)) [] 0 c := by
  simp only [val_main_v41_apply, val_main_v40_apply, val_main_v35_apply, val_main_v34_apply, val_main_v33_apply,
    val_main_v39_apply, val_main_v38_apply, val_main_v37_apply, val_main_v36_apply,
    val_main_call5_v0_apply, val_main_call5_cst_apply]
  have e1 : ∀ k : Fin 256, lidx_main_v35 (ix2 r c) k = ix2 r k := fun k => funext fun d => by
    match d with | ⟨0, _⟩ => rfl | ⟨1, _⟩ => rfl
  have e2 : ∀ k : Fin 256, idx_main_v33 (idx_main_v34 (ridx_main_v35 (ix2 r c) k))
      = ix3 (0 : Fin 8) k c := fun k => funext fun d => Fin.ext (by
    match d with
    | ⟨0, _⟩ => rfl
    | ⟨1, _⟩ => show (k.val * 2 + c.val) / 2 % 256 = k.val; omega
    | ⟨2, _⟩ => show (k.val * 2 + c.val) % 2 = c.val; omega)
  have e3 : idx_main_v36 (idx_main_v37 (idx_main_v38 (idx_main_v39 (ix2 r c)))) = ix2 (0 : Fin 8) c :=
    funext fun d => Fin.ext (by
      match d with
      | ⟨0, _⟩ => rfl
      | ⟨1, _⟩ => show c.val % 2 = c.val; omega)
  simp only [e1, e2, e3, x2_0]
  rfl

/-- Operation 42 at row r: column 0 of the output pair, the mean of head 0. -/
theorem mean0_spec (a : RW.Args) (r : Fin 65536) :
    val_main_v42 (F := Ideal) a.a0 a.a2 a.a3 a.a4 a.a5 a.a6 a.a7 a.a8 a.a9 a.a10 a.a11 a.a12 a.a13 (ix2 r (0 : Fin 1))
      = Spec.mean (RW.WR a) (Spec.hid (RW.WR a) (RW.rowR a r)) 0 := by
  have e : idx_main_v42 (ix2 r (0 : Fin 1)) = ix2 r (0 : Fin 2) := funext fun d => Fin.ext (by
    match d with | ⟨0, _⟩ => rfl | ⟨1, _⟩ => rfl)
  simp only [val_main_v42_apply, e, out_0]
  rfl

/-- Operation 43 at row r: column 1 of the output pair, head 0's log standard deviation before clipping. -/
theorem lstd0_spec (a : RW.Args) (r : Fin 65536) :
    val_main_v43 (F := Ideal) a.a0 a.a2 a.a3 a.a4 a.a5 a.a6 a.a7 a.a8 a.a9 a.a10 a.a11 a.a12 a.a13 (ix2 r (0 : Fin 1))
      = Spec.lstd (RW.WR a) (Spec.hid (RW.WR a) (RW.rowR a r)) 0 := by
  have e : idx_main_v43 (ix2 r (0 : Fin 1)) = ix2 r (1 : Fin 2) := funext fun d => Fin.ext (by
    match d with | ⟨0, _⟩ => rfl | ⟨1, _⟩ => rfl)
  simp only [val_main_v43_apply, e, out_0]
  rfl

/-- Operation 44 at row r: the log standard deviation clipped to [-20, 2]: the smaller of 2 and (the larger of -20
    and it), the bounds by their words. -/
theorem clip0_spec (a : RW.Args) (r : Fin 65536) :
    val_main_v44 (F := Ideal) a.a0 a.a2 a.a3 a.a4 a.a5 a.a6 a.a7 a.a8 a.a9 a.a10 a.a11 a.a12 a.a13 (ix2 r (0 : Fin 1))
      = Spec.clip (Spec.lstd (RW.WR a) (Spec.hid (RW.WR a) (RW.rowR a r)) 0) := by
  simp only [val_main_v44_apply, val_main_call6_v4_apply, val_main_call6_v3_apply, val_main_cst_0_apply,
    val_main_call6_v2_apply, val_main_call6_v1_apply, val_main_call6_v0_apply, val_main_cst_apply, lstd0_spec]
  rfl

/-- Operation 45 at row r: the standard deviation, the exponential of the clipped logarithm. -/
theorem exp0_spec (a : RW.Args) (r : Fin 65536) :
    val_main_v45 (F := Ideal) a.a0 a.a2 a.a3 a.a4 a.a5 a.a6 a.a7 a.a8 a.a9 a.a10 a.a11 a.a12 a.a13 (ix2 r (0 : Fin 1))
      = Ideal.exp (Spec.clip (Spec.lstd (RW.WR a) (Spec.hid (RW.WR a) (RW.rowR a r)) 0)) := by
  simp only [val_main_v45_apply, clip0_spec]
  rfl

/-- Operation 46 at row r: column 0 of the noise array. -/
theorem eps0_spec (a : RW.Args) (r : Fin 65536) :
    val_main_v46 (F := Ideal) a.a1 (ix2 r (0 : Fin 1)) = RW.epsR a r 0 := by
  have e : idx_main_v46 (ix2 r (0 : Fin 1)) = ix2 r (0 : Fin 8) := funext fun d => Fin.ext (by
    match d with | ⟨0, _⟩ => rfl | ⟨1, _⟩ => rfl)
  simp only [val_main_v46_apply, e]
  rfl

/-- Operation 48 at row r: the sample of head 0, mean + standard deviation * noise. -/
theorem sample0_spec (a : RW.Args) (r : Fin 65536) :
    val_main_v48 (F := Ideal) a.a0 a.a1 a.a2 a.a3 a.a4 a.a5 a.a6 a.a7 a.a8 a.a9 a.a10 a.a11 a.a12 a.a13
        (ix2 r (0 : Fin 1))
      = Spec.outSample (RW.WR a) (RW.rowR a r) (RW.epsR a r) 0 := by
  simp only [val_main_v48_apply, val_main_v47_apply, mean0_spec, exp0_spec, eps0_spec]
  rfl

/-- Operation 56 at row r: the log density of head 0 at its sample,
    -(1/2) ((sample - mean) / s)^2 - log s - (1/2) log (2 pi), with log s the clipped value itself. -/
theorem logp0_spec (a : RW.Args) (r : Fin 65536) :
    val_main_v56 (F := Ideal) a.a0 a.a1 a.a2 a.a3 a.a4 a.a5 a.a6 a.a7 a.a8 a.a9 a.a10 a.a11 a.a12 a.a13
        (ix2 r (0 : Fin 1))
      = Spec.outLogp (RW.WR a) (RW.rowR a r) (RW.epsR a r) 0 := by
  simp only [val_main_v56_apply, val_main_v55_apply, val_main_cst_2_apply, val_main_v54_apply, val_main_v53_apply,
    val_main_v52_apply, val_main_cst_1_apply, val_main_v51_apply, val_main_v50_apply, val_main_v49_apply,
    sample0_spec, mean0_spec, exp0_spec, clip0_spec]
  rfl

/-! ## The row head 1 reads -/

/-- Operation 57 at (r, k), k < 257: the trunk's result followed by the mean of head 0. -/
theorem cat1_spec (a : RW.Args) (r : Fin 65536) (k : Fin 257) :
    val_main_v57 (F := Ideal) a.a0 a.a2 a.a3 a.a4 a.a5 a.a6 a.a7 a.a8 a.a9 a.a10 a.a11 a.a12 a.a13 (ix2 r k)
      = Spec.cat (Spec.hid (RW.WR a) (RW.rowR a r))
          (Spec.before (RW.WR a) (Spec.hid (RW.WR a) (RW.rowR a r)) 1) k.val := by
  unfold val_main_v57
  by_cases hk : k.val < 256
  · refine (concatenate_pair_apply_left _ _ _ concatenates_S65536x256_S65536x1_S65536x257_d1 (ix2 r k) rfl
      (ix2 r (⟨k.val, hk⟩ : Fin 256)) ?_).trans ?_
    · intro b
      match b with
      | ⟨0, _⟩ => rfl
      | ⟨1, _⟩ => rfl
    · rw [trunk_spec]
      unfold Spec.cat
      rw [dif_pos hk]
  · have hk' : k.val = 256 := by omega
    refine (concatenate_pair_apply_right _ _ _ concatenates_S65536x256_S65536x1_S65536x257_d1 (ix2 r k) rfl rfl
      (ix2 r (0 : Fin 1)) ?_ ?_).trans ?_
    · intro b hb
      match b, hb with
      | ⟨0, _⟩, _ => rfl
      | ⟨1, _⟩, hb => exact absurd rfl hb
    · show (0 : ℕ) + 256 = k.val
      omega
    · rw [mean0_spec, hk']
      rfl

end Cert.ReferenceIdeal.RPart0

end
-- ==== Proof.RPart1.lean ====
/-
  Heads 1, 2 and 3 of the reference program, read one row at a time.

  Head i (i = 1, 2, 3) takes the row "trunk result followed by the means of heads 0..i-1" (256 + i numbers), applies a
  first dense layer with fan-in 256 + i, a second dense layer 256 to 256 and an output layer 256 to 2, each followed
  by the rectifier. Column 0 of the output is the mean of head i; column 1, clipped to [-20, 2], is the logarithm of the
  standard deviation. The sample is mean + exp(clipped) * eps, and the log density is
  -(1/2) ((sample - mean) / exp(clipped))^2 - clipped - (1/2) log (2 pi). The input row of head i + 1 is the input row
  of head i followed by the mean of head i.

  Each statement says that the value the reference program writes at row r equals the corresponding expression of the
  specification for row r. The only assumption is the statement for the input row of the head.
-/
import proofs.«418646_j6511170421537_4_alg».proof.Proof.Spec
import proofs.«418646_j6511170421537_4_alg».proof.Proof.SpecCat
import proofs.«418646_j6511170421537_4_alg».proof.Proof.ReadRef
import proofs.«418646_j6511170421537_4_alg».proof.Proof.RW
import Idealize.ShloMosaic.Lib.ValueIdx
import Idealize.ShloMosaic.Lib.Pipeline.Value
import Mathlib.Algebra.BigOperators.Fin

noncomputable section

namespace Cert.ReferenceIdeal.RPart1

open Idealize.ShloMosaic Idealize.ShloMosaic.ValueIdx Cert.ReferenceIdeal Cert.ReferenceIdeal.Gen
  Cert.ReferenceIdeal.RW Cert.ReferenceIdeal.ReadP

/-- The sum of products of the row "h followed by ms" with rows 0 .. 256 + length ms - 1 of head i's first-layer
    weights (column n) is the sum over the 256 coordinates of h followed by one product per entry of ms, added left to
    right: the form the specification gives to the first layer. -/
theorem sum_cat_win (w : Spec.Weights) (h : Fin 256 → EReal) (ms : List EReal) (i : Fin 8) (n : Fin 256)
    (hlen : 256 + ms.length ≤ 263) :
    ∑ k : Fin (256 + ms.length), Spec.cat h ms k.val * w.win i ⟨k.val, lt_of_lt_of_le k.isLt hlen⟩ n
      = Spec.acc (∑ k : Fin 256, h k * w.win i (Fin.castLE (by decide) k) n) ms 0 (Spec.corr w i n) := by
  -- row k of the weights as a function of a natural number (zero past the last row)
  let W : ℕ → EReal := fun k => if hk : k < 263 then w.win i ⟨k, hk⟩ n else 0
  have hl : ∀ k : Fin (256 + ms.length),
      Spec.cat h ms k.val * w.win i ⟨k.val, lt_of_lt_of_le k.isLt hlen⟩ n = Spec.cat h ms k.val * W k.val :=
    fun k => by
      show _ = _ * (if hk : k.val < 263 then w.win i ⟨k.val, hk⟩ n else 0)
      rw [dif_pos (lt_of_lt_of_le k.isLt hlen)]
  have hr : ∀ k : Fin 256, h k * W k.val = h k * w.win i (Fin.castLE (by decide) k) n := fun k => by
    show _ * (if hk : k.val < 263 then w.win i ⟨k.val, hk⟩ n else 0) = _
    rw [dif_pos (show k.val < 263 by omega)]
    rfl
  have hs : ∑ k : Fin 256, h k * W k.val = ∑ k : Fin 256, h k * w.win i (Fin.castLE (by decide) k) n :=
    Finset.sum_congr rfl fun k _ => hr k
  calc ∑ k : Fin (256 + ms.length), Spec.cat h ms k.val * w.win i ⟨k.val, lt_of_lt_of_le k.isLt hlen⟩ n
      = ∑ k : Fin (256 + ms.length), Spec.cat h ms k.val * W k.val := Finset.sum_congr rfl fun k _ => hl k
    _ = ∑ k ∈ Finset.range (256 + ms.length), Spec.cat h ms k * W k :=
        (Finset.sum_range fun k => Spec.cat h ms k * W k).symm
    _ = Spec.acc (∑ k : Fin 256, h k * W k.val) ms 0 (fun j => W (256 + j)) := Spec.sum_cat h ms W
    _ = Spec.acc (∑ k : Fin 256, h k * w.win i (Fin.castLE (by decide) k) n) ms 0 (Spec.corr w i n) := by
        rw [hs]
        rfl

/-! ## Head 1 (input row of 257 numbers) -/

/-- First layer of head 1, rectified: coordinate n of row r. -/
theorem first1_spec (a : Args)
    (cat1 : ∀ (r : Fin 65536) (k : Fin 257),
      val_main_v57 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 1) k.val)
    (r : Fin 65536) (n : Fin 256) :
    val_main_v66 (F := Ideal) a.a0 a.a2 a.a3 a.a4 a.a5 a.a6 a.a7 a.a8 a.a9 a.a10 a.a11 a.a12 a.a13 (ix2 r n)
      = Spec.first (WR a) (Spec.hid (WR a) (rowR a r)) (Spec.before (WR a) (Spec.hid (WR a) (rowR a r)) 1) 1 n := by
  simp only [val_main_v66_apply, val_main_v65_apply, val_main_v60_apply, val_main_v64_apply, val_main_v63_apply,
    val_main_v62_apply, val_main_v61_apply, val_main_call7_v0_apply, val_main_call7_cst_apply, val_main_v59_apply,
    val_main_v58_apply]
  have e1 : ∀ k : Fin 257, lidx_main_v60 (ix2 r n) k = ix2 r k := fun k => funext fun d => Fin.ext (by
    match d with
    | ⟨0, _⟩ => rfl
    | ⟨1, _⟩ => rfl)
  have e2 : ∀ k : Fin 257, idx_main_v58 (idx_main_v59 (ridx_main_v60 (ix2 r n) k))
      = ix3 (1 : Fin 8) (⟨k.val, by omega⟩ : Fin 263) n := fun k => funext fun d => Fin.ext (by
    match d with
    | ⟨0, _⟩ => rfl
    | ⟨1, _⟩ => show (k.val * 256 + n.val) / 256 % 257 = k.val; omega
    | ⟨2, _⟩ => show (k.val * 256 + n.val) % 256 = n.val; omega)
  have e3 : idx_main_v61 (idx_main_v62 (idx_main_v63 (idx_main_v64 (ix2 r n)))) = ix2 (1 : Fin 8) n :=
    funext fun d => Fin.ext (by
      match d with
      | ⟨0, _⟩ => rfl
      | ⟨1, _⟩ => show n.val % 256 = n.val; omega)
  simp only [e1, e2, e3, cat1]
  have hs := sum_cat_win (WR a) (Spec.hid (WR a) (rowR a r))
    (Spec.before (WR a) (Spec.hid (WR a) (rowR a r)) 1) 1 n (by show (257 : ℕ) ≤ 263; decide)
  exact congrArg (fun s => max (s + a.a9 (ix2 (1 : Fin 8) n)) (Ideal.ofBits .f32 0x00000000#32)) hs

/-- Second layer of head 1, rectified: coordinate n of row r. -/
theorem second1_spec (a : Args)
    (cat1 : ∀ (r : Fin 65536) (k : Fin 257),
      val_main_v57 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 1) k.val)
    (r : Fin 65536) (n : Fin 256) :
    val_main_v75 (F := Ideal) a.a0 a.a2 a.a3 a.a4 a.a5 a.a6 a.a7 a.a8 a.a9 a.a10 a.a11 a.a12 a.a13 (ix2 r n)
      = Spec.second (WR a) (Spec.hid (WR a) (rowR a r)) (Spec.before (WR a) (Spec.hid (WR a) (rowR a r)) 1) 1 n := by
  have hfirst := first1_spec a cat1
  simp only [val_main_v75_apply, val_main_v74_apply, val_main_v69_apply, val_main_v73_apply, val_main_v72_apply,
    val_main_v71_apply, val_main_v70_apply, val_main_call8_v0_apply, val_main_call8_cst_apply, val_main_v68_apply,
    val_main_v67_apply]
  have e1 : ∀ k : Fin 256, lidx_main_v69 (ix2 r n) k = ix2 r k := fun k => funext fun d => Fin.ext (by
    match d with
    | ⟨0, _⟩ => rfl
    | ⟨1, _⟩ => rfl)
  have e2 : ∀ k : Fin 256, idx_main_v67 (idx_main_v68 (ridx_main_v69 (ix2 r n) k)) = ix3 (1 : Fin 8) k n :=
    fun k => funext fun d => Fin.ext (by
      match d with
      | ⟨0, _⟩ => rfl
      | ⟨1, _⟩ => show (k.val * 256 + n.val) / 256 % 256 = k.val; omega
      | ⟨2, _⟩ => show (k.val * 256 + n.val) % 256 = n.val; omega)
  have e3 : idx_main_v70 (idx_main_v71 (idx_main_v72 (idx_main_v73 (ix2 r n)))) = ix2 (1 : Fin 8) n :=
    funext fun d => Fin.ext (by
      match d with
      | ⟨0, _⟩ => rfl
      | ⟨1, _⟩ => show n.val % 256 = n.val; omega)
  simp only [e1, e2, e3, hfirst]
  rfl

/-- The two outputs of head 1, rectified: column c of row r. -/
theorem out1_spec (a : Args)
    (cat1 : ∀ (r : Fin 65536) (k : Fin 257),
      val_main_v57 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 1) k.val)
    (r : Fin 65536) (c : Fin 2) :
    val_main_v84 (F := Ideal) a.a0 a.a2 a.a3 a.a4 a.a5 a.a6 a.a7 a.a8 a.a9 a.a10 a.a11 a.a12 a.a13 (ix2 r c)
      = Spec.outc (WR a) (Spec.hid (WR a) (rowR a r)) (Spec.before (WR a) (Spec.hid (WR a) (rowR a r)) 1) 1 c := by
  have hsecond := second1_spec a cat1
  simp only [val_main_v84_apply, val_main_v83_apply, val_main_v78_apply, val_main_v82_apply, val_main_v81_apply,
    val_main_v80_apply, val_main_v79_apply, val_main_call9_v0_apply, val_main_call9_cst_apply, val_main_v77_apply,
    val_main_v76_apply]
  have e1 : ∀ k : Fin 256, lidx_main_v78 (ix2 r c) k = ix2 r k := fun k => funext fun d => Fin.ext (by
    match d with
    | ⟨0, _⟩ => rfl
    | ⟨1, _⟩ => rfl)
  have e2 : ∀ k : Fin 256, idx_main_v76 (idx_main_v77 (ridx_main_v78 (ix2 r c) k)) = ix3 (1 : Fin 8) k c :=
    fun k => funext fun d => Fin.ext (by
      match d with
      | ⟨0, _⟩ => rfl
      | ⟨1, _⟩ => show (k.val * 2 + c.val) / 2 % 256 = k.val; omega
      | ⟨2, _⟩ => show (k.val * 2 + c.val) % 2 = c.val; omega)
  have e3 : idx_main_v79 (idx_main_v80 (idx_main_v81 (idx_main_v82 (ix2 r c)))) = ix2 (1 : Fin 8) c :=
    funext fun d => Fin.ext (by
      match d with
      | ⟨0, _⟩ => rfl
      | ⟨1, _⟩ => show c.val % 2 = c.val; omega)
  simp only [e1, e2, e3, hsecond]
  rfl

/-- The mean of head 1 at row r: column 0 of the output pair. -/
theorem mean1_spec (a : Args)
    (cat1 : ∀ (r : Fin 65536) (k : Fin 257),
      val_main_v57 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 1) k.val)
    (r : Fin 65536) :
    val_main_v85 (F := Ideal) a.a0 a.a2 a.a3 a.a4 a.a5 a.a6 a.a7 a.a8 a.a9 a.a10 a.a11 a.a12 a.a13
        (ix2 r (0 : Fin 1))
      = Spec.mean (WR a) (Spec.hid (WR a) (rowR a r)) 1 := by
  have e : idx_main_v85 (ix2 r (0 : Fin 1)) = ix2 r (0 : Fin 2) := funext fun d => Fin.ext (by
    match d with
    | ⟨0, _⟩ => rfl
    | ⟨1, _⟩ => rfl)
  simp only [val_main_v85_apply, e, out1_spec a cat1]
  rfl

/-- The logarithm of the standard deviation of head 1 before clipping, at row r: column 1 of the output pair. -/
theorem lstd1_spec (a : Args)
    (cat1 : ∀ (r : Fin 65536) (k : Fin 257),
      val_main_v57 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 1) k.val)
    (r : Fin 65536) :
    val_main_v86 (F := Ideal) a.a0 a.a2 a.a3 a.a4 a.a5 a.a6 a.a7 a.a8 a.a9 a.a10 a.a11 a.a12 a.a13
        (ix2 r (0 : Fin 1))
      = Spec.lstd (WR a) (Spec.hid (WR a) (rowR a r)) 1 := by
  have e : idx_main_v86 (ix2 r (0 : Fin 1)) = ix2 r (1 : Fin 2) := funext fun d => Fin.ext (by
    match d with
    | ⟨0, _⟩ => rfl
    | ⟨1, _⟩ => rfl)
  simp only [val_main_v86_apply, e, out1_spec a cat1]
  rfl

/-- The clipped logarithm of the standard deviation of head 1 at row r. -/
theorem clip1_spec (a : Args)
    (cat1 : ∀ (r : Fin 65536) (k : Fin 257),
      val_main_v57 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 1) k.val)
    (r : Fin 65536) :
    val_main_v87 (F := Ideal) a.a0 a.a2 a.a3 a.a4 a.a5 a.a6 a.a7 a.a8 a.a9 a.a10 a.a11 a.a12 a.a13
        (ix2 r (0 : Fin 1))
      = Spec.clip (Spec.lstd (WR a) (Spec.hid (WR a) (rowR a r)) 1) := by
  simp only [val_main_v87_apply, val_main_call10_v4_apply, val_main_call10_v3_apply, val_main_cst_4_apply,
    val_main_call10_v2_apply, val_main_call10_v1_apply, val_main_call10_v0_apply, val_main_cst_3_apply,
    lstd1_spec a cat1]
  rfl

/-- The sample of head 1 at row r: mean + exp (clipped log standard deviation) * eps. -/
theorem sample1_spec (a : Args)
    (cat1 : ∀ (r : Fin 65536) (k : Fin 257),
      val_main_v57 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 1) k.val)
    (r : Fin 65536) :
    val_main_v91 (F := Ideal) a.a0 a.a1 a.a2 a.a3 a.a4 a.a5 a.a6 a.a7 a.a8 a.a9 a.a10 a.a11 a.a12 a.a13
        (ix2 r (0 : Fin 1))
      = Spec.outSample (WR a) (rowR a r) (epsR a r) 1 := by
  have e : idx_main_v89 (ix2 r (0 : Fin 1)) = ix2 r (1 : Fin 8) := funext fun d => Fin.ext (by
    match d with
    | ⟨0, _⟩ => rfl
    | ⟨1, _⟩ => rfl)
  simp only [val_main_v91_apply, val_main_v90_apply, val_main_v88_apply, val_main_v89_apply, e,
    mean1_spec a cat1, clip1_spec a cat1]
  rfl

/-- The log density of head 1 at row r. -/
theorem logp1_spec (a : Args)
    (cat1 : ∀ (r : Fin 65536) (k : Fin 257),
      val_main_v57 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 1) k.val)
    (r : Fin 65536) :
    val_main_v99 (F := Ideal) a.a0 a.a1 a.a2 a.a3 a.a4 a.a5 a.a6 a.a7 a.a8 a.a9 a.a10 a.a11 a.a12 a.a13
        (ix2 r (0 : Fin 1))
      = Spec.outLogp (WR a) (rowR a r) (epsR a r) 1 := by
  simp only [val_main_v99_apply, val_main_v98_apply, val_main_cst_6_apply, val_main_v97_apply, val_main_v96_apply,
    val_main_v95_apply, val_main_cst_5_apply, val_main_v94_apply, val_main_v93_apply, val_main_v92_apply,
    val_main_v88_apply, sample1_spec a cat1, mean1_spec a cat1, clip1_spec a cat1]
  rfl

/-- The input row of head 2: the input row of head 1 followed by the mean of head 1. -/
theorem cat2_spec (a : Args)
    (cat1 : ∀ (r : Fin 65536) (k : Fin 257),
      val_main_v57 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 1) k.val)
    (r : Fin 65536) (k : Fin 258) :
    val_main_v100 (F := Ideal) a.a0 a.a2 a.a3 a.a4 a.a5 a.a6 a.a7 a.a8 a.a9 a.a10 a.a11 a.a12 a.a13 (ix2 r k)
      = Spec.cat (Spec.hid (WR a) (rowR a r)) (Spec.before (WR a) (Spec.hid (WR a) (rowR a r)) 2) k.val := by
  unfold val_main_v100
  by_cases hk : k.val < 257
  · -- a coordinate of the input row of head 1
    refine (concatenate_pair_apply_left (t := S65536x258) (s₁ := S65536x257) (s₂ := S65536x1) (1 : Fin 2) _ _
      concatenates_S65536x257_S65536x1_S65536x258_d1 (ix2 r k) rfl
      (ix2 r (⟨k.val, hk⟩ : Fin 257)) (fun b => by
        match b with
        | ⟨0, _⟩ => rfl
        | ⟨1, _⟩ => rfl)).trans ?_
    rw [cat1 r ⟨k.val, hk⟩]
    exact (Spec.cat_snoc_lt (Spec.hid (WR a) (rowR a r)) (Spec.before (WR a) (Spec.hid (WR a) (rowR a r)) 1)
      (Spec.m1 (WR a) (Spec.hid (WR a) (rowR a r))) k.val hk).symm
  · -- the last coordinate: the mean of head 1
    have hk' : k.val = 257 := by omega
    refine (concatenate_pair_apply_right (t := S65536x258) (s₁ := S65536x257) (s₂ := S65536x1) (1 : Fin 2) _ _
      concatenates_S65536x257_S65536x1_S65536x258_d1 (ix2 r k) rfl rfl
      (ix2 r (0 : Fin 1)) (fun b hb => by
        match b with
        | ⟨0, _⟩ => rfl
        | ⟨1, _⟩ => exact absurd rfl hb) (by show 0 + 257 = k.val; omega)).trans ?_
    rw [mean1_spec a cat1 r, hk']
    exact (Spec.cat_snoc_last (Spec.hid (WR a) (rowR a r)) (Spec.before (WR a) (Spec.hid (WR a) (rowR a r)) 1)
      (Spec.m1 (WR a) (Spec.hid (WR a) (rowR a r)))).symm

/-! ## Head 2 (input row of 258 numbers) -/

/-- First layer of head 2, rectified: coordinate n of row r. -/
theorem first2_spec (a : Args)
    (cat2 : ∀ (r : Fin 65536) (k : Fin 258),
      val_main_v100 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 2) k.val)
    (r : Fin 65536) (n : Fin 256) :
    val_main_v109 (F := Ideal) a.a0 a.a2 a.a3 a.a4 a.a5 a.a6 a.a7 a.a8 a.a9 a.a10 a.a11 a.a12 a.a13 (ix2 r n)
      = Spec.first (WR a) (Spec.hid (WR a) (rowR a r)) (Spec.before (WR a) (Spec.hid (WR a) (rowR a r)) 2) 2 n := by
  simp only [val_main_v109_apply, val_main_v108_apply, val_main_v103_apply, val_main_v107_apply, val_main_v106_apply,
    val_main_v105_apply, val_main_v104_apply, val_main_call11_v0_apply, val_main_call11_cst_apply,
    val_main_v102_apply, val_main_v101_apply]
  have e1 : ∀ k : Fin 258, lidx_main_v103 (ix2 r n) k = ix2 r k := fun k => funext fun d => Fin.ext (by
    match d with
    | ⟨0, _⟩ => rfl
    | ⟨1, _⟩ => rfl)
  have e2 : ∀ k : Fin 258, idx_main_v101 (idx_main_v102 (ridx_main_v103 (ix2 r n) k))
      = ix3 (2 : Fin 8) (⟨k.val, by omega⟩ : Fin 263) n := fun k => funext fun d => Fin.ext (by
    match d with
    | ⟨0, _⟩ => rfl
    | ⟨1, _⟩ => show (k.val * 256 + n.val) / 256 % 258 = k.val; omega
    | ⟨2, _⟩ => show (k.val * 256 + n.val) % 256 = n.val; omega)
  have e3 : idx_main_v104 (idx_main_v105 (idx_main_v106 (idx_main_v107 (ix2 r n)))) = ix2 (2 : Fin 8) n :=
    funext fun d => Fin.ext (by
      match d with
      | ⟨0, _⟩ => rfl
      | ⟨1, _⟩ => show n.val % 256 = n.val; omega)
  simp only [e1, e2, e3, cat2]
  have hs := sum_cat_win (WR a) (Spec.hid (WR a) (rowR a r))
    (Spec.before (WR a) (Spec.hid (WR a) (rowR a r)) 2) 2 n (by show (258 : ℕ) ≤ 263; decide)
  exact congrArg (fun s => max (s + a.a9 (ix2 (2 : Fin 8) n)) (Ideal.ofBits .f32 0x00000000#32)) hs

/-- Second layer of head 2, rectified: coordinate n of row r. -/
theorem second2_spec (a : Args)
    (cat2 : ∀ (r : Fin 65536) (k : Fin 258),
      val_main_v100 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 2) k.val)
    (r : Fin 65536) (n : Fin 256) :
    val_main_v118 (F := Ideal) a.a0 a.a2 a.a3 a.a4 a.a5 a.a6 a.a7 a.a8 a.a9 a.a10 a.a11 a.a12 a.a13 (ix2 r n)
      = Spec.second (WR a) (Spec.hid (WR a) (rowR a r)) (Spec.before (WR a) (Spec.hid (WR a) (rowR a r)) 2) 2 n := by
  have hfirst := first2_spec a cat2
  simp only [val_main_v118_apply, val_main_v117_apply, val_main_v112_apply, val_main_v116_apply, val_main_v115_apply,
    val_main_v114_apply, val_main_v113_apply, val_main_call12_v0_apply, val_main_call12_cst_apply,
    val_main_v111_apply, val_main_v110_apply]
  have e1 : ∀ k : Fin 256, lidx_main_v112 (ix2 r n) k = ix2 r k := fun k => funext fun d => Fin.ext (by
    match d with
    | ⟨0, _⟩ => rfl
    | ⟨1, _⟩ => rfl)
  have e2 : ∀ k : Fin 256, idx_main_v110 (idx_main_v111 (ridx_main_v112 (ix2 r n) k)) = ix3 (2 : Fin 8) k n :=
    fun k => funext fun d => Fin.ext (by
      match d with
      | ⟨0, _⟩ => rfl
      | ⟨1, _⟩ => show (k.val * 256 + n.val) / 256 % 256 = k.val; omega
      | ⟨2, _⟩ => show (k.val * 256 + n.val) % 256 = n.val; omega)
  have e3 : idx_main_v113 (idx_main_v114 (idx_main_v115 (idx_main_v116 (ix2 r n)))) = ix2 (2 : Fin 8) n :=
    funext fun d => Fin.ext (by
      match d with
      | ⟨0, _⟩ => rfl
      | ⟨1, _⟩ => show n.val % 256 = n.val; omega)
  simp only [e1, e2, e3, hfirst]
  rfl

/-- The two outputs of head 2, rectified: column c of row r. -/
theorem out2_spec (a : Args)
    (cat2 : ∀ (r : Fin 65536) (k : Fin 258),
      val_main_v100 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 2) k.val)
    (r : Fin 65536) (c : Fin 2) :
    val_main_v127 (F := Ideal) a.a0 a.a2 a.a3 a.a4 a.a5 a.a6 a.a7 a.a8 a.a9 a.a10 a.a11 a.a12 a.a13 (ix2 r c)
      = Spec.outc (WR a) (Spec.hid (WR a) (rowR a r)) (Spec.before (WR a) (Spec.hid (WR a) (rowR a r)) 2) 2 c := by
  have hsecond := second2_spec a cat2
  simp only [val_main_v127_apply, val_main_v126_apply, val_main_v121_apply, val_main_v125_apply, val_main_v124_apply,
    val_main_v123_apply, val_main_v122_apply, val_main_call13_v0_apply, val_main_call13_cst_apply,
    val_main_v120_apply, val_main_v119_apply]
  have e1 : ∀ k : Fin 256, lidx_main_v121 (ix2 r c) k = ix2 r k := fun k => funext fun d => Fin.ext (by
    match d with
    | ⟨0, _⟩ => rfl
    | ⟨1, _⟩ => rfl)
  have e2 : ∀ k : Fin 256, idx_main_v119 (idx_main_v120 (ridx_main_v121 (ix2 r c) k)) = ix3 (2 : Fin 8) k c :=
    fun k => funext fun d => Fin.ext (by
      match d with
      | ⟨0, _⟩ => rfl
      | ⟨1, _⟩ => show (k.val * 2 + c.val) / 2 % 256 = k.val; omega
      | ⟨2, _⟩ => show (k.val * 2 + c.val) % 2 = c.val; omega)
  have e3 : idx_main_v122 (idx_main_v123 (idx_main_v124 (idx_main_v125 (ix2 r c)))) = ix2 (2 : Fin 8) c :=
    funext fun d => Fin.ext (by
      match d with
      | ⟨0, _⟩ => rfl
      | ⟨1, _⟩ => show c.val % 2 = c.val; omega)
  simp only [e1, e2, e3, hsecond]
  rfl

/-- The mean of head 2 at row r: column 0 of the output pair. -/
theorem mean2_spec (a : Args)
    (cat2 : ∀ (r : Fin 65536) (k : Fin 258),
      val_main_v100 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 2) k.val)
    (r : Fin 65536) :
    val_main_v128 (F := Ideal) a.a0 a.a2 a.a3 a.a4 a.a5 a.a6 a.a7 a.a8 a.a9 a.a10 a.a11 a.a12 a.a13
        (ix2 r (0 : Fin 1))
      = Spec.mean (WR a) (Spec.hid (WR a) (rowR a r)) 2 := by
  have e : idx_main_v128 (ix2 r (0 : Fin 1)) = ix2 r (0 : Fin 2) := funext fun d => Fin.ext (by
    match d with
    | ⟨0, _⟩ => rfl
    | ⟨1, _⟩ => rfl)
  simp only [val_main_v128_apply, e, out2_spec a cat2]
  rfl

/-- The logarithm of the standard deviation of head 2 before clipping, at row r: column 1 of the output pair. -/
theorem lstd2_spec (a : Args)
    (cat2 : ∀ (r : Fin 65536) (k : Fin 258),
      val_main_v100 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 2) k.val)
    (r : Fin 65536) :
    val_main_v129 (F := Ideal) a.a0 a.a2 a.a3 a.a4 a.a5 a.a6 a.a7 a.a8 a.a9 a.a10 a.a11 a.a12 a.a13
        (ix2 r (0 : Fin 1))
      = Spec.lstd (WR a) (Spec.hid (WR a) (rowR a r)) 2 := by
  have e : idx_main_v129 (ix2 r (0 : Fin 1)) = ix2 r (1 : Fin 2) := funext fun d => Fin.ext (by
    match d with
    | ⟨0, _⟩ => rfl
    | ⟨1, _⟩ => rfl)
  simp only [val_main_v129_apply, e, out2_spec a cat2]
  rfl

/-- The clipped logarithm of the standard deviation of head 2 at row r. -/
theorem clip2_spec (a : Args)
    (cat2 : ∀ (r : Fin 65536) (k : Fin 258),
      val_main_v100 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 2) k.val)
    (r : Fin 65536) :
    val_main_v130 (F := Ideal) a.a0 a.a2 a.a3 a.a4 a.a5 a.a6 a.a7 a.a8 a.a9 a.a10 a.a11 a.a12 a.a13
        (ix2 r (0 : Fin 1))
      = Spec.clip (Spec.lstd (WR a) (Spec.hid (WR a) (rowR a r)) 2) := by
  simp only [val_main_v130_apply, val_main_call14_v4_apply, val_main_call14_v3_apply, val_main_cst_8_apply,
    val_main_call14_v2_apply, val_main_call14_v1_apply, val_main_call14_v0_apply, val_main_cst_7_apply,
    lstd2_spec a cat2]
  rfl

/-- The sample of head 2 at row r: mean + exp (clipped log standard deviation) * eps. -/
theorem sample2_spec (a : Args)
    (cat2 : ∀ (r : Fin 65536) (k : Fin 258),
      val_main_v100 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 2) k.val)
    (r : Fin 65536) :
    val_main_v134 (F := Ideal) a.a0 a.a1 a.a2 a.a3 a.a4 a.a5 a.a6 a.a7 a.a8 a.a9 a.a10 a.a11 a.a12 a.a13
        (ix2 r (0 : Fin 1))
      = Spec.outSample (WR a) (rowR a r) (epsR a r) 2 := by
  have e : idx_main_v132 (ix2 r (0 : Fin 1)) = ix2 r (2 : Fin 8) := funext fun d => Fin.ext (by
    match d with
    | ⟨0, _⟩ => rfl
    | ⟨1, _⟩ => rfl)
  simp only [val_main_v134_apply, val_main_v133_apply, val_main_v131_apply, val_main_v132_apply, e,
    mean2_spec a cat2, clip2_spec a cat2]
  rfl

/-- The log density of head 2 at row r. -/
theorem logp2_spec (a : Args)
    (cat2 : ∀ (r : Fin 65536) (k : Fin 258),
      val_main_v100 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 2) k.val)
    (r : Fin 65536) :
    val_main_v142 (F := Ideal) a.a0 a.a1 a.a2 a.a3 a.a4 a.a5 a.a6 a.a7 a.a8 a.a9 a.a10 a.a11 a.a12 a.a13
        (ix2 r (0 : Fin 1))
      = Spec.outLogp (WR a) (rowR a r) (epsR a r) 2 := by
  simp only [val_main_v142_apply, val_main_v141_apply, val_main_cst_10_apply, val_main_v140_apply,
    val_main_v139_apply, val_main_v138_apply, val_main_cst_9_apply, val_main_v137_apply, val_main_v136_apply,
    val_main_v135_apply, val_main_v131_apply, sample2_spec a cat2, mean2_spec a cat2, clip2_spec a cat2]
  rfl

/-- The input row of head 3: the input row of head 2 followed by the mean of head 2. -/
theorem cat3_spec (a : Args)
    (cat2 : ∀ (r : Fin 65536) (k : Fin 258),
      val_main_v100 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 2) k.val)
    (r : Fin 65536) (k : Fin 259) :
    val_main_v143 (F := Ideal) a.a0 a.a2 a.a3 a.a4 a.a5 a.a6 a.a7 a.a8 a.a9 a.a10 a.a11 a.a12 a.a13 (ix2 r k)
      = Spec.cat (Spec.hid (WR a) (rowR a r)) (Spec.before (WR a) (Spec.hid (WR a) (rowR a r)) 3) k.val := by
  unfold val_main_v143
  by_cases hk : k.val < 258
  · -- a coordinate of the input row of head 2
    refine (concatenate_pair_apply_left (t := S65536x259) (s₁ := S65536x258) (s₂ := S65536x1) (1 : Fin 2) _ _
      concatenates_S65536x258_S65536x1_S65536x259_d1 (ix2 r k) rfl
      (ix2 r (⟨k.val, hk⟩ : Fin 258)) (fun b => by
        match b with
        | ⟨0, _⟩ => rfl
        | ⟨1, _⟩ => rfl)).trans ?_
    rw [cat2 r ⟨k.val, hk⟩]
    exact (Spec.cat_snoc_lt (Spec.hid (WR a) (rowR a r)) (Spec.before (WR a) (Spec.hid (WR a) (rowR a r)) 2)
      (Spec.m2 (WR a) (Spec.hid (WR a) (rowR a r))) k.val hk).symm
  · -- the last coordinate: the mean of head 2
    have hk' : k.val = 258 := by omega
    refine (concatenate_pair_apply_right (t := S65536x259) (s₁ := S65536x258) (s₂ := S65536x1) (1 : Fin 2) _ _
      concatenates_S65536x258_S65536x1_S65536x259_d1 (ix2 r k) rfl rfl
      (ix2 r (0 : Fin 1)) (fun b hb => by
        match b with
        | ⟨0, _⟩ => rfl
        | ⟨1, _⟩ => exact absurd rfl hb) (by show 0 + 258 = k.val; omega)).trans ?_
    rw [mean2_spec a cat2 r, hk']
    exact (Spec.cat_snoc_last (Spec.hid (WR a) (rowR a r)) (Spec.before (WR a) (Spec.hid (WR a) (rowR a r)) 2)
      (Spec.m2 (WR a) (Spec.hid (WR a) (rowR a r)))).symm

/-! ## Head 3 (input row of 259 numbers) -/

/-- First layer of head 3, rectified: coordinate n of row r. -/
theorem first3_spec (a : Args)
    (cat3 : ∀ (r : Fin 65536) (k : Fin 259),
      val_main_v143 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 3) k.val)
    (r : Fin 65536) (n : Fin 256) :
    val_main_v152 (F := Ideal) a.a0 a.a2 a.a3 a.a4 a.a5 a.a6 a.a7 a.a8 a.a9 a.a10 a.a11 a.a12 a.a13 (ix2 r n)
      = Spec.first (WR a) (Spec.hid (WR a) (rowR a r)) (Spec.before (WR a) (Spec.hid (WR a) (rowR a r)) 3) 3 n := by
  simp only [val_main_v152_apply, val_main_v151_apply, val_main_v146_apply, val_main_v150_apply, val_main_v149_apply,
    val_main_v148_apply, val_main_v147_apply, val_main_call15_v0_apply, val_main_call15_cst_apply,
    val_main_v145_apply, val_main_v144_apply]
  have e1 : ∀ k : Fin 259, lidx_main_v146 (ix2 r n) k = ix2 r k := fun k => funext fun d => Fin.ext (by
    match d with
    | ⟨0, _⟩ => rfl
    | ⟨1, _⟩ => rfl)
  have e2 : ∀ k : Fin 259, idx_main_v144 (idx_main_v145 (ridx_main_v146 (ix2 r n) k))
      = ix3 (3 : Fin 8) (⟨k.val, by omega⟩ : Fin 263) n := fun k => funext fun d => Fin.ext (by
    match d with
    | ⟨0, _⟩ => rfl
    | ⟨1, _⟩ => show (k.val * 256 + n.val) / 256 % 259 = k.val; omega
    | ⟨2, _⟩ => show (k.val * 256 + n.val) % 256 = n.val; omega)
  have e3 : idx_main_v147 (idx_main_v148 (idx_main_v149 (idx_main_v150 (ix2 r n)))) = ix2 (3 : Fin 8) n :=
    funext fun d => Fin.ext (by
      match d with
      | ⟨0, _⟩ => rfl
      | ⟨1, _⟩ => show n.val % 256 = n.val; omega)
  simp only [e1, e2, e3, cat3]
  have hs := sum_cat_win (WR a) (Spec.hid (WR a) (rowR a r))
    (Spec.before (WR a) (Spec.hid (WR a) (rowR a r)) 3) 3 n (by show (259 : ℕ) ≤ 263; decide)
  exact congrArg (fun s => max (s + a.a9 (ix2 (3 : Fin 8) n)) (Ideal.ofBits .f32 0x00000000#32)) hs

/-- Second layer of head 3, rectified: coordinate n of row r. -/
theorem second3_spec (a : Args)
    (cat3 : ∀ (r : Fin 65536) (k : Fin 259),
      val_main_v143 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 3) k.val)
    (r : Fin 65536) (n : Fin 256) :
    val_main_v161 (F := Ideal) a.a0 a.a2 a.a3 a.a4 a.a5 a.a6 a.a7 a.a8 a.a9 a.a10 a.a11 a.a12 a.a13 (ix2 r n)
      = Spec.second (WR a) (Spec.hid (WR a) (rowR a r)) (Spec.before (WR a) (Spec.hid (WR a) (rowR a r)) 3) 3 n := by
  have hfirst := first3_spec a cat3
  simp only [val_main_v161_apply, val_main_v160_apply, val_main_v155_apply, val_main_v159_apply, val_main_v158_apply,
    val_main_v157_apply, val_main_v156_apply, val_main_call16_v0_apply, val_main_call16_cst_apply,
    val_main_v154_apply, val_main_v153_apply]
  have e1 : ∀ k : Fin 256, lidx_main_v155 (ix2 r n) k = ix2 r k := fun k => funext fun d => Fin.ext (by
    match d with
    | ⟨0, _⟩ => rfl
    | ⟨1, _⟩ => rfl)
  have e2 : ∀ k : Fin 256, idx_main_v153 (idx_main_v154 (ridx_main_v155 (ix2 r n) k)) = ix3 (3 : Fin 8) k n :=
    fun k => funext fun d => Fin.ext (by
      match d with
      | ⟨0, _⟩ => rfl
      | ⟨1, _⟩ => show (k.val * 256 + n.val) / 256 % 256 = k.val; omega
      | ⟨2, _⟩ => show (k.val * 256 + n.val) % 256 = n.val; omega)
  have e3 : idx_main_v156 (idx_main_v157 (idx_main_v158 (idx_main_v159 (ix2 r n)))) = ix2 (3 : Fin 8) n :=
    funext fun d => Fin.ext (by
      match d with
      | ⟨0, _⟩ => rfl
      | ⟨1, _⟩ => show n.val % 256 = n.val; omega)
  simp only [e1, e2, e3, hfirst]
  rfl

/-- The two outputs of head 3, rectified: column c of row r. -/
theorem out3_spec (a : Args)
    (cat3 : ∀ (r : Fin 65536) (k : Fin 259),
      val_main_v143 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 3) k.val)
    (r : Fin 65536) (c : Fin 2) :
    val_main_v170 (F := Ideal) a.a0 a.a2 a.a3 a.a4 a.a5 a.a6 a.a7 a.a8 a.a9 a.a10 a.a11 a.a12 a.a13 (ix2 r c)
      = Spec.outc (WR a) (Spec.hid (WR a) (rowR a r)) (Spec.before (WR a) (Spec.hid (WR a) (rowR a r)) 3) 3 c := by
  have hsecond := second3_spec a cat3
  simp only [val_main_v170_apply, val_main_v169_apply, val_main_v164_apply, val_main_v168_apply, val_main_v167_apply,
    val_main_v166_apply, val_main_v165_apply, val_main_call17_v0_apply, val_main_call17_cst_apply,
    val_main_v163_apply, val_main_v162_apply]
  have e1 : ∀ k : Fin 256, lidx_main_v164 (ix2 r c) k = ix2 r k := fun k => funext fun d => Fin.ext (by
    match d with
    | ⟨0, _⟩ => rfl
    | ⟨1, _⟩ => rfl)
  have e2 : ∀ k : Fin 256, idx_main_v162 (idx_main_v163 (ridx_main_v164 (ix2 r c) k)) = ix3 (3 : Fin 8) k c :=
    fun k => funext fun d => Fin.ext (by
      match d with
      | ⟨0, _⟩ => rfl
      | ⟨1, _⟩ => show (k.val * 2 + c.val) / 2 % 256 = k.val; omega
      | ⟨2, _⟩ => show (k.val * 2 + c.val) % 2 = c.val; omega)
  have e3 : idx_main_v165 (idx_main_v166 (idx_main_v167 (idx_main_v168 (ix2 r c)))) = ix2 (3 : Fin 8) c :=
    funext fun d => Fin.ext (by
      match d with
      | ⟨0, _⟩ => rfl
      | ⟨1, _⟩ => show c.val % 2 = c.val; omega)
  simp only [e1, e2, e3, hsecond]
  rfl

/-- The mean of head 3 at row r: column 0 of the output pair. -/
theorem mean3_spec (a : Args)
    (cat3 : ∀ (r : Fin 65536) (k : Fin 259),
      val_main_v143 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 3) k.val)
    (r : Fin 65536) :
    val_main_v171 (F := Ideal) a.a0 a.a2 a.a3 a.a4 a.a5 a.a6 a.a7 a.a8 a.a9 a.a10 a.a11 a.a12 a.a13
        (ix2 r (0 : Fin 1))
      = Spec.mean (WR a) (Spec.hid (WR a) (rowR a r)) 3 := by
  have e : idx_main_v171 (ix2 r (0 : Fin 1)) = ix2 r (0 : Fin 2) := funext fun d => Fin.ext (by
    match d with
    | ⟨0, _⟩ => rfl
    | ⟨1, _⟩ => rfl)
  simp only [val_main_v171_apply, e, out3_spec a cat3]
  rfl

/-- The logarithm of the standard deviation of head 3 before clipping, at row r: column 1 of the output pair. -/
theorem lstd3_spec (a : Args)
    (cat3 : ∀ (r : Fin 65536) (k : Fin 259),
      val_main_v143 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 3) k.val)
    (r : Fin 65536) :
    val_main_v172 (F := Ideal) a.a0 a.a2 a.a3 a.a4 a.a5 a.a6 a.a7 a.a8 a.a9 a.a10 a.a11 a.a12 a.a13
        (ix2 r (0 : Fin 1))
      = Spec.lstd (WR a) (Spec.hid (WR a) (rowR a r)) 3 := by
  have e : idx_main_v172 (ix2 r (0 : Fin 1)) = ix2 r (1 : Fin 2) := funext fun d => Fin.ext (by
    match d with
    | ⟨0, _⟩ => rfl
    | ⟨1, _⟩ => rfl)
  simp only [val_main_v172_apply, e, out3_spec a cat3]
  rfl

/-- The clipped logarithm of the standard deviation of head 3 at row r. -/
theorem clip3_spec (a : Args)
    (cat3 : ∀ (r : Fin 65536) (k : Fin 259),
      val_main_v143 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 3) k.val)
    (r : Fin 65536) :
    val_main_v173 (F := Ideal) a.a0 a.a2 a.a3 a.a4 a.a5 a.a6 a.a7 a.a8 a.a9 a.a10 a.a11 a.a12 a.a13
        (ix2 r (0 : Fin 1))
      = Spec.clip (Spec.lstd (WR a) (Spec.hid (WR a) (rowR a r)) 3) := by
  simp only [val_main_v173_apply, val_main_call18_v4_apply, val_main_call18_v3_apply, val_main_cst_12_apply,
    val_main_call18_v2_apply, val_main_call18_v1_apply, val_main_call18_v0_apply, val_main_cst_11_apply,
    lstd3_spec a cat3]
  rfl

/-- The sample of head 3 at row r: mean + exp (clipped log standard deviation) * eps. -/
theorem sample3_spec (a : Args)
    (cat3 : ∀ (r : Fin 65536) (k : Fin 259),
      val_main_v143 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 3) k.val)
    (r : Fin 65536) :
    val_main_v177 (F := Ideal) a.a0 a.a1 a.a2 a.a3 a.a4 a.a5 a.a6 a.a7 a.a8 a.a9 a.a10 a.a11 a.a12 a.a13
        (ix2 r (0 : Fin 1))
      = Spec.outSample (WR a) (rowR a r) (epsR a r) 3 := by
  have e : idx_main_v175 (ix2 r (0 : Fin 1)) = ix2 r (3 : Fin 8) := funext fun d => Fin.ext (by
    match d with
    | ⟨0, _⟩ => rfl
    | ⟨1, _⟩ => rfl)
  simp only [val_main_v177_apply, val_main_v176_apply, val_main_v174_apply, val_main_v175_apply, e,
    mean3_spec a cat3, clip3_spec a cat3]
  rfl

/-- The log density of head 3 at row r. -/
theorem logp3_spec (a : Args)
    (cat3 : ∀ (r : Fin 65536) (k : Fin 259),
      val_main_v143 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 3) k.val)
    (r : Fin 65536) :
    val_main_v185 (F := Ideal) a.a0 a.a1 a.a2 a.a3 a.a4 a.a5 a.a6 a.a7 a.a8 a.a9 a.a10 a.a11 a.a12 a.a13
        (ix2 r (0 : Fin 1))
      = Spec.outLogp (WR a) (rowR a r) (epsR a r) 3 := by
  simp only [val_main_v185_apply, val_main_v184_apply, val_main_cst_14_apply, val_main_v183_apply,
    val_main_v182_apply, val_main_v181_apply, val_main_cst_13_apply, val_main_v180_apply, val_main_v179_apply,
    val_main_v178_apply, val_main_v174_apply, sample3_spec a cat3, mean3_spec a cat3, clip3_spec a cat3]
  rfl

/-- The input row of head 4: the input row of head 3 followed by the mean of head 3. -/
theorem cat4_spec (a : Args)
    (cat3 : ∀ (r : Fin 65536) (k : Fin 259),
      val_main_v143 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 3) k.val)
    (r : Fin 65536) (k : Fin 260) :
    val_main_v186 (F := Ideal) a.a0 a.a2 a.a3 a.a4 a.a5 a.a6 a.a7 a.a8 a.a9 a.a10 a.a11 a.a12 a.a13 (ix2 r k)
      = Spec.cat (Spec.hid (WR a) (rowR a r)) (Spec.before (WR a) (Spec.hid (WR a) (rowR a r)) 4) k.val := by
  unfold val_main_v186
  by_cases hk : k.val < 259
  · -- a coordinate of the input row of head 3
    refine (concatenate_pair_apply_left (t := S65536x260) (s₁ := S65536x259) (s₂ := S65536x1) (1 : Fin 2) _ _
      concatenates_S65536x259_S65536x1_S65536x260_d1 (ix2 r k) rfl
      (ix2 r (⟨k.val, hk⟩ : Fin 259)) (fun b => by
        match b with
        | ⟨0, _⟩ => rfl
        | ⟨1, _⟩ => rfl)).trans ?_
    rw [cat3 r ⟨k.val, hk⟩]
    exact (Spec.cat_snoc_lt (Spec.hid (WR a) (rowR a r)) (Spec.before (WR a) (Spec.hid (WR a) (rowR a r)) 3)
      (Spec.m3 (WR a) (Spec.hid (WR a) (rowR a r))) k.val hk).symm
  · -- the last coordinate: the mean of head 3
    have hk' : k.val = 259 := by omega
    refine (concatenate_pair_apply_right (t := S65536x260) (s₁ := S65536x259) (s₂ := S65536x1) (1 : Fin 2) _ _
      concatenates_S65536x259_S65536x1_S65536x260_d1 (ix2 r k) rfl rfl
      (ix2 r (0 : Fin 1)) (fun b hb => by
        match b with
        | ⟨0, _⟩ => rfl
        | ⟨1, _⟩ => exact absurd rfl hb) (by show 0 + 259 = k.val; omega)).trans ?_
    rw [mean3_spec a cat3 r, hk']
    exact (Spec.cat_snoc_last (Spec.hid (WR a) (rowR a r)) (Spec.before (WR a) (Spec.hid (WR a) (rowR a r)) 3)
      (Spec.m3 (WR a) (Spec.hid (WR a) (rowR a r)))).symm

/-! ## Heads 2 and 3 from the input row of head 1

The statements above for heads 2 and 3 assume the input row of their own head; chained through the input rows
of heads 2 and 3, everything follows from the statement for the input row of head 1 alone. -/

/-- The input row of head 3, from the input row of head 1. -/
theorem cat3_of_cat1 (a : Args)
    (cat1 : ∀ (r : Fin 65536) (k : Fin 257),
      val_main_v57 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 1) k.val)
    (r : Fin 65536) (k : Fin 259) :
    val_main_v143 (F := Ideal) a.a0 a.a2 a.a3 a.a4 a.a5 a.a6 a.a7 a.a8 a.a9 a.a10 a.a11 a.a12 a.a13 (ix2 r k)
      = Spec.cat (Spec.hid (WR a) (rowR a r)) (Spec.before (WR a) (Spec.hid (WR a) (rowR a r)) 3) k.val :=
  cat3_spec a (cat2_spec a cat1) r k

/-- The input row of head 4, from the input row of head 1. -/
theorem cat4_of_cat1 (a : Args)
    (cat1 : ∀ (r : Fin 65536) (k : Fin 257),
      val_main_v57 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 1) k.val)
    (r : Fin 65536) (k : Fin 260) :
    val_main_v186 (F := Ideal) a.a0 a.a2 a.a3 a.a4 a.a5 a.a6 a.a7 a.a8 a.a9 a.a10 a.a11 a.a12 a.a13 (ix2 r k)
      = Spec.cat (Spec.hid (WR a) (rowR a r)) (Spec.before (WR a) (Spec.hid (WR a) (rowR a r)) 4) k.val :=
  cat4_spec a (cat3_of_cat1 a cat1) r k

/-- The mean of head 2, from the input row of head 1. -/
theorem mean2_of_cat1 (a : Args)
    (cat1 : ∀ (r : Fin 65536) (k : Fin 257),
      val_main_v57 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 1) k.val)
    (r : Fin 65536) :
    val_main_v128 (F := Ideal) a.a0 a.a2 a.a3 a.a4 a.a5 a.a6 a.a7 a.a8 a.a9 a.a10 a.a11 a.a12 a.a13
        (ix2 r (0 : Fin 1))
      = Spec.mean (WR a) (Spec.hid (WR a) (rowR a r)) 2 :=
  mean2_spec a (cat2_spec a cat1) r

/-- The sample of head 2, from the input row of head 1. -/
theorem sample2_of_cat1 (a : Args)
    (cat1 : ∀ (r : Fin 65536) (k : Fin 257),
      val_main_v57 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 1) k.val)
    (r : Fin 65536) :
    val_main_v134 (F := Ideal) a.a0 a.a1 a.a2 a.a3 a.a4 a.a5 a.a6 a.a7 a.a8 a.a9 a.a10 a.a11 a.a12 a.a13
        (ix2 r (0 : Fin 1))
      = Spec.outSample (WR a) (rowR a r) (epsR a r) 2 :=
  sample2_spec a (cat2_spec a cat1) r

/-- The log density of head 2, from the input row of head 1. -/
theorem logp2_of_cat1 (a : Args)
    (cat1 : ∀ (r : Fin 65536) (k : Fin 257),
      val_main_v57 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 1) k.val)
    (r : Fin 65536) :
    val_main_v142 (F := Ideal) a.a0 a.a1 a.a2 a.a3 a.a4 a.a5 a.a6 a.a7 a.a8 a.a9 a.a10 a.a11 a.a12 a.a13
        (ix2 r (0 : Fin 1))
      = Spec.outLogp (WR a) (rowR a r) (epsR a r) 2 :=
  logp2_spec a (cat2_spec a cat1) r

/-- The mean of head 3, from the input row of head 1. -/
theorem mean3_of_cat1 (a : Args)
    (cat1 : ∀ (r : Fin 65536) (k : Fin 257),
      val_main_v57 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 1) k.val)
    (r : Fin 65536) :
    val_main_v171 (F := Ideal) a.a0 a.a2 a.a3 a.a4 a.a5 a.a6 a.a7 a.a8 a.a9 a.a10 a.a11 a.a12 a.a13
        (ix2 r (0 : Fin 1))
      = Spec.mean (WR a) (Spec.hid (WR a) (rowR a r)) 3 :=
  mean3_spec a (cat3_of_cat1 a cat1) r

/-- The sample of head 3, from the input row of head 1. -/
theorem sample3_of_cat1 (a : Args)
    (cat1 : ∀ (r : Fin 65536) (k : Fin 257),
      val_main_v57 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 1) k.val)
    (r : Fin 65536) :
    val_main_v177 (F := Ideal) a.a0 a.a1 a.a2 a.a3 a.a4 a.a5 a.a6 a.a7 a.a8 a.a9 a.a10 a.a11 a.a12 a.a13
        (ix2 r (0 : Fin 1))
      = Spec.outSample (WR a) (rowR a r) (epsR a r) 3 :=
  sample3_spec a (cat3_of_cat1 a cat1) r

/-- The log density of head 3, from the input row of head 1. -/
theorem logp3_of_cat1 (a : Args)
    (cat1 : ∀ (r : Fin 65536) (k : Fin 257),
      val_main_v57 (F := Ideal) a.a0 a.a2 a.a3 a.a4 a.a5 a.a6 a.a7 a.a8 a.a9 a.a10 a.a11 a.a12 a.a13 (ix2 r k)
        = Spec.cat (Spec.hid (WR a) (rowR a r)) (Spec.before (WR a) (Spec.hid (WR a) (rowR a r)) 1) k.val)
    (r : Fin 65536) :
    val_main_v185 (F := Ideal) a.a0 a.a1 a.a2 a.a3 a.a4 a.a5 a.a6 a.a7 a.a8 a.a9 a.a10 a.a11 a.a12 a.a13
        (ix2 r (0 : Fin 1))
      = Spec.outLogp (WR a) (rowR a r) (epsR a r) 3 :=
  logp3_spec a (cat3_of_cat1 a cat1) r

end Cert.ReferenceIdeal.RPart1

end
-- ==== Proof.RPart2.lean ====
/-
  Heads 4, 5 and 6 of the reference program, read against the network of Spec.lean, one row r of the batch at a time.

  Head i reads the row "trunk result followed by the means of heads 0 .. i-1" (256 + i numbers). Its first layer is the
  rectified sum of products of that row with rows 0 .. 255 + i of the head's first-layer weights plus the bias; the sum
  over all 256 + i coordinates equals the sum over the trunk's 256 coordinates followed by one product per earlier
  mean (SpecCat.sum_cat). The second layer and the output pair are rectified dense layers. Column 0 of the output pair
  is the mean, column 1 the logarithm of the standard deviation before clipping; the sample is mean + exp (clip) * eps
  and the log density is -(1/2) ((sample - mean) / exp (clip))^2 - clip - (1/2) log (2 pi). The row handed to head i + 1
  is the row of head i followed by the mean of head i.
-/
import proofs.«418646_j6511170421537_4_alg».proof.Proof.Spec
import proofs.«418646_j6511170421537_4_alg».proof.Proof.SpecCat
import proofs.«418646_j6511170421537_4_alg».proof.Proof.RW
import proofs.«418646_j6511170421537_4_alg».proof.Proof.ReadRef
import Idealize.ShloMosaic.Lib.ValueIdx
import Idealize.ShloMosaic.Lib.Pipeline.Value
import Mathlib.Algebra.BigOperators.Fin

noncomputable section

namespace Cert.ReferenceIdeal.RPart2

open Idealize.ShloMosaic Idealize.ShloMosaic.ValueIdx Cert.ReferenceIdeal Cert.ReferenceIdeal.Gen
  Cert.ReferenceIdeal.ReadP

/-- The sum of products of the row "h followed by ms" (K = 256 + length ms coordinates) with rows 0 .. K-1 of head i's
    first-layer weights at column n is the first layer's accumulation: the sum over the trunk's 256 coordinates, then
    one product per earlier mean, left to right. -/
theorem first_sum (w : Spec.Weights) (h : Fin 256 → EReal) (ms : List EReal) (i : Fin 8) (n : Fin 256)
    (K : ℕ) (hK : K = 256 + ms.length) (hK' : K ≤ 263) :
    ∑ k : Fin K, Spec.cat h ms k.val * w.win i (Fin.castLE hK' k) n
      = Spec.acc (∑ k : Fin 256, h k * w.win i (Fin.castLE (by decide) k) n) ms 0 (Spec.corr w i n) := by
  subst hK
  have e1 : ∑ k : Fin (256 + ms.length), Spec.cat h ms k.val * w.win i (Fin.castLE hK' k) n
      = ∑ k ∈ Finset.range (256 + ms.length), Spec.cat h ms k
          * (fun k : ℕ => if hk : k < 263 then w.win i ⟨k, hk⟩ n else 0) k := by
    rw [Finset.sum_range]
    refine Finset.sum_congr rfl fun k _ => ?_
    simp only [dif_pos (lt_of_lt_of_le k.isLt hK')]
    rfl
  rw [e1, Spec.sum_cat]
  have e2 : ∑ k : Fin 256, h k * (fun k : ℕ => if hk : k < 263 then w.win i ⟨k, hk⟩ n else 0) k.val
      = ∑ k : Fin 256, h k * w.win i (Fin.castLE (by decide) k) n := by
    refine Finset.sum_congr rfl fun k _ => ?_
    simp only [dif_pos (lt_of_lt_of_le k.isLt (by decide : 256 ≤ 263))]
    rfl
  rw [e2]
  rfl

/-! ## Head 4 (input row of 260 numbers: the trunk's result and the means of heads 0..3) -/

/-- Head 4, first layer: coordinate n of row r is the rectified accumulation over the row "trunk result, means of
    heads 0..3" against rows 0..259 of head 4's first-layer weights, plus the bias (4, n). -/
theorem first4_spec (a : RW.Args)
    (hcat : ∀ (r : Fin 65536) (k : Fin 260),
      val_main_v186 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 4) k.val) :
    ∀ (r : Fin 65536) (n : Fin 256),
      val_main_v195 (F := Ideal) a.a0 a.a2 a.a3 a.a4 a.a5 a.a6 a.a7 a.a8 a.a9 a.a10 a.a11 a.a12 a.a13 (ix2 r n)
        = Spec.first (RW.WR a) (Spec.hid (RW.WR a) (RW.rowR a r))
            (Spec.before (RW.WR a) (Spec.hid (RW.WR a) (RW.rowR a r)) 4) 4 n := by
  intro r n
  simp only [val_main_v195_apply, val_main_v194_apply, val_main_v189_apply, val_main_v193_apply, val_main_v192_apply,
    val_main_v191_apply, val_main_v190_apply, val_main_call19_v0_apply, val_main_call19_cst_apply,
    val_main_v188_apply, val_main_v187_apply]
  have el : ∀ k : Fin 260, lidx_main_v189 (ix2 r n) k = ix2 r k := fun k => funext fun d => Fin.ext (by
    match d with
    | ⟨0, _⟩ => rfl
    | ⟨1, _⟩ => rfl)
  have er : ∀ k : Fin 260, idx_main_v187 (idx_main_v188 (ridx_main_v189 (ix2 r n) k))
      = ix3 (4 : Fin 8) (Fin.castLE (by decide : 260 ≤ 263) k) n :=
    fun k => funext fun d => Fin.ext (by
      match d with
      | ⟨0, _⟩ => rfl
      | ⟨1, _⟩ => show (k.val * 256 + n.val) / 256 % 260 = k.val; have := k.isLt; omega
      | ⟨2, _⟩ => show (k.val * 256 + n.val) % 256 = n.val; omega)
  have eb : idx_main_v190 (idx_main_v191 (idx_main_v192 (idx_main_v193 (ix2 r n)))) = ix2 (4 : Fin 8) n :=
    funext fun d => Fin.ext (by
      match d with
      | ⟨0, _⟩ => rfl
      | ⟨1, _⟩ => show n.val % 256 = n.val; omega)
  simp only [el, er, eb, hcat]
  have hs := first_sum (RW.WR a) (Spec.hid (RW.WR a) (RW.rowR a r))
    (Spec.before (RW.WR a) (Spec.hid (RW.WR a) (RW.rowR a r)) 4) 4 n 260 rfl (by decide)
  exact congrArg (fun s => Spec.relu (s + (RW.WR a).bin 4 n)) hs

/-- Head 4, second layer: coordinate n of row r is the rectified sum over k of the first layer's coordinate k times
    the second-layer weight (4, k, n), plus the bias (4, n). -/
theorem second4_spec (a : RW.Args)
    (hcat : ∀ (r : Fin 65536) (k : Fin 260),
      val_main_v186 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 4) k.val) :
    ∀ (r : Fin 65536) (n : Fin 256),
      val_main_v204 (F := Ideal) a.a0 a.a2 a.a3 a.a4 a.a5 a.a6 a.a7 a.a8 a.a9 a.a10 a.a11 a.a12 a.a13 (ix2 r n)
        = Spec.second (RW.WR a) (Spec.hid (RW.WR a) (RW.rowR a r))
            (Spec.before (RW.WR a) (Spec.hid (RW.WR a) (RW.rowR a r)) 4) 4 n := by
  intro r n
  have hfirst := first4_spec a hcat
  simp only [val_main_v204_apply, val_main_v203_apply, val_main_v198_apply, val_main_v202_apply, val_main_v201_apply,
    val_main_v200_apply, val_main_v199_apply, val_main_call20_v0_apply, val_main_call20_cst_apply,
    val_main_v197_apply, val_main_v196_apply]
  have el : ∀ k : Fin 256, lidx_main_v198 (ix2 r n) k = ix2 r k := fun k => funext fun d => Fin.ext (by
    match d with
    | ⟨0, _⟩ => rfl
    | ⟨1, _⟩ => rfl)
  have er : ∀ k : Fin 256, idx_main_v196 (idx_main_v197 (ridx_main_v198 (ix2 r n) k)) = ix3 (4 : Fin 8) k n :=
    fun k => funext fun d => Fin.ext (by
      match d with
      | ⟨0, _⟩ => rfl
      | ⟨1, _⟩ => show (k.val * 256 + n.val) / 256 % 256 = k.val; omega
      | ⟨2, _⟩ => show (k.val * 256 + n.val) % 256 = n.val; omega)
  have eb : idx_main_v199 (idx_main_v200 (idx_main_v201 (idx_main_v202 (ix2 r n)))) = ix2 (4 : Fin 8) n :=
    funext fun d => Fin.ext (by
      match d with
      | ⟨0, _⟩ => rfl
      | ⟨1, _⟩ => show n.val % 256 = n.val; omega)
  simp only [el, er, eb, hfirst]
  rfl

/-- Head 4, output pair: column c of row r is the rectified sum over k of the second layer's coordinate k times the
    output weight (4, k, c), plus the bias (4, c). -/
theorem out4_spec (a : RW.Args)
    (hcat : ∀ (r : Fin 65536) (k : Fin 260),
      val_main_v186 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 4) k.val) :
    ∀ (r : Fin 65536) (c : Fin 2),
      val_main_v213 (F := Ideal) a.a0 a.a2 a.a3 a.a4 a.a5 a.a6 a.a7 a.a8 a.a9 a.a10 a.a11 a.a12 a.a13 (ix2 r c)
        = Spec.outc (RW.WR a) (Spec.hid (RW.WR a) (RW.rowR a r))
            (Spec.before (RW.WR a) (Spec.hid (RW.WR a) (RW.rowR a r)) 4) 4 c := by
  intro r c
  have hsecond := second4_spec a hcat
  simp only [val_main_v213_apply, val_main_v212_apply, val_main_v207_apply, val_main_v211_apply, val_main_v210_apply,
    val_main_v209_apply, val_main_v208_apply, val_main_call21_v0_apply, val_main_call21_cst_apply,
    val_main_v206_apply, val_main_v205_apply]
  have el : ∀ k : Fin 256, lidx_main_v207 (ix2 r c) k = ix2 r k := fun k => funext fun d => Fin.ext (by
    match d with
    | ⟨0, _⟩ => rfl
    | ⟨1, _⟩ => rfl)
  have er : ∀ k : Fin 256, idx_main_v205 (idx_main_v206 (ridx_main_v207 (ix2 r c) k)) = ix3 (4 : Fin 8) k c :=
    fun k => funext fun d => Fin.ext (by
      match d with
      | ⟨0, _⟩ => rfl
      | ⟨1, _⟩ => show (k.val * 2 + c.val) / 2 % 256 = k.val; have := c.isLt; omega
      | ⟨2, _⟩ => show (k.val * 2 + c.val) % 2 = c.val; have := c.isLt; omega)
  have eb : idx_main_v208 (idx_main_v209 (idx_main_v210 (idx_main_v211 (ix2 r c)))) = ix2 (4 : Fin 8) c :=
    funext fun d => Fin.ext (by
      match d with
      | ⟨0, _⟩ => rfl
      | ⟨1, _⟩ => show c.val % 2 = c.val; have := c.isLt; omega)
  simp only [el, er, eb, hsecond]
  rfl

/-- Head 4, the mean: column 0 of the output pair. -/
theorem mean4_spec (a : RW.Args)
    (hcat : ∀ (r : Fin 65536) (k : Fin 260),
      val_main_v186 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 4) k.val) :
    ∀ (r : Fin 65536),
      val_main_v214 (F := Ideal) a.a0 a.a2 a.a3 a.a4 a.a5 a.a6 a.a7 a.a8 a.a9 a.a10 a.a11 a.a12 a.a13 (ix2 r (0 : Fin 1))
        = Spec.mean (RW.WR a) (Spec.hid (RW.WR a) (RW.rowR a r)) 4 := by
  intro r
  have hout := out4_spec a hcat
  have e : idx_main_v214 (ix2 r (0 : Fin 1)) = ix2 r (0 : Fin 2) := funext fun d => Fin.ext (by
    match d with
    | ⟨0, _⟩ => rfl
    | ⟨1, _⟩ => rfl)
  simp only [val_main_v214_apply, e, hout]
  rfl

/-- Head 4, the logarithm of the standard deviation before clipping: column 1 of the output pair. -/
theorem lstd4_spec (a : RW.Args)
    (hcat : ∀ (r : Fin 65536) (k : Fin 260),
      val_main_v186 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 4) k.val) :
    ∀ (r : Fin 65536),
      val_main_v215 (F := Ideal) a.a0 a.a2 a.a3 a.a4 a.a5 a.a6 a.a7 a.a8 a.a9 a.a10 a.a11 a.a12 a.a13 (ix2 r (0 : Fin 1))
        = Spec.lstd (RW.WR a) (Spec.hid (RW.WR a) (RW.rowR a r)) 4 := by
  intro r
  have hout := out4_spec a hcat
  have e : idx_main_v215 (ix2 r (0 : Fin 1)) = ix2 r (1 : Fin 2) := funext fun d => Fin.ext (by
    match d with
    | ⟨0, _⟩ => rfl
    | ⟨1, _⟩ => rfl)
  simp only [val_main_v215_apply, e, hout]
  rfl

/-- Head 4, the sample: mean + exp (clipped log standard deviation) * eps, eps being column 4 of the noise row. -/
theorem sample4_spec (a : RW.Args)
    (hcat : ∀ (r : Fin 65536) (k : Fin 260),
      val_main_v186 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 4) k.val) :
    ∀ (r : Fin 65536),
      val_main_v220 (F := Ideal) a.a0 a.a1 a.a2 a.a3 a.a4 a.a5 a.a6 a.a7 a.a8 a.a9 a.a10 a.a11 a.a12 a.a13
          (ix2 r (0 : Fin 1))
        = Spec.outSample (RW.WR a) (RW.rowR a r) (RW.epsR a r) 4 := by
  intro r
  have hm := mean4_spec a hcat
  have hl := lstd4_spec a hcat
  have ee : idx_main_v218 (ix2 r (0 : Fin 1)) = ix2 r (4 : Fin 8) := funext fun d => Fin.ext (by
    match d with
    | ⟨0, _⟩ => rfl
    | ⟨1, _⟩ => rfl)
  simp only [val_main_v220_apply, val_main_v219_apply, val_main_v217_apply, val_main_v216_apply,
    val_main_call22_v4_apply, val_main_call22_v3_apply, val_main_call22_v2_apply, val_main_call22_v1_apply,
    val_main_call22_v0_apply, val_main_cst_15_apply, val_main_cst_16_apply, val_main_v218_apply, ee, hm, hl]
  rfl

/-- Head 4, the log density of the sample: -(1/2) ((sample - mean) / s)^2 - log s - (1/2) log (2 pi), s = exp (clip). -/
theorem logp4_spec (a : RW.Args)
    (hcat : ∀ (r : Fin 65536) (k : Fin 260),
      val_main_v186 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 4) k.val) :
    ∀ (r : Fin 65536),
      val_main_v228 (F := Ideal) a.a0 a.a1 a.a2 a.a3 a.a4 a.a5 a.a6 a.a7 a.a8 a.a9 a.a10 a.a11 a.a12 a.a13
          (ix2 r (0 : Fin 1))
        = Spec.outLogp (RW.WR a) (RW.rowR a r) (RW.epsR a r) 4 := by
  intro r
  have hm := mean4_spec a hcat
  have hl := lstd4_spec a hcat
  have ee : idx_main_v218 (ix2 r (0 : Fin 1)) = ix2 r (4 : Fin 8) := funext fun d => Fin.ext (by
    match d with
    | ⟨0, _⟩ => rfl
    | ⟨1, _⟩ => rfl)
  simp only [val_main_v228_apply, val_main_v227_apply, val_main_cst_18_apply, val_main_v226_apply,
    val_main_v225_apply, val_main_v224_apply, val_main_cst_17_apply, val_main_v223_apply, val_main_v222_apply,
    val_main_v221_apply,
    val_main_v220_apply, val_main_v219_apply, val_main_v217_apply, val_main_v216_apply,
    val_main_call22_v4_apply, val_main_call22_v3_apply, val_main_call22_v2_apply, val_main_call22_v1_apply,
    val_main_call22_v0_apply, val_main_cst_15_apply, val_main_cst_16_apply, val_main_v218_apply, ee, hm, hl]
  rfl

/-- The row handed to head 5 (261 numbers): the row of head 4 followed by the mean of head 4. -/
theorem cat5_spec (a : RW.Args)
    (hcat : ∀ (r : Fin 65536) (k : Fin 260),
      val_main_v186 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 4) k.val) :
    ∀ (r : Fin 65536) (k : Fin 261),
      val_main_v229 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 5) k.val := by
  intro r k
  have hm := mean4_spec a hcat
  unfold val_main_v229
  by_cases hk : k.val < 260
  · refine (concatenate_pair_apply_left 1 _ _ concatenates_S65536x260_S65536x1_S65536x261_d1 (ix2 r k) rfl
      (ix2 r (⟨k.val, hk⟩ : Fin 260)) (fun b => by
        match b with
        | ⟨0, _⟩ => rfl
        | ⟨1, _⟩ => rfl)).trans ?_
    rw [hcat]
    exact (Spec.cat_snoc_lt (Spec.hid (RW.WR a) (RW.rowR a r))
      (Spec.before (RW.WR a) (Spec.hid (RW.WR a) (RW.rowR a r)) 4)
      (Spec.m4 (RW.WR a) (Spec.hid (RW.WR a) (RW.rowR a r))) k.val hk).symm
  · have hk' : k.val = 260 := by have := k.isLt; omega
    refine (concatenate_pair_apply_right 1 _ _ concatenates_S65536x260_S65536x1_S65536x261_d1 (ix2 r k) rfl rfl
      (ix2 r (0 : Fin 1)) (fun b hb => by
        match b with
        | ⟨0, _⟩ => rfl
        | ⟨1, _⟩ => exact absurd rfl hb) (by show 0 + 260 = k.val; omega)).trans ?_
    rw [hm, hk']
    exact (Spec.cat_snoc_last (Spec.hid (RW.WR a) (RW.rowR a r))
      (Spec.before (RW.WR a) (Spec.hid (RW.WR a) (RW.rowR a r)) 4)
      (Spec.m4 (RW.WR a) (Spec.hid (RW.WR a) (RW.rowR a r)))).symm

/-! ## Head 5 (input row of 261 numbers: the trunk's result and the means of heads 0..4) -/

/-- Head 5, first layer: coordinate n of row r is the rectified accumulation over the row "trunk result, means of
    heads 0..4" against rows 0..260 of head 5's first-layer weights, plus the bias (5, n). -/
theorem first5_spec (a : RW.Args)
    (hcat : ∀ (r : Fin 65536) (k : Fin 261),
      val_main_v229 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 5) k.val) :
    ∀ (r : Fin 65536) (n : Fin 256),
      val_main_v238 (F := Ideal) a.a0 a.a2 a.a3 a.a4 a.a5 a.a6 a.a7 a.a8 a.a9 a.a10 a.a11 a.a12 a.a13 (ix2 r n)
        = Spec.first (RW.WR a) (Spec.hid (RW.WR a) (RW.rowR a r))
            (Spec.before (RW.WR a) (Spec.hid (RW.WR a) (RW.rowR a r)) 5) 5 n := by
  intro r n
  simp only [val_main_v238_apply, val_main_v237_apply, val_main_v232_apply, val_main_v236_apply, val_main_v235_apply,
    val_main_v234_apply, val_main_v233_apply, val_main_call23_v0_apply, val_main_call23_cst_apply,
    val_main_v231_apply, val_main_v230_apply]
  have el : ∀ k : Fin 261, lidx_main_v232 (ix2 r n) k = ix2 r k := fun k => funext fun d => Fin.ext (by
    match d with
    | ⟨0, _⟩ => rfl
    | ⟨1, _⟩ => rfl)
  have er : ∀ k : Fin 261, idx_main_v230 (idx_main_v231 (ridx_main_v232 (ix2 r n) k))
      = ix3 (5 : Fin 8) (Fin.castLE (by decide : 261 ≤ 263) k) n :=
    fun k => funext fun d => Fin.ext (by
      match d with
      | ⟨0, _⟩ => rfl
      | ⟨1, _⟩ => show (k.val * 256 + n.val) / 256 % 261 = k.val; have := k.isLt; omega
      | ⟨2, _⟩ => show (k.val * 256 + n.val) % 256 = n.val; omega)
  have eb : idx_main_v233 (idx_main_v234 (idx_main_v235 (idx_main_v236 (ix2 r n)))) = ix2 (5 : Fin 8) n :=
    funext fun d => Fin.ext (by
      match d with
      | ⟨0, _⟩ => rfl
      | ⟨1, _⟩ => show n.val % 256 = n.val; omega)
  simp only [el, er, eb, hcat]
  have hs := first_sum (RW.WR a) (Spec.hid (RW.WR a) (RW.rowR a r))
    (Spec.before (RW.WR a) (Spec.hid (RW.WR a) (RW.rowR a r)) 5) 5 n 261 rfl (by decide)
  exact congrArg (fun s => Spec.relu (s + (RW.WR a).bin 5 n)) hs

/-- Head 5, second layer: coordinate n of row r is the rectified sum over k of the first layer's coordinate k times
    the second-layer weight (5, k, n), plus the bias (5, n). -/
theorem second5_spec (a : RW.Args)
    (hcat : ∀ (r : Fin 65536) (k : Fin 261),
      val_main_v229 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 5) k.val) :
    ∀ (r : Fin 65536) (n : Fin 256),
      val_main_v247 (F := Ideal) a.a0 a.a2 a.a3 a.a4 a.a5 a.a6 a.a7 a.a8 a.a9 a.a10 a.a11 a.a12 a.a13 (ix2 r n)
        = Spec.second (RW.WR a) (Spec.hid (RW.WR a) (RW.rowR a r))
            (Spec.before (RW.WR a) (Spec.hid (RW.WR a) (RW.rowR a r)) 5) 5 n := by
  intro r n
  have hfirst := first5_spec a hcat
  simp only [val_main_v247_apply, val_main_v246_apply, val_main_v241_apply, val_main_v245_apply, val_main_v244_apply,
    val_main_v243_apply, val_main_v242_apply, val_main_call24_v0_apply, val_main_call24_cst_apply,
    val_main_v240_apply, val_main_v239_apply]
  have el : ∀ k : Fin 256, lidx_main_v241 (ix2 r n) k = ix2 r k := fun k => funext fun d => Fin.ext (by
    match d with
    | ⟨0, _⟩ => rfl
    | ⟨1, _⟩ => rfl)
  have er : ∀ k : Fin 256, idx_main_v239 (idx_main_v240 (ridx_main_v241 (ix2 r n) k)) = ix3 (5 : Fin 8) k n :=
    fun k => funext fun d => Fin.ext (by
      match d with
      | ⟨0, _⟩ => rfl
      | ⟨1, _⟩ => show (k.val * 256 + n.val) / 256 % 256 = k.val; omega
      | ⟨2, _⟩ => show (k.val * 256 + n.val) % 256 = n.val; omega)
  have eb : idx_main_v242 (idx_main_v243 (idx_main_v244 (idx_main_v245 (ix2 r n)))) = ix2 (5 : Fin 8) n :=
    funext fun d => Fin.ext (by
      match d with
      | ⟨0, _⟩ => rfl
      | ⟨1, _⟩ => show n.val % 256 = n.val; omega)
  simp only [el, er, eb, hfirst]
  rfl

/-- Head 5, output pair: column c of row r is the rectified sum over k of the second layer's coordinate k times the
    output weight (5, k, c), plus the bias (5, c). -/
theorem out5_spec (a : RW.Args)
    (hcat : ∀ (r : Fin 65536) (k : Fin 261),
      val_main_v229 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 5) k.val) :
    ∀ (r : Fin 65536) (c : Fin 2),
      val_main_v256 (F := Ideal) a.a0 a.a2 a.a3 a.a4 a.a5 a.a6 a.a7 a.a8 a.a9 a.a10 a.a11 a.a12 a.a13 (ix2 r c)
        = Spec.outc (RW.WR a) (Spec.hid (RW.WR a) (RW.rowR a r))
            (Spec.before (RW.WR a) (Spec.hid (RW.WR a) (RW.rowR a r)) 5) 5 c := by
  intro r c
  have hsecond := second5_spec a hcat
  simp only [val_main_v256_apply, val_main_v255_apply, val_main_v250_apply, val_main_v254_apply, val_main_v253_apply,
    val_main_v252_apply, val_main_v251_apply, val_main_call25_v0_apply, val_main_call25_cst_apply,
    val_main_v249_apply, val_main_v248_apply]
  have el : ∀ k : Fin 256, lidx_main_v250 (ix2 r c) k = ix2 r k := fun k => funext fun d => Fin.ext (by
    match d with
    | ⟨0, _⟩ => rfl
    | ⟨1, _⟩ => rfl)
  have er : ∀ k : Fin 256, idx_main_v248 (idx_main_v249 (ridx_main_v250 (ix2 r c) k)) = ix3 (5 : Fin 8) k c :=
    fun k => funext fun d => Fin.ext (by
      match d with
      | ⟨0, _⟩ => rfl
      | ⟨1, _⟩ => show (k.val * 2 + c.val) / 2 % 256 = k.val; have := c.isLt; omega
      | ⟨2, _⟩ => show (k.val * 2 + c.val) % 2 = c.val; have := c.isLt; omega)
  have eb : idx_main_v251 (idx_main_v252 (idx_main_v253 (idx_main_v254 (ix2 r c)))) = ix2 (5 : Fin 8) c :=
    funext fun d => Fin.ext (by
      match d with
      | ⟨0, _⟩ => rfl
      | ⟨1, _⟩ => show c.val % 2 = c.val; have := c.isLt; omega)
  simp only [el, er, eb, hsecond]
  rfl

/-- Head 5, the mean: column 0 of the output pair. -/
theorem mean5_spec (a : RW.Args)
    (hcat : ∀ (r : Fin 65536) (k : Fin 261),
      val_main_v229 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 5) k.val) :
    ∀ (r : Fin 65536),
      val_main_v257 (F := Ideal) a.a0 a.a2 a.a3 a.a4 a.a5 a.a6 a.a7 a.a8 a.a9 a.a10 a.a11 a.a12 a.a13 (ix2 r (0 : Fin 1))
        = Spec.mean (RW.WR a) (Spec.hid (RW.WR a) (RW.rowR a r)) 5 := by
  intro r
  have hout := out5_spec a hcat
  have e : idx_main_v257 (ix2 r (0 : Fin 1)) = ix2 r (0 : Fin 2) := funext fun d => Fin.ext (by
    match d with
    | ⟨0, _⟩ => rfl
    | ⟨1, _⟩ => rfl)
  simp only [val_main_v257_apply, e, hout]
  rfl

/-- Head 5, the logarithm of the standard deviation before clipping: column 1 of the output pair. -/
theorem lstd5_spec (a : RW.Args)
    (hcat : ∀ (r : Fin 65536) (k : Fin 261),
      val_main_v229 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 5) k.val) :
    ∀ (r : Fin 65536),
      val_main_v258 (F := Ideal) a.a0 a.a2 a.a3 a.a4 a.a5 a.a6 a.a7 a.a8 a.a9 a.a10 a.a11 a.a12 a.a13 (ix2 r (0 : Fin 1))
        = Spec.lstd (RW.WR a) (Spec.hid (RW.WR a) (RW.rowR a r)) 5 := by
  intro r
  have hout := out5_spec a hcat
  have e : idx_main_v258 (ix2 r (0 : Fin 1)) = ix2 r (1 : Fin 2) := funext fun d => Fin.ext (by
    match d with
    | ⟨0, _⟩ => rfl
    | ⟨1, _⟩ => rfl)
  simp only [val_main_v258_apply, e, hout]
  rfl

/-- Head 5, the sample: mean + exp (clipped log standard deviation) * eps, eps being column 5 of the noise row. -/
theorem sample5_spec (a : RW.Args)
    (hcat : ∀ (r : Fin 65536) (k : Fin 261),
      val_main_v229 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 5) k.val) :
    ∀ (r : Fin 65536),
      val_main_v263 (F := Ideal) a.a0 a.a1 a.a2 a.a3 a.a4 a.a5 a.a6 a.a7 a.a8 a.a9 a.a10 a.a11 a.a12 a.a13
          (ix2 r (0 : Fin 1))
        = Spec.outSample (RW.WR a) (RW.rowR a r) (RW.epsR a r) 5 := by
  intro r
  have hm := mean5_spec a hcat
  have hl := lstd5_spec a hcat
  have ee : idx_main_v261 (ix2 r (0 : Fin 1)) = ix2 r (5 : Fin 8) := funext fun d => Fin.ext (by
    match d with
    | ⟨0, _⟩ => rfl
    | ⟨1, _⟩ => rfl)
  simp only [val_main_v263_apply, val_main_v262_apply, val_main_v260_apply, val_main_v259_apply,
    val_main_call26_v4_apply, val_main_call26_v3_apply, val_main_call26_v2_apply, val_main_call26_v1_apply,
    val_main_call26_v0_apply, val_main_cst_19_apply, val_main_cst_20_apply, val_main_v261_apply, ee, hm, hl]
  rfl

/-- Head 5, the log density of the sample: -(1/2) ((sample - mean) / s)^2 - log s - (1/2) log (2 pi), s = exp (clip). -/
theorem logp5_spec (a : RW.Args)
    (hcat : ∀ (r : Fin 65536) (k : Fin 261),
      val_main_v229 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 5) k.val) :
    ∀ (r : Fin 65536),
      val_main_v271 (F := Ideal) a.a0 a.a1 a.a2 a.a3 a.a4 a.a5 a.a6 a.a7 a.a8 a.a9 a.a10 a.a11 a.a12 a.a13
          (ix2 r (0 : Fin 1))
        = Spec.outLogp (RW.WR a) (RW.rowR a r) (RW.epsR a r) 5 := by
  intro r
  have hm := mean5_spec a hcat
  have hl := lstd5_spec a hcat
  have ee : idx_main_v261 (ix2 r (0 : Fin 1)) = ix2 r (5 : Fin 8) := funext fun d => Fin.ext (by
    match d with
    | ⟨0, _⟩ => rfl
    | ⟨1, _⟩ => rfl)
  simp only [val_main_v271_apply, val_main_v270_apply, val_main_cst_22_apply, val_main_v269_apply,
    val_main_v268_apply, val_main_v267_apply, val_main_cst_21_apply, val_main_v266_apply, val_main_v265_apply,
    val_main_v264_apply,
    val_main_v263_apply, val_main_v262_apply, val_main_v260_apply, val_main_v259_apply,
    val_main_call26_v4_apply, val_main_call26_v3_apply, val_main_call26_v2_apply, val_main_call26_v1_apply,
    val_main_call26_v0_apply, val_main_cst_19_apply, val_main_cst_20_apply, val_main_v261_apply, ee, hm, hl]
  rfl

/-- The row handed to head 6 (262 numbers): the row of head 5 followed by the mean of head 5. -/
theorem cat6_spec (a : RW.Args)
    (hcat : ∀ (r : Fin 65536) (k : Fin 261),
      val_main_v229 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 5) k.val) :
    ∀ (r : Fin 65536) (k : Fin 262),
      val_main_v272 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 6) k.val := by
  intro r k
  have hm := mean5_spec a hcat
  unfold val_main_v272
  by_cases hk : k.val < 261
  · refine (concatenate_pair_apply_left 1 _ _ concatenates_S65536x261_S65536x1_S65536x262_d1 (ix2 r k) rfl
      (ix2 r (⟨k.val, hk⟩ : Fin 261)) (fun b => by
        match b with
        | ⟨0, _⟩ => rfl
        | ⟨1, _⟩ => rfl)).trans ?_
    rw [hcat]
    exact (Spec.cat_snoc_lt (Spec.hid (RW.WR a) (RW.rowR a r))
      (Spec.before (RW.WR a) (Spec.hid (RW.WR a) (RW.rowR a r)) 5)
      (Spec.m5 (RW.WR a) (Spec.hid (RW.WR a) (RW.rowR a r))) k.val hk).symm
  · have hk' : k.val = 261 := by have := k.isLt; omega
    refine (concatenate_pair_apply_right 1 _ _ concatenates_S65536x261_S65536x1_S65536x262_d1 (ix2 r k) rfl rfl
      (ix2 r (0 : Fin 1)) (fun b hb => by
        match b with
        | ⟨0, _⟩ => rfl
        | ⟨1, _⟩ => exact absurd rfl hb) (by show 0 + 261 = k.val; omega)).trans ?_
    rw [hm, hk']
    exact (Spec.cat_snoc_last (Spec.hid (RW.WR a) (RW.rowR a r))
      (Spec.before (RW.WR a) (Spec.hid (RW.WR a) (RW.rowR a r)) 5)
      (Spec.m5 (RW.WR a) (Spec.hid (RW.WR a) (RW.rowR a r)))).symm

/-! ## Head 6 (input row of 262 numbers: the trunk's result and the means of heads 0..5) -/

/-- Head 6, first layer: coordinate n of row r is the rectified accumulation over the row "trunk result, means of
    heads 0..5" against rows 0..261 of head 6's first-layer weights, plus the bias (6, n). -/
theorem first6_spec (a : RW.Args)
    (hcat : ∀ (r : Fin 65536) (k : Fin 262),
      val_main_v272 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 6) k.val) :
    ∀ (r : Fin 65536) (n : Fin 256),
      val_main_v281 (F := Ideal) a.a0 a.a2 a.a3 a.a4 a.a5 a.a6 a.a7 a.a8 a.a9 a.a10 a.a11 a.a12 a.a13 (ix2 r n)
        = Spec.first (RW.WR a) (Spec.hid (RW.WR a) (RW.rowR a r))
            (Spec.before (RW.WR a) (Spec.hid (RW.WR a) (RW.rowR a r)) 6) 6 n := by
  intro r n
  simp only [val_main_v281_apply, val_main_v280_apply, val_main_v275_apply, val_main_v279_apply, val_main_v278_apply,
    val_main_v277_apply, val_main_v276_apply, val_main_call27_v0_apply, val_main_call27_cst_apply,
    val_main_v274_apply, val_main_v273_apply]
  have el : ∀ k : Fin 262, lidx_main_v275 (ix2 r n) k = ix2 r k := fun k => funext fun d => Fin.ext (by
    match d with
    | ⟨0, _⟩ => rfl
    | ⟨1, _⟩ => rfl)
  have er : ∀ k : Fin 262, idx_main_v273 (idx_main_v274 (ridx_main_v275 (ix2 r n) k))
      = ix3 (6 : Fin 8) (Fin.castLE (by decide : 262 ≤ 263) k) n :=
    fun k => funext fun d => Fin.ext (by
      match d with
      | ⟨0, _⟩ => rfl
      | ⟨1, _⟩ => show (k.val * 256 + n.val) / 256 % 262 = k.val; have := k.isLt; omega
      | ⟨2, _⟩ => show (k.val * 256 + n.val) % 256 = n.val; omega)
  have eb : idx_main_v276 (idx_main_v277 (idx_main_v278 (idx_main_v279 (ix2 r n)))) = ix2 (6 : Fin 8) n :=
    funext fun d => Fin.ext (by
      match d with
      | ⟨0, _⟩ => rfl
      | ⟨1, _⟩ => show n.val % 256 = n.val; omega)
  simp only [el, er, eb, hcat]
  have hs := first_sum (RW.WR a) (Spec.hid (RW.WR a) (RW.rowR a r))
    (Spec.before (RW.WR a) (Spec.hid (RW.WR a) (RW.rowR a r)) 6) 6 n 262 rfl (by decide)
  exact congrArg (fun s => Spec.relu (s + (RW.WR a).bin 6 n)) hs

/-- Head 6, second layer: coordinate n of row r is the rectified sum over k of the first layer's coordinate k times
    the second-layer weight (6, k, n), plus the bias (6, n). -/
theorem second6_spec (a : RW.Args)
    (hcat : ∀ (r : Fin 65536) (k : Fin 262),
      val_main_v272 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 6) k.val) :
    ∀ (r : Fin 65536) (n : Fin 256),
      val_main_v290 (F := Ideal) a.a0 a.a2 a.a3 a.a4 a.a5 a.a6 a.a7 a.a8 a.a9 a.a10 a.a11 a.a12 a.a13 (ix2 r n)
        = Spec.second (RW.WR a) (Spec.hid (RW.WR a) (RW.rowR a r))
            (Spec.before (RW.WR a) (Spec.hid (RW.WR a) (RW.rowR a r)) 6) 6 n := by
  intro r n
  have hfirst := first6_spec a hcat
  simp only [val_main_v290_apply, val_main_v289_apply, val_main_v284_apply, val_main_v288_apply, val_main_v287_apply,
    val_main_v286_apply, val_main_v285_apply, val_main_call28_v0_apply, val_main_call28_cst_apply,
    val_main_v283_apply, val_main_v282_apply]
  have el : ∀ k : Fin 256, lidx_main_v284 (ix2 r n) k = ix2 r k := fun k => funext fun d => Fin.ext (by
    match d with
    | ⟨0, _⟩ => rfl
    | ⟨1, _⟩ => rfl)
  have er : ∀ k : Fin 256, idx_main_v282 (idx_main_v283 (ridx_main_v284 (ix2 r n) k)) = ix3 (6 : Fin 8) k n :=
    fun k => funext fun d => Fin.ext (by
      match d with
      | ⟨0, _⟩ => rfl
      | ⟨1, _⟩ => show (k.val * 256 + n.val) / 256 % 256 = k.val; omega
      | ⟨2, _⟩ => show (k.val * 256 + n.val) % 256 = n.val; omega)
  have eb : idx_main_v285 (idx_main_v286 (idx_main_v287 (idx_main_v288 (ix2 r n)))) = ix2 (6 : Fin 8) n :=
    funext fun d => Fin.ext (by
      match d with
      | ⟨0, _⟩ => rfl
      | ⟨1, _⟩ => show n.val % 256 = n.val; omega)
  simp only [el, er, eb, hfirst]
  rfl

/-- Head 6, output pair: column c of row r is the rectified sum over k of the second layer's coordinate k times the
    output weight (6, k, c), plus the bias (6, c). -/
theorem out6_spec (a : RW.Args)
    (hcat : ∀ (r : Fin 65536) (k : Fin 262),
      val_main_v272 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 6) k.val) :
    ∀ (r : Fin 65536) (c : Fin 2),
      val_main_v299 (F := Ideal) a.a0 a.a2 a.a3 a.a4 a.a5 a.a6 a.a7 a.a8 a.a9 a.a10 a.a11 a.a12 a.a13 (ix2 r c)
        = Spec.outc (RW.WR a) (Spec.hid (RW.WR a) (RW.rowR a r))
            (Spec.before (RW.WR a) (Spec.hid (RW.WR a) (RW.rowR a r)) 6) 6 c := by
  intro r c
  have hsecond := second6_spec a hcat
  simp only [val_main_v299_apply, val_main_v298_apply, val_main_v293_apply, val_main_v297_apply, val_main_v296_apply,
    val_main_v295_apply, val_main_v294_apply, val_main_call29_v0_apply, val_main_call29_cst_apply,
    val_main_v292_apply, val_main_v291_apply]
  have el : ∀ k : Fin 256, lidx_main_v293 (ix2 r c) k = ix2 r k := fun k => funext fun d => Fin.ext (by
    match d with
    | ⟨0, _⟩ => rfl
    | ⟨1, _⟩ => rfl)
  have er : ∀ k : Fin 256, idx_main_v291 (idx_main_v292 (ridx_main_v293 (ix2 r c) k)) = ix3 (6 : Fin 8) k c :=
    fun k => funext fun d => Fin.ext (by
      match d with
      | ⟨0, _⟩ => rfl
      | ⟨1, _⟩ => show (k.val * 2 + c.val) / 2 % 256 = k.val; have := c.isLt; omega
      | ⟨2, _⟩ => show (k.val * 2 + c.val) % 2 = c.val; have := c.isLt; omega)
  have eb : idx_main_v294 (idx_main_v295 (idx_main_v296 (idx_main_v297 (ix2 r c)))) = ix2 (6 : Fin 8) c :=
    funext fun d => Fin.ext (by
      match d with
      | ⟨0, _⟩ => rfl
      | ⟨1, _⟩ => show c.val % 2 = c.val; have := c.isLt; omega)
  simp only [el, er, eb, hsecond]
  rfl

/-- Head 6, the mean: column 0 of the output pair. -/
theorem mean6_spec (a : RW.Args)
    (hcat : ∀ (r : Fin 65536) (k : Fin 262),
      val_main_v272 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 6) k.val) :
    ∀ (r : Fin 65536),
      val_main_v300 (F := Ideal) a.a0 a.a2 a.a3 a.a4 a.a5 a.a6 a.a7 a.a8 a.a9 a.a10 a.a11 a.a12 a.a13 (ix2 r (0 : Fin 1))
        = Spec.mean (RW.WR a) (Spec.hid (RW.WR a) (RW.rowR a r)) 6 := by
  intro r
  have hout := out6_spec a hcat
  have e : idx_main_v300 (ix2 r (0 : Fin 1)) = ix2 r (0 : Fin 2) := funext fun d => Fin.ext (by
    match d with
    | ⟨0, _⟩ => rfl
    | ⟨1, _⟩ => rfl)
  simp only [val_main_v300_apply, e, hout]
  rfl

/-- Head 6, the logarithm of the standard deviation before clipping: column 1 of the output pair. -/
theorem lstd6_spec (a : RW.Args)
    (hcat : ∀ (r : Fin 65536) (k : Fin 262),
      val_main_v272 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 6) k.val) :
    ∀ (r : Fin 65536),
      val_main_v301 (F := Ideal) a.a0 a.a2 a.a3 a.a4 a.a5 a.a6 a.a7 a.a8 a.a9 a.a10 a.a11 a.a12 a.a13 (ix2 r (0 : Fin 1))
        = Spec.lstd (RW.WR a) (Spec.hid (RW.WR a) (RW.rowR a r)) 6 := by
  intro r
  have hout := out6_spec a hcat
  have e : idx_main_v301 (ix2 r (0 : Fin 1)) = ix2 r (1 : Fin 2) := funext fun d => Fin.ext (by
    match d with
    | ⟨0, _⟩ => rfl
    | ⟨1, _⟩ => rfl)
  simp only [val_main_v301_apply, e, hout]
  rfl

/-- Head 6, the sample: mean + exp (clipped log standard deviation) * eps, eps being column 6 of the noise row. -/
theorem sample6_spec (a : RW.Args)
    (hcat : ∀ (r : Fin 65536) (k : Fin 262),
      val_main_v272 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 6) k.val) :
    ∀ (r : Fin 65536),
      val_main_v306 (F := Ideal) a.a0 a.a1 a.a2 a.a3 a.a4 a.a5 a.a6 a.a7 a.a8 a.a9 a.a10 a.a11 a.a12 a.a13
          (ix2 r (0 : Fin 1))
        = Spec.outSample (RW.WR a) (RW.rowR a r) (RW.epsR a r) 6 := by
  intro r
  have hm := mean6_spec a hcat
  have hl := lstd6_spec a hcat
  have ee : idx_main_v304 (ix2 r (0 : Fin 1)) = ix2 r (6 : Fin 8) := funext fun d => Fin.ext (by
    match d with
    | ⟨0, _⟩ => rfl
    | ⟨1, _⟩ => rfl)
  simp only [val_main_v306_apply, val_main_v305_apply, val_main_v303_apply, val_main_v302_apply,
    val_main_call30_v4_apply, val_main_call30_v3_apply, val_main_call30_v2_apply, val_main_call30_v1_apply,
    val_main_call30_v0_apply, val_main_cst_23_apply, val_main_cst_24_apply, val_main_v304_apply, ee, hm, hl]
  rfl

/-- Head 6, the log density of the sample: -(1/2) ((sample - mean) / s)^2 - log s - (1/2) log (2 pi), s = exp (clip). -/
theorem logp6_spec (a : RW.Args)
    (hcat : ∀ (r : Fin 65536) (k : Fin 262),
      val_main_v272 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 6) k.val) :
    ∀ (r : Fin 65536),
      val_main_v314 (F := Ideal) a.a0 a.a1 a.a2 a.a3 a.a4 a.a5 a.a6 a.a7 a.a8 a.a9 a.a10 a.a11 a.a12 a.a13
          (ix2 r (0 : Fin 1))
        = Spec.outLogp (RW.WR a) (RW.rowR a r) (RW.epsR a r) 6 := by
  intro r
  have hm := mean6_spec a hcat
  have hl := lstd6_spec a hcat
  have ee : idx_main_v304 (ix2 r (0 : Fin 1)) = ix2 r (6 : Fin 8) := funext fun d => Fin.ext (by
    match d with
    | ⟨0, _⟩ => rfl
    | ⟨1, _⟩ => rfl)
  simp only [val_main_v314_apply, val_main_v313_apply, val_main_cst_26_apply, val_main_v312_apply,
    val_main_v311_apply, val_main_v310_apply, val_main_cst_25_apply, val_main_v309_apply, val_main_v308_apply,
    val_main_v307_apply,
    val_main_v306_apply, val_main_v305_apply, val_main_v303_apply, val_main_v302_apply,
    val_main_call30_v4_apply, val_main_call30_v3_apply, val_main_call30_v2_apply, val_main_call30_v1_apply,
    val_main_call30_v0_apply, val_main_cst_23_apply, val_main_cst_24_apply, val_main_v304_apply, ee, hm, hl]
  rfl

/-- The row handed to head 7 (263 numbers): the row of head 6 followed by the mean of head 6. -/
theorem cat7_spec (a : RW.Args)
    (hcat : ∀ (r : Fin 65536) (k : Fin 262),
      val_main_v272 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 6) k.val) :
    ∀ (r : Fin 65536) (k : Fin 263),
      val_main_v315 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 7) k.val := by
  intro r k
  have hm := mean6_spec a hcat
  unfold val_main_v315
  by_cases hk : k.val < 262
  · refine (concatenate_pair_apply_left 1 _ _ concatenates_S65536x262_S65536x1_S65536x263_d1 (ix2 r k) rfl
      (ix2 r (⟨k.val, hk⟩ : Fin 262)) (fun b => by
        match b with
        | ⟨0, _⟩ => rfl
        | ⟨1, _⟩ => rfl)).trans ?_
    rw [hcat]
    exact (Spec.cat_snoc_lt (Spec.hid (RW.WR a) (RW.rowR a r))
      (Spec.before (RW.WR a) (Spec.hid (RW.WR a) (RW.rowR a r)) 6)
      (Spec.m6 (RW.WR a) (Spec.hid (RW.WR a) (RW.rowR a r))) k.val hk).symm
  · have hk' : k.val = 262 := by have := k.isLt; omega
    refine (concatenate_pair_apply_right 1 _ _ concatenates_S65536x262_S65536x1_S65536x263_d1 (ix2 r k) rfl rfl
      (ix2 r (0 : Fin 1)) (fun b hb => by
        match b with
        | ⟨0, _⟩ => rfl
        | ⟨1, _⟩ => exact absurd rfl hb) (by show 0 + 262 = k.val; omega)).trans ?_
    rw [hm, hk']
    exact (Spec.cat_snoc_last (Spec.hid (RW.WR a) (RW.rowR a r))
      (Spec.before (RW.WR a) (Spec.hid (RW.WR a) (RW.rowR a r)) 6)
      (Spec.m6 (RW.WR a) (Spec.hid (RW.WR a) (RW.rowR a r)))).symm

end Cert.ReferenceIdeal.RPart2

end
-- ==== Proof.RPart3.lean ====
/-
  The reference's last head (head 7) and its three results, read row by row.

  Each result array is eight one-column arrays laid side by side: column q of the result is the column of head q.
-/
import proofs.«418646_j6511170421537_4_alg».proof.Proof.Spec
import proofs.«418646_j6511170421537_4_alg».proof.Proof.ReadRef
import proofs.«418646_j6511170421537_4_alg».proof.Proof.RW
import proofs.«418646_j6511170421537_4_alg».proof.Proof.SpecCat
import Idealize.ShloMosaic.Lib.Pipeline.Value
import Idealize.ShloMosaic.Lib.ValueIdx

noncomputable section

namespace Cert.ReferenceIdeal.RPart3

open Idealize.ShloMosaic Idealize.ShloMosaic.ValueIdx Cert.ReferenceIdeal Cert.ReferenceIdeal.Gen

/-- One of eight things, chosen by a column number. -/
def pick8 {β : Type} (b0 b1 b2 b3 b4 b5 b6 b7 : β) : Fin 8 → β
  | ⟨0, _⟩ => b0
  | ⟨1, _⟩ => b1
  | ⟨2, _⟩ => b2
  | ⟨3, _⟩ => b3
  | ⟨4, _⟩ => b4
  | ⟨5, _⟩ => b5
  | ⟨6, _⟩ => b6
  | ⟨_ + 7, _⟩ => b7

/-- Off the column axis, the index (r, 0) of a one-column array and the index (r, q) of the eight-column array
    have the same coordinate (the row). -/
theorem row_coord (r : Fin 65536) (q : Fin 8) (hr : S65536x1.rank = S65536x8.rank) :
    ∀ b : Fin S65536x1.rank, b.cast hr ≠ (1 : Fin S65536x8.rank) →
      (ix2 r (0 : Fin 1) b).val = (ix2 r q (b.cast hr)).val := by
  intro b hb
  match b with
  | ⟨0, _⟩ => rfl
  | ⟨1, _⟩ => exact absurd rfl hb

/-- Eight one-column arrays laid side by side along the column axis: the element at row r, column q is the
    element of the q-th array at row r (its only column). -/
theorem concat8_apply {α : Type} (c0 c1 c2 c3 c4 c5 c6 c7 : S65536x1.Idx → α)
    (h : Shape.Concatenates
      (([⟨S65536x1, c0⟩, ⟨S65536x1, c1⟩, ⟨S65536x1, c2⟩, ⟨S65536x1, c3⟩, ⟨S65536x1, c4⟩, ⟨S65536x1, c5⟩,
        ⟨S65536x1, c6⟩, ⟨S65536x1, c7⟩] : List ((s : Shape) × (s.Idx → α))).map (·.1)) S65536x8 1)
    (r : Fin 65536) (q : Fin 8) :
    concatenate S65536x8 1 [⟨S65536x1, c0⟩, ⟨S65536x1, c1⟩, ⟨S65536x1, c2⟩, ⟨S65536x1, c3⟩, ⟨S65536x1, c4⟩,
        ⟨S65536x1, c5⟩, ⟨S65536x1, c6⟩, ⟨S65536x1, c7⟩] h (ix2 r q)
      = pick8 c0 c1 c2 c3 c4 c5 c6 c7 q (ix2 r (0 : Fin 1)) := by
  match q with
  | ⟨0, hq⟩ =>
    exact concatenate_apply_piece (1 : Fin S65536x8.rank) _ h _ 0 (by simp) S65536x1 c0 rfl rfl 0 rfl
      (ix2 r (0 : Fin 1)) (row_coord r ⟨0, hq⟩ rfl) rfl
  | ⟨1, hq⟩ =>
    exact concatenate_apply_piece (1 : Fin S65536x8.rank) _ h _ 1 (by simp) S65536x1 c1 rfl rfl 1 rfl
      (ix2 r (0 : Fin 1)) (row_coord r ⟨1, hq⟩ rfl) rfl
  | ⟨2, hq⟩ =>
    exact concatenate_apply_piece (1 : Fin S65536x8.rank) _ h _ 2 (by simp) S65536x1 c2 rfl rfl 2 rfl
      (ix2 r (0 : Fin 1)) (row_coord r ⟨2, hq⟩ rfl) rfl
  | ⟨3, hq⟩ =>
    exact concatenate_apply_piece (1 : Fin S65536x8.rank) _ h _ 3 (by simp) S65536x1 c3 rfl rfl 3 rfl
      (ix2 r (0 : Fin 1)) (row_coord r ⟨3, hq⟩ rfl) rfl
  | ⟨4, hq⟩ =>
    exact concatenate_apply_piece (1 : Fin S65536x8.rank) _ h _ 4 (by simp) S65536x1 c4 rfl rfl 4 rfl
      (ix2 r (0 : Fin 1)) (row_coord r ⟨4, hq⟩ rfl) rfl
  | ⟨5, hq⟩ =>
    exact concatenate_apply_piece (1 : Fin S65536x8.rank) _ h _ 5 (by simp) S65536x1 c5 rfl rfl 5 rfl
      (ix2 r (0 : Fin 1)) (row_coord r ⟨5, hq⟩ rfl) rfl
  | ⟨6, hq⟩ =>
    exact concatenate_apply_piece (1 : Fin S65536x8.rank) _ h _ 6 (by simp) S65536x1 c6 rfl rfl 6 rfl
      (ix2 r (0 : Fin 1)) (row_coord r ⟨6, hq⟩ rfl) rfl
  | ⟨7, hq⟩ =>
    exact concatenate_apply_piece (1 : Fin S65536x8.rank) _ h _ 7 (by simp) S65536x1 c7 rfl rfl 7 rfl
      (ix2 r (0 : Fin 1)) (row_coord r ⟨7, hq⟩ rfl) rfl

/-! ## The three results

  Column q of each result is the column of head q: the mean, the sample, the log density. -/

/-- The first result at row r, column q is the mean of head q on row r. -/
theorem result0_spec (a : RW.Args)
    (hm0 : ∀ r : Fin 65536, ReadP.val_main_v42 (F := Ideal) a.a0 a.a2 a.a3 a.a4 a.a5 a.a6 a.a7 a.a8 a.a9 a.a10 a.a11 a.a12 a.a13
      (ix2 r (0 : Fin 1)) = Spec.mean (RW.WR a) (Spec.hid (RW.WR a) (RW.rowR a r)) 0)
    (hm1 : ∀ r : Fin 65536, ReadP.val_main_v85 (F := Ideal) a.a0 a.a2 a.a3 a.a4 a.a5 a.a6 a.a7 a.a8 a.a9 a.a10 a.a11 a.a12 a.a13
      (ix2 r (0 : Fin 1)) = Spec.mean (RW.WR a) (Spec.hid (RW.WR a) (RW.rowR a r)) 1)
    (hm2 : ∀ r : Fin 65536, ReadP.val_main_v128 (F := Ideal) a.a0 a.a2 a.a3 a.a4 a.a5 a.a6 a.a7 a.a8 a.a9 a.a10 a.a11 a.a12 a.a13
      (ix2 r (0 : Fin 1)) = Spec.mean (RW.WR a) (Spec.hid (RW.WR a) (RW.rowR a r)) 2)
    (hm3 : ∀ r : Fin 65536, ReadP.val_main_v171 (F := Ideal) a.a0 a.a2 a.a3 a.a4 a.a5 a.a6 a.a7 a.a8 a.a9 a.a10 a.a11 a.a12 a.a13
      (ix2 r (0 : Fin 1)) = Spec.mean (RW.WR a) (Spec.hid (RW.WR a) (RW.rowR a r)) 3)
    (hm4 : ∀ r : Fin 65536, ReadP.val_main_v214 (F := Ideal) a.a0 a.a2 a.a3 a.a4 a.a5 a.a6 a.a7 a.a8 a.a9 a.a10 a.a11 a.a12 a.a13
      (ix2 r (0 : Fin 1)) = Spec.mean (RW.WR a) (Spec.hid (RW.WR a) (RW.rowR a r)) 4)
    (hm5 : ∀ r : Fin 65536, ReadP.val_main_v257 (F := Ideal) a.a0 a.a2 a.a3 a.a4 a.a5 a.a6 a.a7 a.a8 a.a9 a.a10 a.a11 a.a12 a.a13
      (ix2 r (0 : Fin 1)) = Spec.mean (RW.WR a) (Spec.hid (RW.WR a) (RW.rowR a r)) 5)
    (hm6 : ∀ r : Fin 65536, ReadP.val_main_v300 (F := Ideal) a.a0 a.a2 a.a3 a.a4 a.a5 a.a6 a.a7 a.a8 a.a9 a.a10 a.a11 a.a12 a.a13
      (ix2 r (0 : Fin 1)) = Spec.mean (RW.WR a) (Spec.hid (RW.WR a) (RW.rowR a r)) 6)
    (hm7 : ∀ r : Fin 65536, ReadP.val_main_v343 (F := Ideal) a.a0 a.a2 a.a3 a.a4 a.a5 a.a6 a.a7 a.a8 a.a9 a.a10 a.a11 a.a12 a.a13
      (ix2 r (0 : Fin 1)) = Spec.mean (RW.WR a) (Spec.hid (RW.WR a) (RW.rowR a r)) 7) :
    ∀ (r : Fin 65536) (q : Fin 8),
      ReadP.val_main_v359 (F := Ideal) a.a0 a.a2 a.a3 a.a4 a.a5 a.a6 a.a7 a.a8 a.a9 a.a10 a.a11 a.a12 a.a13 (ix2 r q)
        = Spec.outMean (RW.WR a) (RW.rowR a r) q := by
  intro r q
  unfold ReadP.val_main_v359
  refine (concat8_apply _ _ _ _ _ _ _ _ _ r q).trans ?_
  match q with
  | ⟨0, _⟩ => exact hm0 r
  | ⟨1, _⟩ => exact hm1 r
  | ⟨2, _⟩ => exact hm2 r
  | ⟨3, _⟩ => exact hm3 r
  | ⟨4, _⟩ => exact hm4 r
  | ⟨5, _⟩ => exact hm5 r
  | ⟨6, _⟩ => exact hm6 r
  | ⟨7, _⟩ => exact hm7 r

/-- The second result at row r, column q is the sample of head q on row r. -/
theorem result1_spec (a : RW.Args)
    (hs0 : ∀ r : Fin 65536, ReadP.val_main_v48 (F := Ideal) a.a0 a.a1 a.a2 a.a3 a.a4 a.a5 a.a6 a.a7 a.a8 a.a9 a.a10 a.a11 a.a12 a.a13
      (ix2 r (0 : Fin 1)) = Spec.outSample (RW.WR a) (RW.rowR a r) (RW.epsR a r) 0)
    (hs1 : ∀ r : Fin 65536, ReadP.val_main_v91 (F := Ideal) a.a0 a.a1 a.a2 a.a3 a.a4 a.a5 a.a6 a.a7 a.a8 a.a9 a.a10 a.a11 a.a12 a.a13
      (ix2 r (0 : Fin 1)) = Spec.outSample (RW.WR a) (RW.rowR a r) (RW.epsR a r) 1)
    (hs2 : ∀ r : Fin 65536, ReadP.val_main_v134 (F := Ideal) a.a0 a.a1 a.a2 a.a3 a.a4 a.a5 a.a6 a.a7 a.a8 a.a9 a.a10 a.a11 a.a12 a.a13
      (ix2 r (0 : Fin 1)) = Spec.outSample (RW.WR a) (RW.rowR a r) (RW.epsR a r) 2)
    (hs3 : ∀ r : Fin 65536, ReadP.val_main_v177 (F := Ideal) a.a0 a.a1 a.a2 a.a3 a.a4 a.a5 a.a6 a.a7 a.a8 a.a9 a.a10 a.a11 a.a12 a.a13
      (ix2 r (0 : Fin 1)) = Spec.outSample (RW.WR a) (RW.rowR a r) (RW.epsR a r) 3)
    (hs4 : ∀ r : Fin 65536, ReadP.val_main_v220 (F := Ideal) a.a0 a.a1 a.a2 a.a3 a.a4 a.a5 a.a6 a.a7 a.a8 a.a9 a.a10 a.a11 a.a12 a.a13
      (ix2 r (0 : Fin 1)) = Spec.outSample (RW.WR a) (RW.rowR a r) (RW.epsR a r) 4)
    (hs5 : ∀ r : Fin 65536, ReadP.val_main_v263 (F := Ideal) a.a0 a.a1 a.a2 a.a3 a.a4 a.a5 a.a6 a.a7 a.a8 a.a9 a.a10 a.a11 a.a12 a.a13
      (ix2 r (0 : Fin 1)) = Spec.outSample (RW.WR a) (RW.rowR a r) (RW.epsR a r) 5)
    (hs6 : ∀ r : Fin 65536, ReadP.val_main_v306 (F := Ideal) a.a0 a.a1 a.a2 a.a3 a.a4 a.a5 a.a6 a.a7 a.a8 a.a9 a.a10 a.a11 a.a12 a.a13
      (ix2 r (0 : Fin 1)) = Spec.outSample (RW.WR a) (RW.rowR a r) (RW.epsR a r) 6)
    (hs7 : ∀ r : Fin 65536, ReadP.val_main_v349 (F := Ideal) a.a0 a.a1 a.a2 a.a3 a.a4 a.a5 a.a6 a.a7 a.a8 a.a9 a.a10 a.a11 a.a12 a.a13
      (ix2 r (0 : Fin 1)) = Spec.outSample (RW.WR a) (RW.rowR a r) (RW.epsR a r) 7) :
    ∀ (r : Fin 65536) (q : Fin 8),
      ReadP.val_main_v360 (F := Ideal) a.a0 a.a1 a.a2 a.a3 a.a4 a.a5 a.a6 a.a7 a.a8 a.a9 a.a10 a.a11 a.a12 a.a13 (ix2 r q)
        = Spec.outSample (RW.WR a) (RW.rowR a r) (RW.epsR a r) q := by
  intro r q
  unfold ReadP.val_main_v360
  refine (concat8_apply _ _ _ _ _ _ _ _ _ r q).trans ?_
  match q with
  | ⟨0, _⟩ => exact hs0 r
  | ⟨1, _⟩ => exact hs1 r
  | ⟨2, _⟩ => exact hs2 r
  | ⟨3, _⟩ => exact hs3 r
  | ⟨4, _⟩ => exact hs4 r
  | ⟨5, _⟩ => exact hs5 r
  | ⟨6, _⟩ => exact hs6 r
  | ⟨7, _⟩ => exact hs7 r

/-- The third result at row r, column q is the log density of head q's sample on row r. -/
theorem result2_spec (a : RW.Args)
    (hl0 : ∀ r : Fin 65536, ReadP.val_main_v56 (F := Ideal) a.a0 a.a1 a.a2 a.a3 a.a4 a.a5 a.a6 a.a7 a.a8 a.a9 a.a10 a.a11 a.a12 a.a13
      (ix2 r (0 : Fin 1)) = Spec.outLogp (RW.WR a) (RW.rowR a r) (RW.epsR a r) 0)
    (hl1 : ∀ r : Fin 65536, ReadP.val_main_v99 (F := Ideal) a.a0 a.a1 a.a2 a.a3 a.a4 a.a5 a.a6 a.a7 a.a8 a.a9 a.a10 a.a11 a.a12 a.a13
      (ix2 r (0 : Fin 1)) = Spec.outLogp (RW.WR a) (RW.rowR a r) (RW.epsR a r) 1)
    (hl2 : ∀ r : Fin 65536, ReadP.val_main_v142 (F := Ideal) a.a0 a.a1 a.a2 a.a3 a.a4 a.a5 a.a6 a.a7 a.a8 a.a9 a.a10 a.a11 a.a12 a.a13
      (ix2 r (0 : Fin 1)) = Spec.outLogp (RW.WR a) (RW.rowR a r) (RW.epsR a r) 2)
    (hl3 : ∀ r : Fin 65536, ReadP.val_main_v185 (F := Ideal) a.a0 a.a1 a.a2 a.a3 a.a4 a.a5 a.a6 a.a7 a.a8 a.a9 a.a10 a.a11 a.a12 a.a13
      (ix2 r (0 : Fin 1)) = Spec.outLogp (RW.WR a) (RW.rowR a r) (RW.epsR a r) 3)
    (hl4 : ∀ r : Fin 65536, ReadP.val_main_v228 (F := Ideal) a.a0 a.a1 a.a2 a.a3 a.a4 a.a5 a.a6 a.a7 a.a8 a.a9 a.a10 a.a11 a.a12 a.a13
      (ix2 r (0 : Fin 1)) = Spec.outLogp (RW.WR a) (RW.rowR a r) (RW.epsR a r) 4)
    (hl5 : ∀ r : Fin 65536, ReadP.val_main_v271 (F := Ideal) a.a0 a.a1 a.a2 a.a3 a.a4 a.a5 a.a6 a.a7 a.a8 a.a9 a.a10 a.a11 a.a12 a.a13
      (ix2 r (0 : Fin 1)) = Spec.outLogp (RW.WR a) (RW.rowR a r) (RW.epsR a r) 5)
    (hl6 : ∀ r : Fin 65536, ReadP.val_main_v314 (F := Ideal) a.a0 a.a1 a.a2 a.a3 a.a4 a.a5 a.a6 a.a7 a.a8 a.a9 a.a10 a.a11 a.a12 a.a13
      (ix2 r (0 : Fin 1)) = Spec.outLogp (RW.WR a) (RW.rowR a r) (RW.epsR a r) 6)
    (hl7 : ∀ r : Fin 65536, ReadP.val_main_v357 (F := Ideal) a.a0 a.a1 a.a2 a.a3 a.a4 a.a5 a.a6 a.a7 a.a8 a.a9 a.a10 a.a11 a.a12 a.a13
      (ix2 r (0 : Fin 1)) = Spec.outLogp (RW.WR a) (RW.rowR a r) (RW.epsR a r) 7) :
    ∀ (r : Fin 65536) (q : Fin 8),
      ReadP.val_main_v361 (F := Ideal) a.a0 a.a1 a.a2 a.a3 a.a4 a.a5 a.a6 a.a7 a.a8 a.a9 a.a10 a.a11 a.a12 a.a13 (ix2 r q)
        = Spec.outLogp (RW.WR a) (RW.rowR a r) (RW.epsR a r) q := by
  intro r q
  unfold ReadP.val_main_v361
  refine (concat8_apply _ _ _ _ _ _ _ _ _ r q).trans ?_
  match q with
  | ⟨0, _⟩ => exact hl0 r
  | ⟨1, _⟩ => exact hl1 r
  | ⟨2, _⟩ => exact hl2 r
  | ⟨3, _⟩ => exact hl3 r
  | ⟨4, _⟩ => exact hl4 r
  | ⟨5, _⟩ => exact hl5 r
  | ⟨6, _⟩ => exact hl6 r
  | ⟨7, _⟩ => exact hl7 r

/-! ## Head 7, first layer

  The first layer's input on row r is the row "trunk result followed by the means of heads 0..6" (263 numbers). -/

/-- Row k of head 7's first-layer weights at column n, as a function of a natural number k (zero past row 262). -/
def wrow7 (a : RW.Args) (n : Fin 256) (k : ℕ) : EReal :=
  if hk : k < 263 then (RW.WR a).win 7 ⟨k, hk⟩ n else 0

/-- The sum of products over the 263 coordinates of the row "h followed by ms" (ms of length 7) against column n of
    head 7's first-layer weights is the sum over h's 256 coordinates followed by one product per entry of ms. -/
theorem sum263 (a : RW.Args) (h : Fin 256 → EReal) (ms : List EReal) (hl : 256 + ms.length = 263) (n : Fin 256) :
    (∑ k : Fin 263, Spec.cat h ms k.val * (RW.WR a).win 7 k n)
      = Spec.acc (∑ k : Fin 256, h k * (RW.WR a).win 7 (Fin.castLE (by decide) k) n) ms 0
          (Spec.corr (RW.WR a) 7 n) := by
  have s1 : (∑ k : Fin 263, Spec.cat h ms k.val * (RW.WR a).win 7 k n)
      = ∑ k ∈ Finset.range 263, Spec.cat h ms k * wrow7 a n k := by
    rw [Finset.sum_range]
    refine Finset.sum_congr rfl fun k _ => ?_
    unfold wrow7
    rw [dif_pos k.isLt]
  have s3 := Spec.sum_cat h ms (wrow7 a n)
  rw [hl] at s3
  have s2 : (∑ k : Fin 256, h k * wrow7 a n k.val)
      = ∑ k : Fin 256, h k * (RW.WR a).win 7 (Fin.castLE (by decide) k) n := by
    refine Finset.sum_congr rfl fun k _ => ?_
    unfold wrow7
    rw [dif_pos (show k.val < 263 from by have := k.isLt; omega)]
    rfl
  rw [s1, s3, s2]
  rfl

open ReadP in
/-- Head 7's first layer at row r, coordinate n. -/
theorem first7_spec (a : RW.Args)
    (hcat7 : ∀ (r : Fin 65536) (k : Fin 263),
      ReadP.val_main_v315 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 7) k.val) :
    ∀ (r : Fin 65536) (n : Fin 256),
      ReadP.val_main_v324 (F := Ideal) a.a0 a.a2 a.a3 a.a4 a.a5 a.a6 a.a7 a.a8 a.a9 a.a10 a.a11 a.a12 a.a13 (ix2 r n)
        = Spec.first (RW.WR a) (Spec.hid (RW.WR a) (RW.rowR a r))
            (Spec.before (RW.WR a) (Spec.hid (RW.WR a) (RW.rowR a r)) 7) 7 n := by
  intro r n
  simp only [val_main_v324_apply, val_main_v323_apply, val_main_v318_apply, val_main_v322_apply, val_main_v321_apply,
    val_main_v320_apply, val_main_v319_apply, val_main_call31_v0_apply, val_main_call31_cst_apply,
    val_main_v317_apply, val_main_v316_apply]
  have e1 : ∀ k : Fin 263, lidx_main_v318 (ix2 r n) k = ix2 r k := fun k =>
    funext fun b => Fin.ext (by
      match b with
      | ⟨0, _⟩ => rfl
      | ⟨1, _⟩ => rfl)
  have e2 : ∀ k : Fin 263,
      idx_main_v316 (idx_main_v317 (ridx_main_v318 (ix2 r n) k)) = ix3 (7 : Fin 8) k n := fun k =>
    funext fun b => Fin.ext (by
      match b with
      | ⟨0, _⟩ => rfl
      | ⟨1, _⟩ =>
        show (k.val * 256 + n.val) / 256 % 263 = k.val
        have hk := k.isLt
        have hn := n.isLt
        omega
      | ⟨2, _⟩ =>
        show (k.val * 256 + n.val) % 256 = n.val
        have hn := n.isLt
        omega)
  have e3 : idx_main_v319 (idx_main_v320 (idx_main_v321 (idx_main_v322 (ix2 r n)))) = ix2 (7 : Fin 8) n :=
    funext fun b => Fin.ext (by
      match b with
      | ⟨0, _⟩ => rfl
      | ⟨1, _⟩ =>
        show n.val % 256 = n.val
        have hn := n.isLt
        omega)
  simp only [e1, e2, e3, hcat7]
  exact (show _ = Spec.relu ((∑ k : Fin 263,
        Spec.cat (Spec.hid (RW.WR a) (RW.rowR a r))
          (Spec.before (RW.WR a) (Spec.hid (RW.WR a) (RW.rowR a r)) 7) k.val * (RW.WR a).win 7 k n)
        + (RW.WR a).bin 7 n) from rfl).trans
    (congrArg (fun s => Spec.relu (s + (RW.WR a).bin 7 n)) (sum263 a _ _ rfl n))

/-! ## Head 7, second layer and the output pair -/

open ReadP in
/-- Head 7's second layer at row r, coordinate n. -/
theorem second7_spec (a : RW.Args)
    (hcat7 : ∀ (r : Fin 65536) (k : Fin 263),
      ReadP.val_main_v315 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 7) k.val) :
    ∀ (r : Fin 65536) (n : Fin 256),
      ReadP.val_main_v333 (F := Ideal) a.a0 a.a2 a.a3 a.a4 a.a5 a.a6 a.a7 a.a8 a.a9 a.a10 a.a11 a.a12 a.a13 (ix2 r n)
        = Spec.second (RW.WR a) (Spec.hid (RW.WR a) (RW.rowR a r))
            (Spec.before (RW.WR a) (Spec.hid (RW.WR a) (RW.rowR a r)) 7) 7 n := by
  intro r n
  have hf := first7_spec a hcat7
  simp only [val_main_v333_apply, val_main_v332_apply, val_main_v327_apply, val_main_v331_apply, val_main_v330_apply,
    val_main_v329_apply, val_main_v328_apply, val_main_call32_v0_apply, val_main_call32_cst_apply,
    val_main_v326_apply, val_main_v325_apply]
  have e1 : ∀ k : Fin 256, lidx_main_v327 (ix2 r n) k = ix2 r k := fun k =>
    funext fun b => Fin.ext (by
      match b with
      | ⟨0, _⟩ => rfl
      | ⟨1, _⟩ => rfl)
  have e2 : ∀ k : Fin 256,
      idx_main_v325 (idx_main_v326 (ridx_main_v327 (ix2 r n) k)) = ix3 (7 : Fin 8) k n := fun k =>
    funext fun b => Fin.ext (by
      match b with
      | ⟨0, _⟩ => rfl
      | ⟨1, _⟩ =>
        show (k.val * 256 + n.val) / 256 % 256 = k.val
        have hk := k.isLt
        have hn := n.isLt
        omega
      | ⟨2, _⟩ =>
        show (k.val * 256 + n.val) % 256 = n.val
        have hn := n.isLt
        omega)
  have e3 : idx_main_v328 (idx_main_v329 (idx_main_v330 (idx_main_v331 (ix2 r n)))) = ix2 (7 : Fin 8) n :=
    funext fun b => Fin.ext (by
      match b with
      | ⟨0, _⟩ => rfl
      | ⟨1, _⟩ =>
        show n.val % 256 = n.val
        have hn := n.isLt
        omega)
  simp only [e1, e2, e3, hf]
  rfl

open ReadP in
/-- Head 7's two rectified outputs at row r: column c (0 the mean, 1 the log standard deviation before clipping). -/
theorem out7_spec (a : RW.Args)
    (hcat7 : ∀ (r : Fin 65536) (k : Fin 263),
      ReadP.val_main_v315 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 7) k.val) :
    ∀ (r : Fin 65536) (c : Fin 2),
      ReadP.val_main_v342 (F := Ideal) a.a0 a.a2 a.a3 a.a4 a.a5 a.a6 a.a7 a.a8 a.a9 a.a10 a.a11 a.a12 a.a13 (ix2 r c)
        = Spec.outc (RW.WR a) (Spec.hid (RW.WR a) (RW.rowR a r))
            (Spec.before (RW.WR a) (Spec.hid (RW.WR a) (RW.rowR a r)) 7) 7 c := by
  intro r c
  have hs := second7_spec a hcat7
  simp only [val_main_v342_apply, val_main_v341_apply, val_main_v336_apply, val_main_v340_apply, val_main_v339_apply,
    val_main_v338_apply, val_main_v337_apply, val_main_call33_v0_apply, val_main_call33_cst_apply,
    val_main_v335_apply, val_main_v334_apply]
  have e1 : ∀ k : Fin 256, lidx_main_v336 (ix2 r c) k = ix2 r k := fun k =>
    funext fun b => Fin.ext (by
      match b with
      | ⟨0, _⟩ => rfl
      | ⟨1, _⟩ => rfl)
  have e2 : ∀ k : Fin 256,
      idx_main_v334 (idx_main_v335 (ridx_main_v336 (ix2 r c) k)) = ix3 (7 : Fin 8) k c := fun k =>
    funext fun b => Fin.ext (by
      match b with
      | ⟨0, _⟩ => rfl
      | ⟨1, _⟩ =>
        show (k.val * 2 + c.val) / 2 % 256 = k.val
        have hk := k.isLt
        have hc := c.isLt
        omega
      | ⟨2, _⟩ =>
        show (k.val * 2 + c.val) % 2 = c.val
        have hc := c.isLt
        omega)
  have e3 : idx_main_v337 (idx_main_v338 (idx_main_v339 (idx_main_v340 (ix2 r c)))) = ix2 (7 : Fin 8) c :=
    funext fun b => Fin.ext (by
      match b with
      | ⟨0, _⟩ => rfl
      | ⟨1, _⟩ =>
        show c.val % 2 = c.val
        have hc := c.isLt
        omega)
  simp only [e1, e2, e3, hs]
  rfl

open ReadP in
/-- The mean of head 7 on row r: column 0 of the output pair. -/
theorem mean7_spec (a : RW.Args)
    (hcat7 : ∀ (r : Fin 65536) (k : Fin 263),
      ReadP.val_main_v315 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 7) k.val) :
    ∀ r : Fin 65536,
      ReadP.val_main_v343 (F := Ideal) a.a0 a.a2 a.a3 a.a4 a.a5 a.a6 a.a7 a.a8 a.a9 a.a10 a.a11 a.a12 a.a13
        (ix2 r (0 : Fin 1)) = Spec.mean (RW.WR a) (Spec.hid (RW.WR a) (RW.rowR a r)) 7 := by
  intro r
  have e : idx_main_v343 (ix2 r (0 : Fin 1)) = ix2 r (0 : Fin 2) :=
    funext fun b => Fin.ext (by
      match b with
      | ⟨0, _⟩ => rfl
      | ⟨1, _⟩ => rfl)
  simp only [val_main_v343_apply, e]
  exact out7_spec a hcat7 r 0

open ReadP in
/-- The log standard deviation of head 7 on row r before clipping: column 1 of the output pair. -/
theorem lstd7_spec (a : RW.Args)
    (hcat7 : ∀ (r : Fin 65536) (k : Fin 263),
      ReadP.val_main_v315 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 7) k.val) :
    ∀ r : Fin 65536,
      ReadP.val_main_v344 (F := Ideal) a.a0 a.a2 a.a3 a.a4 a.a5 a.a6 a.a7 a.a8 a.a9 a.a10 a.a11 a.a12 a.a13
        (ix2 r (0 : Fin 1)) = Spec.lstd (RW.WR a) (Spec.hid (RW.WR a) (RW.rowR a r)) 7 := by
  intro r
  have e : idx_main_v344 (ix2 r (0 : Fin 1)) = ix2 r (1 : Fin 2) :=
    funext fun b => Fin.ext (by
      match b with
      | ⟨0, _⟩ => rfl
      | ⟨1, _⟩ => rfl)
  simp only [val_main_v344_apply, e]
  exact out7_spec a hcat7 r 1

/-! ## Head 7, the sample and its log density

  The log standard deviation is clipped to [-20, 2]; s is its exponential; the sample is mean + s * eps with eps the
  entry of the noise row at column 7; the log density is -(1/2) ((sample - mean) / s)^2 - log s - (1/2) log (2 pi). -/

open ReadP in
/-- The sample of head 7 on row r. -/
theorem sample7_spec (a : RW.Args)
    (hcat7 : ∀ (r : Fin 65536) (k : Fin 263),
      ReadP.val_main_v315 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 7) k.val) :
    ∀ r : Fin 65536,
      ReadP.val_main_v349 (F := Ideal) a.a0 a.a1 a.a2 a.a3 a.a4 a.a5 a.a6 a.a7 a.a8 a.a9 a.a10 a.a11 a.a12 a.a13
        (ix2 r (0 : Fin 1)) = Spec.outSample (RW.WR a) (RW.rowR a r) (RW.epsR a r) 7 := by
  intro r
  have hm := mean7_spec a hcat7 r
  have hl := lstd7_spec a hcat7 r
  have e : idx_main_v347 (ix2 r (0 : Fin 1)) = ix2 r (7 : Fin 8) :=
    funext fun b => Fin.ext (by
      match b with
      | ⟨0, _⟩ => rfl
      | ⟨1, _⟩ => rfl)
  simp only [val_main_v349_apply, val_main_v348_apply, val_main_v346_apply, val_main_v345_apply,
    val_main_call34_v4_apply, val_main_call34_v3_apply, val_main_cst_28_apply, val_main_call34_v2_apply,
    val_main_call34_v1_apply, val_main_call34_v0_apply, val_main_cst_27_apply, val_main_v347_apply, e, hm, hl]
  rfl

open ReadP in
/-- The log density of head 7's sample on row r. -/
theorem logp7_spec (a : RW.Args)
    (hcat7 : ∀ (r : Fin 65536) (k : Fin 263),
      ReadP.val_main_v315 (F := Ideal) a.a0 a.a2 a.a3 a.a4 a.a5 a.a6 a.a7 a.a8 a.a9 a.a10 a.a11 a.a12 a.a13 (ix2 r k)
        = Spec.cat (Spec.hid (RW.WR a) (RW.rowR a r))
            (Spec.before (RW.WR a) (Spec.hid (RW.WR a) (RW.rowR a r)) 7) k.val) :
    ∀ r : Fin 65536,
      ReadP.val_main_v357 (F := Ideal) a.a0 a.a1 a.a2 a.a3 a.a4 a.a5 a.a6 a.a7 a.a8 a.a9 a.a10 a.a11 a.a12 a.a13
        (ix2 r (0 : Fin 1)) = Spec.outLogp (RW.WR a) (RW.rowR a r) (RW.epsR a r) 7 := by
  intro r
  have hm := mean7_spec a hcat7 r
  have hl := lstd7_spec a hcat7 r
  have e : idx_main_v347 (ix2 r (0 : Fin 1)) = ix2 r (7 : Fin 8) :=
    funext fun b => Fin.ext (by
      match b with
      | ⟨0, _⟩ => rfl
      | ⟨1, _⟩ => rfl)
  simp only [val_main_v357_apply, val_main_v356_apply, val_main_cst_30_apply, val_main_v355_apply,
    val_main_v354_apply, val_main_v353_apply, val_main_cst_29_apply, val_main_v352_apply, val_main_v351_apply,
    val_main_v350_apply, val_main_v349_apply, val_main_v348_apply, val_main_v346_apply, val_main_v345_apply,
    val_main_call34_v4_apply, val_main_call34_v3_apply, val_main_cst_28_apply, val_main_call34_v2_apply,
    val_main_call34_v1_apply, val_main_call34_v0_apply, val_main_cst_27_apply, val_main_v347_apply, e, hm, hl]
  rfl

end Cert.ReferenceIdeal.RPart3

end
-- ==== Proof.RAll.lean ====
/-
  The reference's three results as whole arrays: entry (r, q) of the means, of the samples and of the log densities
  is the network's output for row r of the inputs (and of the noise) at column q.

  Each head's input is the trunk's result followed by the means of the heads before it; from the description of head
  i's input follow head i's mean, sample and log density and the description of head i + 1's input. The eight columns
  laid side by side are the [65536, 8] results.
-/
import proofs.«418646_j6511170421537_4_alg».proof.Proof.GDefs
import proofs.«418646_j6511170421537_4_alg».proof.Proof.RPart0
import proofs.«418646_j6511170421537_4_alg».proof.Proof.RPart1
import proofs.«418646_j6511170421537_4_alg».proof.Proof.RPart2
import proofs.«418646_j6511170421537_4_alg».proof.Proof.RPart3

noncomputable section

namespace Cert.ReferenceIdeal.RAll

open Idealize.ShloMosaic Idealize.ShloMosaic.ValueIdx Cert.ReferenceIdeal

/-- The means: the first result is, entry by entry, column q of the mean for row r. -/
theorem gmean_eq (a : RW.Args) :
    ReadP.val_main_v359 (F := Ideal) a.a0 a.a2 a.a3 a.a4 a.a5 a.a6 a.a7 a.a8 a.a9 a.a10 a.a11 a.a12 a.a13
      = RW.GMean a := by
  have cat1 := RPart0.cat1_spec a
  have cat2 := RPart1.cat2_spec a cat1
  have cat3 := RPart1.cat3_spec a cat2
  have cat4 := RPart1.cat4_spec a cat3
  have cat5 := RPart2.cat5_spec a cat4
  have cat6 := RPart2.cat6_spec a cat5
  have cat7 := RPart2.cat7_spec a cat6
  have res := RPart3.result0_spec a (RPart0.mean0_spec a) (RPart1.mean1_spec a cat1) (RPart1.mean2_spec a cat2)
    (RPart1.mean3_spec a cat3) (RPart2.mean4_spec a cat4) (RPart2.mean5_spec a cat5) (RPart2.mean6_spec a cat6)
    (RPart3.mean7_spec a cat7)
  funext j
  have hj : j = ix2 (RW.rowOf j) (RW.colOf j) := ValueIdx.eq_ix2 j
  rw [hj]
  exact res (RW.rowOf j) (RW.colOf j)

/-- The samples: the second result is, entry by entry, column q of mean + exp (clipped log standard deviation) * eps for
    row r. -/
theorem gsample_eq (a : RW.Args) :
    ReadP.val_main_v360 (F := Ideal) a.a0 a.a1 a.a2 a.a3 a.a4 a.a5 a.a6 a.a7 a.a8 a.a9 a.a10 a.a11 a.a12 a.a13
      = RW.GSample a := by
  have cat1 := RPart0.cat1_spec a
  have cat2 := RPart1.cat2_spec a cat1
  have cat3 := RPart1.cat3_spec a cat2
  have cat4 := RPart1.cat4_spec a cat3
  have cat5 := RPart2.cat5_spec a cat4
  have cat6 := RPart2.cat6_spec a cat5
  have cat7 := RPart2.cat7_spec a cat6
  have res := RPart3.result1_spec a (RPart0.sample0_spec a) (RPart1.sample1_spec a cat1) (RPart1.sample2_spec a cat2)
    (RPart1.sample3_spec a cat3) (RPart2.sample4_spec a cat4) (RPart2.sample5_spec a cat5) (RPart2.sample6_spec a cat6)
    (RPart3.sample7_spec a cat7)
  funext j
  have hj : j = ix2 (RW.rowOf j) (RW.colOf j) := ValueIdx.eq_ix2 j
  rw [hj]
  exact res (RW.rowOf j) (RW.colOf j)

/-- The log densities: the third result is, entry by entry, column q of the logarithm of the normal density at the sample
    for row r. -/
theorem glogp_eq (a : RW.Args) :
    ReadP.val_main_v361 (F := Ideal) a.a0 a.a1 a.a2 a.a3 a.a4 a.a5 a.a6 a.a7 a.a8 a.a9 a.a10 a.a11 a.a12 a.a13
      = RW.GLogp a := by
  have cat1 := RPart0.cat1_spec a
  have cat2 := RPart1.cat2_spec a cat1
  have cat3 := RPart1.cat3_spec a cat2
  have cat4 := RPart1.cat4_spec a cat3
  have cat5 := RPart2.cat5_spec a cat4
  have cat6 := RPart2.cat6_spec a cat5
  have cat7 := RPart2.cat7_spec a cat6
  have res := RPart3.result2_spec a (RPart0.logp0_spec a) (RPart1.logp1_spec a cat1) (RPart1.logp2_spec a cat2)
    (RPart1.logp3_spec a cat3) (RPart2.logp4_spec a cat4) (RPart2.logp5_spec a cat5) (RPart2.logp6_spec a cat6)
    (RPart3.logp7_spec a cat7)
  funext j
  have hj : j = ix2 (RW.rowOf j) (RW.colOf j) := ValueIdx.eq_ix2 j
  rw [hj]
  exact res (RW.rowOf j) (RW.colOf j)

end Cert.ReferenceIdeal.RAll

end
-- ==== Proof.RunStages0.lean ====
/-
  The reference's run, stage by stage: the trunk.

  @main's operations are run in order from the launch contents; cut into ten lists (the trunk, the eight heads, the three
  results), the contents after the whole run are the contents after each list in turn. This module fixes what is carried from
  one list to the next — the fourteen argument arrays, which no operation writes — and runs the first list: after the trunk's
  operations the trunk result's buffer holds the trunk stage of the arguments.
-/
import proofs.«418646_j6511170421537_4_alg».proof.Proof.RunChunks
import proofs.«418646_j6511170421537_4_alg».proof.Proof.ReadRef
import proofs.«418646_j6511170421537_4_alg».proof.Proof.RW

noncomputable section

namespace Cert.ReferenceIdeal.RunStages

open Cert.ReferenceIdeal Cert.ReferenceIdeal.Gen Cert.ReferenceIdeal.RunP Idealize.ShloMosaic Idealize.ShloMosaic.TcCoe Idealize.SL.Sem
open Idealize.ShloMosaic.StableHlo

/-- The contents W hold the argument arrays a. -/
def ArgsAt (a : RW.Args) (W : Valuation τ sig (Elt Ideal)) : Prop :=
  W (Proc.devRef .tc main_arg0) = a.a0 ∧ W (Proc.devRef .tc main_arg1) = a.a1 ∧ W (Proc.devRef .tc main_arg2) = a.a2
  ∧ W (Proc.devRef .tc main_arg3) = a.a3 ∧ W (Proc.devRef .tc main_arg4) = a.a4 ∧ W (Proc.devRef .tc main_arg5) = a.a5
  ∧ W (Proc.devRef .tc main_arg6) = a.a6 ∧ W (Proc.devRef .tc main_arg7) = a.a7 ∧ W (Proc.devRef .tc main_arg8) = a.a8
  ∧ W (Proc.devRef .tc main_arg9) = a.a9 ∧ W (Proc.devRef .tc main_arg10) = a.a10 ∧ W (Proc.devRef .tc main_arg11) = a.a11
  ∧ W (Proc.devRef .tc main_arg12) = a.a12 ∧ W (Proc.devRef .tc main_arg13) = a.a13

/-- The trunk's operations write none of the argument arrays. -/
theorem argsAt_ops0 (a : RW.Args) (W : Valuation τ sig (Elt Ideal)) (h : ArgsAt a W) : ArgsAt a (after (ops0 (F := Ideal)) W) := by
  obtain ⟨h0, h1, h2, h3, h4, h5, h6, h7, h8, h9, h10, h11, h12, h13⟩ := h
  refine ⟨?_, ?_, ?_, ?_, ?_, ?_, ?_, ?_, ?_, ?_, ?_, ?_, ?_, ?_⟩
  · exact (by after_results_simp <;> rfl : after (ops0 (F := Ideal)) W (Proc.devRef .tc main_arg0) = W (Proc.devRef .tc main_arg0)).trans h0
  · exact (by after_results_simp <;> rfl : after (ops0 (F := Ideal)) W (Proc.devRef .tc main_arg1) = W (Proc.devRef .tc main_arg1)).trans h1
  · exact (by after_results_simp <;> rfl : after (ops0 (F := Ideal)) W (Proc.devRef .tc main_arg2) = W (Proc.devRef .tc main_arg2)).trans h2
  · exact (by after_results_simp <;> rfl : after (ops0 (F := Ideal)) W (Proc.devRef .tc main_arg3) = W (Proc.devRef .tc main_arg3)).trans h3
  · exact (by after_results_simp <;> rfl : after (ops0 (F := Ideal)) W (Proc.devRef .tc main_arg4) = W (Proc.devRef .tc main_arg4)).trans h4
  · exact (by after_results_simp <;> rfl : after (ops0 (F := Ideal)) W (Proc.devRef .tc main_arg5) = W (Proc.devRef .tc main_arg5)).trans h5
  · exact (by after_results_simp <;> rfl : after (ops0 (F := Ideal)) W (Proc.devRef .tc main_arg6) = W (Proc.devRef .tc main_arg6)).trans h6
  · exact (by after_results_simp <;> rfl : after (ops0 (F := Ideal)) W (Proc.devRef .tc main_arg7) = W (Proc.devRef .tc main_arg7)).trans h7
  · exact (by after_results_simp <;> rfl : after (ops0 (F := Ideal)) W (Proc.devRef .tc main_arg8) = W (Proc.devRef .tc main_arg8)).trans h8
  · exact (by after_results_simp <;> rfl : after (ops0 (F := Ideal)) W (Proc.devRef .tc main_arg9) = W (Proc.devRef .tc main_arg9)).trans h9
  · exact (by after_results_simp <;> rfl : after (ops0 (F := Ideal)) W (Proc.devRef .tc main_arg10) = W (Proc.devRef .tc main_arg10)).trans h10
  · exact (by after_results_simp <;> rfl : after (ops0 (F := Ideal)) W (Proc.devRef .tc main_arg11) = W (Proc.devRef .tc main_arg11)).trans h11
  · exact (by after_results_simp <;> rfl : after (ops0 (F := Ideal)) W (Proc.devRef .tc main_arg12) = W (Proc.devRef .tc main_arg12)).trans h12
  · exact (by after_results_simp <;> rfl : after (ops0 (F := Ideal)) W (Proc.devRef .tc main_arg13) = W (Proc.devRef .tc main_arg13)).trans h13

/-- After the trunk's operations the trunk result's buffer holds the trunk stage of the arguments. -/
theorem trunk_ops0 (a : RW.Args) (W : Valuation τ sig (Elt Ideal)) (h : ArgsAt a W) :
    after (ops0 (F := Ideal)) W (Proc.devRef .tc main_v14)
      = ReadP.val_main_v14 (F := Ideal) a.a0 a.a2 a.a3 a.a4 a.a5 a.a6 a.a7 := by
  obtain ⟨h0, -, h2, h3, h4, h5, h6, h7, -, -, -, -, -, -⟩ := h
  rw [← h0, ← h2, ← h3, ← h4, ← h5, ← h6, ← h7]
  after_results_simp <;> rfl

end Cert.ReferenceIdeal.RunStages

end
-- ==== Proof.RunStagesA.lean ====
/-
  The reference's run, stage by stage: heads 0 to 3.

  Head i's operations read the argument arrays and one input buffer (the trunk's result for head 0, the row "trunk result
  followed by the means of heads 0..i-1" for i >= 1). From any contents that hold the arguments and hold, at the input
  buffer, the input's stage of the arguments, the contents after the head's operations hold, at the buffers of the head's
  mean, sample, log density and of the next head's input row, the corresponding stages of the arguments; and they still
  hold the arguments, which no operation writes.

  Each statement is the operations' results composed in order: a buffer an operation does not write keeps its contents,
  the buffer it writes holds its function of the contents of the buffers it reads.
-/
import proofs.«418646_j6511170421537_4_alg».proof.Proof.RunStages0

noncomputable section

namespace Cert.ReferenceIdeal.RunStages

open Cert.ReferenceIdeal Cert.ReferenceIdeal.Gen Cert.ReferenceIdeal.RunP Idealize.ShloMosaic Idealize.ShloMosaic.TcCoe Idealize.SL.Sem
open Idealize.ShloMosaic.StableHlo

/-! ## Head 0 (its input is the trunk's result) -/

set_option maxHeartbeats 8000000 in
/-- Head 0's operations write none of the argument arrays. -/
theorem argsAt_ops1 (a : RW.Args) (W : Valuation τ sig (Elt Ideal)) (h : ArgsAt a W) : ArgsAt a (after (ops1 (F := Ideal)) W) := by
  obtain ⟨h0, h1, h2, h3, h4, h5, h6, h7, h8, h9, h10, h11, h12, h13⟩ := h
  refine ⟨?_, ?_, ?_, ?_, ?_, ?_, ?_, ?_, ?_, ?_, ?_, ?_, ?_, ?_⟩
  · exact (by after_results_simp <;> rfl : after (ops1 (F := Ideal)) W (Proc.devRef .tc main_arg0) = W (Proc.devRef .tc main_arg0)).trans h0
  · exact (by after_results_simp <;> rfl : after (ops1 (F := Ideal)) W (Proc.devRef .tc main_arg1) = W (Proc.devRef .tc main_arg1)).trans h1
  · exact (by after_results_simp <;> rfl : after (ops1 (F := Ideal)) W (Proc.devRef .tc main_arg2) = W (Proc.devRef .tc main_arg2)).trans h2
  · exact (by after_results_simp <;> rfl : after (ops1 (F := Ideal)) W (Proc.devRef .tc main_arg3) = W (Proc.devRef .tc main_arg3)).trans h3
  · exact (by after_results_simp <;> rfl : after (ops1 (F := Ideal)) W (Proc.devRef .tc main_arg4) = W (Proc.devRef .tc main_arg4)).trans h4
  · exact (by after_results_simp <;> rfl : after (ops1 (F := Ideal)) W (Proc.devRef .tc main_arg5) = W (Proc.devRef .tc main_arg5)).trans h5
  · exact (by after_results_simp <;> rfl : after (ops1 (F := Ideal)) W (Proc.devRef .tc main_arg6) = W (Proc.devRef .tc main_arg6)).trans h6
  · exact (by after_results_simp <;> rfl : after (ops1 (F := Ideal)) W (Proc.devRef .tc main_arg7) = W (Proc.devRef .tc main_arg7)).trans h7
  · exact (by after_results_simp <;> rfl : after (ops1 (F := Ideal)) W (Proc.devRef .tc main_arg8) = W (Proc.devRef .tc main_arg8)).trans h8
  · exact (by after_results_simp <;> rfl : after (ops1 (F := Ideal)) W (Proc.devRef .tc main_arg9) = W (Proc.devRef .tc main_arg9)).trans h9
  · exact (by after_results_simp <;> rfl : after (ops1 (F := Ideal)) W (Proc.devRef .tc main_arg10) = W (Proc.devRef .tc main_arg10)).trans h10
  · exact (by after_results_simp <;> rfl : after (ops1 (F := Ideal)) W (Proc.devRef .tc main_arg11) = W (Proc.devRef .tc main_arg11)).trans h11
  · exact (by after_results_simp <;> rfl : after (ops1 (F := Ideal)) W (Proc.devRef .tc main_arg12) = W (Proc.devRef .tc main_arg12)).trans h12
  · exact (by after_results_simp <;> rfl : after (ops1 (F := Ideal)) W (Proc.devRef .tc main_arg13) = W (Proc.devRef .tc main_arg13)).trans h13

set_option maxHeartbeats 8000000 in
/-- After head 0's operations the buffer of its mean holds the mean stage of the arguments. -/
theorem mean0_ops1 (a : RW.Args) (W : Valuation τ sig (Elt Ideal)) (hA : ArgsAt a W)
    (hin : W (Proc.devRef .tc main_v14) = ReadP.val_main_v14 (F := Ideal) a.a0 a.a2 a.a3 a.a4 a.a5 a.a6 a.a7) :
    after (ops1 (F := Ideal)) W (Proc.devRef .tc main_v42)
      = ReadP.val_main_v42 (F := Ideal) a.a0 a.a2 a.a3 a.a4 a.a5 a.a6 a.a7 a.a8 a.a9 a.a10 a.a11 a.a12 a.a13 := by
  obtain ⟨-, -, -, -, -, -, -, -, h8, h9, h10, h11, h12, h13⟩ := hA
  after_results_simp
  rw [hin, h8, h9, h10, h11, h12, h13]
  rfl

set_option maxHeartbeats 8000000 in
/-- After head 0's operations the buffer of its sample holds the sample stage of the arguments. -/
theorem sample0_ops1 (a : RW.Args) (W : Valuation τ sig (Elt Ideal)) (hA : ArgsAt a W)
    (hin : W (Proc.devRef .tc main_v14) = ReadP.val_main_v14 (F := Ideal) a.a0 a.a2 a.a3 a.a4 a.a5 a.a6 a.a7) :
    after (ops1 (F := Ideal)) W (Proc.devRef .tc main_v48)
      = ReadP.val_main_v48 (F := Ideal) a.a0 a.a1 a.a2 a.a3 a.a4 a.a5 a.a6 a.a7 a.a8 a.a9 a.a10 a.a11 a.a12 a.a13 := by
  obtain ⟨-, h1, -, -, -, -, -, -, h8, h9, h10, h11, h12, h13⟩ := hA
  after_results_simp
  rw [hin, h1, h8, h9, h10, h11, h12, h13]
  rfl

set_option maxHeartbeats 8000000 in
/-- After head 0's operations the buffer of its log density holds the log density stage of the arguments. -/
theorem logp0_ops1 (a : RW.Args) (W : Valuation τ sig (Elt Ideal)) (hA : ArgsAt a W)
    (hin : W (Proc.devRef .tc main_v14) = ReadP.val_main_v14 (F := Ideal) a.a0 a.a2 a.a3 a.a4 a.a5 a.a6 a.a7) :
    after (ops1 (F := Ideal)) W (Proc.devRef .tc main_v56)
      = ReadP.val_main_v56 (F := Ideal) a.a0 a.a1 a.a2 a.a3 a.a4 a.a5 a.a6 a.a7 a.a8 a.a9 a.a10 a.a11 a.a12 a.a13 := by
  obtain ⟨-, h1, -, -, -, -, -, -, h8, h9, h10, h11, h12, h13⟩ := hA
  after_results_simp
  rw [hin, h1, h8, h9, h10, h11, h12, h13]
  rfl

set_option maxHeartbeats 8000000 in
/-- After head 0's operations the buffer of head 1's input row holds the stage "trunk result followed by the mean
    of head 0" of the arguments: the last operation joins the contents of the trunk result's buffer, which head 0's
    operations do not write, and of the mean's buffer. -/
theorem cat1_ops1 (a : RW.Args) (W : Valuation τ sig (Elt Ideal)) (hA : ArgsAt a W)
    (hin : W (Proc.devRef .tc main_v14) = ReadP.val_main_v14 (F := Ideal) a.a0 a.a2 a.a3 a.a4 a.a5 a.a6 a.a7) :
    after (ops1 (F := Ideal)) W (Proc.devRef .tc main_v57)
      = ReadP.val_main_v57 (F := Ideal) a.a0 a.a2 a.a3 a.a4 a.a5 a.a6 a.a7 a.a8 a.a9 a.a10 a.a11 a.a12 a.a13 := by
  have e14 : after (ops1 (F := Ideal)) W (Proc.devRef .tc main_v14) = W (Proc.devRef .tc main_v14) := by
    after_results_simp <;> rfl
  have e57 : after (ops1 (F := Ideal)) W (Proc.devRef .tc main_v57)
      = concatenate S65536x257 1 [⟨S65536x256, after (ops1 (F := Ideal)) W (Proc.devRef .tc main_v14)⟩,
          ⟨S65536x1, after (ops1 (F := Ideal)) W (Proc.devRef .tc main_v42)⟩]
          concatenates_S65536x256_S65536x1_S65536x257_d1 := by
    after_results_simp <;> rfl
  rw [e57, e14, hin, mean0_ops1 a W hA hin]
  rfl

/-! ## Head 1 (its input is the row "trunk result followed by the mean of head 0") -/

set_option maxHeartbeats 8000000 in
/-- Head 1's operations write none of the argument arrays. -/
theorem argsAt_ops2 (a : RW.Args) (W : Valuation τ sig (Elt Ideal)) (h : ArgsAt a W) : ArgsAt a (after (ops2 (F := Ideal)) W) := by
  obtain ⟨h0, h1, h2, h3, h4, h5, h6, h7, h8, h9, h10, h11, h12, h13⟩ := h
  refine ⟨?_, ?_, ?_, ?_, ?_, ?_, ?_, ?_, ?_, ?_, ?_, ?_, ?_, ?_⟩
  · exact (by after_results_simp <;> rfl : after (ops2 (F := Ideal)) W (Proc.devRef .tc main_arg0) = W (Proc.devRef .tc main_arg0)).trans h0
  · exact (by after_results_simp <;> rfl : after (ops2 (F := Ideal)) W (Proc.devRef .tc main_arg1) = W (Proc.devRef .tc main_arg1)).trans h1
  · exact (by after_results_simp <;> rfl : after (ops2 (F := Ideal)) W (Proc.devRef .tc main_arg2) = W (Proc.devRef .tc main_arg2)).trans h2
  · exact (by after_results_simp <;> rfl : after (ops2 (F := Ideal)) W (Proc.devRef .tc main_arg3) = W (Proc.devRef .tc main_arg3)).trans h3
  · exact (by after_results_simp <;> rfl : after (ops2 (F := Ideal)) W (Proc.devRef .tc main_arg4) = W (Proc.devRef .tc main_arg4)).trans h4
  · exact (by after_results_simp <;> rfl : after (ops2 (F := Ideal)) W (Proc.devRef .tc main_arg5) = W (Proc.devRef .tc main_arg5)).trans h5
  · exact (by after_results_simp <;> rfl : after (ops2 (F := Ideal)) W (Proc.devRef .tc main_arg6) = W (Proc.devRef .tc main_arg6)).trans h6
  · exact (by after_results_simp <;> rfl : after (ops2 (F := Ideal)) W (Proc.devRef .tc main_arg7) = W (Proc.devRef .tc main_arg7)).trans h7
  · exact (by after_results_simp <;> rfl : after (ops2 (F := Ideal)) W (Proc.devRef .tc main_arg8) = W (Proc.devRef .tc main_arg8)).trans h8
  · exact (by after_results_simp <;> rfl : after (ops2 (F := Ideal)) W (Proc.devRef .tc main_arg9) = W (Proc.devRef .tc main_arg9)).trans h9
  · exact (by after_results_simp <;> rfl : after (ops2 (F := Ideal)) W (Proc.devRef .tc main_arg10) = W (Proc.devRef .tc main_arg10)).trans h10
  · exact (by after_results_simp <;> rfl : after (ops2 (F := Ideal)) W (Proc.devRef .tc main_arg11) = W (Proc.devRef .tc main_arg11)).trans h11
  · exact (by after_results_simp <;> rfl : after (ops2 (F := Ideal)) W (Proc.devRef .tc main_arg12) = W (Proc.devRef .tc main_arg12)).trans h12
  · exact (by after_results_simp <;> rfl : after (ops2 (F := Ideal)) W (Proc.devRef .tc main_arg13) = W (Proc.devRef .tc main_arg13)).trans h13

set_option maxHeartbeats 8000000 in
/-- After head 1's operations the buffer of its mean holds the mean stage of the arguments. -/
theorem mean1_ops2 (a : RW.Args) (W : Valuation τ sig (Elt Ideal)) (hA : ArgsAt a W)
    (hin : W (Proc.devRef .tc main_v57)
      = ReadP.val_main_v57 (F := Ideal) a.a0 a.a2 a.a3 a.a4 a.a5 a.a6 a.a7 a.a8 a.a9 a.a10 a.a11 a.a12 a.a13) :
    after (ops2 (F := Ideal)) W (Proc.devRef .tc main_v85)
      = ReadP.val_main_v85 (F := Ideal) a.a0 a.a2 a.a3 a.a4 a.a5 a.a6 a.a7 a.a8 a.a9 a.a10 a.a11 a.a12 a.a13 := by
  obtain ⟨-, -, -, -, -, -, -, -, h8, h9, h10, h11, h12, h13⟩ := hA
  after_results_simp
  rw [hin, h8, h9, h10, h11, h12, h13]
  rfl

set_option maxHeartbeats 8000000 in
/-- After head 1's operations the buffer of its sample holds the sample stage of the arguments. -/
theorem sample1_ops2 (a : RW.Args) (W : Valuation τ sig (Elt Ideal)) (hA : ArgsAt a W)
    (hin : W (Proc.devRef .tc main_v57)
      = ReadP.val_main_v57 (F := Ideal) a.a0 a.a2 a.a3 a.a4 a.a5 a.a6 a.a7 a.a8 a.a9 a.a10 a.a11 a.a12 a.a13) :
    after (ops2 (F := Ideal)) W (Proc.devRef .tc main_v91)
      = ReadP.val_main_v91 (F := Ideal) a.a0 a.a1 a.a2 a.a3 a.a4 a.a5 a.a6 a.a7 a.a8 a.a9 a.a10 a.a11 a.a12 a.a13 := by
  obtain ⟨-, h1, -, -, -, -, -, -, h8, h9, h10, h11, h12, h13⟩ := hA
  after_results_simp
  rw [hin, h1, h8, h9, h10, h11, h12, h13]
  rfl

set_option maxHeartbeats 8000000 in
/-- After head 1's operations the buffer of its log density holds the log density stage of the arguments. -/
theorem logp1_ops2 (a : RW.Args) (W : Valuation τ sig (Elt Ideal)) (hA : ArgsAt a W)
    (hin : W (Proc.devRef .tc main_v57)
      = ReadP.val_main_v57 (F := Ideal) a.a0 a.a2 a.a3 a.a4 a.a5 a.a6 a.a7 a.a8 a.a9 a.a10 a.a11 a.a12 a.a13) :
    after (ops2 (F := Ideal)) W (Proc.devRef .tc main_v99)
      = ReadP.val_main_v99 (F := Ideal) a.a0 a.a1 a.a2 a.a3 a.a4 a.a5 a.a6 a.a7 a.a8 a.a9 a.a10 a.a11 a.a12 a.a13 := by
  obtain ⟨-, h1, -, -, -, -, -, -, h8, h9, h10, h11, h12, h13⟩ := hA
  after_results_simp
  rw [hin, h1, h8, h9, h10, h11, h12, h13]
  rfl

set_option maxHeartbeats 8000000 in
/-- After head 1's operations the buffer of head 2's input row holds the stage "head 1's input row followed by the
    mean of head 1" of the arguments: the last operation joins the contents of head 1's input buffer, which head 1's
    operations do not write, and of the mean's buffer. -/
theorem cat2_ops2 (a : RW.Args) (W : Valuation τ sig (Elt Ideal)) (hA : ArgsAt a W)
    (hin : W (Proc.devRef .tc main_v57)
      = ReadP.val_main_v57 (F := Ideal) a.a0 a.a2 a.a3 a.a4 a.a5 a.a6 a.a7 a.a8 a.a9 a.a10 a.a11 a.a12 a.a13) :
    after (ops2 (F := Ideal)) W (Proc.devRef .tc main_v100)
      = ReadP.val_main_v100 (F := Ideal) a.a0 a.a2 a.a3 a.a4 a.a5 a.a6 a.a7 a.a8 a.a9 a.a10 a.a11 a.a12 a.a13 := by
  have e57 : after (ops2 (F := Ideal)) W (Proc.devRef .tc main_v57) = W (Proc.devRef .tc main_v57) := by
    after_results_simp <;> rfl
  have e100 : after (ops2 (F := Ideal)) W (Proc.devRef .tc main_v100)
      = concatenate S65536x258 1 [⟨S65536x257, after (ops2 (F := Ideal)) W (Proc.devRef .tc main_v57)⟩,
          ⟨S65536x1, after (ops2 (F := Ideal)) W (Proc.devRef .tc main_v85)⟩]
          concatenates_S65536x257_S65536x1_S65536x258_d1 := by
    after_results_simp <;> rfl
  rw [e100, e57, hin, mean1_ops2 a W hA hin]
  rfl

end Cert.ReferenceIdeal.RunStages

end
-- ==== Proof.RunStagesA2.lean ====
/-
  The reference's run, stage by stage: heads 2 and 3.

  Head i's operations read the argument arrays and one input buffer: the row "trunk result followed by the means of
  heads 0..i-1". From any contents that hold the arguments and hold, at the input buffer, the input row's stage of the
  arguments, the contents after the head's operations hold, at the buffers of the head's mean, sample, log density and
  of the next head's input row, the corresponding stages of the arguments; and they still hold the arguments, which no
  operation writes.

  Each statement is the operations' results composed in order: a buffer an operation does not write keeps its contents,
  the buffer it writes holds its function of the contents of the buffers it reads.
-/
import proofs.«418646_j6511170421537_4_alg».proof.Proof.RunStages0

noncomputable section

namespace Cert.ReferenceIdeal.RunStages

open Cert.ReferenceIdeal Cert.ReferenceIdeal.Gen Cert.ReferenceIdeal.RunP Idealize.ShloMosaic Idealize.ShloMosaic.TcCoe Idealize.SL.Sem
open Idealize.ShloMosaic.StableHlo

/-! ## Head 2 (its input is the row of 258 numbers: trunk result, mean of head 0, mean of head 1) -/

set_option maxHeartbeats 8000000 in
/-- Head 2's operations write none of the argument arrays. -/
theorem argsAt_ops3 (a : RW.Args) (W : Valuation τ sig (Elt Ideal)) (h : ArgsAt a W) : ArgsAt a (after (ops3 (F := Ideal)) W) := by
  obtain ⟨h0, h1, h2, h3, h4, h5, h6, h7, h8, h9, h10, h11, h12, h13⟩ := h
  refine ⟨?_, ?_, ?_, ?_, ?_, ?_, ?_, ?_, ?_, ?_, ?_, ?_, ?_, ?_⟩
  · exact (by after_results_simp <;> rfl : after (ops3 (F := Ideal)) W (Proc.devRef .tc main_arg0) = W (Proc.devRef .tc main_arg0)).trans h0
  · exact (by after_results_simp <;> rfl : after (ops3 (F := Ideal)) W (Proc.devRef .tc main_arg1) = W (Proc.devRef .tc main_arg1)).trans h1
  · exact (by after_results_simp <;> rfl : after (ops3 (F := Ideal)) W (Proc.devRef .tc main_arg2) = W (Proc.devRef .tc main_arg2)).trans h2
  · exact (by after_results_simp <;> rfl : after (ops3 (F := Ideal)) W (Proc.devRef .tc main_arg3) = W (Proc.devRef .tc main_arg3)).trans h3
  · exact (by after_results_simp <;> rfl : after (ops3 (F := Ideal)) W (Proc.devRef .tc main_arg4) = W (Proc.devRef .tc main_arg4)).trans h4
  · exact (by after_results_simp <;> rfl : after (ops3 (F := Ideal)) W (Proc.devRef .tc main_arg5) = W (Proc.devRef .tc main_arg5)).trans h5
  · exact (by after_results_simp <;> rfl : after (ops3 (F := Ideal)) W (Proc.devRef .tc main_arg6) = W (Proc.devRef .tc main_arg6)).trans h6
  · exact (by after_results_simp <;> rfl : after (ops3 (F := Ideal)) W (Proc.devRef .tc main_arg7) = W (Proc.devRef .tc main_arg7)).trans h7
  · exact (by after_results_simp <;> rfl : after (ops3 (F := Ideal)) W (Proc.devRef .tc main_arg8) = W (Proc.devRef .tc main_arg8)).trans h8
  · exact (by after_results_simp <;> rfl : after (ops3 (F := Ideal)) W (Proc.devRef .tc main_arg9) = W (Proc.devRef .tc main_arg9)).trans h9
  · exact (by after_results_simp <;> rfl : after (ops3 (F := Ideal)) W (Proc.devRef .tc main_arg10) = W (Proc.devRef .tc main_arg10)).trans h10
  · exact (by after_results_simp <;> rfl : after (ops3 (F := Ideal)) W (Proc.devRef .tc main_arg11) = W (Proc.devRef .tc main_arg11)).trans h11
  · exact (by after_results_simp <;> rfl : after (ops3 (F := Ideal)) W (Proc.devRef .tc main_arg12) = W (Proc.devRef .tc main_arg12)).trans h12
  · exact (by after_results_simp <;> rfl : after (ops3 (F := Ideal)) W (Proc.devRef .tc main_arg13) = W (Proc.devRef .tc main_arg13)).trans h13

set_option maxHeartbeats 8000000 in
/-- After head 2's operations the buffer of its mean holds the mean stage of the arguments. -/
theorem mean2_ops3 (a : RW.Args) (W : Valuation τ sig (Elt Ideal)) (hA : ArgsAt a W)
    (hin : W (Proc.devRef .tc main_v100)
      = ReadP.val_main_v100 (F := Ideal) a.a0 a.a2 a.a3 a.a4 a.a5 a.a6 a.a7 a.a8 a.a9 a.a10 a.a11 a.a12 a.a13) :
    after (ops3 (F := Ideal)) W (Proc.devRef .tc main_v128)
      = ReadP.val_main_v128 (F := Ideal) a.a0 a.a2 a.a3 a.a4 a.a5 a.a6 a.a7 a.a8 a.a9 a.a10 a.a11 a.a12 a.a13 := by
  obtain ⟨-, -, -, -, -, -, -, -, h8, h9, h10, h11, h12, h13⟩ := hA
  after_results_simp
  rw [hin, h8, h9, h10, h11, h12, h13]
  rfl

set_option maxHeartbeats 8000000 in
/-- After head 2's operations the buffer of its sample holds the sample stage of the arguments. -/
theorem sample2_ops3 (a : RW.Args) (W : Valuation τ sig (Elt Ideal)) (hA : ArgsAt a W)
    (hin : W (Proc.devRef .tc main_v100)
      = ReadP.val_main_v100 (F := Ideal) a.a0 a.a2 a.a3 a.a4 a.a5 a.a6 a.a7 a.a8 a.a9 a.a10 a.a11 a.a12 a.a13) :
    after (ops3 (F := Ideal)) W (Proc.devRef .tc main_v134)
      = ReadP.val_main_v134 (F := Ideal) a.a0 a.a1 a.a2 a.a3 a.a4 a.a5 a.a6 a.a7 a.a8 a.a9 a.a10 a.a11 a.a12 a.a13 := by
  obtain ⟨-, h1, -, -, -, -, -, -, h8, h9, h10, h11, h12, h13⟩ := hA
  after_results_simp
  rw [hin, h1, h8, h9, h10, h11, h12, h13]
  rfl

set_option maxHeartbeats 8000000 in
/-- After head 2's operations the buffer of its log density holds the log density stage of the arguments. -/
theorem logp2_ops3 (a : RW.Args) (W : Valuation τ sig (Elt Ideal)) (hA : ArgsAt a W)
    (hin : W (Proc.devRef .tc main_v100)
      = ReadP.val_main_v100 (F := Ideal) a.a0 a.a2 a.a3 a.a4 a.a5 a.a6 a.a7 a.a8 a.a9 a.a10 a.a11 a.a12 a.a13) :
    after (ops3 (F := Ideal)) W (Proc.devRef .tc main_v142)
      = ReadP.val_main_v142 (F := Ideal) a.a0 a.a1 a.a2 a.a3 a.a4 a.a5 a.a6 a.a7 a.a8 a.a9 a.a10 a.a11 a.a12 a.a13 := by
  obtain ⟨-, h1, -, -, -, -, -, -, h8, h9, h10, h11, h12, h13⟩ := hA
  after_results_simp
  rw [hin, h1, h8, h9, h10, h11, h12, h13]
  rfl

set_option maxHeartbeats 8000000 in
/-- After head 2's operations the buffer of head 3's input row holds the stage "input row of head 2 followed by the
    mean of head 2" of the arguments: the last operation joins the contents of head 2's input buffer, which head 2's
    operations do not write, and of the mean's buffer. -/
theorem cat3_ops3 (a : RW.Args) (W : Valuation τ sig (Elt Ideal)) (hA : ArgsAt a W)
    (hin : W (Proc.devRef .tc main_v100)
      = ReadP.val_main_v100 (F := Ideal) a.a0 a.a2 a.a3 a.a4 a.a5 a.a6 a.a7 a.a8 a.a9 a.a10 a.a11 a.a12 a.a13) :
    after (ops3 (F := Ideal)) W (Proc.devRef .tc main_v143)
      = ReadP.val_main_v143 (F := Ideal) a.a0 a.a2 a.a3 a.a4 a.a5 a.a6 a.a7 a.a8 a.a9 a.a10 a.a11 a.a12 a.a13 := by
  have e100 : after (ops3 (F := Ideal)) W (Proc.devRef .tc main_v100) = W (Proc.devRef .tc main_v100) := by
    after_results_simp <;> rfl
  have e143 : after (ops3 (F := Ideal)) W (Proc.devRef .tc main_v143)
      = concatenate S65536x259 1 [⟨S65536x258, after (ops3 (F := Ideal)) W (Proc.devRef .tc main_v100)⟩,
          ⟨S65536x1, after (ops3 (F := Ideal)) W (Proc.devRef .tc main_v128)⟩]
          concatenates_S65536x258_S65536x1_S65536x259_d1 := by
    after_results_simp <;> rfl
  rw [e143, e100, hin, mean2_ops3 a W hA hin]
  rfl

/-! ## Head 3 (its input is the row of 259 numbers: trunk result, means of heads 0, 1 and 2) -/

set_option maxHeartbeats 8000000 in
/-- Head 3's operations write none of the argument arrays. -/
theorem argsAt_ops4 (a : RW.Args) (W : Valuation τ sig (Elt Ideal)) (h : ArgsAt a W) : ArgsAt a (after (ops4 (F := Ideal)) W) := by
  obtain ⟨h0, h1, h2, h3, h4, h5, h6, h7, h8, h9, h10, h11, h12, h13⟩ := h
  refine ⟨?_, ?_, ?_, ?_, ?_, ?_, ?_, ?_, ?_, ?_, ?_, ?_, ?_, ?_⟩
  · exact (by after_results_simp <;> rfl : after (ops4 (F := Ideal)) W (Proc.devRef .tc main_arg0) = W (Proc.devRef .tc main_arg0)).trans h0
  · exact (by after_results_simp <;> rfl : after (ops4 (F := Ideal)) W (Proc.devRef .tc main_arg1) = W (Proc.devRef .tc main_arg1)).trans h1
  · exact (by after_results_simp <;> rfl : after (ops4 (F := Ideal)) W (Proc.devRef .tc main_arg2) = W (Proc.devRef .tc main_arg2)).trans h2
  · exact (by after_results_simp <;> rfl : after (ops4 (F := Ideal)) W (Proc.devRef .tc main_arg3) = W (Proc.devRef .tc main_arg3)).trans h3
  · exact (by after_results_simp <;> rfl : after (ops4 (F := Ideal)) W (Proc.devRef .tc main_arg4) = W (Proc.devRef .tc main_arg4)).trans h4
  · exact (by after_results_simp <;> rfl : after (ops4 (F := Ideal)) W (Proc.devRef .tc main_arg5) = W (Proc.devRef .tc main_arg5)).trans h5
  · exact (by after_results_simp <;> rfl : after (ops4 (F := Ideal)) W (Proc.devRef .tc main_arg6) = W (Proc.devRef .tc main_arg6)).trans h6
  · exact (by after_results_simp <;> rfl : after (ops4 (F := Ideal)) W (Proc.devRef .tc main_arg7) = W (Proc.devRef .tc main_arg7)).trans h7
  · exact (by after_results_simp <;> rfl : after (ops4 (F := Ideal)) W (Proc.devRef .tc main_arg8) = W (Proc.devRef .tc main_arg8)).trans h8
  · exact (by after_results_simp <;> rfl : after (ops4 (F := Ideal)) W (Proc.devRef .tc main_arg9) = W (Proc.devRef .tc main_arg9)).trans h9
  · exact (by after_results_simp <;> rfl : after (ops4 (F := Ideal)) W (Proc.devRef .tc main_arg10) = W (Proc.devRef .tc main_arg10)).trans h10
  · exact (by after_results_simp <;> rfl : after (ops4 (F := Ideal)) W (Proc.devRef .tc main_arg11) = W (Proc.devRef .tc main_arg11)).trans h11
  · exact (by after_results_simp <;> rfl : after (ops4 (F := Ideal)) W (Proc.devRef .tc main_arg12) = W (Proc.devRef .tc main_arg12)).trans h12
  · exact (by after_results_simp <;> rfl : after (ops4 (F := Ideal)) W (Proc.devRef .tc main_arg13) = W (Proc.devRef .tc main_arg13)).trans h13

set_option maxHeartbeats 8000000 in
/-- After head 3's operations the buffer of its mean holds the mean stage of the arguments. -/
theorem mean3_ops4 (a : RW.Args) (W : Valuation τ sig (Elt Ideal)) (hA : ArgsAt a W)
    (hin : W (Proc.devRef .tc main_v143)
      = ReadP.val_main_v143 (F := Ideal) a.a0 a.a2 a.a3 a.a4 a.a5 a.a6 a.a7 a.a8 a.a9 a.a10 a.a11 a.a12 a.a13) :
    after (ops4 (F := Ideal)) W (Proc.devRef .tc main_v171)
      = ReadP.val_main_v171 (F := Ideal) a.a0 a.a2 a.a3 a.a4 a.a5 a.a6 a.a7 a.a8 a.a9 a.a10 a.a11 a.a12 a.a13 := by
  obtain ⟨-, -, -, -, -, -, -, -, h8, h9, h10, h11, h12, h13⟩ := hA
  after_results_simp
  rw [hin, h8, h9, h10, h11, h12, h13]
  rfl

set_option maxHeartbeats 8000000 in
/-- After head 3's operations the buffer of its sample holds the sample stage of the arguments. -/
theorem sample3_ops4 (a : RW.Args) (W : Valuation τ sig (Elt Ideal)) (hA : ArgsAt a W)
    (hin : W (Proc.devRef .tc main_v143)
      = ReadP.val_main_v143 (F := Ideal) a.a0 a.a2 a.a3 a.a4 a.a5 a.a6 a.a7 a.a8 a.a9 a.a10 a.a11 a.a12 a.a13) :
    after (ops4 (F := Ideal)) W (Proc.devRef .tc main_v177)
      = ReadP.val_main_v177 (F := Ideal) a.a0 a.a1 a.a2 a.a3 a.a4 a.a5 a.a6 a.a7 a.a8 a.a9 a.a10 a.a11 a.a12 a.a13 := by
  obtain ⟨-, h1, -, -, -, -, -, -, h8, h9, h10, h11, h12, h13⟩ := hA
  after_results_simp
  rw [hin, h1, h8, h9, h10, h11, h12, h13]
  rfl

set_option maxHeartbeats 8000000 in
/-- After head 3's operations the buffer of its log density holds the log density stage of the arguments. -/
theorem logp3_ops4 (a : RW.Args) (W : Valuation τ sig (Elt Ideal)) (hA : ArgsAt a W)
    (hin : W (Proc.devRef .tc main_v143)
      = ReadP.val_main_v143 (F := Ideal) a.a0 a.a2 a.a3 a.a4 a.a5 a.a6 a.a7 a.a8 a.a9 a.a10 a.a11 a.a12 a.a13) :
    after (ops4 (F := Ideal)) W (Proc.devRef .tc main_v185)
      = ReadP.val_main_v185 (F := Ideal) a.a0 a.a1 a.a2 a.a3 a.a4 a.a5 a.a6 a.a7 a.a8 a.a9 a.a10 a.a11 a.a12 a.a13 := by
  obtain ⟨-, h1, -, -, -, -, -, -, h8, h9, h10, h11, h12, h13⟩ := hA
  after_results_simp
  rw [hin, h1, h8, h9, h10, h11, h12, h13]
  rfl

set_option maxHeartbeats 8000000 in
/-- After head 3's operations the buffer of head 4's input row holds the stage "input row of head 3 followed by the
    mean of head 3" of the arguments: the last operation joins the contents of head 3's input buffer, which head 3's
    operations do not write, and of the mean's buffer. -/
theorem cat4_ops4 (a : RW.Args) (W : Valuation τ sig (Elt Ideal)) (hA : ArgsAt a W)
    (hin : W (Proc.devRef .tc main_v143)
      = ReadP.val_main_v143 (F := Ideal) a.a0 a.a2 a.a3 a.a4 a.a5 a.a6 a.a7 a.a8 a.a9 a.a10 a.a11 a.a12 a.a13) :
    after (ops4 (F := Ideal)) W (Proc.devRef .tc main_v186)
      = ReadP.val_main_v186 (F := Ideal) a.a0 a.a2 a.a3 a.a4 a.a5 a.a6 a.a7 a.a8 a.a9 a.a10 a.a11 a.a12 a.a13 := by
  have e143 : after (ops4 (F := Ideal)) W (Proc.devRef .tc main_v143) = W (Proc.devRef .tc main_v143) := by
    after_results_simp <;> rfl
  have e186 : after (ops4 (F := Ideal)) W (Proc.devRef .tc main_v186)
      = concatenate S65536x260 1 [⟨S65536x259, after (ops4 (F := Ideal)) W (Proc.devRef .tc main_v143)⟩,
          ⟨S65536x1, after (ops4 (F := Ideal)) W (Proc.devRef .tc main_v171)⟩]
          concatenates_S65536x259_S65536x1_S65536x260_d1 := by
    after_results_simp <;> rfl
  rw [e186, e143, hin, mean3_ops4 a W hA hin]
  rfl

end Cert.ReferenceIdeal.RunStages

end
-- ==== Proof.RunStagesB.lean ====
/-
  The reference's run, stage by stage: heads 4 and 5.

  Head i reads the concatenation cat_i (the trunk result followed by the means of heads 0..i-1) and the argument arrays, and
  writes its mean, its sample, its log density and the next concatenation cat_(i+1) (cat_i with the mean of head i appended
  as one more column). For each of the two heads: its operations write none of the argument arrays; and, from any contents
  that hold the arguments and hold the stage cat_i at its buffer, after the head's operations the four buffers hold the
  corresponding stages of the arguments.
-/
import proofs.«418646_j6511170421537_4_alg».proof.Proof.RunStages0

noncomputable section

namespace Cert.ReferenceIdeal.RunStages

open Cert.ReferenceIdeal Cert.ReferenceIdeal.Gen Cert.ReferenceIdeal.RunP Idealize.ShloMosaic Idealize.ShloMosaic.TcCoe Idealize.SL.Sem
open Idealize.ShloMosaic.StableHlo

/-- A concatenation of two pieces depends only on the two pieces. -/
theorem concat_pair_congr {α : Type} {t s₁ s₂ : Shape} (ax : Fin t.rank) (x₁ y₁ : s₁.Idx → α) (x₂ y₂ : s₂.Idx → α)
    (h : Shape.Concatenates [s₁, s₂] t ax) (e₁ : x₁ = y₁) (e₂ : x₂ = y₂) :
    concatenate t ax [⟨s₁, x₁⟩, ⟨s₂, x₂⟩] h = concatenate t ax [⟨s₁, y₁⟩, ⟨s₂, y₂⟩] h := by
  subst e₁; subst e₂; rfl

/-! ## Head 4: input cat_4 of width 260; mean, sample, log density; cat_5 of width 261 -/

set_option maxHeartbeats 1000000 in
/-- Head 4's operations write none of the argument arrays. -/
theorem argsAt_ops5 (a : RW.Args) (W : Valuation τ sig (Elt Ideal)) (h : ArgsAt a W) : ArgsAt a (after (ops5 (F := Ideal)) W) := by
  obtain ⟨h0, h1, h2, h3, h4, h5, h6, h7, h8, h9, h10, h11, h12, h13⟩ := h
  refine ⟨?_, ?_, ?_, ?_, ?_, ?_, ?_, ?_, ?_, ?_, ?_, ?_, ?_, ?_⟩
  · exact (by after_results_simp <;> rfl : after (ops5 (F := Ideal)) W (Proc.devRef .tc main_arg0) = W (Proc.devRef .tc main_arg0)).trans h0
  · exact (by after_results_simp <;> rfl : after (ops5 (F := Ideal)) W (Proc.devRef .tc main_arg1) = W (Proc.devRef .tc main_arg1)).trans h1
  · exact (by after_results_simp <;> rfl : after (ops5 (F := Ideal)) W (Proc.devRef .tc main_arg2) = W (Proc.devRef .tc main_arg2)).trans h2
  · exact (by after_results_simp <;> rfl : after (ops5 (F := Ideal)) W (Proc.devRef .tc main_arg3) = W (Proc.devRef .tc main_arg3)).trans h3
  · exact (by after_results_simp <;> rfl : after (ops5 (F := Ideal)) W (Proc.devRef .tc main_arg4) = W (Proc.devRef .tc main_arg4)).trans h4
  · exact (by after_results_simp <;> rfl : after (ops5 (F := Ideal)) W (Proc.devRef .tc main_arg5) = W (Proc.devRef .tc main_arg5)).trans h5
  · exact (by after_results_simp <;> rfl : after (ops5 (F := Ideal)) W (Proc.devRef .tc main_arg6) = W (Proc.devRef .tc main_arg6)).trans h6
  · exact (by after_results_simp <;> rfl : after (ops5 (F := Ideal)) W (Proc.devRef .tc main_arg7) = W (Proc.devRef .tc main_arg7)).trans h7
  · exact (by after_results_simp <;> rfl : after (ops5 (F := Ideal)) W (Proc.devRef .tc main_arg8) = W (Proc.devRef .tc main_arg8)).trans h8
  · exact (by after_results_simp <;> rfl : after (ops5 (F := Ideal)) W (Proc.devRef .tc main_arg9) = W (Proc.devRef .tc main_arg9)).trans h9
  · exact (by after_results_simp <;> rfl : after (ops5 (F := Ideal)) W (Proc.devRef .tc main_arg10) = W (Proc.devRef .tc main_arg10)).trans h10
  · exact (by after_results_simp <;> rfl : after (ops5 (F := Ideal)) W (Proc.devRef .tc main_arg11) = W (Proc.devRef .tc main_arg11)).trans h11
  · exact (by after_results_simp <;> rfl : after (ops5 (F := Ideal)) W (Proc.devRef .tc main_arg12) = W (Proc.devRef .tc main_arg12)).trans h12
  · exact (by after_results_simp <;> rfl : after (ops5 (F := Ideal)) W (Proc.devRef .tc main_arg13) = W (Proc.devRef .tc main_arg13)).trans h13

/-- After head 4's operations the mean's buffer holds the mean stage of the arguments: column 0 of the head's rectified
    output pair. -/
theorem mean4_ops5 (a : RW.Args) (W : Valuation τ sig (Elt Ideal)) (hA : ArgsAt a W)
    (hin : W (Proc.devRef .tc main_v186)
      = ReadP.val_main_v186 (F := Ideal) a.a0 a.a2 a.a3 a.a4 a.a5 a.a6 a.a7 a.a8 a.a9 a.a10 a.a11 a.a12 a.a13) :
    after (ops5 (F := Ideal)) W (Proc.devRef .tc main_v214)
      = ReadP.val_main_v214 (F := Ideal) a.a0 a.a2 a.a3 a.a4 a.a5 a.a6 a.a7 a.a8 a.a9 a.a10 a.a11 a.a12 a.a13 := by
  obtain ⟨h0, -, h2, h3, h4, h5, h6, h7, h8, h9, h10, h11, h12, h13⟩ := hA
  rw [← h0, ← h2, ← h3, ← h4, ← h5, ← h6, ← h7, ← h8, ← h9, ← h10, ← h11, ← h12, ← h13] at hin ⊢
  after_results_simp
  rw [hin]
  rfl

/-- After head 4's operations the sample's buffer holds the sample stage of the arguments: the mean plus the exponential
    of the clipped log standard deviation times the noise column 4. -/
theorem sample4_ops5 (a : RW.Args) (W : Valuation τ sig (Elt Ideal)) (hA : ArgsAt a W)
    (hin : W (Proc.devRef .tc main_v186)
      = ReadP.val_main_v186 (F := Ideal) a.a0 a.a2 a.a3 a.a4 a.a5 a.a6 a.a7 a.a8 a.a9 a.a10 a.a11 a.a12 a.a13) :
    after (ops5 (F := Ideal)) W (Proc.devRef .tc main_v220)
      = ReadP.val_main_v220 (F := Ideal) a.a0 a.a1 a.a2 a.a3 a.a4 a.a5 a.a6 a.a7 a.a8 a.a9 a.a10 a.a11 a.a12 a.a13 := by
  obtain ⟨h0, h1, h2, h3, h4, h5, h6, h7, h8, h9, h10, h11, h12, h13⟩ := hA
  rw [← h0, ← h2, ← h3, ← h4, ← h5, ← h6, ← h7, ← h8, ← h9, ← h10, ← h11, ← h12, ← h13] at hin ⊢
  rw [← h1]
  after_results_simp
  rw [hin]
  rfl

/-- After head 4's operations the log density's buffer holds the log-density stage of the arguments: minus one half of
    the squared standardized deviation of the sample from the mean, minus the clipped log standard deviation, minus the
    constant kept as its word. -/
theorem logp4_ops5 (a : RW.Args) (W : Valuation τ sig (Elt Ideal)) (hA : ArgsAt a W)
    (hin : W (Proc.devRef .tc main_v186)
      = ReadP.val_main_v186 (F := Ideal) a.a0 a.a2 a.a3 a.a4 a.a5 a.a6 a.a7 a.a8 a.a9 a.a10 a.a11 a.a12 a.a13) :
    after (ops5 (F := Ideal)) W (Proc.devRef .tc main_v228)
      = ReadP.val_main_v228 (F := Ideal) a.a0 a.a1 a.a2 a.a3 a.a4 a.a5 a.a6 a.a7 a.a8 a.a9 a.a10 a.a11 a.a12 a.a13 := by
  obtain ⟨h0, h1, h2, h3, h4, h5, h6, h7, h8, h9, h10, h11, h12, h13⟩ := hA
  rw [← h0, ← h2, ← h3, ← h4, ← h5, ← h6, ← h7, ← h8, ← h9, ← h10, ← h11, ← h12, ← h13] at hin ⊢
  rw [← h1]
  after_results_simp
  rw [hin]
  rfl

/-- After head 4's operations the next concatenation's buffer holds its stage: cat_4 with the mean of head 4 appended as
    column 260. Both pieces are read before the concatenation writes: the first is the input, which the head does not
    write; the second is the mean. -/
theorem cat5_ops5 (a : RW.Args) (W : Valuation τ sig (Elt Ideal)) (hA : ArgsAt a W)
    (hin : W (Proc.devRef .tc main_v186)
      = ReadP.val_main_v186 (F := Ideal) a.a0 a.a2 a.a3 a.a4 a.a5 a.a6 a.a7 a.a8 a.a9 a.a10 a.a11 a.a12 a.a13) :
    after (ops5 (F := Ideal)) W (Proc.devRef .tc main_v229)
      = ReadP.val_main_v229 (F := Ideal) a.a0 a.a2 a.a3 a.a4 a.a5 a.a6 a.a7 a.a8 a.a9 a.a10 a.a11 a.a12 a.a13 := by
  obtain ⟨h0, -, h2, h3, h4, h5, h6, h7, h8, h9, h10, h11, h12, h13⟩ := hA
  rw [← h0, ← h2, ← h3, ← h4, ← h5, ← h6, ← h7, ← h8, ← h9, ← h10, ← h11, ← h12, ← h13] at hin ⊢
  after_results_simp
  unfold ReadP.val_main_v229
  refine concat_pair_congr _ _ _ _ _ _ ?_ ?_
  · after_results_simp
    exact hin
  · after_results_simp
    rw [hin]
    rfl

/-! ## Head 5: input cat_5 of width 261; mean, sample, log density; cat_6 of width 262 -/

set_option maxHeartbeats 1000000 in
/-- Head 5's operations write none of the argument arrays. -/
theorem argsAt_ops6 (a : RW.Args) (W : Valuation τ sig (Elt Ideal)) (h : ArgsAt a W) : ArgsAt a (after (ops6 (F := Ideal)) W) := by
  obtain ⟨h0, h1, h2, h3, h4, h5, h6, h7, h8, h9, h10, h11, h12, h13⟩ := h
  refine ⟨?_, ?_, ?_, ?_, ?_, ?_, ?_, ?_, ?_, ?_, ?_, ?_, ?_, ?_⟩
  · exact (by after_results_simp <;> rfl : after (ops6 (F := Ideal)) W (Proc.devRef .tc main_arg0) = W (Proc.devRef .tc main_arg0)).trans h0
  · exact (by after_results_simp <;> rfl : after (ops6 (F := Ideal)) W (Proc.devRef .tc main_arg1) = W (Proc.devRef .tc main_arg1)).trans h1
  · exact (by after_results_simp <;> rfl : after (ops6 (F := Ideal)) W (Proc.devRef .tc main_arg2) = W (Proc.devRef .tc main_arg2)).trans h2
  · exact (by after_results_simp <;> rfl : after (ops6 (F := Ideal)) W (Proc.devRef .tc main_arg3) = W (Proc.devRef .tc main_arg3)).trans h3
  · exact (by after_results_simp <;> rfl : after (ops6 (F := Ideal)) W (Proc.devRef .tc main_arg4) = W (Proc.devRef .tc main_arg4)).trans h4
  · exact (by after_results_simp <;> rfl : after (ops6 (F := Ideal)) W (Proc.devRef .tc main_arg5) = W (Proc.devRef .tc main_arg5)).trans h5
  · exact (by after_results_simp <;> rfl : after (ops6 (F := Ideal)) W (Proc.devRef .tc main_arg6) = W (Proc.devRef .tc main_arg6)).trans h6
  · exact (by after_results_simp <;> rfl : after (ops6 (F := Ideal)) W (Proc.devRef .tc main_arg7) = W (Proc.devRef .tc main_arg7)).trans h7
  · exact (by after_results_simp <;> rfl : after (ops6 (F := Ideal)) W (Proc.devRef .tc main_arg8) = W (Proc.devRef .tc main_arg8)).trans h8
  · exact (by after_results_simp <;> rfl : after (ops6 (F := Ideal)) W (Proc.devRef .tc main_arg9) = W (Proc.devRef .tc main_arg9)).trans h9
  · exact (by after_results_simp <;> rfl : after (ops6 (F := Ideal)) W (Proc.devRef .tc main_arg10) = W (Proc.devRef .tc main_arg10)).trans h10
  · exact (by after_results_simp <;> rfl : after (ops6 (F := Ideal)) W (Proc.devRef .tc main_arg11) = W (Proc.devRef .tc main_arg11)).trans h11
  · exact (by after_results_simp <;> rfl : after (ops6 (F := Ideal)) W (Proc.devRef .tc main_arg12) = W (Proc.devRef .tc main_arg12)).trans h12
  · exact (by after_results_simp <;> rfl : after (ops6 (F := Ideal)) W (Proc.devRef .tc main_arg13) = W (Proc.devRef .tc main_arg13)).trans h13

/-- After head 5's operations the mean's buffer holds the mean stage of the arguments: column 0 of the head's rectified
    output pair. -/
theorem mean5_ops6 (a : RW.Args) (W : Valuation τ sig (Elt Ideal)) (hA : ArgsAt a W)
    (hin : W (Proc.devRef .tc main_v229)
      = ReadP.val_main_v229 (F := Ideal) a.a0 a.a2 a.a3 a.a4 a.a5 a.a6 a.a7 a.a8 a.a9 a.a10 a.a11 a.a12 a.a13) :
    after (ops6 (F := Ideal)) W (Proc.devRef .tc main_v257)
      = ReadP.val_main_v257 (F := Ideal) a.a0 a.a2 a.a3 a.a4 a.a5 a.a6 a.a7 a.a8 a.a9 a.a10 a.a11 a.a12 a.a13 := by
  obtain ⟨h0, -, h2, h3, h4, h5, h6, h7, h8, h9, h10, h11, h12, h13⟩ := hA
  rw [← h0, ← h2, ← h3, ← h4, ← h5, ← h6, ← h7, ← h8, ← h9, ← h10, ← h11, ← h12, ← h13] at hin ⊢
  after_results_simp
  rw [hin]
  rfl

/-- After head 5's operations the sample's buffer holds the sample stage of the arguments: the mean plus the exponential
    of the clipped log standard deviation times the noise column 5. -/
theorem sample5_ops6 (a : RW.Args) (W : Valuation τ sig (Elt Ideal)) (hA : ArgsAt a W)
    (hin : W (Proc.devRef .tc main_v229)
      = ReadP.val_main_v229 (F := Ideal) a.a0 a.a2 a.a3 a.a4 a.a5 a.a6 a.a7 a.a8 a.a9 a.a10 a.a11 a.a12 a.a13) :
    after (ops6 (F := Ideal)) W (Proc.devRef .tc main_v263)
      = ReadP.val_main_v263 (F := Ideal) a.a0 a.a1 a.a2 a.a3 a.a4 a.a5 a.a6 a.a7 a.a8 a.a9 a.a10 a.a11 a.a12 a.a13 := by
  obtain ⟨h0, h1, h2, h3, h4, h5, h6, h7, h8, h9, h10, h11, h12, h13⟩ := hA
  rw [← h0, ← h2, ← h3, ← h4, ← h5, ← h6, ← h7, ← h8, ← h9, ← h10, ← h11, ← h12, ← h13] at hin ⊢
  rw [← h1]
  after_results_simp
  rw [hin]
  rfl

/-- After head 5's operations the log density's buffer holds the log-density stage of the arguments: minus one half of
    the squared standardized deviation of the sample from the mean, minus the clipped log standard deviation, minus the
    constant kept as its word. -/
theorem logp5_ops6 (a : RW.Args) (W : Valuation τ sig (Elt Ideal)) (hA : ArgsAt a W)
    (hin : W (Proc.devRef .tc main_v229)
      = ReadP.val_main_v229 (F := Ideal) a.a0 a.a2 a.a3 a.a4 a.a5 a.a6 a.a7 a.a8 a.a9 a.a10 a.a11 a.a12 a.a13) :
    after (ops6 (F := Ideal)) W (Proc.devRef .tc main_v271)
      = ReadP.val_main_v271 (F := Ideal) a.a0 a.a1 a.a2 a.a3 a.a4 a.a5 a.a6 a.a7 a.a8 a.a9 a.a10 a.a11 a.a12 a.a13 := by
  obtain ⟨h0, h1, h2, h3, h4, h5, h6, h7, h8, h9, h10, h11, h12, h13⟩ := hA
  rw [← h0, ← h2, ← h3, ← h4, ← h5, ← h6, ← h7, ← h8, ← h9, ← h10, ← h11, ← h12, ← h13] at hin ⊢
  rw [← h1]
  after_results_simp
  rw [hin]
  rfl

/-- After head 5's operations the next concatenation's buffer holds its stage: cat_5 with the mean of head 5 appended as
    column 261. Both pieces are read before the concatenation writes: the first is the input, which the head does not
    write; the second is the mean. -/
theorem cat6_ops6 (a : RW.Args) (W : Valuation τ sig (Elt Ideal)) (hA : ArgsAt a W)
    (hin : W (Proc.devRef .tc main_v229)
      = ReadP.val_main_v229 (F := Ideal) a.a0 a.a2 a.a3 a.a4 a.a5 a.a6 a.a7 a.a8 a.a9 a.a10 a.a11 a.a12 a.a13) :
    after (ops6 (F := Ideal)) W (Proc.devRef .tc main_v272)
      = ReadP.val_main_v272 (F := Ideal) a.a0 a.a2 a.a3 a.a4 a.a5 a.a6 a.a7 a.a8 a.a9 a.a10 a.a11 a.a12 a.a13 := by
  obtain ⟨h0, -, h2, h3, h4, h5, h6, h7, h8, h9, h10, h11, h12, h13⟩ := hA
  rw [← h0, ← h2, ← h3, ← h4, ← h5, ← h6, ← h7, ← h8, ← h9, ← h10, ← h11, ← h12, ← h13] at hin ⊢
  after_results_simp
  unfold ReadP.val_main_v272
  refine concat_pair_congr _ _ _ _ _ _ ?_ ?_
  · after_results_simp
    exact hin
  · after_results_simp
    rw [hin]
    rfl

end Cert.ReferenceIdeal.RunStages

end
-- ==== Proof.RunStagesB2.lean ====
/-
  The reference's run, stage by stage: heads 6 and 7.

  Head i's operations read the argument arrays and one input buffer, the row "trunk result followed by the means of
  heads 0..i-1". From any contents that hold the arguments and hold, at the input buffer, the input's stage of the
  arguments, the contents after the head's operations hold, at the buffers of the head's mean, sample and log density
  (and, for head 6, of head 7's input row), the corresponding stages of the arguments; and they still hold the
  arguments, which no operation writes.

  Each statement is the operations' results composed in order: a buffer an operation does not write keeps its contents,
  the buffer it writes holds its function of the contents of the buffers it reads.
-/
import proofs.«418646_j6511170421537_4_alg».proof.Proof.RunStages0

noncomputable section

namespace Cert.ReferenceIdeal.RunStages

open Cert.ReferenceIdeal Cert.ReferenceIdeal.Gen Cert.ReferenceIdeal.RunP Idealize.ShloMosaic Idealize.ShloMosaic.TcCoe Idealize.SL.Sem
open Idealize.ShloMosaic.StableHlo

/-! ## Head 6 (its input is the row of 262 numbers: the trunk's result and the means of heads 0..5) -/

set_option maxHeartbeats 8000000 in
/-- Head 6's operations write none of the argument arrays. -/
theorem argsAt_ops7 (a : RW.Args) (W : Valuation τ sig (Elt Ideal)) (h : ArgsAt a W) : ArgsAt a (after (ops7 (F := Ideal)) W) := by
  obtain ⟨h0, h1, h2, h3, h4, h5, h6, h7, h8, h9, h10, h11, h12, h13⟩ := h
  refine ⟨?_, ?_, ?_, ?_, ?_, ?_, ?_, ?_, ?_, ?_, ?_, ?_, ?_, ?_⟩
  · exact (by after_results_simp <;> rfl : after (ops7 (F := Ideal)) W (Proc.devRef .tc main_arg0) = W (Proc.devRef .tc main_arg0)).trans h0
  · exact (by after_results_simp <;> rfl : after (ops7 (F := Ideal)) W (Proc.devRef .tc main_arg1) = W (Proc.devRef .tc main_arg1)).trans h1
  · exact (by after_results_simp <;> rfl : after (ops7 (F := Ideal)) W (Proc.devRef .tc main_arg2) = W (Proc.devRef .tc main_arg2)).trans h2
  · exact (by after_results_simp <;> rfl : after (ops7 (F := Ideal)) W (Proc.devRef .tc main_arg3) = W (Proc.devRef .tc main_arg3)).trans h3
  · exact (by after_results_simp <;> rfl : after (ops7 (F := Ideal)) W (Proc.devRef .tc main_arg4) = W (Proc.devRef .tc main_arg4)).trans h4
  · exact (by after_results_simp <;> rfl : after (ops7 (F := Ideal)) W (Proc.devRef .tc main_arg5) = W (Proc.devRef .tc main_arg5)).trans h5
  · exact (by after_results_simp <;> rfl : after (ops7 (F := Ideal)) W (Proc.devRef .tc main_arg6) = W (Proc.devRef .tc main_arg6)).trans h6
  · exact (by after_results_simp <;> rfl : after (ops7 (F := Ideal)) W (Proc.devRef .tc main_arg7) = W (Proc.devRef .tc main_arg7)).trans h7
  · exact (by after_results_simp <;> rfl : after (ops7 (F := Ideal)) W (Proc.devRef .tc main_arg8) = W (Proc.devRef .tc main_arg8)).trans h8
  · exact (by after_results_simp <;> rfl : after (ops7 (F := Ideal)) W (Proc.devRef .tc main_arg9) = W (Proc.devRef .tc main_arg9)).trans h9
  · exact (by after_results_simp <;> rfl : after (ops7 (F := Ideal)) W (Proc.devRef .tc main_arg10) = W (Proc.devRef .tc main_arg10)).trans h10
  · exact (by after_results_simp <;> rfl : after (ops7 (F := Ideal)) W (Proc.devRef .tc main_arg11) = W (Proc.devRef .tc main_arg11)).trans h11
  · exact (by after_results_simp <;> rfl : after (ops7 (F := Ideal)) W (Proc.devRef .tc main_arg12) = W (Proc.devRef .tc main_arg12)).trans h12
  · exact (by after_results_simp <;> rfl : after (ops7 (F := Ideal)) W (Proc.devRef .tc main_arg13) = W (Proc.devRef .tc main_arg13)).trans h13

set_option maxHeartbeats 8000000 in
/-- After head 6's operations the buffer of its mean holds the mean stage of the arguments. -/
theorem mean6_ops7 (a : RW.Args) (W : Valuation τ sig (Elt Ideal)) (hA : ArgsAt a W)
    (hin : W (Proc.devRef .tc main_v272)
      = ReadP.val_main_v272 (F := Ideal) a.a0 a.a2 a.a3 a.a4 a.a5 a.a6 a.a7 a.a8 a.a9 a.a10 a.a11 a.a12 a.a13) :
    after (ops7 (F := Ideal)) W (Proc.devRef .tc main_v300)
      = ReadP.val_main_v300 (F := Ideal) a.a0 a.a2 a.a3 a.a4 a.a5 a.a6 a.a7 a.a8 a.a9 a.a10 a.a11 a.a12 a.a13 := by
  obtain ⟨-, -, -, -, -, -, -, -, h8, h9, h10, h11, h12, h13⟩ := hA
  after_results_simp
  rw [hin, h8, h9, h10, h11, h12, h13]
  rfl

set_option maxHeartbeats 8000000 in
/-- After head 6's operations the buffer of its sample holds the sample stage of the arguments. -/
theorem sample6_ops7 (a : RW.Args) (W : Valuation τ sig (Elt Ideal)) (hA : ArgsAt a W)
    (hin : W (Proc.devRef .tc main_v272)
      = ReadP.val_main_v272 (F := Ideal) a.a0 a.a2 a.a3 a.a4 a.a5 a.a6 a.a7 a.a8 a.a9 a.a10 a.a11 a.a12 a.a13) :
    after (ops7 (F := Ideal)) W (Proc.devRef .tc main_v306)
      = ReadP.val_main_v306 (F := Ideal) a.a0 a.a1 a.a2 a.a3 a.a4 a.a5 a.a6 a.a7 a.a8 a.a9 a.a10 a.a11 a.a12 a.a13 := by
  obtain ⟨-, h1, -, -, -, -, -, -, h8, h9, h10, h11, h12, h13⟩ := hA
  after_results_simp
  rw [hin, h1, h8, h9, h10, h11, h12, h13]
  rfl

set_option maxHeartbeats 8000000 in
/-- After head 6's operations the buffer of its log density holds the log density stage of the arguments. -/
theorem logp6_ops7 (a : RW.Args) (W : Valuation τ sig (Elt Ideal)) (hA : ArgsAt a W)
    (hin : W (Proc.devRef .tc main_v272)
      = ReadP.val_main_v272 (F := Ideal) a.a0 a.a2 a.a3 a.a4 a.a5 a.a6 a.a7 a.a8 a.a9 a.a10 a.a11 a.a12 a.a13) :
    after (ops7 (F := Ideal)) W (Proc.devRef .tc main_v314)
      = ReadP.val_main_v314 (F := Ideal) a.a0 a.a1 a.a2 a.a3 a.a4 a.a5 a.a6 a.a7 a.a8 a.a9 a.a10 a.a11 a.a12 a.a13 := by
  obtain ⟨-, h1, -, -, -, -, -, -, h8, h9, h10, h11, h12, h13⟩ := hA
  after_results_simp
  rw [hin, h1, h8, h9, h10, h11, h12, h13]
  rfl

set_option maxHeartbeats 8000000 in
/-- After head 6's operations the buffer of head 7's input row holds the stage "row of head 6 followed by the mean
    of head 6" of the arguments: the last operation joins the contents of head 6's input buffer, which head 6's
    operations do not write, and of the mean's buffer. -/
theorem cat7_ops7 (a : RW.Args) (W : Valuation τ sig (Elt Ideal)) (hA : ArgsAt a W)
    (hin : W (Proc.devRef .tc main_v272)
      = ReadP.val_main_v272 (F := Ideal) a.a0 a.a2 a.a3 a.a4 a.a5 a.a6 a.a7 a.a8 a.a9 a.a10 a.a11 a.a12 a.a13) :
    after (ops7 (F := Ideal)) W (Proc.devRef .tc main_v315)
      = ReadP.val_main_v315 (F := Ideal) a.a0 a.a2 a.a3 a.a4 a.a5 a.a6 a.a7 a.a8 a.a9 a.a10 a.a11 a.a12 a.a13 := by
  have e272 : after (ops7 (F := Ideal)) W (Proc.devRef .tc main_v272) = W (Proc.devRef .tc main_v272) := by
    after_results_simp <;> rfl
  have e315 : after (ops7 (F := Ideal)) W (Proc.devRef .tc main_v315)
      = concatenate S65536x263 1 [⟨S65536x262, after (ops7 (F := Ideal)) W (Proc.devRef .tc main_v272)⟩,
          ⟨S65536x1, after (ops7 (F := Ideal)) W (Proc.devRef .tc main_v300)⟩]
          concatenates_S65536x262_S65536x1_S65536x263_d1 := by
    after_results_simp <;> rfl
  rw [e315, e272, hin, mean6_ops7 a W hA hin]
  rfl

/-! ## Head 7 (its input is the row of 263 numbers: the trunk's result and the means of heads 0..6) -/

set_option maxHeartbeats 8000000 in
/-- Head 7's operations write none of the argument arrays. -/
theorem argsAt_ops8 (a : RW.Args) (W : Valuation τ sig (Elt Ideal)) (h : ArgsAt a W) : ArgsAt a (after (ops8 (F := Ideal)) W) := by
  obtain ⟨h0, h1, h2, h3, h4, h5, h6, h7, h8, h9, h10, h11, h12, h13⟩ := h
  refine ⟨?_, ?_, ?_, ?_, ?_, ?_, ?_, ?_, ?_, ?_, ?_, ?_, ?_, ?_⟩
  · exact (by after_results_simp <;> rfl : after (ops8 (F := Ideal)) W (Proc.devRef .tc main_arg0) = W (Proc.devRef .tc main_arg0)).trans h0
  · exact (by after_results_simp <;> rfl : after (ops8 (F := Ideal)) W (Proc.devRef .tc main_arg1) = W (Proc.devRef .tc main_arg1)).trans h1
  · exact (by after_results_simp <;> rfl : after (ops8 (F := Ideal)) W (Proc.devRef .tc main_arg2) = W (Proc.devRef .tc main_arg2)).trans h2
  · exact (by after_results_simp <;> rfl : after (ops8 (F := Ideal)) W (Proc.devRef .tc main_arg3) = W (Proc.devRef .tc main_arg3)).trans h3
  · exact (by after_results_simp <;> rfl : after (ops8 (F := Ideal)) W (Proc.devRef .tc main_arg4) = W (Proc.devRef .tc main_arg4)).trans h4
  · exact (by after_results_simp <;> rfl : after (ops8 (F := Ideal)) W (Proc.devRef .tc main_arg5) = W (Proc.devRef .tc main_arg5)).trans h5
  · exact (by after_results_simp <;> rfl : after (ops8 (F := Ideal)) W (Proc.devRef .tc main_arg6) = W (Proc.devRef .tc main_arg6)).trans h6
  · exact (by after_results_simp <;> rfl : after (ops8 (F := Ideal)) W (Proc.devRef .tc main_arg7) = W (Proc.devRef .tc main_arg7)).trans h7
  · exact (by after_results_simp <;> rfl : after (ops8 (F := Ideal)) W (Proc.devRef .tc main_arg8) = W (Proc.devRef .tc main_arg8)).trans h8
  · exact (by after_results_simp <;> rfl : after (ops8 (F := Ideal)) W (Proc.devRef .tc main_arg9) = W (Proc.devRef .tc main_arg9)).trans h9
  · exact (by after_results_simp <;> rfl : after (ops8 (F := Ideal)) W (Proc.devRef .tc main_arg10) = W (Proc.devRef .tc main_arg10)).trans h10
  · exact (by after_results_simp <;> rfl : after (ops8 (F := Ideal)) W (Proc.devRef .tc main_arg11) = W (Proc.devRef .tc main_arg11)).trans h11
  · exact (by after_results_simp <;> rfl : after (ops8 (F := Ideal)) W (Proc.devRef .tc main_arg12) = W (Proc.devRef .tc main_arg12)).trans h12
  · exact (by after_results_simp <;> rfl : after (ops8 (F := Ideal)) W (Proc.devRef .tc main_arg13) = W (Proc.devRef .tc main_arg13)).trans h13

set_option maxHeartbeats 8000000 in
/-- After head 7's operations the buffer of its mean holds the mean stage of the arguments. -/
theorem mean7_ops8 (a : RW.Args) (W : Valuation τ sig (Elt Ideal)) (hA : ArgsAt a W)
    (hin : W (Proc.devRef .tc main_v315)
      = ReadP.val_main_v315 (F := Ideal) a.a0 a.a2 a.a3 a.a4 a.a5 a.a6 a.a7 a.a8 a.a9 a.a10 a.a11 a.a12 a.a13) :
    after (ops8 (F := Ideal)) W (Proc.devRef .tc main_v343)
      = ReadP.val_main_v343 (F := Ideal) a.a0 a.a2 a.a3 a.a4 a.a5 a.a6 a.a7 a.a8 a.a9 a.a10 a.a11 a.a12 a.a13 := by
  obtain ⟨-, -, -, -, -, -, -, -, h8, h9, h10, h11, h12, h13⟩ := hA
  after_results_simp
  rw [hin, h8, h9, h10, h11, h12, h13]
  rfl

set_option maxHeartbeats 8000000 in
/-- After head 7's operations the buffer of its sample holds the sample stage of the arguments. -/
theorem sample7_ops8 (a : RW.Args) (W : Valuation τ sig (Elt Ideal)) (hA : ArgsAt a W)
    (hin : W (Proc.devRef .tc main_v315)
      = ReadP.val_main_v315 (F := Ideal) a.a0 a.a2 a.a3 a.a4 a.a5 a.a6 a.a7 a.a8 a.a9 a.a10 a.a11 a.a12 a.a13) :
    after (ops8 (F := Ideal)) W (Proc.devRef .tc main_v349)
      = ReadP.val_main_v349 (F := Ideal) a.a0 a.a1 a.a2 a.a3 a.a4 a.a5 a.a6 a.a7 a.a8 a.a9 a.a10 a.a11 a.a12 a.a13 := by
  obtain ⟨-, h1, -, -, -, -, -, -, h8, h9, h10, h11, h12, h13⟩ := hA
  after_results_simp
  rw [hin, h1, h8, h9, h10, h11, h12, h13]
  rfl

set_option maxHeartbeats 8000000 in
/-- After head 7's operations the buffer of its log density holds the log density stage of the arguments. -/
theorem logp7_ops8 (a : RW.Args) (W : Valuation τ sig (Elt Ideal)) (hA : ArgsAt a W)
    (hin : W (Proc.devRef .tc main_v315)
      = ReadP.val_main_v315 (F := Ideal) a.a0 a.a2 a.a3 a.a4 a.a5 a.a6 a.a7 a.a8 a.a9 a.a10 a.a11 a.a12 a.a13) :
    after (ops8 (F := Ideal)) W (Proc.devRef .tc main_v357)
      = ReadP.val_main_v357 (F := Ideal) a.a0 a.a1 a.a2 a.a3 a.a4 a.a5 a.a6 a.a7 a.a8 a.a9 a.a10 a.a11 a.a12 a.a13 := by
  obtain ⟨-, h1, -, -, -, -, -, -, h8, h9, h10, h11, h12, h13⟩ := hA
  after_results_simp
  rw [hin, h1, h8, h9, h10, h11, h12, h13]
  rfl

end Cert.ReferenceIdeal.RunStages

end
-- ==== Proof.RunStagesC.lean ====
/-
  The reference's run, composed: from the ten lists to the three results.

  The contents after @main's operations are the contents after the trunk's list, then after each head's list in turn,
  then after the list of the three results. A head's three result columns (its mean, its sample, its log density) are
  written by that head's list and by no later list, so they are still there when the last list lays the eight columns
  of each kind side by side; and those three concatenations are, by definition, the last stages of the mean, the sample
  and the log density as functions of the argument arrays. No list writes an argument array. So every weakly fair
  execution of @main ends with the three result buffers at those stages of the launch contents of the argument arrays,
  and with the argument arrays as they were.
-/
import proofs.«418646_j6511170421537_4_alg».proof.Proof.RunStages0
import proofs.«418646_j6511170421537_4_alg».proof.Proof.RunStagesA
import proofs.«418646_j6511170421537_4_alg».proof.Proof.RunStagesA2
import proofs.«418646_j6511170421537_4_alg».proof.Proof.RunStagesB
import proofs.«418646_j6511170421537_4_alg».proof.Proof.RunStagesB2
import Idealize.ShloMosaic.Lib.Pipeline.Frame

noncomputable section

namespace Cert.ReferenceIdeal.RunStages

open Cert.ReferenceIdeal Cert.ReferenceIdeal.Gen Cert.ReferenceIdeal.RunP Idealize.ShloMosaic Idealize.ShloMosaic.TcCoe Idealize.SL.Sem
open Idealize.ShloMosaic.StableHlo

/-! ### A head's result columns are not written by the later lists -/

/-- The list l writes nothing to the buffer b: whatever the contents before, b holds the same after. -/
abbrev Keeps (l : List (HloOp τ sig (Elt Ideal))) (b : Ref sig .tc) : Prop :=
  ∀ X : Valuation τ sig (Elt Ideal), after l X (Proc.devRef .tc b) = X (Proc.devRef .tc b)

/-! Head 1's list keeps head 0's columns. -/
theorem keep2_v42 : Keeps ops2 main_v42 := fun X => by after_results_simp <;> rfl
theorem keep2_v48 : Keeps ops2 main_v48 := fun X => by after_results_simp <;> rfl
theorem keep2_v56 : Keeps ops2 main_v56 := fun X => by after_results_simp <;> rfl

/-! Head 2's list keeps the columns of heads 0 and 1. -/
theorem keep3_v42 : Keeps ops3 main_v42 := fun X => by after_results_simp <;> rfl
theorem keep3_v48 : Keeps ops3 main_v48 := fun X => by after_results_simp <;> rfl
theorem keep3_v56 : Keeps ops3 main_v56 := fun X => by after_results_simp <;> rfl
theorem keep3_v85 : Keeps ops3 main_v85 := fun X => by after_results_simp <;> rfl
theorem keep3_v91 : Keeps ops3 main_v91 := fun X => by after_results_simp <;> rfl
theorem keep3_v99 : Keeps ops3 main_v99 := fun X => by after_results_simp <;> rfl

/-! Head 3's list keeps the columns of heads 0 to 2. -/
theorem keep4_v42 : Keeps ops4 main_v42 := fun X => by after_results_simp <;> rfl
theorem keep4_v48 : Keeps ops4 main_v48 := fun X => by after_results_simp <;> rfl
theorem keep4_v56 : Keeps ops4 main_v56 := fun X => by after_results_simp <;> rfl
theorem keep4_v85 : Keeps ops4 main_v85 := fun X => by after_results_simp <;> rfl
theorem keep4_v91 : Keeps ops4 main_v91 := fun X => by after_results_simp <;> rfl
theorem keep4_v99 : Keeps ops4 main_v99 := fun X => by after_results_simp <;> rfl
theorem keep4_v128 : Keeps ops4 main_v128 := fun X => by after_results_simp <;> rfl
theorem keep4_v134 : Keeps ops4 main_v134 := fun X => by after_results_simp <;> rfl
theorem keep4_v142 : Keeps ops4 main_v142 := fun X => by after_results_simp <;> rfl

/-! Head 4's list keeps the columns of heads 0 to 3. -/
theorem keep5_v42 : Keeps ops5 main_v42 := fun X => by after_results_simp <;> rfl
theorem keep5_v48 : Keeps ops5 main_v48 := fun X => by after_results_simp <;> rfl
theorem keep5_v56 : Keeps ops5 main_v56 := fun X => by after_results_simp <;> rfl
theorem keep5_v85 : Keeps ops5 main_v85 := fun X => by after_results_simp <;> rfl
theorem keep5_v91 : Keeps ops5 main_v91 := fun X => by after_results_simp <;> rfl
theorem keep5_v99 : Keeps ops5 main_v99 := fun X => by after_results_simp <;> rfl
theorem keep5_v128 : Keeps ops5 main_v128 := fun X => by after_results_simp <;> rfl
theorem keep5_v134 : Keeps ops5 main_v134 := fun X => by after_results_simp <;> rfl
theorem keep5_v142 : Keeps ops5 main_v142 := fun X => by after_results_simp <;> rfl
theorem keep5_v171 : Keeps ops5 main_v171 := fun X => by after_results_simp <;> rfl
theorem keep5_v177 : Keeps ops5 main_v177 := fun X => by after_results_simp <;> rfl
theorem keep5_v185 : Keeps ops5 main_v185 := fun X => by after_results_simp <;> rfl

/-! Head 5's list keeps the columns of heads 0 to 4. -/
theorem keep6_v42 : Keeps ops6 main_v42 := fun X => by after_results_simp <;> rfl
theorem keep6_v48 : Keeps ops6 main_v48 := fun X => by after_results_simp <;> rfl
theorem keep6_v56 : Keeps ops6 main_v56 := fun X => by after_results_simp <;> rfl
theorem keep6_v85 : Keeps ops6 main_v85 := fun X => by after_results_simp <;> rfl
theorem keep6_v91 : Keeps ops6 main_v91 := fun X => by after_results_simp <;> rfl
theorem keep6_v99 : Keeps ops6 main_v99 := fun X => by after_results_simp <;> rfl
theorem keep6_v128 : Keeps ops6 main_v128 := fun X => by after_results_simp <;> rfl
theorem keep6_v134 : Keeps ops6 main_v134 := fun X => by after_results_simp <;> rfl
theorem keep6_v142 : Keeps ops6 main_v142 := fun X => by after_results_simp <;> rfl
theorem keep6_v171 : Keeps ops6 main_v171 := fun X => by after_results_simp <;> rfl
theorem keep6_v177 : Keeps ops6 main_v177 := fun X => by after_results_simp <;> rfl
theorem keep6_v185 : Keeps ops6 main_v185 := fun X => by after_results_simp <;> rfl
theorem keep6_v214 : Keeps ops6 main_v214 := fun X => by after_results_simp <;> rfl
theorem keep6_v220 : Keeps ops6 main_v220 := fun X => by after_results_simp <;> rfl
theorem keep6_v228 : Keeps ops6 main_v228 := fun X => by after_results_simp <;> rfl

/-! Head 6's list keeps the columns of heads 0 to 5. -/
theorem keep7_v42 : Keeps ops7 main_v42 := fun X => by after_results_simp <;> rfl
theorem keep7_v48 : Keeps ops7 main_v48 := fun X => by after_results_simp <;> rfl
theorem keep7_v56 : Keeps ops7 main_v56 := fun X => by after_results_simp <;> rfl
theorem keep7_v85 : Keeps ops7 main_v85 := fun X => by after_results_simp <;> rfl
theorem keep7_v91 : Keeps ops7 main_v91 := fun X => by after_results_simp <;> rfl
theorem keep7_v99 : Keeps ops7 main_v99 := fun X => by after_results_simp <;> rfl
theorem keep7_v128 : Keeps ops7 main_v128 := fun X => by after_results_simp <;> rfl
theorem keep7_v134 : Keeps ops7 main_v134 := fun X => by after_results_simp <;> rfl
theorem keep7_v142 : Keeps ops7 main_v142 := fun X => by after_results_simp <;> rfl
theorem keep7_v171 : Keeps ops7 main_v171 := fun X => by after_results_simp <;> rfl
theorem keep7_v177 : Keeps ops7 main_v177 := fun X => by after_results_simp <;> rfl
theorem keep7_v185 : Keeps ops7 main_v185 := fun X => by after_results_simp <;> rfl
theorem keep7_v214 : Keeps ops7 main_v214 := fun X => by after_results_simp <;> rfl
theorem keep7_v220 : Keeps ops7 main_v220 := fun X => by after_results_simp <;> rfl
theorem keep7_v228 : Keeps ops7 main_v228 := fun X => by after_results_simp <;> rfl
theorem keep7_v257 : Keeps ops7 main_v257 := fun X => by after_results_simp <;> rfl
theorem keep7_v263 : Keeps ops7 main_v263 := fun X => by after_results_simp <;> rfl
theorem keep7_v271 : Keeps ops7 main_v271 := fun X => by after_results_simp <;> rfl

/-! Head 7's list keeps the columns of heads 0 to 6. -/
theorem keep8_v42 : Keeps ops8 main_v42 := fun X => by after_results_simp <;> rfl
theorem keep8_v48 : Keeps ops8 main_v48 := fun X => by after_results_simp <;> rfl
theorem keep8_v56 : Keeps ops8 main_v56 := fun X => by after_results_simp <;> rfl
theorem keep8_v85 : Keeps ops8 main_v85 := fun X => by after_results_simp <;> rfl
theorem keep8_v91 : Keeps ops8 main_v91 := fun X => by after_results_simp <;> rfl
theorem keep8_v99 : Keeps ops8 main_v99 := fun X => by after_results_simp <;> rfl
theorem keep8_v128 : Keeps ops8 main_v128 := fun X => by after_results_simp <;> rfl
theorem keep8_v134 : Keeps ops8 main_v134 := fun X => by after_results_simp <;> rfl
theorem keep8_v142 : Keeps ops8 main_v142 := fun X => by after_results_simp <;> rfl
theorem keep8_v171 : Keeps ops8 main_v171 := fun X => by after_results_simp <;> rfl
theorem keep8_v177 : Keeps ops8 main_v177 := fun X => by after_results_simp <;> rfl
theorem keep8_v185 : Keeps ops8 main_v185 := fun X => by after_results_simp <;> rfl
theorem keep8_v214 : Keeps ops8 main_v214 := fun X => by after_results_simp <;> rfl
theorem keep8_v220 : Keeps ops8 main_v220 := fun X => by after_results_simp <;> rfl
theorem keep8_v228 : Keeps ops8 main_v228 := fun X => by after_results_simp <;> rfl
theorem keep8_v257 : Keeps ops8 main_v257 := fun X => by after_results_simp <;> rfl
theorem keep8_v263 : Keeps ops8 main_v263 := fun X => by after_results_simp <;> rfl
theorem keep8_v271 : Keeps ops8 main_v271 := fun X => by after_results_simp <;> rfl
theorem keep8_v300 : Keeps ops8 main_v300 := fun X => by after_results_simp <;> rfl
theorem keep8_v306 : Keeps ops8 main_v306 := fun X => by after_results_simp <;> rfl
theorem keep8_v314 : Keeps ops8 main_v314 := fun X => by after_results_simp <;> rfl

/-! ### The contents after each list in turn -/

/-- The contents after the trunk's list, from contents W. -/
def V1 (W : Valuation τ sig (Elt Ideal)) : Valuation τ sig (Elt Ideal) := after (ops0 (F := Ideal)) W
/-- ... then after head 0's list. -/
def V2 (W : Valuation τ sig (Elt Ideal)) : Valuation τ sig (Elt Ideal) := after (ops1 (F := Ideal)) (V1 W)
/-- ... then after head 1's list. -/
def V3 (W : Valuation τ sig (Elt Ideal)) : Valuation τ sig (Elt Ideal) := after (ops2 (F := Ideal)) (V2 W)
/-- ... then after head 2's list. -/
def V4 (W : Valuation τ sig (Elt Ideal)) : Valuation τ sig (Elt Ideal) := after (ops3 (F := Ideal)) (V3 W)
/-- ... then after head 3's list. -/
def V5 (W : Valuation τ sig (Elt Ideal)) : Valuation τ sig (Elt Ideal) := after (ops4 (F := Ideal)) (V4 W)
/-- ... then after head 4's list. -/
def V6 (W : Valuation τ sig (Elt Ideal)) : Valuation τ sig (Elt Ideal) := after (ops5 (F := Ideal)) (V5 W)
/-- ... then after head 5's list. -/
def V7 (W : Valuation τ sig (Elt Ideal)) : Valuation τ sig (Elt Ideal) := after (ops6 (F := Ideal)) (V6 W)
/-- ... then after head 6's list. -/
def V8 (W : Valuation τ sig (Elt Ideal)) : Valuation τ sig (Elt Ideal) := after (ops7 (F := Ideal)) (V7 W)
/-- ... then after head 7's list. -/
def V9 (W : Valuation τ sig (Elt Ideal)) : Valuation τ sig (Elt Ideal) := after (ops8 (F := Ideal)) (V8 W)
/-- ... then after the list of the three results. -/
def V10 (W : Valuation τ sig (Elt Ideal)) : Valuation τ sig (Elt Ideal) := after (ops9 (F := Ideal)) (V9 W)

/-- The contents after all of @main's operations are the contents after the ten lists in turn. -/
theorem after_ops_eq (W : Valuation τ sig (Elt Ideal)) : after (ops (F := Ideal)) W = V10 W := by
  rw [ops_split]
  simp only [after_append]
  rfl

/-! ### A result column, once written, is there before the last list -/

theorem carry_v42 {W : Valuation τ sig (Elt Ideal)} {y : (⟨S65536x1, .f32⟩ : BufTy).Contents (Elt Ideal)}
    (h : V2 W (Proc.devRef .tc main_v42) = y) : V9 W (Proc.devRef .tc main_v42) = y :=
  (keep8_v42 (V8 W)).trans ((keep7_v42 (V7 W)).trans ((keep6_v42 (V6 W)).trans ((keep5_v42 (V5 W)).trans
    ((keep4_v42 (V4 W)).trans ((keep3_v42 (V3 W)).trans ((keep2_v42 (V2 W)).trans h))))))
theorem carry_v48 {W : Valuation τ sig (Elt Ideal)} {y : (⟨S65536x1, .f32⟩ : BufTy).Contents (Elt Ideal)}
    (h : V2 W (Proc.devRef .tc main_v48) = y) : V9 W (Proc.devRef .tc main_v48) = y :=
  (keep8_v48 (V8 W)).trans ((keep7_v48 (V7 W)).trans ((keep6_v48 (V6 W)).trans ((keep5_v48 (V5 W)).trans
    ((keep4_v48 (V4 W)).trans ((keep3_v48 (V3 W)).trans ((keep2_v48 (V2 W)).trans h))))))
theorem carry_v56 {W : Valuation τ sig (Elt Ideal)} {y : (⟨S65536x1, .f32⟩ : BufTy).Contents (Elt Ideal)}
    (h : V2 W (Proc.devRef .tc main_v56) = y) : V9 W (Proc.devRef .tc main_v56) = y :=
  (keep8_v56 (V8 W)).trans ((keep7_v56 (V7 W)).trans ((keep6_v56 (V6 W)).trans ((keep5_v56 (V5 W)).trans
    ((keep4_v56 (V4 W)).trans ((keep3_v56 (V3 W)).trans ((keep2_v56 (V2 W)).trans h))))))

theorem carry_v85 {W : Valuation τ sig (Elt Ideal)} {y : (⟨S65536x1, .f32⟩ : BufTy).Contents (Elt Ideal)}
    (h : V3 W (Proc.devRef .tc main_v85) = y) : V9 W (Proc.devRef .tc main_v85) = y :=
  (keep8_v85 (V8 W)).trans ((keep7_v85 (V7 W)).trans ((keep6_v85 (V6 W)).trans ((keep5_v85 (V5 W)).trans
    ((keep4_v85 (V4 W)).trans ((keep3_v85 (V3 W)).trans h)))))
theorem carry_v91 {W : Valuation τ sig (Elt Ideal)} {y : (⟨S65536x1, .f32⟩ : BufTy).Contents (Elt Ideal)}
    (h : V3 W (Proc.devRef .tc main_v91) = y) : V9 W (Proc.devRef .tc main_v91) = y :=
  (keep8_v91 (V8 W)).trans ((keep7_v91 (V7 W)).trans ((keep6_v91 (V6 W)).trans ((keep5_v91 (V5 W)).trans
    ((keep4_v91 (V4 W)).trans ((keep3_v91 (V3 W)).trans h)))))
theorem carry_v99 {W : Valuation τ sig (Elt Ideal)} {y : (⟨S65536x1, .f32⟩ : BufTy).Contents (Elt Ideal)}
    (h : V3 W (Proc.devRef .tc main_v99) = y) : V9 W (Proc.devRef .tc main_v99) = y :=
  (keep8_v99 (V8 W)).trans ((keep7_v99 (V7 W)).trans ((keep6_v99 (V6 W)).trans ((keep5_v99 (V5 W)).trans
    ((keep4_v99 (V4 W)).trans ((keep3_v99 (V3 W)).trans h)))))

theorem carry_v128 {W : Valuation τ sig (Elt Ideal)} {y : (⟨S65536x1, .f32⟩ : BufTy).Contents (Elt Ideal)}
    (h : V4 W (Proc.devRef .tc main_v128) = y) : V9 W (Proc.devRef .tc main_v128) = y :=
  (keep8_v128 (V8 W)).trans ((keep7_v128 (V7 W)).trans ((keep6_v128 (V6 W)).trans ((keep5_v128 (V5 W)).trans
    ((keep4_v128 (V4 W)).trans h))))
theorem carry_v134 {W : Valuation τ sig (Elt Ideal)} {y : (⟨S65536x1, .f32⟩ : BufTy).Contents (Elt Ideal)}
    (h : V4 W (Proc.devRef .tc main_v134) = y) : V9 W (Proc.devRef .tc main_v134) = y :=
  (keep8_v134 (V8 W)).trans ((keep7_v134 (V7 W)).trans ((keep6_v134 (V6 W)).trans ((keep5_v134 (V5 W)).trans
    ((keep4_v134 (V4 W)).trans h))))
theorem carry_v142 {W : Valuation τ sig (Elt Ideal)} {y : (⟨S65536x1, .f32⟩ : BufTy).Contents (Elt Ideal)}
    (h : V4 W (Proc.devRef .tc main_v142) = y) : V9 W (Proc.devRef .tc main_v142) = y :=
  (keep8_v142 (V8 W)).trans ((keep7_v142 (V7 W)).trans ((keep6_v142 (V6 W)).trans ((keep5_v142 (V5 W)).trans
    ((keep4_v142 (V4 W)).trans h))))

theorem carry_v171 {W : Valuation τ sig (Elt Ideal)} {y : (⟨S65536x1, .f32⟩ : BufTy).Contents (Elt Ideal)}
    (h : V5 W (Proc.devRef .tc main_v171) = y) : V9 W (Proc.devRef .tc main_v171) = y :=
  (keep8_v171 (V8 W)).trans ((keep7_v171 (V7 W)).trans ((keep6_v171 (V6 W)).trans ((keep5_v171 (V5 W)).trans h)))
theorem carry_v177 {W : Valuation τ sig (Elt Ideal)} {y : (⟨S65536x1, .f32⟩ : BufTy).Contents (Elt Ideal)}
    (h : V5 W (Proc.devRef .tc main_v177) = y) : V9 W (Proc.devRef .tc main_v177) = y :=
  (keep8_v177 (V8 W)).trans ((keep7_v177 (V7 W)).trans ((keep6_v177 (V6 W)).trans ((keep5_v177 (V5 W)).trans h)))
theorem carry_v185 {W : Valuation τ sig (Elt Ideal)} {y : (⟨S65536x1, .f32⟩ : BufTy).Contents (Elt Ideal)}
    (h : V5 W (Proc.devRef .tc main_v185) = y) : V9 W (Proc.devRef .tc main_v185) = y :=
  (keep8_v185 (V8 W)).trans ((keep7_v185 (V7 W)).trans ((keep6_v185 (V6 W)).trans ((keep5_v185 (V5 W)).trans h)))

theorem carry_v214 {W : Valuation τ sig (Elt Ideal)} {y : (⟨S65536x1, .f32⟩ : BufTy).Contents (Elt Ideal)}
    (h : V6 W (Proc.devRef .tc main_v214) = y) : V9 W (Proc.devRef .tc main_v214) = y :=
  (keep8_v214 (V8 W)).trans ((keep7_v214 (V7 W)).trans ((keep6_v214 (V6 W)).trans h))
theorem carry_v220 {W : Valuation τ sig (Elt Ideal)} {y : (⟨S65536x1, .f32⟩ : BufTy).Contents (Elt Ideal)}
    (h : V6 W (Proc.devRef .tc main_v220) = y) : V9 W (Proc.devRef .tc main_v220) = y :=
  (keep8_v220 (V8 W)).trans ((keep7_v220 (V7 W)).trans ((keep6_v220 (V6 W)).trans h))
theorem carry_v228 {W : Valuation τ sig (Elt Ideal)} {y : (⟨S65536x1, .f32⟩ : BufTy).Contents (Elt Ideal)}
    (h : V6 W (Proc.devRef .tc main_v228) = y) : V9 W (Proc.devRef .tc main_v228) = y :=
  (keep8_v228 (V8 W)).trans ((keep7_v228 (V7 W)).trans ((keep6_v228 (V6 W)).trans h))

theorem carry_v257 {W : Valuation τ sig (Elt Ideal)} {y : (⟨S65536x1, .f32⟩ : BufTy).Contents (Elt Ideal)}
    (h : V7 W (Proc.devRef .tc main_v257) = y) : V9 W (Proc.devRef .tc main_v257) = y :=
  (keep8_v257 (V8 W)).trans ((keep7_v257 (V7 W)).trans h)
theorem carry_v263 {W : Valuation τ sig (Elt Ideal)} {y : (⟨S65536x1, .f32⟩ : BufTy).Contents (Elt Ideal)}
    (h : V7 W (Proc.devRef .tc main_v263) = y) : V9 W (Proc.devRef .tc main_v263) = y :=
  (keep8_v263 (V8 W)).trans ((keep7_v263 (V7 W)).trans h)
theorem carry_v271 {W : Valuation τ sig (Elt Ideal)} {y : (⟨S65536x1, .f32⟩ : BufTy).Contents (Elt Ideal)}
    (h : V7 W (Proc.devRef .tc main_v271) = y) : V9 W (Proc.devRef .tc main_v271) = y :=
  (keep8_v271 (V8 W)).trans ((keep7_v271 (V7 W)).trans h)

theorem carry_v300 {W : Valuation τ sig (Elt Ideal)} {y : (⟨S65536x1, .f32⟩ : BufTy).Contents (Elt Ideal)}
    (h : V8 W (Proc.devRef .tc main_v300) = y) : V9 W (Proc.devRef .tc main_v300) = y :=
  (keep8_v300 (V8 W)).trans h
theorem carry_v306 {W : Valuation τ sig (Elt Ideal)} {y : (⟨S65536x1, .f32⟩ : BufTy).Contents (Elt Ideal)}
    (h : V8 W (Proc.devRef .tc main_v306) = y) : V9 W (Proc.devRef .tc main_v306) = y :=
  (keep8_v306 (V8 W)).trans h
theorem carry_v314 {W : Valuation τ sig (Elt Ideal)} {y : (⟨S65536x1, .f32⟩ : BufTy).Contents (Elt Ideal)}
    (h : V8 W (Proc.devRef .tc main_v314) = y) : V9 W (Proc.devRef .tc main_v314) = y :=
  (keep8_v314 (V8 W)).trans h

/-! ### The last list: the three results -/

theorem keep9_arg0 : Keeps ops9 main_arg0 := fun X => by after_results_simp <;> rfl
theorem keep9_arg1 : Keeps ops9 main_arg1 := fun X => by after_results_simp <;> rfl
theorem keep9_arg2 : Keeps ops9 main_arg2 := fun X => by after_results_simp <;> rfl
theorem keep9_arg3 : Keeps ops9 main_arg3 := fun X => by after_results_simp <;> rfl
theorem keep9_arg4 : Keeps ops9 main_arg4 := fun X => by after_results_simp <;> rfl
theorem keep9_arg5 : Keeps ops9 main_arg5 := fun X => by after_results_simp <;> rfl
theorem keep9_arg6 : Keeps ops9 main_arg6 := fun X => by after_results_simp <;> rfl
theorem keep9_arg7 : Keeps ops9 main_arg7 := fun X => by after_results_simp <;> rfl
theorem keep9_arg8 : Keeps ops9 main_arg8 := fun X => by after_results_simp <;> rfl
theorem keep9_arg9 : Keeps ops9 main_arg9 := fun X => by after_results_simp <;> rfl
theorem keep9_arg10 : Keeps ops9 main_arg10 := fun X => by after_results_simp <;> rfl
theorem keep9_arg11 : Keeps ops9 main_arg11 := fun X => by after_results_simp <;> rfl
theorem keep9_arg12 : Keeps ops9 main_arg12 := fun X => by after_results_simp <;> rfl
theorem keep9_arg13 : Keeps ops9 main_arg13 := fun X => by after_results_simp <;> rfl

/-- The last list writes none of the argument arrays. -/
theorem argsAt_ops9 (a : RW.Args) (W : Valuation τ sig (Elt Ideal)) (h : ArgsAt a W) :
    ArgsAt a (after (ops9 (F := Ideal)) W) := by
  obtain ⟨h0, h1, h2, h3, h4, h5, h6, h7, h8, h9, h10, h11, h12, h13⟩ := h
  exact ⟨(keep9_arg0 W).trans h0, (keep9_arg1 W).trans h1, (keep9_arg2 W).trans h2, (keep9_arg3 W).trans h3,
    (keep9_arg4 W).trans h4, (keep9_arg5 W).trans h5, (keep9_arg6 W).trans h6, (keep9_arg7 W).trans h7,
    (keep9_arg8 W).trans h8, (keep9_arg9 W).trans h9, (keep9_arg10 W).trans h10, (keep9_arg11 W).trans h11,
    (keep9_arg12 W).trans h12, (keep9_arg13 W).trans h13⟩

/-- The mean result after the last list: the eight mean columns, as the contents before it hold them, side by side. -/
theorem cat359 (X : Valuation τ sig (Elt Ideal))
    (y0 y1 y2 y3 y4 y5 y6 y7 : (⟨S65536x1, .f32⟩ : BufTy).Contents (Elt Ideal))
    (h0 : X (Proc.devRef .tc main_v42) = y0) (h1 : X (Proc.devRef .tc main_v85) = y1)
    (h2 : X (Proc.devRef .tc main_v128) = y2) (h3 : X (Proc.devRef .tc main_v171) = y3)
    (h4 : X (Proc.devRef .tc main_v214) = y4) (h5 : X (Proc.devRef .tc main_v257) = y5)
    (h6 : X (Proc.devRef .tc main_v300) = y6) (h7 : X (Proc.devRef .tc main_v343) = y7) :
    after (ops9 (F := Ideal)) X (Proc.devRef .tc main_v359)
      = concatenate S65536x8 1 [⟨S65536x1, y0⟩, ⟨S65536x1, y1⟩, ⟨S65536x1, y2⟩, ⟨S65536x1, y3⟩, ⟨S65536x1, y4⟩,
          ⟨S65536x1, y5⟩, ⟨S65536x1, y6⟩, ⟨S65536x1, y7⟩]
          concatenates_S65536x1_S65536x1_S65536x1_S65536x1_S65536x1_S65536x1_S65536x1_S65536x1_S65536x8_d1 := by
  subst h0 h1 h2 h3 h4 h5 h6 h7
  after_results_simp <;> rfl

/-- The sample result after the last list: the eight sample columns side by side. -/
theorem cat360 (X : Valuation τ sig (Elt Ideal))
    (y0 y1 y2 y3 y4 y5 y6 y7 : (⟨S65536x1, .f32⟩ : BufTy).Contents (Elt Ideal))
    (h0 : X (Proc.devRef .tc main_v48) = y0) (h1 : X (Proc.devRef .tc main_v91) = y1)
    (h2 : X (Proc.devRef .tc main_v134) = y2) (h3 : X (Proc.devRef .tc main_v177) = y3)
    (h4 : X (Proc.devRef .tc main_v220) = y4) (h5 : X (Proc.devRef .tc main_v263) = y5)
    (h6 : X (Proc.devRef .tc main_v306) = y6) (h7 : X (Proc.devRef .tc main_v349) = y7) :
    after (ops9 (F := Ideal)) X (Proc.devRef .tc main_v360)
      = concatenate S65536x8 1 [⟨S65536x1, y0⟩, ⟨S65536x1, y1⟩, ⟨S65536x1, y2⟩, ⟨S65536x1, y3⟩, ⟨S65536x1, y4⟩,
          ⟨S65536x1, y5⟩, ⟨S65536x1, y6⟩, ⟨S65536x1, y7⟩]
          concatenates_S65536x1_S65536x1_S65536x1_S65536x1_S65536x1_S65536x1_S65536x1_S65536x1_S65536x8_d1 := by
  subst h0 h1 h2 h3 h4 h5 h6 h7
  after_results_simp <;> rfl

/-- The log-density result after the last list: the eight log-density columns side by side. -/
theorem cat361 (X : Valuation τ sig (Elt Ideal))
    (y0 y1 y2 y3 y4 y5 y6 y7 : (⟨S65536x1, .f32⟩ : BufTy).Contents (Elt Ideal))
    (h0 : X (Proc.devRef .tc main_v56) = y0) (h1 : X (Proc.devRef .tc main_v99) = y1)
    (h2 : X (Proc.devRef .tc main_v142) = y2) (h3 : X (Proc.devRef .tc main_v185) = y3)
    (h4 : X (Proc.devRef .tc main_v228) = y4) (h5 : X (Proc.devRef .tc main_v271) = y5)
    (h6 : X (Proc.devRef .tc main_v314) = y6) (h7 : X (Proc.devRef .tc main_v357) = y7) :
    after (ops9 (F := Ideal)) X (Proc.devRef .tc main_v361)
      = concatenate S65536x8 1 [⟨S65536x1, y0⟩, ⟨S65536x1, y1⟩, ⟨S65536x1, y2⟩, ⟨S65536x1, y3⟩, ⟨S65536x1, y4⟩,
          ⟨S65536x1, y5⟩, ⟨S65536x1, y6⟩, ⟨S65536x1, y7⟩]
          concatenates_S65536x1_S65536x1_S65536x1_S65536x1_S65536x1_S65536x1_S65536x1_S65536x1_S65536x8_d1 := by
  subst h0 h1 h2 h3 h4 h5 h6 h7
  after_results_simp <;> rfl

/-! ### The launch contents -/

/-- The argument arrays device c holds at launch. -/
def argsR (m : (ℓ : Loc nD τ sig) → Buf (Elt Ideal) ℓ) (c : Dev nD) : RW.Args :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8),
   m ((c.tc : Thread nD τ).loc main_arg9), m ((c.tc : Thread nD τ).loc main_arg10), m ((c.tc : Thread nD τ).loc main_arg11),
   m ((c.tc : Thread nD τ).loc main_arg12), m ((c.tc : Thread nD τ).loc main_arg13)⟩

/-- The launch contents of device c hold them. -/
theorem argsAt_launch (m : (ℓ : Loc nD τ sig) → Buf (Elt Ideal) ℓ) (c : Dev nD) :
    ArgsAt (argsR m c) (launchContents m c) :=
  ⟨rfl, rfl, rfl, rfl, rfl, rfl, rfl, rfl, rfl, rfl, rfl, rfl, rfl, rfl⟩

/-! ### The three results and the arguments after the whole run -/

/-- From contents W holding the argument arrays a: after all of @main's operations the three result buffers hold the
    last stages of the mean, the sample and the log density of a, and the contents still hold a. -/
theorem after_ops_results (a : RW.Args) (W : Valuation τ sig (Elt Ideal)) (h0 : ArgsAt a W) :
    after (ops (F := Ideal)) W (Proc.devRef .tc main_v359)
        = ReadP.val_main_v359 (F := Ideal) a.a0 a.a2 a.a3 a.a4 a.a5 a.a6 a.a7 a.a8 a.a9 a.a10 a.a11 a.a12 a.a13
    ∧ after (ops (F := Ideal)) W (Proc.devRef .tc main_v360)
        = ReadP.val_main_v360 (F := Ideal) a.a0 a.a1 a.a2 a.a3 a.a4 a.a5 a.a6 a.a7 a.a8 a.a9 a.a10 a.a11 a.a12 a.a13
    ∧ after (ops (F := Ideal)) W (Proc.devRef .tc main_v361)
        = ReadP.val_main_v361 (F := Ideal) a.a0 a.a1 a.a2 a.a3 a.a4 a.a5 a.a6 a.a7 a.a8 a.a9 a.a10 a.a11 a.a12 a.a13
    ∧ ArgsAt a (after (ops (F := Ideal)) W) := by
  -- the trunk
  have A1 : ArgsAt a (V1 W) := argsAt_ops0 a W h0
  have i1 : V1 W (Proc.devRef .tc main_v14) = _ := trunk_ops0 a W h0
  -- head 0
  have A2 : ArgsAt a (V2 W) := argsAt_ops1 a (V1 W) A1
  have m0 : V2 W (Proc.devRef .tc main_v42) = _ := mean0_ops1 a (V1 W) A1 i1
  have s0 : V2 W (Proc.devRef .tc main_v48) = _ := sample0_ops1 a (V1 W) A1 i1
  have l0 : V2 W (Proc.devRef .tc main_v56) = _ := logp0_ops1 a (V1 W) A1 i1
  have i2 : V2 W (Proc.devRef .tc main_v57) = _ := cat1_ops1 a (V1 W) A1 i1
  -- head 1
  have A3 : ArgsAt a (V3 W) := argsAt_ops2 a (V2 W) A2
  have m1 : V3 W (Proc.devRef .tc main_v85) = _ := mean1_ops2 a (V2 W) A2 i2
  have s1 : V3 W (Proc.devRef .tc main_v91) = _ := sample1_ops2 a (V2 W) A2 i2
  have l1 : V3 W (Proc.devRef .tc main_v99) = _ := logp1_ops2 a (V2 W) A2 i2
  have i3 : V3 W (Proc.devRef .tc main_v100) = _ := cat2_ops2 a (V2 W) A2 i2
  -- head 2
  have A4 : ArgsAt a (V4 W) := argsAt_ops3 a (V3 W) A3
  have m2 : V4 W (Proc.devRef .tc main_v128) = _ := mean2_ops3 a (V3 W) A3 i3
  have s2 : V4 W (Proc.devRef .tc main_v134) = _ := sample2_ops3 a (V3 W) A3 i3
  have l2 : V4 W (Proc.devRef .tc main_v142) = _ := logp2_ops3 a (V3 W) A3 i3
  have i4 : V4 W (Proc.devRef .tc main_v143) = _ := cat3_ops3 a (V3 W) A3 i3
  -- head 3
  have A5 : ArgsAt a (V5 W) := argsAt_ops4 a (V4 W) A4
  have m3 : V5 W (Proc.devRef .tc main_v171) = _ := mean3_ops4 a (V4 W) A4 i4
  have s3 : V5 W (Proc.devRef .tc main_v177) = _ := sample3_ops4 a (V4 W) A4 i4
  have l3 : V5 W (Proc.devRef .tc main_v185) = _ := logp3_ops4 a (V4 W) A4 i4
  have i5 : V5 W (Proc.devRef .tc main_v186) = _ := cat4_ops4 a (V4 W) A4 i4
  -- head 4
  have A6 : ArgsAt a (V6 W) := argsAt_ops5 a (V5 W) A5
  have m4 : V6 W (Proc.devRef .tc main_v214) = _ := mean4_ops5 a (V5 W) A5 i5
  have s4 : V6 W (Proc.devRef .tc main_v220) = _ := sample4_ops5 a (V5 W) A5 i5
  have l4 : V6 W (Proc.devRef .tc main_v228) = _ := logp4_ops5 a (V5 W) A5 i5
  have i6 : V6 W (Proc.devRef .tc main_v229) = _ := cat5_ops5 a (V5 W) A5 i5
  -- head 5
  have A7 : ArgsAt a (V7 W) := argsAt_ops6 a (V6 W) A6
  have m5 : V7 W (Proc.devRef .tc main_v257) = _ := mean5_ops6 a (V6 W) A6 i6
  have s5 : V7 W (Proc.devRef .tc main_v263) = _ := sample5_ops6 a (V6 W) A6 i6
  have l5 : V7 W (Proc.devRef .tc main_v271) = _ := logp5_ops6 a (V6 W) A6 i6
  have i7 : V7 W (Proc.devRef .tc main_v272) = _ := cat6_ops6 a (V6 W) A6 i6
  -- head 6
  have A8 : ArgsAt a (V8 W) := argsAt_ops7 a (V7 W) A7
  have m6 : V8 W (Proc.devRef .tc main_v300) = _ := mean6_ops7 a (V7 W) A7 i7
  have s6 : V8 W (Proc.devRef .tc main_v306) = _ := sample6_ops7 a (V7 W) A7 i7
  have l6 : V8 W (Proc.devRef .tc main_v314) = _ := logp6_ops7 a (V7 W) A7 i7
  have i8 : V8 W (Proc.devRef .tc main_v315) = _ := cat7_ops7 a (V7 W) A7 i7
  -- head 7
  have A9 : ArgsAt a (V9 W) := argsAt_ops8 a (V8 W) A8
  have m7 : V9 W (Proc.devRef .tc main_v343) = _ := mean7_ops8 a (V8 W) A8 i8
  have s7 : V9 W (Proc.devRef .tc main_v349) = _ := sample7_ops8 a (V8 W) A8 i8
  have l7 : V9 W (Proc.devRef .tc main_v357) = _ := logp7_ops8 a (V8 W) A8 i8
  -- the three results
  have A10 : ArgsAt a (V10 W) := argsAt_ops9 a (V9 W) A9
  rw [after_ops_eq]
  refine ⟨?_, ?_, ?_, A10⟩
  · exact cat359 (V9 W) _ _ _ _ _ _ _ _ (carry_v42 m0) (carry_v85 m1) (carry_v128 m2) (carry_v171 m3) (carry_v214 m4)
      (carry_v257 m5) (carry_v300 m6) m7
  · exact cat360 (V9 W) _ _ _ _ _ _ _ _ (carry_v48 s0) (carry_v91 s1) (carry_v134 s2) (carry_v177 s3) (carry_v220 s4)
      (carry_v263 s5) (carry_v306 s6) s7
  · exact cat361 (V9 W) _ _ _ _ _ _ _ _ (carry_v56 l0) (carry_v99 l1) (carry_v142 l2) (carry_v185 l3) (carry_v228 l4)
      (carry_v271 l5) (carry_v314 l6) l7

/-- Every weakly fair execution of @main, from any memory with zero counters, terminates with each device's three result
    buffers at the last stages of the mean, the sample and the log density of the argument arrays it held at launch,
    and with its argument arrays unchanged. -/
theorem run_stage (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v359)
          = ReadP.val_main_v359 (F := Ideal) (argsR m c).a0 (argsR m c).a2 (argsR m c).a3 (argsR m c).a4 (argsR m c).a5
              (argsR m c).a6 (argsR m c).a7 (argsR m c).a8 (argsR m c).a9 (argsR m c).a10 (argsR m c).a11 (argsR m c).a12
              (argsR m c).a13
      ∧ r.2.mem ((c.tc : Thread nD τ).loc main_v360)
          = ReadP.val_main_v360 (F := Ideal) (argsR m c).a0 (argsR m c).a1 (argsR m c).a2 (argsR m c).a3 (argsR m c).a4
              (argsR m c).a5 (argsR m c).a6 (argsR m c).a7 (argsR m c).a8 (argsR m c).a9 (argsR m c).a10 (argsR m c).a11
              (argsR m c).a12 (argsR m c).a13
      ∧ r.2.mem ((c.tc : Thread nD τ).loc main_v361)
          = ReadP.val_main_v361 (F := Ideal) (argsR m c).a0 (argsR m c).a1 (argsR m c).a2 (argsR m c).a3 (argsR m c).a4
              (argsR m c).a5 (argsR m c).a6 (argsR m c).a7 (argsR m c).a8 (argsR m c).a9 (argsR m c).a10 (argsR m c).a11
              (argsR m c).a12 (argsR m c).a13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine (θ_run defs (onTc (τ := τ) (main (F := Ideal))) ⟨m, fun _ => 0, ρ⟩).mono (fun r hr c => ?_) (run_after m ρ)
  obtain ⟨e359, e360, e361, g0, g1, g2, g3, g4, g5, g6, g7, g8, g9, g10, g11, g12, g13⟩ :=
    after_ops_results (argsR m c) (launchContents m c) (argsAt_launch m c)
  exact ⟨(hr c main_v359).trans e359, (hr c main_v360).trans e360, (hr c main_v361).trans e361,
    (hr c main_arg0).trans g0, (hr c main_arg1).trans g1, (hr c main_arg2).trans g2, (hr c main_arg3).trans g3,
    (hr c main_arg4).trans g4, (hr c main_arg5).trans g5, (hr c main_arg6).trans g6, (hr c main_arg7).trans g7,
    (hr c main_arg8).trans g8, (hr c main_arg9).trans g9, (hr c main_arg10).trans g10, (hr c main_arg11).trans g11,
    (hr c main_arg12).trans g12, (hr c main_arg13).trans g13⟩

end Cert.ReferenceIdeal.RunStages

end
-- ==== Proof.lean ====
/-
  The certificate: the kernel computes, for every row of the batch, the same network as the reference.

  Both programs evaluate one row at a time: a trunk of three rectified dense layers, then eight heads, head i reading the
  trunk's result and the means of the heads before it. The kernel does this block by block of 1024 rows, with the first
  layer of head i split into a product over the trunk's 256 coordinates and one product per earlier mean, and the output
  layer as two lane sums; the reference does it on whole arrays, with the earlier means concatenated to the trunk's result
  and one product over 256 + i coordinates. Over the extended reals these are the same sums in another grouping (addition
  is commutative and associative; no finiteness is used), the literals are the same words on both sides, and a change of
  float format is the identity: so each of the three results is, entry by entry, one function of the argument arrays
  (GMean, GSample, GLogp), on both sides.
  The kernel's two frames are the generated frame certificates (modules FrameKernel, FrameKernelIdeal); the reference's
  frame is its run with the results dropped; the idealization rewrote nothing, so it preserves the kernel trivially.
-/
import proofs.«418646_j6511170421537_4_alg».proof.Defs
import proofs.«418646_j6511170421537_4_alg».proof.Proof.Gen.Kernel
import proofs.«418646_j6511170421537_4_alg».proof.Proof.Gen.KernelIdeal
import proofs.«418646_j6511170421537_4_alg».proof.Proof.Gen.ReferenceIdeal
import proofs.«418646_j6511170421537_4_alg».proof.Proof.Gen.Pre_finite_inputs
import proofs.«418646_j6511170421537_4_alg».proof.Proof.FrameKernel
import proofs.«418646_j6511170421537_4_alg».proof.Proof.FrameKernelIdeal
import proofs.«418646_j6511170421537_4_alg».proof.Proof.KValue
import proofs.«418646_j6511170421537_4_alg».proof.Proof.KAll
import proofs.«418646_j6511170421537_4_alg».proof.Proof.RAll
import proofs.«418646_j6511170421537_4_alg».proof.Proof.RunStagesC

noncomputable section

namespace Cert.Proof

open Idealize.ShloMosaic Idealize.ShloMosaic.TcCoe Idealize.SL.Sem
open Cert.ReferenceIdeal (RW.Args)

/-- The kernel as printed runs, and leaves its arguments as they were. -/
theorem frame_k : Cert.frame_Kernel (hKernel := Cert.Kernel.Gen.facts) (hPre_finite_inputs := Cert.Pre_finite_inputs.Gen.facts) :=
  fun m ρ _ => Cert.Kernel.GenP.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.GenP.frame m ρ

/-- The reference runs: its run, stage by stage, with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2)
    (Cert.ReferenceIdeal.RunStages.run_stage m ρ)

/-- From memories that agree on the arguments, the two argument records are one. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.RunStages.argsR m' c = Cert.KernelIdeal.KValue.argsK m c := by
  obtain ⟨h0, h1, h2, h3, h4, h5, h6, h7, h8, h9, h10, h11, h12, h13⟩ := h
  unfold Cert.ReferenceIdeal.RunStages.argsR Cert.KernelIdeal.KValue.argsK
  rw [h0, h1, h2, h3, h4, h5, h6, h7, h8, h9, h10, h11, h12, h13]

/-- Both idealized programs end with the three results at GMean, GSample, GLogp of the argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.RW.GMean (Cert.KernelIdeal.KValue.argsK m c),
    fun c => Cert.ReferenceIdeal.RW.GSample (Cert.KernelIdeal.KValue.argsK m c),
    fun c => Cert.ReferenceIdeal.RW.GLogp (Cert.KernelIdeal.KValue.argsK m c),
    Cert.KernelIdeal.KValue.run m ρ (fun b => Cert.KernelIdeal.KAll.kout17_all b) (fun b => Cert.KernelIdeal.KAll.kout18_all b)
      (fun b => Cert.KernelIdeal.KAll.kout19_all b), ?_⟩
  refine (θ_run Cert.ReferenceIdeal.defs _ _).mono (fun r h c => ?_) (Cert.ReferenceIdeal.RunStages.run_stage m' ρ')
  obtain ⟨r0, r1, r2, rest⟩ := h c
  have ha := args_agree m m' c (hagree c)
  refine ⟨r0.trans ?_, r1.trans ?_, r2.trans ?_, rest⟩
  · rw [Cert.ReferenceIdeal.RAll.gmean_eq, ha]
  · rw [Cert.ReferenceIdeal.RAll.gsample_eq, ha]
  · rw [Cert.ReferenceIdeal.RAll.glogp_eq, ha]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
